-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S512x1024 : Shape := ⟨2, ![512, 1024]⟩
abbrev S1x1x1024 : Shape := ⟨3, ![1, 1, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1x1x1024 : S_.BroadcastsInDim S1x1x1024 (![] : Fin 0 → Fin S1x1x1024.rank)
  reducesTo_S1x1x1024_S_d0_1_2 : S1x1x1024.ReducesTo [0, 1, 2] S_
  bcast_S_S50257x1024 : S_.BroadcastsInDim S50257x1024 (![] : Fin 0 → Fin S50257x1024.rank)
  reducesTo_S50257x1024_S_d0_1 : S50257x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v65 : IVec S1 1) (main_v67 : IVec S1 1) : IVec S_ 1 :=
  let main_v68 : IVec S1 1 := andi main_v65 main_v67
  let main_c_26 : IVec S_ 1 := constantI S_ 1 1#1
  let main_v69 : IVec S_ 1 := (fun x v => Host.reduce IntOp.andi x v reducesTo_S1_S_d0 h_S_) main_v68 main_c_26
  let main_v70 : IVec S_ 1 := andi main_v63 main_v69
  main_v70

def fn_part3 {F : FTy → Type} [FloatOps F] (main_arg0 : IVec S1 32) (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  let main_c_24 : IVec S_ 32 := constantI S_ 32 0#32
  let main_v64 : IVec S1 32 := broadcastInDim S1 ![] bcast_S_S1 main_c_24
  let main_v65 : IVec S1 1 := cmpi .sge main_arg0 main_v64
  let main_c_25 : IVec S_ 32 := constantI S_ 32 50257#32
  let main_v66 : IVec S1 32 := broadcastInDim S1 ![] bcast_S_S1 main_c_25
  let main_v67 : IVec S1 1 := cmpi .slt main_arg0 main_v66
  fn_part4 (F := F) main_v63 main_v65 main_v67

def fn_part2 {F : FTy → Type} [FloatOps F] (main_arg0 : IVec S1 32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg0 main_arg12 main_arg13 main_v48 main_v49 main_v50

def fn_part1 {F : FTy → Type} [FloatOps F] (main_arg0 : IVec S1 32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S1 32) (main_arg1 : FVec F S512x1024 .f32) (main_arg2 : FVec F S1x1x1024 .f32) (main_arg3 : FVec F S50257x1024 .f32) (main_arg4 : FVec F S512x2048 .f32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S512x1024 .f32 := Host.absf main_arg1
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1x1x1024 .f32 := Host.absf main_arg2
  let main_cst_0 : FVec F S_ .f32 := constant S_ .f32 0x7F800000#32
  let main_v5 : FVec F S1x1x1024 .f32 := broadcastInDim S1x1x1024 ![] bcast_S_S1x1x1024 main_cst_0
  let main_v6 : IVec S1x1x1024 1 := cmpf .olt main_v4 main_v5
  let main_c_1 : IVec S_ 1 := constantI S_ 1 1#1
  let main_v7 : IVec S_ 1 := (fun x v => Host.reduce IntOp.andi x v reducesTo_S1x1x1024_S_d0_1_2 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S512x2048 .f32 := Host.absf main_arg4
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg0 main_arg5 main_arg6 main_arg7 main_arg8 main_arg9 main_arg10 main_arg11 main_arg12 main_arg13 main_v13 main_v16
-- ==== Kernel.lean ====
abbrev S1 : Shape := ⟨1, ![1]⟩
abbrev S512x1024 : Shape := ⟨2, ![512, 1024]⟩
abbrev S1x1x1024 : Shape := ⟨3, ![1, 1, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x512 : Shape := ⟨2, ![1, 512]⟩
abbrev S1024x512 : Shape := ⟨2, ![1024, 512]⟩
abbrev S1024x1024 : Shape := ⟨2, ![1024, 1024]⟩
abbrev S1x3072 : Shape := ⟨2, ![1, 3072]⟩
abbrev S1x50257 : Shape := ⟨2, ![1, 50257]⟩
abbrev S1024x3072 : Shape := ⟨2, ![1024, 3072]⟩

abbrev nBuf : Space → Nat
  | .hbm => 100
  | .vmem => 39
  | .smem => 0
  | _ => 0

abbrev bufTy : (tb : Table) → Fin (tcTables nBuf tb) → BufTy
  | .hbm, ⟨0, _⟩ => ⟨S1, .i32⟩
  | .hbm, ⟨1, _⟩ => ⟨S512x1024, .f32⟩
  | .hbm, ⟨2, _⟩ => ⟨S1x1x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1, .i32⟩
  | .hbm, ⟨23, _⟩ => ⟨S_, .i32⟩
  | .hbm, ⟨24, _⟩ => ⟨S1x1, .i32⟩
  | .hbm, ⟨25, _⟩ => ⟨S1x1, .i1⟩
  | .hbm, ⟨26, _⟩ => ⟨S1x1, .i32⟩
  | .hbm, ⟨27, _⟩ => ⟨S1x1, .i1⟩
  | .hbm, ⟨28, _⟩ => ⟨S1x1, .i1⟩
  | .hbm, ⟨29, _⟩ => ⟨S_, .i1⟩
  | .hbm, ⟨30, _⟩ => ⟨S1, .i1⟩
  | .hbm, ⟨31, _⟩ => ⟨S1x1024, .f32⟩
  | .hbm, ⟨32, _⟩ => ⟨S1x1024, .i1⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S512x1024, .f32⟩
  | .hbm, ⟨38, _⟩ => ⟨S512x1024, .f32⟩
  | .hbm, ⟨39, _⟩ => ⟨S1x512, .f32⟩
  | .hbm, ⟨40, _⟩ => ⟨S1x512, .f32⟩
  | .hbm, ⟨41, _⟩ => ⟨S1x1024, .f32⟩
  | .hbm, ⟨42, _⟩ => ⟨S1024x1024, .f32⟩
  | .hbm, ⟨43, _⟩ => ⟨S1024x1024, .f32⟩
  | .hbm, ⟨44, _⟩ => ⟨S1x1024, .f32⟩
  | .hbm, ⟨45, _⟩ => ⟨S1x1024, .f32⟩
  | .hbm, ⟨46, _⟩ => ⟨S1x3072, .f32⟩
  | .hbm, ⟨47, _⟩ => ⟨S1x3072, .f32⟩
  | .hbm, ⟨48, _⟩ => ⟨S1x3072, .f32⟩
  | .hbm, ⟨49, _⟩ => ⟨S1x3072, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S1x1024, .f32⟩
  | .hbm, ⟨83, _⟩ => ⟨S1x50257, .f32⟩
  | .hbm, ⟨84, _⟩ => ⟨S1x50257, .f32⟩
  | .hbm, ⟨85, _⟩ => ⟨S_, .f32⟩
  | .hbm, ⟨86, _⟩ => ⟨S1, .f32⟩
  | .hbm, ⟨87, _⟩ => ⟨S_, .f32⟩
  | .hbm, ⟨88, _⟩ => ⟨S1, .f32⟩
  | .hbm, ⟨89, _⟩ => ⟨S1, .f32⟩
  | .hbm, ⟨90, _⟩ => ⟨S1x1, .f32⟩
  | .hbm, ⟨91, _⟩ => ⟨S1x50257, .f32⟩
  | .hbm, ⟨92, _⟩ => ⟨S1x50257, .f32⟩
  | .hbm, ⟨93, _⟩ => ⟨S1x50257, .f32⟩
  | .hbm, ⟨94, _⟩ => ⟨S_, .f32⟩
  | .hbm, ⟨95, _⟩ => ⟨S1, .f32⟩
  | .hbm, ⟨96, _⟩ => ⟨S1x1, .f32⟩
  | .hbm, ⟨97, _⟩ => ⟨S1x1, .f32⟩
  | .hbm, ⟨98, _⟩ => ⟨S1x50257, .f32⟩
  | .hbm, ⟨99, _⟩ => ⟨S1x50257, .f32⟩
  | .local _ .vmem, ⟨0, _⟩ => ⟨S1x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S1x512, .f32⟩
  | .local _ .vmem, ⟨6, _⟩ => ⟨S1x512, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x1024, .f32⟩
  | .local _ .vmem, ⟨33, _⟩ => ⟨S3072x1024, .f32⟩
  | .local _ .vmem, ⟨34, _⟩ => ⟨S3072x1024, .f32⟩
  | .local _ .vmem, ⟨35, _⟩ => ⟨S1x3072, .f32⟩
  | .local _ .vmem, ⟨36, _⟩ => ⟨S1x3072, .f32⟩
  | .local _ .vmem, ⟨37, _⟩ => ⟨S1x3072, .f32⟩
  | .local _ .vmem, ⟨38, _⟩ => ⟨S1x3072, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_c_3 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5_0 : Ref sig .tc := ⟨.hbm, 40, rfl⟩
abbrev main_v5_1 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12_0 : Ref sig .tc := ⟨.hbm, 48, rfl⟩
abbrev main_v12_1 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst : Ref sig .tc := ⟨.hbm, 59, rfl⟩
abbrev main_v22 : Ref sig .tc := ⟨.hbm, 60, rfl⟩
abbrev main_v23 : Ref sig .tc := ⟨.hbm, 61, rfl⟩
abbrev main_cst_0 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_1 : Ref sig .tc := ⟨.hbm, 68, rfl⟩
abbrev main_v29 : Ref sig .tc := ⟨.hbm, 69, rfl⟩
abbrev main_v30 : Ref sig .tc := ⟨.hbm, 70, rfl⟩
abbrev main_cst_2 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_3 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_call1_cst : Ref sig .tc := ⟨.hbm, 85, rfl⟩
abbrev main_call1_v0 : Ref sig .tc := ⟨.hbm, 86, rfl⟩
abbrev main_call1_cst_0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_cst_1 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_v43 : Ref sig .tc := ⟨.hbm, 99, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc3_sem0_0 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![6], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![17], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S3072x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x3072 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x3072 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x1024_0 : S1.BroadcastsInDim S1x1024 (![0] : Fin 1 → Fin S1x1024.rank)
  bcast_S_S1x1024 : S_.BroadcastsInDim S1x1024 (![] : Fin 0 → Fin S1x1024.rank)
  shapeCasts_S1x1x1024_S1x1024 : S1x1x1024.ShapeCasts S1x1024
  slices_S512x2048_S512x1024_0_0 : S512x2048.Slices ![0, 0] S512x1024
  slices_S512x2048_S512x1024_0_1024 : S512x2048.Slices ![0, 1024] S512x1024
  shapeCasts_S512_S1x512 : S512.ShapeCasts S1x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1x512_S1 : S1x512.Reduces [1] S1
  shapeCasts_S1_S1x1 : S1.ShapeCasts S1x1
  broadcasts_S1x1_S1x512 : S1x1.Broadcasts S1x512
  slices_S1024x2048_S1024x1024_0_0 : S1024x2048.Slices ![0, 0] S1024x1024
  slices_S1024x2048_S1024x1024_0_1024 : S1024x2048.Slices ![0, 1024] S1024x1024
  shapeCasts_S1024_S1x1024 : S1024.ShapeCasts S1x1024
  shapeCasts_S3072_S1x3072 : S3072.ShapeCasts S1x3072
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  shapeCasts_S50257_S1x50257 : S50257.ShapeCasts S1x50257
  inb_S3072x1024_S3072x1024_0_0 : ∀ a, (![0, 0] : Fin 2 → Nat) a + S3072x1024.size a ≤ S3072x1024.size a
  h_S3072x1024 : 0 < S3072x1024.numel
  transposes_S3072x1024_p1_0_S1024x3072 : S3072x1024.Transposes [1, 0] S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  reducesTo_S1x50257_S1_d1 : S1x50257.ReducesTo [1] S1
  bcast_S1x1_S1x50257_0_1 : S1x1.BroadcastsInDim S1x50257 (![0, 1] : Fin 2 → Fin S1x50257.rank)
  gather_S50257x1024_S1x1_S1x1024_1_0_n_n_0_1_11024_wf : GatherDims.WF S50257x1024 S1x1 S1x1024 [1] [0] [] [0] [] 1 ![1, 1024]
  dot_S1x1024_S1024x512_S1x512_1_0_0_1_n_n_wf : DotDims.WF S1x1024 S1024x512 S1x512 [1] [0] [0] [1] [] []
  dot_S1x512_S512x1024_S1x1024_1_0_0_1_n_n_wf : DotDims.WF S1x512 S512x1024 S1x1024 [1] [0] [0] [1] [] []
  dot_S1x1024_S1024x3072_S1x3072_1_0_0_1_n_n_wf : DotDims.WF S1x1024 S1024x3072 S1x3072 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .f32 = 32 ∨ (Rect.block (s := S512x1024) S512x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S1024x1024.size a
  hwx1_2 : ∀ i : grid1.Coords, EltTy.bits .f32 = 32 ∨ (Rect.block (s := S1024x1024) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S1024x1024.size a
  hwx1_3 : ∀ i : grid1.Coords, EltTy.bits .f32 = 32 ∨ (Rect.block (s := S1024x1024) S512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x1024.size a
  hwx1_4 : ∀ i : grid1.Coords, EltTy.bits .f32 = 32 ∨ (Rect.block (s := S1x1024) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x1024.size a
  hwx1_5 : ∀ i : grid1.Coords, EltTy.bits .f32 = 32 ∨ (Rect.block (s := S1x1024) S1x512.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S3072x1024.size a
  hwx2_2 : ∀ i : grid2.Coords, EltTy.bits .f32 = 32 ∨ (Rect.block (s := S3072x1024) S512x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S3072x1024.size a
  hwx2_3 : ∀ i : grid2.Coords, EltTy.bits .f32 = 32 ∨ (Rect.block (s := S3072x1024) S512x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x3072.size a
  hwx2_4 : ∀ i : grid2.Coords, EltTy.bits .f32 = 32 ∨ (Rect.block (s := S1x3072) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x3072.size a
  hwx2_5 : ∀ i : grid2.Coords, EltTy.bits .f32 = 32 ∨ (Rect.block (s := S1x3072) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x3072.size a
  hwx2_6 : ∀ i : grid2.Coords, EltTy.bits .f32 = 32 ∨ (Rect.block (s := S1x3072) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x512.size a ≤ S1x3072.size a
  hwx2_7 : ∀ i : grid2.Coords, EltTy.bits .f32 = 32 ∨ (Rect.block (s := S1x3072) S1x512.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x1024.size a ≤ S1x1024.size a
  hwx3_0 : ∀ i : grid3.Coords, EltTy.bits .f32 = 32 ∨ (Rect.block (s := S1x1024) S1x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S3072x1024.size a < S50257x1024.size a
  hwx3_1 : ∀ i : grid3.Coords, EltTy.bits .f32 = 32 ∨ (Rect.unit (s := S50257x1024) (fun a => cc3_transform_1 i a * S3072x1024.size a) (fun a => (Pipeline.Clip.of (cc3_transform_1 i a) (S3072x1024.size a) (S50257x1024.size a)).extent (S3072x1024.size a)) fun a => Pipeline.Clip.inb (Pipeline.Clip.ok_of (hstart3_1 i a))).WholeWords (EltTy.packing .f32)
  hwxs3_1 : ∀ i : grid3.Coords, EltTy.bits .f32 = 32 ∨ (Rect.unit (s := S3072x1024) (fun _ => 0) (fun a => (Pipeline.Clip.of (cc3_transform_1 i a) (S3072x1024.size a) (S50257x1024.size a)).extent (S3072x1024.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S1x3072.size a < S1x50257.size a
  hwx3_2 : ∀ i : grid3.Coords, EltTy.bits .f32 = 32 ∨ (Rect.unit (s := S1x50257) (fun a => cc3_transform_2 i a * S1x3072.size a) (fun a => (Pipeline.Clip.of (cc3_transform_2 i a) (S1x3072.size a) (S1x50257.size a)).extent (S1x3072.size a)) fun a => Pipeline.Clip.inb (Pipeline.Clip.ok_of (hstart3_2 i a))).WholeWords (EltTy.packing .f32)
  hwxs3_2 : ∀ i : grid3.Coords, EltTy.bits .f32 = 32 ∨ (Rect.unit (s := S1x3072) (fun _ => 0) (fun a => (Pipeline.Clip.of (cc3_transform_2 i a) (S1x3072.size a) (S1x50257.size a)).extent (S1x3072.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S1x3072.size a < S1x50257.size a
  hwx3_3 : ∀ i : grid3.Coords, EltTy.bits .f32 = 32 ∨ (Rect.unit (s := S1x50257) (fun a => cc3_transform_3 i a * S1x3072.size a) (fun a => (Pipeline.Clip.of (cc3_transform_3 i a) (S1x3072.size a) (S1x50257.size a)).extent (S1x3072.size a)) fun a => Pipeline.Clip.inb (Pipeline.Clip.ok_of (hstart3_3 i a))).WholeWords (EltTy.packing .f32)
  hwxs3_3 : ∀ i : grid3.Coords, EltTy.bits .f32 = 32 ∨ (Rect.unit (s := S1x3072) (fun _ => 0) (fun a => (Pipeline.Clip.of (cc3_transform_3 i a) (S1x3072.size a) (S1x50257.size a)).extent (S1x3072.size a)) fun a => (Nat.zero_add _).trans_le (Pipeline.Clip.extent_le (Pipeline.Clip.ok_of (hstart3_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf

abbrev win0_0 : Pipeline.Window sig grid0 :=
  Pipeline.Window.ofSpec (Memref.whole main_v0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S1x512.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S1x1024.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v9) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v12_0) S1x512.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v12_1) S1x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v40) S1x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpecClip (Memref.whole main_arg12) S3072x1024.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v41) S1x3072.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v42) S1x3072.size cc3_transform_3 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S1 : Shape := ⟨1, ![1]⟩
abbrev S512x1024 : Shape := ⟨2, ![512, 1024]⟩
abbrev S1x1x1024 : Shape := ⟨3, ![1, 1, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x512 : Shape := ⟨2, ![2048, 512]⟩
abbrev S1x512 : Shape := ⟨2, ![1, 512]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 112
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x1024, .f32⟩
  | .hbm, ⟨2, _⟩ => ⟨S1x1x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x512, .f32⟩
  | .hbm, ⟨42, _⟩ => ⟨S1x512, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1x1, .f32⟩
  | .hbm, ⟨103, _⟩ => ⟨S1x50257, .f32⟩
  | .hbm, ⟨104, _⟩ => ⟨S1x50257, .f32⟩
  | .hbm, ⟨105, _⟩ => ⟨S1x50257, .f32⟩
  | .hbm, ⟨106, _⟩ => ⟨S_, .f32⟩
  | .hbm, ⟨107, _⟩ => ⟨S1, .f32⟩
  | .hbm, ⟨108, _⟩ => ⟨S1x1, .f32⟩
  | .hbm, ⟨109, _⟩ => ⟨S1x1, .f32⟩
  | .hbm, ⟨110, _⟩ => ⟨S1x50257, .f32⟩
  | .hbm, ⟨111, _⟩ => ⟨S1x50257, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_call1_cst_0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_cst_1 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_v71 : Ref sig .tc := ⟨.hbm, 111, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S512x2048_S2048x512_1_0 : S512x2048.Transposes [1, 0] S2048x512
  bcast_S512_S1x512_1 : S512.BroadcastsInDim S1x512 (![1] : Fin 1 → Fin S1x512.rank)
  reducesTo_S1x512_S1_d1 : S1x512.ReducesTo [1] S1
  h_S_ : 0 < S_.numel
  bcast_S1x1_S1x512_0_1 : S1x1.BroadcastsInDim S1x512 (![0, 1] : Fin 2 → Fin S1x512.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  gather_S50257x1024_S1x1_S1x1024_1_0_n_n_0_1_11024_wf : GatherDims.WF S50257x1024 S1x1 S1x1024 [1] [0] [] [0] [] 1 ![1, 1024]
  dot_S1x2048_S2048x512_S1x512_1_0_0_1_n_n_wf : DotDims.WF S1x2048 S2048x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.K.Reg0.lean ====
import proofs.«421596_j30159260352787_3_alg».proof.Proof.Gen.Kernel.Launch
import proofs.«421596_j30159260352787_3_alg».proof.Proof.Gen.Kernel.Skeleton
import proofs.«421596_j30159260352787_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention call (first pallas_call): one grid point; six input windows (the embedded row, the hidden
row, the encoder outputs, the two halves of the attention weights, the attention bias) and two output windows
(the attention weights, the attended encoder row). -/

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S1x1024 := Rect.unit (s := S1x1024) ![0, 0] S1x1024.size inb_S1x1024_S1x1024_0_0
abbrev rB0 : Rect S512x1024 := Rect.unit (s := S512x1024) ![0, 0] S512x1024.size inb_S512x1024_S512x1024_0_0
abbrev rC0 : Rect S1x512 := Rect.unit (s := S1x512) ![0, 0] S1x512.size inb_S1x512_S1x512_0_0

/-- The attention weights' staging buffer after the body: one whole store of the softmax row. -/
def out0_6 (x0 x1 : Vec F S1x1024 .f32) (x3 x4 : Vec F S512x1024 .f32) (x5 : Vec F S1x512 .f32) : Vec F S1x512 .f32 :=
  View.canon [⟨rC0, k0_pay1 (View.ld x0 rA0) (View.ld x1 rA0) (View.ld x3 rB0) (View.ld x4 rB0) (View.ld x5 rC0)⟩]

/-- The attended row's staging buffer after the body: one whole store of the weighted sum of encoder rows. -/
def out0_7 (x0 x1 : Vec F S1x1024 .f32) (x2 x3 x4 : Vec F S512x1024 .f32) (x5 : Vec F S1x512 .f32) : Vec F S1x1024 .f32 :=
  View.canon [⟨rA0, k0_pay2 (View.ld x0 rA0) (View.ld x1 rA0) (View.ld x3 rB0) (View.ld x4 rB0) (View.ld x5 rC0) (View.ld x2 rB0)⟩]

theorem cover0_6 (p0 : Vec F S1x512 .f32) (y : S1x512.Idx) :
    ∃ pc ∈ ([⟨rC0, p0⟩] : List (View.Piece (Elt F) S1x512 .f32)), y ∈ pc.1.set :=
  View.cover_of_tiled [⟨rC0, p0⟩] S1x512.size (by rfl) y
theorem cover0_7 (p0 : Vec F S1x1024 .f32) (y : S1x1024.Idx) :
    ∃ pc ∈ ([⟨rA0, p0⟩] : List (View.Piece (Elt F) S1x1024 .f32)), y ∈ pc.1.set :=
  View.cover_of_tiled [⟨rA0, p0⟩] S1x1024.size (by rfl) y

set_option maxHeartbeats 1000000 in
/-- The body on whole staging memrefs: the inputs keep their contents, each output ends at its single store. -/
theorem sound_kernel0 (c : Dev nD) (E : Set ℕ) (i : grid0.Coords)
    (arg1 : Memref sig .tc .vmem S1x1024 .f32) (harg1 : arg1.IsWhole) (arg2 : Memref sig .tc .vmem S1x1024 .f32) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x1024 .f32) (harg8 : arg8.IsWhole)
    (x0 x1 : Vec F S1x1024 .f32) (x2 x3 x4 : Vec F S512x1024 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x3 x4 x5) ∗ owns (c : Thread nD τ) arg8 fullShare (out0_7 x0 x1 x2 x3 x4 x5)) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The proof data -/

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The proof data of the attention call on core `c`: the arrays as the call finds them; after the body each input
    buffer at its block and each output buffer at its single store over the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 3 t) (iblk0 V c 4 t) (iblk0 V c 5 t) := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«421596_j30159260352787_3_alg».proof.Proof.Gen.Kernel.Launch
import proofs.«421596_j30159260352787_3_alg».proof.Proof.Gen.Kernel.Skeleton
import proofs.«421596_j30159260352787_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combine call (second pallas_call): two grid points, each a tile of 512 output columns. Five input windows
(the embedded row and the attended row, whole at every point; the two halves of the combine weights, 512 rows at a
point; the bias, 512 columns at a point) and one output window (512 columns of the rectified sum). -/

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S1x1024 := Rect.unit (s := S1x1024) ![0, 0] S1x1024.size inb_S1x1024_S1x1024_0_0
abbrev rB1 : Rect S512x1024 := Rect.unit (s := S512x1024) ![0, 0] S512x1024.size inb_S512x1024_S512x1024_0_0
abbrev rC1 : Rect S1x512 := Rect.unit (s := S1x512) ![0, 0] S1x512.size inb_S1x512_S1x512_0_0

/-- The output tile's staging buffer after the body: one whole store of the rectified sum of the two products and the bias. -/
def out1_5 (x0 x1 : Vec F S1x1024 .f32) (x2 x3 : Vec F S512x1024 .f32) (x4 : Vec F S1x512 .f32) : Vec F S1x512 .f32 :=
  View.canon [⟨rC1, k1_pay1 (View.ld x0 rA1) (View.ld x1 rA1) (View.ld x2 rB1) (View.ld x3 rB1) (View.ld x4 rC1)⟩]

theorem cover1_5 (p0 : Vec F S1x512 .f32) (y : S1x512.Idx) :
    ∃ pc ∈ ([⟨rC1, p0⟩] : List (View.Piece (Elt F) S1x512 .f32)), y ∈ pc.1.set :=
  View.cover_of_tiled [⟨rC1, p0⟩] S1x512.size (by rfl) y

set_option maxHeartbeats 1000000 in
/-- The body on whole staging memrefs: the inputs keep their contents, the output ends at its single store. -/
theorem sound_kernel1 (c : Dev nD) (E : Set ℕ) (i : grid1.Coords)
    (arg1 : Memref sig .tc .vmem S1x1024 .f32) (harg1 : arg1.IsWhole) (arg2 : Memref sig .tc .vmem S1x1024 .f32) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x512 .f32) (harg5 : arg5.IsWhole) (arg6 : Memref sig .tc .vmem S1x512 .f32) (harg6 : arg6.IsWhole)
    (x0 x1 : Vec F S1x1024 .f32) (x2 x3 : Vec F S512x1024 .f32) (x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__comb_kernel i arg1 harg1 arg2 harg2 arg3 harg3 arg4 harg4 arg5 harg5 arg6 harg6) K := by
  simp only [cc1__comb_kernel_eq_skeleton]; unfold cc1__comb_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data -/

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The proof data of the combine call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«421596_j30159260352787_3_alg».proof.Proof.Gen.Kernel.Launch
import proofs.«421596_j30159260352787_3_alg».proof.Proof.Gen.Kernel.Skeleton
import proofs.«421596_j30159260352787_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gate pre-activation call (third pallas_call): six grid points, each a tile of 512 of the 3072 gate
columns. Six input windows (the combined row and the hidden row, whole at every point; 512 rows of each of the two
weight matrices; 512 columns of each of the two biases) and two output windows (512 columns of each product plus
its bias). -/

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S1x1024 := Rect.unit (s := S1x1024) ![0, 0] S1x1024.size inb_S1x1024_S1x1024_0_0
abbrev rB2 : Rect S512x1024 := Rect.unit (s := S512x1024) ![0, 0] S512x1024.size inb_S512x1024_S512x1024_0_0
abbrev rC2 : Rect S1x512 := Rect.unit (s := S1x512) ![0, 0] S1x512.size inb_S1x512_S1x512_0_0

/-- The input-side gate tile after the body: the combined row times the weight tile, plus the bias tile. -/
def out2_6 (x0 : Vec F S1x1024 .f32) (x2 : Vec F S512x1024 .f32) (x4 : Vec F S1x512 .f32) : Vec F S1x512 .f32 :=
  View.canon [⟨rC2, k2_pay1 (View.ld x0 rA2) (View.ld x2 rB2) (View.ld x4 rC2)⟩]

/-- The hidden-side gate tile after the body: the hidden row times the weight tile, plus the bias tile. -/
def out2_7 (x1 : Vec F S1x1024 .f32) (x3 : Vec F S512x1024 .f32) (x5 : Vec F S1x512 .f32) : Vec F S1x512 .f32 :=
  View.canon [⟨rC2, k2_pay2 (View.ld x1 rA2) (View.ld x3 rB2) (View.ld x5 rC2)⟩]

theorem cover2_6 (p0 : Vec F S1x512 .f32) (y : S1x512.Idx) :
    ∃ pc ∈ ([⟨rC2, p0⟩] : List (View.Piece (Elt F) S1x512 .f32)), y ∈ pc.1.set :=
  View.cover_of_tiled [⟨rC2, p0⟩] S1x512.size (by rfl) y

set_option maxHeartbeats 1000000 in
/-- The body on whole staging memrefs: the inputs keep their contents, each output ends at its single store. -/
theorem sound_kernel2 (c : Dev nD) (E : Set ℕ) (i : grid2.Coords)
    (arg1 : Memref sig .tc .vmem S1x1024 .f32) (harg1 : arg1.IsWhole) (arg2 : Memref sig .tc .vmem S1x1024 .f32) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (x0 x1 : Vec F S1x1024 .f32) (x2 x3 : Vec F S512x1024 .f32) (x4 x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x2 x4) ∗ owns (c : Thread nD τ) arg8 fullShare (out2_7 x1 x3 x5)) -∗ K ⟨⟩))
      ⊢ wp frame (wpE (defs₀ (F := F)) Variants.none c none) E (cc2__gru_kernel i arg1 harg1 arg2 harg2 arg3 harg3 arg4 harg4 arg5 harg5 arg6 harg6 arg7 harg7 arg8 harg8) K := by
  simp only [cc2__gru_kernel_eq_skeleton]; unfold cc2__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_6 _)

/-! ## The proof data -/

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The proof data of the gate pre-activation call on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 2 t) (iblk2 V c 4 t)
    | ⟨7, _⟩ => out2_7 (iblk2 V c 1 t) (iblk2 V c 3 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 2 t) (iblk2 V c 4 t) := by dsimp only [dat2]
theorem after2_7 (c : Dev nD) (t : Fin cfg2.N) : (dat2 V c).after 7 t
    = out2_7 (iblk2 V c 1 t) (iblk2 V c 3 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Segs.lean ====
import proofs.«421596_j30159260352787_3_alg».proof.Proof.K.Reg0
import proofs.«421596_j30159260352787_3_alg».proof.Proof.K.Reg1
import proofs.«421596_j30159260352787_3_alg».proof.Proof.K.Reg2
import proofs.«421596_j30159260352787_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c b

/-- No core owes another anything: no level is assigned. -/
abbrev L0 : GSem nD τ sig → Finset Unit := fun _ => ∅
abbrev lv0 : GSem nD τ sig → Unit → ℕ := fun _ _ => 0

/-- What rides beside the buffers through every item of the program: the core's generator register at some state and
    its debts, none. -/
abbrev Rr (c : Dev nD) : sProp 𝕄 := iprop((∃ r, prngReg c r) ∗ ∃ W, owes (c : Thread nD τ) (0 : CellTallies nD τ sig Unit) W)

/-! ## What each call leaves: its arrays after the last write-back, every other buffer as it was -/

/-- After the attention call. -/
def W3 (c : Dev nD) : Valuation τ sig (Elt F) :=
  Pipeline.withArrays spec0 c (V2 m c) fun w => (dat0 (atTc (V2 m)) c).arrAt w cfg0.N
/-- The unknowns of the conditional frame, as far as the attention call: what it leaves, at every reference. -/
def outs3 : Outs (F := F) := fun _ r c => W3 m c r

/-- After the combine call. -/
def W5 (c : Dev nD) : Valuation τ sig (Elt F) :=
  Pipeline.withArrays spec1 c (V4 m (outs3 m) c) fun w => (dat1 (atTc (V4 m (outs3 m))) c).arrAt w cfg1.N
def outs5 : Outs (F := F) := fun J r c => match J with
  | 3 => W3 m c r
  | _ => W5 m c r

/-- After the gate pre-activation call. -/
def W7 (c : Dev nD) : Valuation τ sig (Elt F) :=
  Pipeline.withArrays spec2 c (V6 m (outs5 m) c) fun w => (dat2 (atTc (V6 m (outs5 m))) c).arrAt w cfg2.N
def outs7 : Outs (F := F) := fun J r c => match J with
  | 3 => W3 m c r
  | 5 => W5 m c r
  | _ => W7 m c r

theorem W3_arr (c : Dev nD) (w : Fin cfg0.W) :
    W3 m c (Proc.devRef .tc (Pipeline.arrRef spec0 w)) = (dat0 (atTc (V2 m)) c).arrAt w cfg0.N := by
  unfold W3; exact Pipeline.withArrays_arr spec0 launch0.win.arr_inj c _ _ w
theorem W5_arr (c : Dev nD) (w : Fin cfg1.W) :
    W5 m c (Proc.devRef .tc (Pipeline.arrRef spec1 w)) = (dat1 (atTc (V4 m (outs3 m))) c).arrAt w cfg1.N := by
  unfold W5; exact Pipeline.withArrays_arr spec1 launch1.win.arr_inj c _ _ w
theorem W7_arr (c : Dev nD) (w : Fin cfg2.W) :
    W7 m c (Proc.devRef .tc (Pipeline.arrRef spec2 w)) = (dat2 (atTc (V6 m (outs5 m))) c).arrAt w cfg2.N := by
  unfold W7; exact Pipeline.withArrays_arr spec2 launch2.win.arr_inj c _ _ w

/-! ## The proof data of the four calls, read as constraints

The last call's windows overhang their arrays, and what its body computes from the words past an array's end is
not named: its proof data are relational, with the relation `rel` between what the body is handed and what it leaves
a parameter (nothing for a frame; the exact contents' for a value). -/

variable (rel : (c : Dev nD) → (w : Fin cfg3.W) → Fin cfg3.N → ((cfg3.win w).block.Idx → Elt F (cfg3.win w).elt) → ((cfg3.win w).block.Idx → Elt F (cfg3.win w).elt) → Prop)

/-- The output-projection call's proof data on core `c`: the arrays as the call finds them, the invariant the plain
    one, nothing owed, and of what the body leaves only `rel`. -/
def rd3 (c : Dev nD) : Pipeline.RDat τ (Elt F) Unit ℕ (UR sig nD τ) ℕ cfg3 c where
  A w := V8 m (outs7 m) c (Pipeline.arrRef spec3 w)
  after w t Y X := rel c w t Y X
  Φ _ := Pipeline.ΦA spec3 c
  q _ := fullShare
  owed _ := 0

/-- Every call's proof data, each at its entry contents. -/
def rdats : (p : Fin 4) → (c : Dev nD) → Pipeline.RDat τ (Elt F) Unit ℕ (UR sig nD τ) ℕ (Pipeline.pin (pcfgs (F := F)) adm p) c
  | ⟨0, _⟩ => fun c => (dat0 (atTc (V2 m)) c).toR
  | ⟨1, _⟩ => fun c => (dat1 (atTc (V4 m (outs3 m))) c).toR
  | ⟨2, _⟩ => fun c => (dat2 (atTc (V6 m (outs5 m))) c).toR
  | ⟨3, _⟩ => fun c => rd3 m rel c

/-! ## What a call's exit puts back among the unscoped buffers -/

/-- Off the two arrays the attention call writes, what it leaves is what it found: an input window's array is never
    written back, and a buffer that is no window's array is not touched. -/
theorem W3_of (c : Dev nD) (b : Ref sig .tc) (h0 : b ≠ main_v5_0) (h1 : b ≠ main_v5_1) : W3 m c b = V2 m c b := by
  by_cases h : ∃ w, Pipeline.arrRef spec0 w = b
  · obtain ⟨w, rfl⟩ := h
    have hin : (cfg0.win w).isOut = false := by
      revert h0 h1; revert w; decide
    rw [W3_arr]
    exact ((dat0 (atTc (V2 m)) c).arrAt_in w hin _).trans (A_eq0 _ c w)
  · unfold W3
    exact Pipeline.withArrays_of_ne spec0 c _ _ b fun w e => h ⟨w, e⟩

theorem V3_eq_W3 (c : Dev nD) (b : Ref sig .tc) : V3 m (outs3 m) c b = W3 m c b := by
  by_cases h1 : b = main_v5_1
  · subst h1; simp only [V3, outs3, Function.update_self]
  · by_cases h0 : b = main_v5_0
    · subst h0
      simp only [V3, outs3, Function.update_of_ne (StableHlo.devRef_ne_of_ne (by decide) : (Proc.devRef .tc main_v5_0 : DevRef τ sig) ≠ Proc.devRef .tc main_v5_1), Function.update_self]
    · rw [V3_of m (outs3 m) c b (by simp only [List.mem_cons, List.not_mem_nil, or_false]; exact fun h => h.elim h0 h1)]
      exact (W3_of m c b h0 h1).symm

theorem hF0 (c : Dev nD) (w : Fin cfg0.W) :
    (dat0 (atTc (V2 m)) c).arrAt w cfg0.N = V3 m (outs3 m) c (Pipeline.arrRef spec0 w) :=
  (W3_arr m c w).symm.trans (V3_eq_W3 m c _).symm

theorem hrest0 (c : Dev nD) : ∀ b, b ∉ Finset.univ.image (Pipeline.arrRef spec0) → V3 m (outs3 m) c b = V2 m c b :=
  fun b hb => (V3_eq_W3 m c b).trans (W3_of m c b
    (fun e => hb (Finset.mem_image.mpr ⟨6, Finset.mem_univ _, e.symm⟩))
    (fun e => hb (Finset.mem_image.mpr ⟨7, Finset.mem_univ _, e.symm⟩)))

/-! ## A call's arrays back among the core's unscoped buffers -/

/-- Pipeline `p`'s arrays at contents `G` and the unscoped rest at `V` are the core's unscoped buffers at any valuation
    `V'` that has the arrays at `G` and agrees with `V` off them. -/
theorem bufs_of_arraysR {p : Fin 4} (hw : Pipeline.WinFacts (Pipeline.pin (pcfgs (F := F)) adm p).spec)
    (harr : ∀ w, ((Pipeline.pin (pcfgs (F := F)) adm p).spec w).arr.IsWhole)
    (c : Dev nD) (hshare : ∀ w, (rdats m rel p c).share w = fullShare)
    (V V' : (b : Ref sig .tc) → Buf (Elt F) ((c : Thread nD τ).loc b))
    (G : (w : Fin (Pipeline.pin (pcfgs (F := F)) adm p).W) → Buf (Elt F) (((Pipeline.pin (pcfgs (F := F)) adm p).spec w).arr.view.loc (c : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m rel p c).arrays G ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m rel) p c harr hshare]
  refine sep_mono (Entails.of_eq (bigSep_congr fun w _ => by rw [hG])) (Entails.of_eq ?_)
  unfold Pipeline.unscopedRest
  exact bigSep_congr fun b hb => by rw [hrest b (Finset.mem_sdiff.mp hb).2]

/-! ## The calls as segments of the program -/

-- unification of the library's lemmas with the pinned configuration unfolds plain definitions in a metavariable's type
set_option backward.isDefEq.respectTransparency.types false in
/-- Call 0 over the thread state: entered with every unscoped buffer at its contents before the call, left with the
    call's arrays at what its write-backs leave and every other buffer as it was; the generator register goes into the
    call's invariant and comes back; nothing is owed; the kernel has no semaphore of its own. -/
def reg0 : Pipeline.RDat.RegionSeg (pcfgs (F := F)) adm (rdats m rel) () defs₀ Variants.none L0 lv0 0 where
  win := launch0.win.to₀
  block_pos := launch0.block_pos
  stage_whole := launch0.stage_whole
  K := PEmpty
  osem k := k.elim
  ho := Pipeline.OwnSemFacts.none _
  hbody c := ((body_obligation0 (atTc (V2 m)) c).loose).toR
  hwaits := Pipeline.RDat.hwaits_of_owed_zero _ _ _ _ L0 lv0 0 fun _ _ => rfl
  pre c := iprop(StableHlo.held (c : Thread nD τ) (Pipeline.ucRefs τ sig) (V2 m c) ∗ Rr c)
  post c := iprop(StableHlo.held (c : Thread nD τ) (Pipeline.ucRefs τ sig) (V3 m (outs3 m) c) ∗ Rr c)
  X c := iprop(∃ r, prngReg c r)
  Y c := iprop(∃ r, prngReg c r)
  Z c := Pipeline.unscopedRest (Ix := Unit) (Name := ℕ) (U := UR sig nD τ) (Lvl := ℕ) spec0 c (atTc (V2 m) c)
  hentry c := by
    rw [Pipeline.ownSems0_none]
    have hsplit := Pipeline.RDat.arrays_of_unscopedBufs (p := 0) (pcfgs (F := F)) adm (rdats m rel) launch0.win launch0.arr_whole c
      (fun w => by show (if _ then _ else _) = _; split <;> rfl) (atTc (V2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m rel 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m rel 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_of_arraysR m rel (p := 0) launch0.win launch0.arr_whole c
      (fun w => by show (if _ then _ else _) = _; split <;> rfl)
      (atTc (V2 m) c) (atTc (V3 m (outs3 m)) c) ((dat0 (atTc (V2 m)) c).arrAt · cfg0.N) (hF0 m c) (hrest0 m c)
    rw [Pipeline.unscopedBufs_held] at hjoin
    rw [show (rdats m rel 0 c).arraysAt (Pipeline.pin (pcfgs (F := F)) adm 0).N = (rdats m rel 0 c).arrays ((dat0 (atTc (V2 m)) c).arrAt · cfg0.N)
      from (dat0 (atTc (V2 m)) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ### The combine call -/

theorem W5_of (c : Dev nD) (b : Ref sig .tc) (h0 : b ≠ main_v9) : W5 m c b = V4 m (outs3 m) c b := by
  by_cases h : ∃ w, Pipeline.arrRef spec1 w = b
  · obtain ⟨w, rfl⟩ := h
    have hin : (cfg1.win w).isOut = false := by
      revert h0; revert w; decide
    rw [W5_arr]
    exact ((dat1 (atTc (V4 m (outs3 m))) c).arrAt_in w hin _).trans (A_eq1 _ c w)
  · unfold W5
    exact Pipeline.withArrays_of_ne spec1 c _ _ b fun w e => h ⟨w, e⟩

theorem V5_eq_W5 (c : Dev nD) (b : Ref sig .tc) : V5 m (outs5 m) c b = W5 m c b := by
  by_cases h0 : b = main_v9
  · subst h0; simp only [V5, outs5, Function.update_self]
  · rw [V5_of m (outs5 m) c b (by simp only [List.mem_cons, List.not_mem_nil, or_false]; exact h0)]
    exact (W5_of m c b h0).symm

theorem hF1 (c : Dev nD) (w : Fin cfg1.W) :
    (dat1 (atTc (V4 m (outs3 m))) c).arrAt w cfg1.N = V5 m (outs5 m) c (Pipeline.arrRef spec1 w) :=
  (W5_arr m c w).symm.trans (V5_eq_W5 m c _).symm

theorem hrest1 (c : Dev nD) : ∀ b, b ∉ Finset.univ.image (Pipeline.arrRef spec1) → V5 m (outs5 m) c b = V4 m (outs3 m) c b :=
  fun b hb => (V5_eq_W5 m c b).trans (W5_of m c b
    (fun e => hb (Finset.mem_image.mpr ⟨5, Finset.mem_univ _, e.symm⟩)))

-- unification of the library's lemmas with the pinned configuration unfolds plain definitions in a metavariable's type
set_option backward.isDefEq.respectTransparency.types false in
/-- The combine call over the thread state: entered with every unscoped buffer at its contents before the call, left
    with the call's arrays at what its write-backs leave and every other buffer as it was. -/
def reg1 : Pipeline.RDat.RegionSeg (pcfgs (F := F)) adm (rdats m rel) () defs₀ Variants.none L0 lv0 1 where
  win := launch1.win.to₀
  block_pos := launch1.block_pos
  stage_whole := launch1.stage_whole
  K := PEmpty
  osem k := k.elim
  ho := Pipeline.OwnSemFacts.none _
  hbody c := ((body_obligation1 (atTc (V4 m (outs3 m))) c).loose).toR
  hwaits := Pipeline.RDat.hwaits_of_owed_zero _ _ _ _ L0 lv0 1 fun _ _ => rfl
  pre c := iprop(StableHlo.held (c : Thread nD τ) (Pipeline.ucRefs τ sig) (V4 m (outs3 m) c) ∗ Rr c)
  post c := iprop(StableHlo.held (c : Thread nD τ) (Pipeline.ucRefs τ sig) (V5 m (outs5 m) c) ∗ Rr c)
  X c := iprop(∃ r, prngReg c r)
  Y c := iprop(∃ r, prngReg c r)
  Z c := Pipeline.unscopedRest (Ix := Unit) (Name := ℕ) (U := UR sig nD τ) (Lvl := ℕ) spec1 c (atTc (V4 m (outs3 m)) c)
  hentry c := by
    rw [Pipeline.ownSems0_none]
    have hsplit := Pipeline.RDat.arrays_of_unscopedBufs (p := 1) (pcfgs (F := F)) adm (rdats m rel) launch1.win launch1.arr_whole c
      (fun w => by show (if _ then _ else _) = _; split <;> rfl) (atTc (V4 m (outs3 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m rel 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m rel 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := bufs_of_arraysR m rel (p := 1) launch1.win launch1.arr_whole c
      (fun w => by show (if _ then _ else _) = _; split <;> rfl)
      (atTc (V4 m (outs3 m)) c) (atTc (V5 m (outs5 m)) c) ((dat1 (atTc (V4 m (outs3 m))) c).arrAt · cfg1.N) (hF1 m c) (hrest1 m c)
    rw [Pipeline.unscopedBufs_held] at hjoin
    rw [show (rdats m rel 1 c).arraysAt (Pipeline.pin (pcfgs (F := F)) adm 1).N = (rdats m rel 1 c).arrays ((dat1 (atTc (V4 m (outs3 m))) c).arrAt · cfg1.N)
      from (dat1 (atTc (V4 m (outs3 m))) c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ### The gate pre-activation call -/

theorem W7_of (c : Dev nD) (b : Ref sig .tc) (h0 : b ≠ main_v12_0) (h1 : b ≠ main_v12_1) : W7 m c b = V6 m (outs5 m) c b := by
  by_cases h : ∃ w, Pipeline.arrRef spec2 w = b
  · obtain ⟨w, rfl⟩ := h
    have hin : (cfg2.win w).isOut = false := by
      revert h0 h1; revert w; decide
    rw [W7_arr]
    exact ((dat2 (atTc (V6 m (outs5 m))) c).arrAt_in w hin _).trans (A_eq2 _ c w)
  · unfold W7
    exact Pipeline.withArrays_of_ne spec2 c _ _ b fun w e => h ⟨w, e⟩

theorem V7_eq_W7 (c : Dev nD) (b : Ref sig .tc) : V7 m (outs7 m) c b = W7 m c b := by
  by_cases h1 : b = main_v12_1
  · subst h1; simp only [V7, outs7, Function.update_self]
  · by_cases h0 : b = main_v12_0
    · subst h0
      simp only [V7, outs7, Function.update_of_ne (StableHlo.devRef_ne_of_ne (by decide) : (Proc.devRef .tc main_v12_0 : DevRef τ sig) ≠ Proc.devRef .tc main_v12_1), Function.update_self]
    · rw [V7_of m (outs7 m) c b (by simp only [List.mem_cons, List.not_mem_nil, or_false]; exact fun h => h.elim h0 h1)]
      exact (W7_of m c b h0 h1).symm

theorem hF2 (c : Dev nD) (w : Fin cfg2.W) :
    (dat2 (atTc (V6 m (outs5 m))) c).arrAt w cfg2.N = V7 m (outs7 m) c (Pipeline.arrRef spec2 w) :=
  (W7_arr m c w).symm.trans (V7_eq_W7 m c _).symm

theorem hrest2 (c : Dev nD) : ∀ b, b ∉ Finset.univ.image (Pipeline.arrRef spec2) → V7 m (outs7 m) c b = V6 m (outs5 m) c b :=
  fun b hb => (V7_eq_W7 m c b).trans (W7_of m c b
    (fun e => hb (Finset.mem_image.mpr ⟨6, Finset.mem_univ _, e.symm⟩))
    (fun e => hb (Finset.mem_image.mpr ⟨7, Finset.mem_univ _, e.symm⟩)))

-- unification of the library's lemmas with the pinned configuration unfolds plain definitions in a metavariable's type
set_option backward.isDefEq.respectTransparency.types false in
/-- The gate pre-activation call over the thread state. -/
def reg2 : Pipeline.RDat.RegionSeg (pcfgs (F := F)) adm (rdats m rel) () defs₀ Variants.none L0 lv0 2 where
  win := launch2.win.to₀
  block_pos := launch2.block_pos
  stage_whole := launch2.stage_whole
  K := PEmpty
  osem k := k.elim
  ho := Pipeline.OwnSemFacts.none _
  hbody c := ((body_obligation2 (atTc (V6 m (outs5 m))) c).loose).toR
  hwaits := Pipeline.RDat.hwaits_of_owed_zero _ _ _ _ L0 lv0 2 fun _ _ => rfl
  pre c := iprop(StableHlo.held (c : Thread nD τ) (Pipeline.ucRefs τ sig) (V6 m (outs5 m) c) ∗ Rr c)
  post c := iprop(StableHlo.held (c : Thread nD τ) (Pipeline.ucRefs τ sig) (V7 m (outs7 m) c) ∗ Rr c)
  X c := iprop(∃ r, prngReg c r)
  Y c := iprop(∃ r, prngReg c r)
  Z c := Pipeline.unscopedRest (Ix := Unit) (Name := ℕ) (U := UR sig nD τ) (Lvl := ℕ) spec2 c (atTc (V6 m (outs5 m)) c)
  hentry c := by
    rw [Pipeline.ownSems0_none]
    have hsplit := Pipeline.RDat.arrays_of_unscopedBufs (p := 2) (pcfgs (F := F)) adm (rdats m rel) launch2.win launch2.arr_whole c
      (fun w => by show (if _ then _ else _) = _; split <;> rfl) (atTc (V6 m (outs5 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m rel 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m rel 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := bufs_of_arraysR m rel (p := 2) launch2.win launch2.arr_whole c
      (fun w => by show (if _ then _ else _) = _; split <;> rfl)
      (atTc (V6 m (outs5 m)) c) (atTc (V7 m (outs7 m)) c) ((dat2 (atTc (V6 m (outs5 m))) c).arrAt · cfg2.N) (hF2 m c) (hrest2 m c)
    rw [Pipeline.unscopedBufs_held] at hjoin
    rw [show (rdats m rel 2 c).arraysAt (Pipeline.pin (pcfgs (F := F)) adm 2).N = (rdats m rel 2 c).arrays ((dat2 (atTc (V6 m (outs5 m))) c).arrAt · cfg2.N)
      from (dat2 (atTc (V6 m (outs5 m))) c).toR_arraysAt_eq cfg2.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

end Cert.Kernel.Hand

end
-- ==== Proof.K.RunR0.lean ====
import proofs.«421596_j30159260352787_3_alg».proof.Proof.K.Segs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (rel : (c : Dev nD) → (w : Fin cfg3.W) → Fin cfg3.N → ((cfg3.win w).block.Idx → Elt F (cfg3.win w).elt) → ((cfg3.win w).block.Idx → Elt F (cfg3.win w).elt) → Prop)

/-! # The contents after the last call

The output-projection call's logits array ends at SOME contents its proof data allow (`o`, with
`(rd3 m rel c).ArrAt 3 cfg3.N o`); the thread state after it, and through the closing log-softmax stretch, is stated
for that unknown. -/

/-- Core `c`'s unscoped buffers after the last call, the logits array at `o`. -/
abbrev V9o (c : Dev nD) (o : Buf (Elt F) ((cfg3.win 3).arr.view.loc (c : Thread nD τ))) : Valuation τ sig (Elt F) :=
  Function.update (V8 m (outs7 m) c) (Proc.devRef .tc (Pipeline.arrRef spec3 3)) o

/-- What the logits array may hold after the last call. -/
abbrev Logits (c : Dev nD) (o : Buf (Elt F) ((cfg3.win 3).arr.view.loc (c : Thread nD τ))) : Prop :=
  (rd3 m rel c).ArrAt 3 cfg3.N o

theorem V9o_of (c : Dev nD) (o) (b : Ref sig .tc) (h : b ≠ main_v42) : V9o m c o b = V8 m (outs7 m) c b := by
  have h' : b ≠ Pipeline.arrRef spec3 3 := h
  simp only [V9o, Function.update_of_ne (StableHlo.devRef_ne_of_ne h' : (Proc.devRef .tc b : DevRef τ sig) ≠ Proc.devRef .tc (Pipeline.arrRef spec3 3))]

theorem V9o_self (c : Dev nD) (o) : V9o m c o (Proc.devRef .tc (Pipeline.arrRef spec3 3)) = o := by
  simp only [V9o, Function.update_self]

end Cert.Kernel.Hand

end
-- ==== Proof.K.RunR1.lean ====
import proofs.«421596_j30159260352787_3_alg».proof.Proof.K.RunR0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (rel : (c : Dev nD) → (w : Fin cfg3.W) → Fin cfg3.N → ((cfg3.win w).block.Idx → Elt F (cfg3.win w).elt) → ((cfg3.win w).block.Idx → Elt F (cfg3.win w).elt) → Prop)

/-! # The last call and the closing stretch, over the unknown logits -/

/-! ## The last call as a segment -/

theorem hrest3 (c : Dev nD) (o) : ∀ b, b ∉ Finset.univ.image (Pipeline.arrRef spec3) → V9o m c o b = V8 m (outs7 m) c b :=
  fun b hb => V9o_of m c o b (fun e => hb (Finset.mem_image.mpr ⟨3, Finset.mem_univ _, e.symm⟩))

variable (hbody3 : ∀ c, (rd3 m rel c).BodyObligation (defs₀ (F := F)) Variants.none () Set.univ)

-- unification of the library's lemmas with the pinned configuration unfolds plain definitions in a metavariable's type
set_option maxHeartbeats 2000000 in
set_option backward.isDefEq.respectTransparency.types false in
/-- The output-projection call over the thread state: entered with every unscoped buffer at its contents before the
    call; left with the logits array at SOME contents the proof data allow, the three input arrays as they were (an
    input array is never written back), every other buffer as it was. -/
def reg3 : Pipeline.RDat.RegionSeg (pcfgs (F := F)) adm (rdats m rel) () defs₀ Variants.none L0 lv0 3 where
  win := launch3.win.to₀
  block_pos := launch3.block_pos
  stage_whole := launch3.stage_whole
  K := PEmpty
  osem k := k.elim
  ho := Pipeline.OwnSemFacts.none _
  hbody c := hbody3 c
  hwaits := Pipeline.RDat.hwaits_of_owed_zero _ _ _ _ L0 lv0 3 fun _ _ => rfl
  pre c := iprop(StableHlo.held (c : Thread nD τ) (Pipeline.ucRefs τ sig) (V8 m (outs7 m) c) ∗ Rr c)
  post c := iprop(∃ o, ⌜Logits m rel c o⌝ ∗ StableHlo.held (c : Thread nD τ) (Pipeline.ucRefs τ sig) (V9o m c o) ∗ Rr c)
  X c := iprop(∃ r, prngReg c r)
  Y c := iprop(∃ r, prngReg c r)
  Z c := Pipeline.unscopedRest (Ix := Unit) (Name := ℕ) (U := UR sig nD τ) (Lvl := ℕ) spec3 c (atTc (V8 m (outs7 m)) c)
  hentry c := by
    rw [Pipeline.ownSems0_none]
    have hsplit := Pipeline.RDat.arrays_of_unscopedBufs (p := 3) (pcfgs (F := F)) adm (rdats m rel) launch3.win launch3.arr_whole c
      (fun w => by show (if _ then _ else _) = _; split <;> rfl) (atTc (V8 m (outs7 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m rel 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m rel 3 c).Φ (Fin.last _) = Pipeline.ΦA spec3 c from rfl]; unfold Pipeline.ΦA
    iintro ⟨Hr, Hp⟩
    isplitl [Hp]; · iexact Hp
    isplitr; · iempintro
    iexact Hr
  hexit c := by
    show iprop((rd3 m rel c).arraysAt cfg3.N ∗ _ ∗ _ ∗ _) ⊢ _
    unfold Pipeline.RDat.arraysAt
    rw [bigSep_W3]
    iintro ⟨⟨⟨%G0, %h0, H0⟩, ⟨%G1, %h1, H1⟩, ⟨%G2, %h2, H2⟩, ⟨%G3, %h3, H3⟩⟩, HO, HY, Hrest⟩
    rw [(rd3 m rel c).ArrAt_in 0 rfl] at h0
    rw [(rd3 m rel c).ArrAt_in 1 rfl] at h1
    rw [(rd3 m rel c).ArrAt_in 2 rfl] at h2
    subst h0; subst h1; subst h2
    have hjoin := bufs_of_arraysR m rel (p := 3) launch3.win launch3.arr_whole c
      (fun w => by show (if _ then _ else _) = _; split <;> rfl)
      (atTc (V8 m (outs7 m)) c) (fun b => V9o m c G3 b) (fun w => V9o m c G3 (Pipeline.arrRef spec3 w)) (fun _ => rfl) (hrest3 m c G3)
    rw [Pipeline.unscopedBufs_held] at hjoin
    have e0 : V9o m c G3 (Pipeline.arrRef spec3 0) = (rd3 m rel c).A 0 := V9o_of m c G3 _ (by decide)
    have e1 : V9o m c G3 (Pipeline.arrRef spec3 1) = (rd3 m rel c).A 1 := V9o_of m c G3 _ (by decide)
    have e2 : V9o m c G3 (Pipeline.arrRef spec3 2) = (rd3 m rel c).A 2 := V9o_of m c G3 _ (by decide)
    have e3 : V9o m c G3 (Pipeline.arrRef spec3 3) = G3 := V9o_self m c G3
    have harr : (iprop(((cfg3.win 0).arr.view.loc (c : Thread nD τ) ↦[(cfg3.win 0).arr.view.set]{(rd3 m rel c).share 0} (rd3 m rel c).A 0)
          ∗ ((cfg3.win 1).arr.view.loc (c : Thread nD τ) ↦[(cfg3.win 1).arr.view.set]{(rd3 m rel c).share 1} (rd3 m rel c).A 1)
          ∗ ((cfg3.win 2).arr.view.loc (c : Thread nD τ) ↦[(cfg3.win 2).arr.view.set]{(rd3 m rel c).share 2} (rd3 m rel c).A 2)
          ∗ ((cfg3.win 3).arr.view.loc (c : Thread nD τ) ↦[(cfg3.win 3).arr.view.set]{(rd3 m rel c).share 3} G3)) : sProp 𝕄)
        ⊢ (rd3 m rel c).arrays (fun w => V9o m c G3 (Pipeline.arrRef spec3 w)) := by
      unfold Pipeline.RDat.arrays
      rw [bigSep_W3]
      dsimp only
      rw [e0, e1, e2, e3]
    imodintro
    iexists G3
    isplitr; · ipureintro; exact h3
    isplitl [H0 H1 H2 H3 Hrest]
    · iapply hjoin
      isplitl [H0 H1 H2 H3]
      · iapply harr
        isplitl [H0]; · iexact H0
        isplitl [H1]; · iexact H1
        isplitl [H2]; · iexact H2
        iexact H3
      · iexact Hrest
    isplitl [HY]; · iexact HY
    unfold Pipeline.RDat.owesAt Pipeline.owesWithin
    icases HO with ⟨%W, -, HO⟩; iexists W; iexact HO

/-! ## The closing stretch, from the unknown logits -/

-- the StableHLO rule, stated for any thread, unifies at the TensorCore thread only when unification may unfold plain
-- definitions in a metavariable's type
set_option backward.isDefEq.respectTransparency.types false in
/-- The closing log-softmax stretch, entered with the logits array at some contents the last call's proof data allow
    and left with every unscoped buffer at the stretch's fold over those contents. -/
def seg9x : Pipeline.HostSeg (Ix := Unit) (Name := ℕ) (U := UR sig nD τ) (Lvl := ℕ) (pcfgs (F := F)) defs₀ Variants.none L0 lv0 where
  prog := StableHlo.seq hostOps4
  pre c := iprop(∃ o, ⌜Logits m rel c o⌝ ∗ StableHlo.held (c : Thread nD τ) (Pipeline.ucRefs τ sig) (V9o m c o) ∗ Rr c)
  post c := iprop(∃ o, ⌜Logits m rel c o⌝ ∗ StableHlo.held (c : Thread nD τ) (Pipeline.ucRefs τ sig) (StableHlo.after hostOps4 (V9o m c o)) ∗ Rr c)
  run c {β} k K := by
    iintro ⟨Hk, Hbd, ⟨%o, %ho, Hh, HR⟩, -⟩
    have hseq := StableHlo.wp_seq (defs := Pipeline.defs (pcfgs (F := F)) defs₀) (Variants.lift Variants.none) none Set.univ c (Pipeline.ucRefs τ sig) k (K := K) hostOps4
      (fun op h => Pipeline.sub_ucRefs op ((List.forall_iff_forall_mem.mp hostOps4_sub) op h))
      (fun op h => (List.forall_iff_forall_mem.mp hostOps4_fresh) op h) (V9o m c o)
    iapply hseq $$ [Hbd Hh]
    · isplitl [Hbd] <;> iassumption
    iintro ⟨Hbd, Hh⟩
    iapply Hk
    isplitl [Hbd]; · iexact Hbd
    iexists o
    isplitr; · ipureintro; exact ho
    isplitl [Hh] <;> iassumption

end Cert.Kernel.Hand

end
-- ==== Proof.K.RunR2.lean ====
import proofs.«421596_j30159260352787_3_alg».proof.Proof.K.RunR1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (rel : (c : Dev nD) → (w : Fin cfg3.W) → Fin cfg3.N → ((cfg3.win w).block.Idx → Elt F (cfg3.win w).elt) → ((cfg3.win w).block.Idx → Elt F (cfg3.win w).elt) → Prop)

/-! # The run of the whole program -/

variable (hbody3 : ∀ c, (rd3 m rel c).BodyObligation (defs₀ (F := F)) Variants.none () Set.univ)

/-! ## The run -/

/-- What rides beside the buffers, at every boundary. -/
abbrev Er : Fin 5 → Dev nD → sProp 𝕄 := fun _ c => Rr c

/-- The program's ten items in order: the host stretches from their boundaries' contents, the four calls. -/
abbrev segsR : List (Pipeline.RDat.Seg (pcfgs (F := F)) adm (rdats m rel) () defs₀ Variants.none L0 lv0) :=
  [ .host (seg0 m Variants.none L0 lv0 Er), .host (seg1 m Variants.none L0 lv0 Er), .region (reg0 m rel),
    .host (seg3 m (outs3 m) Variants.none L0 lv0 Er), .region (reg1 m rel),
    .host (seg5 m (outs5 m) Variants.none L0 lv0 Er), .region (reg2 m rel),
    .host (seg7 m (outs7 m) Variants.none L0 lv0 Er), .region (reg3 m rel hbody3),
    .host (seg9x m rel) ]

set_option maxHeartbeats 4000000 in
-- the launch theorem's implicit arguments are found by unifying its conclusion with this one, which takes unfolding
-- plain definitions in a metavariable's type
set_option backward.isDefEq.respectTransparency.types false in
/-- THE RUN. From any memory with zero counters every weakly fair execution of the program terminates, and in every
    final state, on every core, the logits array held some contents `o` the last call's proof data allow and every
    unscoped buffer holds the closing stretch's fold over the buffers after that call. -/
theorem run_all (hbody3 : ∀ c, (rd3 m rel c).BodyObligation (defs₀ (F := F)) Variants.none () Set.univ) (ρ : Dev nD → PrngReg) :
    θ_run defs (onTc (τ := τ) (main (F := F))) ⟨m, fun _ => 0, ρ⟩ (fun r => ∀ c : Dev nD, ∃ o, Logits m rel c o ∧
      ∀ b ∈ Pipeline.ucRefs τ sig, r.2.mem ((c : Thread nD τ).1, b) = StableHlo.after hostOps4 (V9o m c o) b) := by
  refine Pipeline.RDat.θ_run_regions_kit (pcfgs (F := F)) adm (rdats m rel) () cellOf_inj emb₁ defs₀ Variants.none L0 lv0 m ρ main
    (segsR m rel hbody3)
    (fun c Q => by
      rewrite [main_chain c, Pipeline.RDat.Seg.run_eq_chain,
        show (segsR m rel hbody3).map Pipeline.RDat.Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(∃ o, ⌜Logits m rel c o⌝ ∗ StableHlo.held (c : Thread nD τ) (Pipeline.ucRefs τ sig) (StableHlo.after hostOps4 (V9o m c o)) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun c => by
        show iprop(∃ o, ⌜Logits m rel c o⌝ ∗ StableHlo.held (c : Thread nD τ) (Pipeline.ucRefs τ sig) (StableHlo.after hostOps4 (V9o m c o)) ∗ Rr c) ⊢ _
        iintro ⟨%o, %ho, Hh, Hp, HO⟩
        isplitr [HO]
        · iexists o
          isplitr; · ipureintro; exact ho
          isplitl [Hh]; · iexact Hh
          iexact Hp
        iexact HO⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ o, Logits m rel c o ∧ ∀ b ∈ Pipeline.ucRefs τ sig, s.mem ((c : Thread nD τ).1, b) = StableHlo.after hostOps4 (V9o m c o) b)
    (hfin := fun c s' => by
      iintro ⟨⟨%o, %ho, Hh, -⟩, HSI⟩
      unfold StableHlo.held
      ihave Hr := (pointsTo_read_all (Pipeline.ucRefs τ sig) (fun b => ((c : Thread nD τ).1, b)) (StableHlo.after hostOps4 (V9o m c o)) s') $$ [Hh HSI]
      · isplitl [Hh] <;> iassumption
      icases Hr with ⟨%h, HSI⟩
      imodintro
      isplitr
      · ipureintro; exact ⟨o, ho, h⟩
      · iexact HSI)
    (hQ := fun s h => h)

end Cert.Kernel.Hand

end
-- ==== Proof.K.Kept.lean ====
import proofs.«421596_j30159260352787_3_alg».proof.Proof.K.RunR0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! # What the program's end finds where

The unknowns the regions' frames are written over are staged: the first call's results named, then the second's, then
the third's. A valuation reads an unknown only at its own stage, so the stage-wise names agree. Past the last call — its
logits array at contents `o` nothing is said of — the closing host stretch writes neither an argument nor the attention
weights: every argument holds what it was launched with, the attention weights what the first call's write-back left. -/

/-! ## The staged unknowns agree where they are read -/

theorem V3_outs5 (c : Dev nD) : V3 m (outs5 m) c = V3 m (outs3 m) c := rfl
theorem V3_outs7 (c : Dev nD) : V3 m (outs7 m) c = V3 m (outs3 m) c := rfl
theorem V4_outs5 (c : Dev nD) : V4 m (outs5 m) c = V4 m (outs3 m) c := congrArg (StableHlo.after hostOps1) (V3_outs5 m c)
theorem V4_outs7 (c : Dev nD) : V4 m (outs7 m) c = V4 m (outs3 m) c := congrArg (StableHlo.after hostOps1) (V3_outs7 m c)
theorem V5_outs7 (c : Dev nD) : V5 m (outs7 m) c = V5 m (outs5 m) c :=
  congrArg (fun W : Valuation τ sig (Elt F) => Function.update W (Proc.devRef .tc main_v9) (W5 m c main_v9))
    ((V4_outs7 m c).trans (V4_outs5 m c).symm)
theorem V6_outs7 (c : Dev nD) : V6 m (outs7 m) c = V6 m (outs5 m) c := congrArg (StableHlo.after hostOps2) (V5_outs7 m c)

/-- The valuations before the last call's entry, under the last stage's unknowns, are the stage-wise ones. -/
theorem v8_eq (c : Dev nD) :
    V3 m (outs7 m) c = V3 m (outs3 m) c ∧ V4 m (outs7 m) c = V4 m (outs3 m) c
      ∧ V5 m (outs7 m) c = V5 m (outs5 m) c ∧ V6 m (outs7 m) c = V6 m (outs5 m) c :=
  ⟨V3_outs7 m c, V4_outs7 m c, V5_outs7 m c, V6_outs7 m c⟩

/-! ## No item writes an argument -/

/-- A reference no host stretch writes and no call may change holds at the end what it was launched with. -/
theorem kept_of (c : Dev nD) (o : Buf (Elt F) ((cfg3.win 3).arr.view.loc (c : Thread nD τ))) (r : Ref sig .tc)
    (h10 : r ∉ hostOps4_W) (h9 : r ≠ main_v42) (h8 : r ∉ hostOps3_W) (h7 : r ∉ ([main_v12_0, main_v12_1] : List (Ref sig .tc)))
    (h6 : r ∉ hostOps2_W) (h5 : r ∉ ([main_v9] : List (Ref sig .tc))) (h4 : r ∉ hostOps1_W)
    (h3 : r ∉ ([main_v5_0, main_v5_1] : List (Ref sig .tc))) (h2 : r ∉ hostOps0_1_W) (h1 : r ∉ hostOps0_W) :
    StableHlo.after hostOps4 (V9o m c o) r = m ((c : Thread nD τ).loc r) :=
  (StableHlo.after_of_writes_sub hostOps4 _ hostOps4_writes h10).trans <| (V9o_of m c o r h9).trans <|
    (V8_of m (outs7 m) c r h8).trans <| (V7_of m (outs7 m) c r h7).trans <| (V6_of m (outs7 m) c r h6).trans <|
    (V5_of m (outs7 m) c r h5).trans <| (V4_of m (outs7 m) c r h4).trans <| (V3_of m (outs7 m) c r h3).trans <|
    (V2_of m c r h2).trans <| (V1_of m c r h1).trans rfl

theorem kept_arg0 (c : Dev nD) (o : Buf (Elt F) ((cfg3.win 3).arr.view.loc (c : Thread nD τ))) :
    StableHlo.after hostOps4 (V9o m c o) main_arg0 = m ((c : Thread nD τ).loc main_arg0) :=
  kept_of m c o main_arg0 (by decide) (by decide) (by decide) (by decide) (by decide) (by decide) (by decide) (by decide) (by decide) (by decide)
theorem kept_arg1 (c : Dev nD) (o : Buf (Elt F) ((cfg3.win 3).arr.view.loc (c : Thread nD τ))) :
    StableHlo.after hostOps4 (V9o m c o) main_arg1 = m ((c : Thread nD τ).loc main_arg1) :=
  kept_of m c o main_arg1 (by decide) (by decide) (by decide) (by decide) (by decide) (by decide) (by decide) (by decide) (by decide) (by decide)
theorem kept_arg2 (c : Dev nD) (o : Buf (Elt F) ((cfg3.win 3).arr.view.loc (c : Thread nD τ))) :
    StableHlo.after hostOps4 (V9o m c o) main_arg2 = m ((c : Thread nD τ).loc main_arg2) :=
  kept_of m c o main_arg2 (by decide) (by decide) (by decide) (by decide) (by decide) (by decide) (by decide) (by decide) (by decide) (by decide)
theorem kept_arg3 (c : Dev nD) (o : Buf (Elt F) ((cfg3.win 3).arr.view.loc (c : Thread nD τ))) :
    StableHlo.after hostOps4 (V9o m c o) main_arg3 = m ((c : Thread nD τ).loc main_arg3) :=
  kept_of m c o main_arg3 (by decide) (by decide) (by decide) (by decide) (by decide) (by decide) (by decide) (by decide) (by decide) (by decide)
theorem kept_arg4 (c : Dev nD) (o : Buf (Elt F) ((cfg3.win 3).arr.view.loc (c : Thread nD τ))) :
    StableHlo.after hostOps4 (V9o m c o) main_arg4 = m ((c : Thread nD τ).loc main_arg4) :=
  kept_of m c o main_arg4 (by decide) (by decide) (by decide) (by decide) (by decide) (by decide) (by decide) (by decide) (by decide) (by decide)
theorem kept_arg5 (c : Dev nD) (o : Buf (Elt F) ((cfg3.win 3).arr.view.loc (c : Thread nD τ))) :
    StableHlo.after hostOps4 (V9o m c o) main_arg5 = m ((c : Thread nD τ).loc main_arg5) :=
  kept_of m c o main_arg5 (by decide) (by decide) (by decide) (by decide) (by decide) (by decide) (by decide) (by decide) (by decide) (by decide)
theorem kept_arg6 (c : Dev nD) (o : Buf (Elt F) ((cfg3.win 3).arr.view.loc (c : Thread nD τ))) :
    StableHlo.after hostOps4 (V9o m c o) main_arg6 = m ((c : Thread nD τ).loc main_arg6) :=
  kept_of m c o main_arg6 (by decide) (by decide) (by decide) (by decide) (by decide) (by decide) (by decide) (by decide) (by decide) (by decide)
theorem kept_arg7 (c : Dev nD) (o : Buf (Elt F) ((cfg3.win 3).arr.view.loc (c : Thread nD τ))) :
    StableHlo.after hostOps4 (V9o m c o) main_arg7 = m ((c : Thread nD τ).loc main_arg7) :=
  kept_of m c o main_arg7 (by decide) (by decide) (by decide) (by decide) (by decide) (by decide) (by decide) (by decide) (by decide) (by decide)
theorem kept_arg8 (c : Dev nD) (o : Buf (Elt F) ((cfg3.win 3).arr.view.loc (c : Thread nD τ))) :
    StableHlo.after hostOps4 (V9o m c o) main_arg8 = m ((c : Thread nD τ).loc main_arg8) :=
  kept_of m c o main_arg8 (by decide) (by decide) (by decide) (by decide) (by decide) (by decide) (by decide) (by decide) (by decide) (by decide)
theorem kept_arg9 (c : Dev nD) (o : Buf (Elt F) ((cfg3.win 3).arr.view.loc (c : Thread nD τ))) :
    StableHlo.after hostOps4 (V9o m c o) main_arg9 = m ((c : Thread nD τ).loc main_arg9) :=
  kept_of m c o main_arg9 (by decide) (by decide) (by decide) (by decide) (by decide) (by decide) (by decide) (by decide) (by decide) (by decide)
theorem kept_arg10 (c : Dev nD) (o : Buf (Elt F) ((cfg3.win 3).arr.view.loc (c : Thread nD τ))) :
    StableHlo.after hostOps4 (V9o m c o) main_arg10 = m ((c : Thread nD τ).loc main_arg10) :=
  kept_of m c o main_arg10 (by decide) (by decide) (by decide) (by decide) (by decide) (by decide) (by decide) (by decide) (by decide) (by decide)
theorem kept_arg11 (c : Dev nD) (o : Buf (Elt F) ((cfg3.win 3).arr.view.loc (c : Thread nD τ))) :
    StableHlo.after hostOps4 (V9o m c o) main_arg11 = m ((c : Thread nD τ).loc main_arg11) :=
  kept_of m c o main_arg11 (by decide) (by decide) (by decide) (by decide) (by decide) (by decide) (by decide) (by decide) (by decide) (by decide)
theorem kept_arg12 (c : Dev nD) (o : Buf (Elt F) ((cfg3.win 3).arr.view.loc (c : Thread nD τ))) :
    StableHlo.after hostOps4 (V9o m c o) main_arg12 = m ((c : Thread nD τ).loc main_arg12) :=
  kept_of m c o main_arg12 (by decide) (by decide) (by decide) (by decide) (by decide) (by decide) (by decide) (by decide) (by decide) (by decide)
theorem kept_arg13 (c : Dev nD) (o : Buf (Elt F) ((cfg3.win 3).arr.view.loc (c : Thread nD τ))) :
    StableHlo.after hostOps4 (V9o m c o) main_arg13 = m ((c : Thread nD τ).loc main_arg13) :=
  kept_of m c o main_arg13 (by decide) (by decide) (by decide) (by decide) (by decide) (by decide) (by decide) (by decide) (by decide) (by decide)

/-! ## The attention weights stay where the first call left them -/

/-- Under the last stage's unknowns the first call's first result is what that call leaves there. -/
theorem V3_outs7_v5_0 (c : Dev nD) : V3 m (outs7 m) c main_v5_0 = W3 m c main_v5_0 := by
  simp only [V3, outs7, Function.update_of_ne (StableHlo.devRef_ne_of_ne (by decide) : (Proc.devRef .tc main_v5_0 : DevRef τ sig) ≠ Proc.devRef .tc main_v5_1), Function.update_self]

/-- No later item writes the attention weights: at the end they are what the first call leaves. -/
theorem kept_v5_0_W3 (c : Dev nD) (o : Buf (Elt F) ((cfg3.win 3).arr.view.loc (c : Thread nD τ))) :
    StableHlo.after hostOps4 (V9o m c o) main_v5_0 = W3 m c main_v5_0 :=
  (StableHlo.after_of_writes_sub hostOps4 _ hostOps4_writes (by decide)).trans <| (V9o_of m c o main_v5_0 (by decide)).trans <|
    (V8_of m (outs7 m) c main_v5_0 (by decide)).trans <| (V7_of m (outs7 m) c main_v5_0 (by decide)).trans <|
    (V6_of m (outs7 m) c main_v5_0 (by decide)).trans <| (V5_of m (outs7 m) c main_v5_0 (by decide)).trans <|
    (V4_of m (outs7 m) c main_v5_0 (by decide)).trans <| V3_outs7_v5_0 m c

/-- … which is the first call's attention-weights array after its last write-back. -/
theorem kept_v5_0 (c : Dev nD) (o : Buf (Elt F) ((cfg3.win 3).arr.view.loc (c : Thread nD τ))) :
    StableHlo.after hostOps4 (V9o m c o) main_v5_0 = (dat0 (atTc (V2 m)) c).arrAt 6 cfg0.N :=
  (kept_v5_0_W3 m c o).trans (W3_arr m c 6)

end Cert.Kernel.Hand

end
-- ==== Proof.K.Frame.lean ====
import proofs.«421596_j30159260352787_3_alg».proof.Proof.K.RunR2
import proofs.«421596_j30159260352787_3_alg».proof.Proof.K.Kept

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-! # The frame: every argument array ends as launched

Whatever the last call leaves in the logits array, no item of the program writes an argument, so each argument's buffer is
read off the final valuation back to the launch memory. -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame_of_run
    (rel : (c : Dev nD) → (w : Fin cfg3.W) → Fin cfg3.N → ((cfg3.win w).block.Idx → Elt F (cfg3.win w).elt) → ((cfg3.win w).block.Idx → Elt F (cfg3.win w).elt) → Prop)
    (hbody3 : ∀ c, (rd3 m rel c).BodyObligation (defs₀ (F := F)) Variants.none () Set.univ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    obtain ⟨o, -, hb⟩ := h c
    exact ⟨(hb _ (mem_uc main_arg0 (by decide))).trans (kept_arg0 m c o),
      (hb _ (mem_uc main_arg1 (by decide))).trans (kept_arg1 m c o),
      (hb _ (mem_uc main_arg2 (by decide))).trans (kept_arg2 m c o),
      (hb _ (mem_uc main_arg3 (by decide))).trans (kept_arg3 m c o),
      (hb _ (mem_uc main_arg4 (by decide))).trans (kept_arg4 m c o),
      (hb _ (mem_uc main_arg5 (by decide))).trans (kept_arg5 m c o),
      (hb _ (mem_uc main_arg6 (by decide))).trans (kept_arg6 m c o),
      (hb _ (mem_uc main_arg7 (by decide))).trans (kept_arg7 m c o),
      (hb _ (mem_uc main_arg8 (by decide))).trans (kept_arg8 m c o),
      (hb _ (mem_uc main_arg9 (by decide))).trans (kept_arg9 m c o),
      (hb _ (mem_uc main_arg10 (by decide))).trans (kept_arg10 m c o),
      (hb _ (mem_uc main_arg11 (by decide))).trans (kept_arg11 m c o),
      (hb _ (mem_uc main_arg12 (by decide))).trans (kept_arg12 m c o),
      (hb _ (mem_uc main_arg13 (by decide))).trans (kept_arg13 m c o)⟩)
    (run_all m rel hbody3 ρ)

end Cert.Kernel.Hand

end
-- ==== Proof.K.Reg3a.lean ====
import proofs.«421596_j30159260352787_3_alg».proof.Proof.Gen.Kernel.Launch
import proofs.«421596_j30159260352787_3_alg».proof.Proof.Gen.Kernel.Skeleton
import proofs.«421596_j30159260352787_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The output projection (last pallas_call): seventeen grid points; three input windows (the hidden row, a block of
3072 rows of the projection matrix, the matching block of 3072 bias entries) and one output window (the matching block of
3072 logits). This part: what the body does to whole staging buffers, for any float values. -/

abbrev rH3 : Rect S1x1024 := Rect.unit (s := S1x1024) ![0, 0] S1x1024.size inb_S1x1024_S1x1024_0_0
abbrev rW3 : Rect S3072x1024 := Rect.unit (s := S3072x1024) ![0, 0] S3072x1024.size inb_S3072x1024_S3072x1024_0_0
abbrev rL3 : Rect S1x3072 := Rect.unit (s := S1x3072) ![0, 0] S1x3072.size inb_S1x3072_S1x3072_0_0

/-- The logits' staging buffer after the body: one whole store of the hidden row times the transposed matrix block,
    plus the bias block. -/
def out3_3 (x0 : Vec F S1x1024 .f32) (x1 : Vec F S3072x1024 .f32) (x2 : Vec F S1x3072 .f32) : Vec F S1x3072 .f32 :=
  View.canon [⟨rL3, k3_pay1 (View.ld x0 rH3) (View.ld x1 rW3) (View.ld x2 rL3)⟩]

theorem cover3_3 (p0 : Vec F S1x3072 .f32) (y : S1x3072.Idx) :
    ∃ pc ∈ ([⟨rL3, p0⟩] : List (View.Piece (Elt F) S1x3072 .f32)), y ∈ pc.1.set :=
  View.cover_of_tiled [⟨rL3, p0⟩] S1x3072.size (by rfl) y

set_option maxHeartbeats 1000000 in
/-- The body on whole staging memrefs: the three inputs keep their contents, the output ends at its single store,
    whatever it held. -/
theorem sound_kernel3 (c : Dev nD) (E : Set ℕ) (i : grid3.Coords)
    (arg1 : Memref sig .tc .vmem S1x1024 .f32) (harg1 : arg1.IsWhole) (arg2 : Memref sig .tc .vmem S3072x1024 .f32) (harg2 : arg2.IsWhole)
    (arg3 : Memref sig .tc .vmem S1x3072 .f32) (harg3 : arg3.IsWhole) (arg4 : Memref sig .tc .vmem S1x3072 .f32) (harg4 : arg4.IsWhole)
    (x0 : Vec F S1x1024 .f32) (x1 : Vec F S3072x1024 .f32) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__outproj_kernel i arg1 harg1 arg2 harg2 arg3 harg3 arg4 harg4) K := by
  simp only [cc3__outproj_kernel_eq_skeleton]; unfold cc3__outproj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

end Cert.Kernel.Hand

end
-- ==== Proof.K.Reg3F.lean ====
import proofs.«421596_j30159260352787_3_alg».proof.Proof.K.Segs
import proofs.«421596_j30159260352787_3_alg».proof.Proof.K.Reg3a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The output projection's body, for proof data that say nothing of what it leaves

The body reads its three input buffers and overwrites its output buffer with one store; every buffer it is handed it
hands back whole. With the relation between what a buffer held and what it holds afterwards the one that always
holds, that is the whole obligation: whatever the four buffers hold when the body starts, it runs, the invariant and
the debts (none, and the same at every point) are untouched, and each buffer comes back at some contents. -/

set_option maxHeartbeats 1000000 in
/-- The body at point `t` from the four current buffers at arbitrary contents `Y`: it runs, and gives each buffer back
    at some contents, of which nothing is said. -/
theorem sound_body3_any (c : Dev nD) (t : Fin cfg3.N)
    (Y : (w : Fin cfg3.W) → (cfg3.win w).block.Idx → Elt F (cfg3.win w).elt) :
    iprop((rd3 m (fun _ _ _ _ _ => True) c).Φ t.castSucc ∗ (rd3 m (fun _ _ _ _ _ => True) c).owesAt () t.castSucc
        ∗ owns (c : Thread nD τ) (st3_0 t) fullShare (Y 0)
        ∗ owns (c : Thread nD τ) (st3_1 t) fullShare (Y 1)
        ∗ owns (c : Thread nD τ) (st3_2 t) fullShare (Y 2)
        ∗ owns (c : Thread nD τ) (st3_3 t) fullShare (Y 3))
      ⊢ wp frame (wpE (defs₀ (F := F)) Variants.none c none) Set.univ (bodyAt3 t) (fun _ =>
          iprop((rd3 m (fun _ _ _ _ _ => True) c).Φ t.succ ∗ (rd3 m (fun _ _ _ _ _ => True) c).owesAt () t.succ
            ∗ (∃ X, ⌜(rd3 m (fun _ _ _ _ _ => True) c).after 0 t (Y 0) X⌝ ∗ owns (c : Thread nD τ) (st3_0 t) fullShare X)
            ∗ (∃ X, ⌜(rd3 m (fun _ _ _ _ _ => True) c).after 1 t (Y 1) X⌝ ∗ owns (c : Thread nD τ) (st3_1 t) fullShare X)
            ∗ (∃ X, ⌜(rd3 m (fun _ _ _ _ _ => True) c).after 2 t (Y 2) X⌝ ∗ owns (c : Thread nD τ) (st3_2 t) fullShare X)
            ∗ (∃ X, ⌜(rd3 m (fun _ _ _ _ _ => True) c).after 3 t (Y 3) X⌝ ∗ owns (c : Thread nD τ) (st3_3 t) fullShare X))) := by
  unfold bodyAt3
  rw [show (rd3 m (fun _ _ _ _ _ => True) c).Φ t.succ = (rd3 m (fun _ _ _ _ _ => True) c).Φ t.castSucc from rfl,
    show (rd3 m (fun _ _ _ _ _ => True) c).owesAt () t.succ = (rd3 m (fun _ _ _ _ _ => True) c).owesAt () t.castSucc from rfl]
  iintro ⟨HΦ, Ho, H0, H1, H2, H3⟩
  iapply (sound_kernel3 c Set.univ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  iexists (out3_3 (Y 0) (Y 1) (Y 2)); isplitr; · ipureintro; trivial
  iexact H3

/-- The body obligation of the output projection for the relation that always holds. -/
theorem body_obligation3_any (c : Dev nD) :
    (rd3 m (fun _ _ _ _ _ => True) c).BodyObligation (defs₀ (F := F)) Variants.none () Set.univ := fun t Y _ => by
  rw [bigSep_W3, bigSep_W3]
  exact sound_body3_any m c t Y

end Cert.Kernel.Hand

end
-- ==== Proof.KI.Reg0.lean ====
import proofs.«421596_j30159260352787_3_alg».proof.Proof.Gen.KernelIdeal.Launch
import proofs.«421596_j30159260352787_3_alg».proof.Proof.Gen.KernelIdeal.Skeleton
import proofs.«421596_j30159260352787_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention call (first pallas_call): one grid point; six input windows (the embedded row, the hidden
row, the encoder outputs, the two halves of the attention weights, the attention bias) and two output windows
(the attention weights, the attended encoder row). -/

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S1x1024 := Rect.unit (s := S1x1024) ![0, 0] S1x1024.size inb_S1x1024_S1x1024_0_0
abbrev rB0 : Rect S512x1024 := Rect.unit (s := S512x1024) ![0, 0] S512x1024.size inb_S512x1024_S512x1024_0_0
abbrev rC0 : Rect S1x512 := Rect.unit (s := S1x512) ![0, 0] S1x512.size inb_S1x512_S1x512_0_0

/-- The attention weights' staging buffer after the body: one whole store of the softmax row. -/
def out0_6 (x0 x1 : Vec F S1x1024 .f32) (x3 x4 : Vec F S512x1024 .f32) (x5 : Vec F S1x512 .f32) : Vec F S1x512 .f32 :=
  View.canon [⟨rC0, k0_pay1 (View.ld x0 rA0) (View.ld x1 rA0) (View.ld x3 rB0) (View.ld x4 rB0) (View.ld x5 rC0)⟩]

/-- The attended row's staging buffer after the body: one whole store of the weighted sum of encoder rows. -/
def out0_7 (x0 x1 : Vec F S1x1024 .f32) (x2 x3 x4 : Vec F S512x1024 .f32) (x5 : Vec F S1x512 .f32) : Vec F S1x1024 .f32 :=
  View.canon [⟨rA0, k0_pay2 (View.ld x0 rA0) (View.ld x1 rA0) (View.ld x3 rB0) (View.ld x4 rB0) (View.ld x5 rC0) (View.ld x2 rB0)⟩]

theorem cover0_6 (p0 : Vec F S1x512 .f32) (y : S1x512.Idx) :
    ∃ pc ∈ ([⟨rC0, p0⟩] : List (View.Piece (Elt F) S1x512 .f32)), y ∈ pc.1.set :=
  View.cover_of_tiled [⟨rC0, p0⟩] S1x512.size (by rfl) y
theorem cover0_7 (p0 : Vec F S1x1024 .f32) (y : S1x1024.Idx) :
    ∃ pc ∈ ([⟨rA0, p0⟩] : List (View.Piece (Elt F) S1x1024 .f32)), y ∈ pc.1.set :=
  View.cover_of_tiled [⟨rA0, p0⟩] S1x1024.size (by rfl) y

set_option maxHeartbeats 1000000 in
/-- The body on whole staging memrefs: the inputs keep their contents, each output ends at its single store. -/
theorem sound_kernel0 (c : Dev nD) (E : Set ℕ) (i : grid0.Coords)
    (arg1 : Memref sig .tc .vmem S1x1024 .f32) (harg1 : arg1.IsWhole) (arg2 : Memref sig .tc .vmem S1x1024 .f32) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x1024 .f32) (harg8 : arg8.IsWhole)
    (x0 x1 : Vec F S1x1024 .f32) (x2 x3 x4 : Vec F S512x1024 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x3 x4 x5) ∗ owns (c : Thread nD τ) arg8 fullShare (out0_7 x0 x1 x2 x3 x4 x5)) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The proof data -/

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The proof data of the attention call on core `c`: the arrays as the call finds them; after the body each input
    buffer at its block and each output buffer at its single store over the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 3 t) (iblk0 V c 4 t) (iblk0 V c 5 t) := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«421596_j30159260352787_3_alg».proof.Proof.Gen.KernelIdeal.Launch
import proofs.«421596_j30159260352787_3_alg».proof.Proof.Gen.KernelIdeal.Skeleton
import proofs.«421596_j30159260352787_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combine call (second pallas_call): two grid points, each a tile of 512 output columns. Five input windows
(the embedded row and the attended row, whole at every point; the two halves of the combine weights, 512 rows at a
point; the bias, 512 columns at a point) and one output window (512 columns of the rectified sum). -/

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S1x1024 := Rect.unit (s := S1x1024) ![0, 0] S1x1024.size inb_S1x1024_S1x1024_0_0
abbrev rB1 : Rect S512x1024 := Rect.unit (s := S512x1024) ![0, 0] S512x1024.size inb_S512x1024_S512x1024_0_0
abbrev rC1 : Rect S1x512 := Rect.unit (s := S1x512) ![0, 0] S1x512.size inb_S1x512_S1x512_0_0

/-- The output tile's staging buffer after the body: one whole store of the rectified sum of the two products and the bias. -/
def out1_5 (x0 x1 : Vec F S1x1024 .f32) (x2 x3 : Vec F S512x1024 .f32) (x4 : Vec F S1x512 .f32) : Vec F S1x512 .f32 :=
  View.canon [⟨rC1, k1_pay1 (View.ld x0 rA1) (View.ld x1 rA1) (View.ld x2 rB1) (View.ld x3 rB1) (View.ld x4 rC1)⟩]

theorem cover1_5 (p0 : Vec F S1x512 .f32) (y : S1x512.Idx) :
    ∃ pc ∈ ([⟨rC1, p0⟩] : List (View.Piece (Elt F) S1x512 .f32)), y ∈ pc.1.set :=
  View.cover_of_tiled [⟨rC1, p0⟩] S1x512.size (by rfl) y

set_option maxHeartbeats 1000000 in
/-- The body on whole staging memrefs: the inputs keep their contents, the output ends at its single store. -/
theorem sound_kernel1 (c : Dev nD) (E : Set ℕ) (i : grid1.Coords)
    (arg1 : Memref sig .tc .vmem S1x1024 .f32) (harg1 : arg1.IsWhole) (arg2 : Memref sig .tc .vmem S1x1024 .f32) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x512 .f32) (harg5 : arg5.IsWhole) (arg6 : Memref sig .tc .vmem S1x512 .f32) (harg6 : arg6.IsWhole)
    (x0 x1 : Vec F S1x1024 .f32) (x2 x3 : Vec F S512x1024 .f32) (x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__comb_kernel i arg1 harg1 arg2 harg2 arg3 harg3 arg4 harg4 arg5 harg5 arg6 harg6) K := by
  simp only [cc1__comb_kernel_eq_skeleton]; unfold cc1__comb_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data -/

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The proof data of the combine call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«421596_j30159260352787_3_alg».proof.Proof.Gen.KernelIdeal.Launch
import proofs.«421596_j30159260352787_3_alg».proof.Proof.Gen.KernelIdeal.Skeleton
import proofs.«421596_j30159260352787_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gate pre-activation call (third pallas_call): six grid points, each a tile of 512 of the 3072 gate
columns. Six input windows (the combined row and the hidden row, whole at every point; 512 rows of each of the two
weight matrices; 512 columns of each of the two biases) and two output windows (512 columns of each product plus
its bias). -/

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S1x1024 := Rect.unit (s := S1x1024) ![0, 0] S1x1024.size inb_S1x1024_S1x1024_0_0
abbrev rB2 : Rect S512x1024 := Rect.unit (s := S512x1024) ![0, 0] S512x1024.size inb_S512x1024_S512x1024_0_0
abbrev rC2 : Rect S1x512 := Rect.unit (s := S1x512) ![0, 0] S1x512.size inb_S1x512_S1x512_0_0

/-- The input-side gate tile after the body: the combined row times the weight tile, plus the bias tile. -/
def out2_6 (x0 : Vec F S1x1024 .f32) (x2 : Vec F S512x1024 .f32) (x4 : Vec F S1x512 .f32) : Vec F S1x512 .f32 :=
  View.canon [⟨rC2, k2_pay1 (View.ld x0 rA2) (View.ld x2 rB2) (View.ld x4 rC2)⟩]

/-- The hidden-side gate tile after the body: the hidden row times the weight tile, plus the bias tile. -/
def out2_7 (x1 : Vec F S1x1024 .f32) (x3 : Vec F S512x1024 .f32) (x5 : Vec F S1x512 .f32) : Vec F S1x512 .f32 :=
  View.canon [⟨rC2, k2_pay2 (View.ld x1 rA2) (View.ld x3 rB2) (View.ld x5 rC2)⟩]

theorem cover2_6 (p0 : Vec F S1x512 .f32) (y : S1x512.Idx) :
    ∃ pc ∈ ([⟨rC2, p0⟩] : List (View.Piece (Elt F) S1x512 .f32)), y ∈ pc.1.set :=
  View.cover_of_tiled [⟨rC2, p0⟩] S1x512.size (by rfl) y

set_option maxHeartbeats 1000000 in
/-- The body on whole staging memrefs: the inputs keep their contents, each output ends at its single store. -/
theorem sound_kernel2 (c : Dev nD) (E : Set ℕ) (i : grid2.Coords)
    (arg1 : Memref sig .tc .vmem S1x1024 .f32) (harg1 : arg1.IsWhole) (arg2 : Memref sig .tc .vmem S1x1024 .f32) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (x0 x1 : Vec F S1x1024 .f32) (x2 x3 : Vec F S512x1024 .f32) (x4 x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x2 x4) ∗ owns (c : Thread nD τ) arg8 fullShare (out2_7 x1 x3 x5)) -∗ K ⟨⟩))
      ⊢ wp frame (wpE (defs₀ (F := F)) Variants.none c none) E (cc2__gru_kernel i arg1 harg1 arg2 harg2 arg3 harg3 arg4 harg4 arg5 harg5 arg6 harg6 arg7 harg7 arg8 harg8) K := by
  simp only [cc2__gru_kernel_eq_skeleton]; unfold cc2__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_6 _)

/-! ## The proof data -/

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The proof data of the gate pre-activation call on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 2 t) (iblk2 V c 4 t)
    | ⟨7, _⟩ => out2_7 (iblk2 V c 1 t) (iblk2 V c 3 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 2 t) (iblk2 V c 4 t) := by dsimp only [dat2]
theorem after2_7 (c : Dev nD) (t : Fin cfg2.N) : (dat2 V c).after 7 t
    = out2_7 (iblk2 V c 1 t) (iblk2 V c 3 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Segs.lean ====
import proofs.«421596_j30159260352787_3_alg».proof.Proof.KI.Reg0
import proofs.«421596_j30159260352787_3_alg».proof.Proof.KI.Reg1
import proofs.«421596_j30159260352787_3_alg».proof.Proof.KI.Reg2
import proofs.«421596_j30159260352787_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c b

/-- No core owes another anything: no level is assigned. -/
abbrev L0 : GSem nD τ sig → Finset Unit := fun _ => ∅
abbrev lv0 : GSem nD τ sig → Unit → ℕ := fun _ _ => 0

/-- What rides beside the buffers through every item of the program: the core's generator register at some state and
    its debts, none. -/
abbrev Rr (c : Dev nD) : sProp 𝕄 := iprop((∃ r, prngReg c r) ∗ ∃ W, owes (c : Thread nD τ) (0 : CellTallies nD τ sig Unit) W)

/-! ## What each call leaves: its arrays after the last write-back, every other buffer as it was -/

/-- After the attention call. -/
def W3 (c : Dev nD) : Valuation τ sig (Elt F) :=
  Pipeline.withArrays spec0 c (V2 m c) fun w => (dat0 (atTc (V2 m)) c).arrAt w cfg0.N
/-- The unknowns of the conditional frame, as far as the attention call: what it leaves, at every reference. -/
def outs3 : Outs (F := F) := fun _ r c => W3 m c r

/-- After the combine call. -/
def W5 (c : Dev nD) : Valuation τ sig (Elt F) :=
  Pipeline.withArrays spec1 c (V4 m (outs3 m) c) fun w => (dat1 (atTc (V4 m (outs3 m))) c).arrAt w cfg1.N
def outs5 : Outs (F := F) := fun J r c => match J with
  | 3 => W3 m c r
  | _ => W5 m c r

/-- After the gate pre-activation call. -/
def W7 (c : Dev nD) : Valuation τ sig (Elt F) :=
  Pipeline.withArrays spec2 c (V6 m (outs5 m) c) fun w => (dat2 (atTc (V6 m (outs5 m))) c).arrAt w cfg2.N
def outs7 : Outs (F := F) := fun J r c => match J with
  | 3 => W3 m c r
  | 5 => W5 m c r
  | _ => W7 m c r

theorem W3_arr (c : Dev nD) (w : Fin cfg0.W) :
    W3 m c (Proc.devRef .tc (Pipeline.arrRef spec0 w)) = (dat0 (atTc (V2 m)) c).arrAt w cfg0.N := by
  unfold W3; exact Pipeline.withArrays_arr spec0 launch0.win.arr_inj c _ _ w
theorem W5_arr (c : Dev nD) (w : Fin cfg1.W) :
    W5 m c (Proc.devRef .tc (Pipeline.arrRef spec1 w)) = (dat1 (atTc (V4 m (outs3 m))) c).arrAt w cfg1.N := by
  unfold W5; exact Pipeline.withArrays_arr spec1 launch1.win.arr_inj c _ _ w
theorem W7_arr (c : Dev nD) (w : Fin cfg2.W) :
    W7 m c (Proc.devRef .tc (Pipeline.arrRef spec2 w)) = (dat2 (atTc (V6 m (outs5 m))) c).arrAt w cfg2.N := by
  unfold W7; exact Pipeline.withArrays_arr spec2 launch2.win.arr_inj c _ _ w

/-! ## The proof data of the four calls, read as constraints

The last call's windows overhang their arrays, and what its body computes from the words past an array's end is
not named: its proof data are relational, with the relation `rel` between what the body is handed and what it leaves
a parameter (nothing for a frame; the exact contents' for a value). -/

variable (rel : (c : Dev nD) → (w : Fin cfg3.W) → Fin cfg3.N → ((cfg3.win w).block.Idx → Elt F (cfg3.win w).elt) → ((cfg3.win w).block.Idx → Elt F (cfg3.win w).elt) → Prop)

/-- The output-projection call's proof data on core `c`: the arrays as the call finds them, the invariant the plain
    one, nothing owed, and of what the body leaves only `rel`. -/
def rd3 (c : Dev nD) : Pipeline.RDat τ (Elt F) Unit ℕ (UR sig nD τ) ℕ cfg3 c where
  A w := V8 m (outs7 m) c (Pipeline.arrRef spec3 w)
  after w t Y X := rel c w t Y X
  Φ _ := Pipeline.ΦA spec3 c
  q _ := fullShare
  owed _ := 0

/-- Every call's proof data, each at its entry contents. -/
def rdats : (p : Fin 4) → (c : Dev nD) → Pipeline.RDat τ (Elt F) Unit ℕ (UR sig nD τ) ℕ (Pipeline.pin (pcfgs (F := F)) adm p) c
  | ⟨0, _⟩ => fun c => (dat0 (atTc (V2 m)) c).toR
  | ⟨1, _⟩ => fun c => (dat1 (atTc (V4 m (outs3 m))) c).toR
  | ⟨2, _⟩ => fun c => (dat2 (atTc (V6 m (outs5 m))) c).toR
  | ⟨3, _⟩ => fun c => rd3 m rel c

/-! ## What a call's exit puts back among the unscoped buffers -/

/-- Off the two arrays the attention call writes, what it leaves is what it found: an input window's array is never
    written back, and a buffer that is no window's array is not touched. -/
theorem W3_of (c : Dev nD) (b : Ref sig .tc) (h0 : b ≠ main_v5_0) (h1 : b ≠ main_v5_1) : W3 m c b = V2 m c b := by
  by_cases h : ∃ w, Pipeline.arrRef spec0 w = b
  · obtain ⟨w, rfl⟩ := h
    have hin : (cfg0.win w).isOut = false := by
      revert h0 h1; revert w; decide
    rw [W3_arr]
    exact ((dat0 (atTc (V2 m)) c).arrAt_in w hin _).trans (A_eq0 _ c w)
  · unfold W3
    exact Pipeline.withArrays_of_ne spec0 c _ _ b fun w e => h ⟨w, e⟩

theorem V3_eq_W3 (c : Dev nD) (b : Ref sig .tc) : V3 m (outs3 m) c b = W3 m c b := by
  by_cases h1 : b = main_v5_1
  · subst h1; simp only [V3, outs3, Function.update_self]
  · by_cases h0 : b = main_v5_0
    · subst h0
      simp only [V3, outs3, Function.update_of_ne (StableHlo.devRef_ne_of_ne (by decide) : (Proc.devRef .tc main_v5_0 : DevRef τ sig) ≠ Proc.devRef .tc main_v5_1), Function.update_self]
    · rw [V3_of m (outs3 m) c b (by simp only [List.mem_cons, List.not_mem_nil, or_false]; exact fun h => h.elim h0 h1)]
      exact (W3_of m c b h0 h1).symm

theorem hF0 (c : Dev nD) (w : Fin cfg0.W) :
    (dat0 (atTc (V2 m)) c).arrAt w cfg0.N = V3 m (outs3 m) c (Pipeline.arrRef spec0 w) :=
  (W3_arr m c w).symm.trans (V3_eq_W3 m c _).symm

theorem hrest0 (c : Dev nD) : ∀ b, b ∉ Finset.univ.image (Pipeline.arrRef spec0) → V3 m (outs3 m) c b = V2 m c b :=
  fun b hb => (V3_eq_W3 m c b).trans (W3_of m c b
    (fun e => hb (Finset.mem_image.mpr ⟨6, Finset.mem_univ _, e.symm⟩))
    (fun e => hb (Finset.mem_image.mpr ⟨7, Finset.mem_univ _, e.symm⟩)))

/-! ## A call's arrays back among the core's unscoped buffers -/

/-- Pipeline `p`'s arrays at contents `G` and the unscoped rest at `V` are the core's unscoped buffers at any valuation
    `V'` that has the arrays at `G` and agrees with `V` off them. -/
theorem bufs_of_arraysR {p : Fin 4} (hw : Pipeline.WinFacts (Pipeline.pin (pcfgs (F := F)) adm p).spec)
    (harr : ∀ w, ((Pipeline.pin (pcfgs (F := F)) adm p).spec w).arr.IsWhole)
    (c : Dev nD) (hshare : ∀ w, (rdats m rel p c).share w = fullShare)
    (V V' : (b : Ref sig .tc) → Buf (Elt F) ((c : Thread nD τ).loc b))
    (G : (w : Fin (Pipeline.pin (pcfgs (F := F)) adm p).W) → Buf (Elt F) (((Pipeline.pin (pcfgs (F := F)) adm p).spec w).arr.view.loc (c : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m rel p c).arrays G ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m rel) p c harr hshare]
  refine sep_mono (Entails.of_eq (bigSep_congr fun w _ => by rw [hG])) (Entails.of_eq ?_)
  unfold Pipeline.unscopedRest
  exact bigSep_congr fun b hb => by rw [hrest b (Finset.mem_sdiff.mp hb).2]

/-! ## The calls as segments of the program -/

-- unification of the library's lemmas with the pinned configuration unfolds plain definitions in a metavariable's type
set_option backward.isDefEq.respectTransparency.types false in
/-- Call 0 over the thread state: entered with every unscoped buffer at its contents before the call, left with the
    call's arrays at what its write-backs leave and every other buffer as it was; the generator register goes into the
    call's invariant and comes back; nothing is owed; the kernel has no semaphore of its own. -/
def reg0 : Pipeline.RDat.RegionSeg (pcfgs (F := F)) adm (rdats m rel) () defs₀ Variants.none L0 lv0 0 where
  win := launch0.win.to₀
  block_pos := launch0.block_pos
  stage_whole := launch0.stage_whole
  K := PEmpty
  osem k := k.elim
  ho := Pipeline.OwnSemFacts.none _
  hbody c := ((body_obligation0 (atTc (V2 m)) c).loose).toR
  hwaits := Pipeline.RDat.hwaits_of_owed_zero _ _ _ _ L0 lv0 0 fun _ _ => rfl
  pre c := iprop(StableHlo.held (c : Thread nD τ) (Pipeline.ucRefs τ sig) (V2 m c) ∗ Rr c)
  post c := iprop(StableHlo.held (c : Thread nD τ) (Pipeline.ucRefs τ sig) (V3 m (outs3 m) c) ∗ Rr c)
  X c := iprop(∃ r, prngReg c r)
  Y c := iprop(∃ r, prngReg c r)
  Z c := Pipeline.unscopedRest (Ix := Unit) (Name := ℕ) (U := UR sig nD τ) (Lvl := ℕ) spec0 c (atTc (V2 m) c)
  hentry c := by
    rw [Pipeline.ownSems0_none]
    have hsplit := Pipeline.RDat.arrays_of_unscopedBufs (p := 0) (pcfgs (F := F)) adm (rdats m rel) launch0.win launch0.arr_whole c
      (fun w => by show (if _ then _ else _) = _; split <;> rfl) (atTc (V2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m rel 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m rel 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_of_arraysR m rel (p := 0) launch0.win launch0.arr_whole c
      (fun w => by show (if _ then _ else _) = _; split <;> rfl)
      (atTc (V2 m) c) (atTc (V3 m (outs3 m)) c) ((dat0 (atTc (V2 m)) c).arrAt · cfg0.N) (hF0 m c) (hrest0 m c)
    rw [Pipeline.unscopedBufs_held] at hjoin
    rw [show (rdats m rel 0 c).arraysAt (Pipeline.pin (pcfgs (F := F)) adm 0).N = (rdats m rel 0 c).arrays ((dat0 (atTc (V2 m)) c).arrAt · cfg0.N)
      from (dat0 (atTc (V2 m)) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ### The combine call -/

theorem W5_of (c : Dev nD) (b : Ref sig .tc) (h0 : b ≠ main_v9) : W5 m c b = V4 m (outs3 m) c b := by
  by_cases h : ∃ w, Pipeline.arrRef spec1 w = b
  · obtain ⟨w, rfl⟩ := h
    have hin : (cfg1.win w).isOut = false := by
      revert h0; revert w; decide
    rw [W5_arr]
    exact ((dat1 (atTc (V4 m (outs3 m))) c).arrAt_in w hin _).trans (A_eq1 _ c w)
  · unfold W5
    exact Pipeline.withArrays_of_ne spec1 c _ _ b fun w e => h ⟨w, e⟩

theorem V5_eq_W5 (c : Dev nD) (b : Ref sig .tc) : V5 m (outs5 m) c b = W5 m c b := by
  by_cases h0 : b = main_v9
  · subst h0; simp only [V5, outs5, Function.update_self]
  · rw [V5_of m (outs5 m) c b (by simp only [List.mem_cons, List.not_mem_nil, or_false]; exact h0)]
    exact (W5_of m c b h0).symm

theorem hF1 (c : Dev nD) (w : Fin cfg1.W) :
    (dat1 (atTc (V4 m (outs3 m))) c).arrAt w cfg1.N = V5 m (outs5 m) c (Pipeline.arrRef spec1 w) :=
  (W5_arr m c w).symm.trans (V5_eq_W5 m c _).symm

theorem hrest1 (c : Dev nD) : ∀ b, b ∉ Finset.univ.image (Pipeline.arrRef spec1) → V5 m (outs5 m) c b = V4 m (outs3 m) c b :=
  fun b hb => (V5_eq_W5 m c b).trans (W5_of m c b
    (fun e => hb (Finset.mem_image.mpr ⟨5, Finset.mem_univ _, e.symm⟩)))

-- unification of the library's lemmas with the pinned configuration unfolds plain definitions in a metavariable's type
set_option backward.isDefEq.respectTransparency.types false in
/-- The combine call over the thread state: entered with every unscoped buffer at its contents before the call, left
    with the call's arrays at what its write-backs leave and every other buffer as it was. -/
def reg1 : Pipeline.RDat.RegionSeg (pcfgs (F := F)) adm (rdats m rel) () defs₀ Variants.none L0 lv0 1 where
  win := launch1.win.to₀
  block_pos := launch1.block_pos
  stage_whole := launch1.stage_whole
  K := PEmpty
  osem k := k.elim
  ho := Pipeline.OwnSemFacts.none _
  hbody c := ((body_obligation1 (atTc (V4 m (outs3 m))) c).loose).toR
  hwaits := Pipeline.RDat.hwaits_of_owed_zero _ _ _ _ L0 lv0 1 fun _ _ => rfl
  pre c := iprop(StableHlo.held (c : Thread nD τ) (Pipeline.ucRefs τ sig) (V4 m (outs3 m) c) ∗ Rr c)
  post c := iprop(StableHlo.held (c : Thread nD τ) (Pipeline.ucRefs τ sig) (V5 m (outs5 m) c) ∗ Rr c)
  X c := iprop(∃ r, prngReg c r)
  Y c := iprop(∃ r, prngReg c r)
  Z c := Pipeline.unscopedRest (Ix := Unit) (Name := ℕ) (U := UR sig nD τ) (Lvl := ℕ) spec1 c (atTc (V4 m (outs3 m)) c)
  hentry c := by
    rw [Pipeline.ownSems0_none]
    have hsplit := Pipeline.RDat.arrays_of_unscopedBufs (p := 1) (pcfgs (F := F)) adm (rdats m rel) launch1.win launch1.arr_whole c
      (fun w => by show (if _ then _ else _) = _; split <;> rfl) (atTc (V4 m (outs3 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m rel 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m rel 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := bufs_of_arraysR m rel (p := 1) launch1.win launch1.arr_whole c
      (fun w => by show (if _ then _ else _) = _; split <;> rfl)
      (atTc (V4 m (outs3 m)) c) (atTc (V5 m (outs5 m)) c) ((dat1 (atTc (V4 m (outs3 m))) c).arrAt · cfg1.N) (hF1 m c) (hrest1 m c)
    rw [Pipeline.unscopedBufs_held] at hjoin
    rw [show (rdats m rel 1 c).arraysAt (Pipeline.pin (pcfgs (F := F)) adm 1).N = (rdats m rel 1 c).arrays ((dat1 (atTc (V4 m (outs3 m))) c).arrAt · cfg1.N)
      from (dat1 (atTc (V4 m (outs3 m))) c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ### The gate pre-activation call -/

theorem W7_of (c : Dev nD) (b : Ref sig .tc) (h0 : b ≠ main_v12_0) (h1 : b ≠ main_v12_1) : W7 m c b = V6 m (outs5 m) c b := by
  by_cases h : ∃ w, Pipeline.arrRef spec2 w = b
  · obtain ⟨w, rfl⟩ := h
    have hin : (cfg2.win w).isOut = false := by
      revert h0 h1; revert w; decide
    rw [W7_arr]
    exact ((dat2 (atTc (V6 m (outs5 m))) c).arrAt_in w hin _).trans (A_eq2 _ c w)
  · unfold W7
    exact Pipeline.withArrays_of_ne spec2 c _ _ b fun w e => h ⟨w, e⟩

theorem V7_eq_W7 (c : Dev nD) (b : Ref sig .tc) : V7 m (outs7 m) c b = W7 m c b := by
  by_cases h1 : b = main_v12_1
  · subst h1; simp only [V7, outs7, Function.update_self]
  · by_cases h0 : b = main_v12_0
    · subst h0
      simp only [V7, outs7, Function.update_of_ne (StableHlo.devRef_ne_of_ne (by decide) : (Proc.devRef .tc main_v12_0 : DevRef τ sig) ≠ Proc.devRef .tc main_v12_1), Function.update_self]
    · rw [V7_of m (outs7 m) c b (by simp only [List.mem_cons, List.not_mem_nil, or_false]; exact fun h => h.elim h0 h1)]
      exact (W7_of m c b h0 h1).symm

theorem hF2 (c : Dev nD) (w : Fin cfg2.W) :
    (dat2 (atTc (V6 m (outs5 m))) c).arrAt w cfg2.N = V7 m (outs7 m) c (Pipeline.arrRef spec2 w) :=
  (W7_arr m c w).symm.trans (V7_eq_W7 m c _).symm

theorem hrest2 (c : Dev nD) : ∀ b, b ∉ Finset.univ.image (Pipeline.arrRef spec2) → V7 m (outs7 m) c b = V6 m (outs5 m) c b :=
  fun b hb => (V7_eq_W7 m c b).trans (W7_of m c b
    (fun e => hb (Finset.mem_image.mpr ⟨6, Finset.mem_univ _, e.symm⟩))
    (fun e => hb (Finset.mem_image.mpr ⟨7, Finset.mem_univ _, e.symm⟩)))

-- unification of the library's lemmas with the pinned configuration unfolds plain definitions in a metavariable's type
set_option backward.isDefEq.respectTransparency.types false in
/-- The gate pre-activation call over the thread state. -/
def reg2 : Pipeline.RDat.RegionSeg (pcfgs (F := F)) adm (rdats m rel) () defs₀ Variants.none L0 lv0 2 where
  win := launch2.win.to₀
  block_pos := launch2.block_pos
  stage_whole := launch2.stage_whole
  K := PEmpty
  osem k := k.elim
  ho := Pipeline.OwnSemFacts.none _
  hbody c := ((body_obligation2 (atTc (V6 m (outs5 m))) c).loose).toR
  hwaits := Pipeline.RDat.hwaits_of_owed_zero _ _ _ _ L0 lv0 2 fun _ _ => rfl
  pre c := iprop(StableHlo.held (c : Thread nD τ) (Pipeline.ucRefs τ sig) (V6 m (outs5 m) c) ∗ Rr c)
  post c := iprop(StableHlo.held (c : Thread nD τ) (Pipeline.ucRefs τ sig) (V7 m (outs7 m) c) ∗ Rr c)
  X c := iprop(∃ r, prngReg c r)
  Y c := iprop(∃ r, prngReg c r)
  Z c := Pipeline.unscopedRest (Ix := Unit) (Name := ℕ) (U := UR sig nD τ) (Lvl := ℕ) spec2 c (atTc (V6 m (outs5 m)) c)
  hentry c := by
    rw [Pipeline.ownSems0_none]
    have hsplit := Pipeline.RDat.arrays_of_unscopedBufs (p := 2) (pcfgs (F := F)) adm (rdats m rel) launch2.win launch2.arr_whole c
      (fun w => by show (if _ then _ else _) = _; split <;> rfl) (atTc (V6 m (outs5 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m rel 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m rel 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := bufs_of_arraysR m rel (p := 2) launch2.win launch2.arr_whole c
      (fun w => by show (if _ then _ else _) = _; split <;> rfl)
      (atTc (V6 m (outs5 m)) c) (atTc (V7 m (outs7 m)) c) ((dat2 (atTc (V6 m (outs5 m))) c).arrAt · cfg2.N) (hF2 m c) (hrest2 m c)
    rw [Pipeline.unscopedBufs_held] at hjoin
    rw [show (rdats m rel 2 c).arraysAt (Pipeline.pin (pcfgs (F := F)) adm 2).N = (rdats m rel 2 c).arrays ((dat2 (atTc (V6 m (outs5 m))) c).arrAt · cfg2.N)
      from (dat2 (atTc (V6 m (outs5 m))) c).toR_arraysAt_eq cfg2.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

end Cert.KernelIdeal.Hand

end
-- ==== Proof.KI.RunR0.lean ====
import proofs.«421596_j30159260352787_3_alg».proof.Proof.KI.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (rel : (c : Dev nD) → (w : Fin cfg3.W) → Fin cfg3.N → ((cfg3.win w).block.Idx → Elt F (cfg3.win w).elt) → ((cfg3.win w).block.Idx → Elt F (cfg3.win w).elt) → Prop)

/-! # The contents after the last call

The output-projection call's logits array ends at SOME contents its proof data allow (`o`, with
`(rd3 m rel c).ArrAt 3 cfg3.N o`); the thread state after it, and through the closing log-softmax stretch, is stated
for that unknown. -/

/-- Core `c`'s unscoped buffers after the last call, the logits array at `o`. -/
abbrev V9o (c : Dev nD) (o : Buf (Elt F) ((cfg3.win 3).arr.view.loc (c : Thread nD τ))) : Valuation τ sig (Elt F) :=
  Function.update (V8 m (outs7 m) c) (Proc.devRef .tc (Pipeline.arrRef spec3 3)) o

/-- What the logits array may hold after the last call. -/
abbrev Logits (c : Dev nD) (o : Buf (Elt F) ((cfg3.win 3).arr.view.loc (c : Thread nD τ))) : Prop :=
  (rd3 m rel c).ArrAt 3 cfg3.N o

theorem V9o_of (c : Dev nD) (o) (b : Ref sig .tc) (h : b ≠ main_v42) : V9o m c o b = V8 m (outs7 m) c b := by
  have h' : b ≠ Pipeline.arrRef spec3 3 := h
  simp only [V9o, Function.update_of_ne (StableHlo.devRef_ne_of_ne h' : (Proc.devRef .tc b : DevRef τ sig) ≠ Proc.devRef .tc (Pipeline.arrRef spec3 3))]

theorem V9o_self (c : Dev nD) (o) : V9o m c o (Proc.devRef .tc (Pipeline.arrRef spec3 3)) = o := by
  simp only [V9o, Function.update_self]

end Cert.KernelIdeal.Hand

end
-- ==== Proof.KI.RunR1.lean ====
import proofs.«421596_j30159260352787_3_alg».proof.Proof.KI.RunR0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (rel : (c : Dev nD) → (w : Fin cfg3.W) → Fin cfg3.N → ((cfg3.win w).block.Idx → Elt F (cfg3.win w).elt) → ((cfg3.win w).block.Idx → Elt F (cfg3.win w).elt) → Prop)

/-! # The last call and the closing stretch, over the unknown logits -/

/-! ## The last call as a segment -/

theorem hrest3 (c : Dev nD) (o) : ∀ b, b ∉ Finset.univ.image (Pipeline.arrRef spec3) → V9o m c o b = V8 m (outs7 m) c b :=
  fun b hb => V9o_of m c o b (fun e => hb (Finset.mem_image.mpr ⟨3, Finset.mem_univ _, e.symm⟩))

variable (hbody3 : ∀ c, (rd3 m rel c).BodyObligation (defs₀ (F := F)) Variants.none () Set.univ)

-- unification of the library's lemmas with the pinned configuration unfolds plain definitions in a metavariable's type
set_option maxHeartbeats 2000000 in
set_option backward.isDefEq.respectTransparency.types false in
/-- The output-projection call over the thread state: entered with every unscoped buffer at its contents before the
    call; left with the logits array at SOME contents the proof data allow, the three input arrays as they were (an
    input array is never written back), every other buffer as it was. -/
def reg3 : Pipeline.RDat.RegionSeg (pcfgs (F := F)) adm (rdats m rel) () defs₀ Variants.none L0 lv0 3 where
  win := launch3.win.to₀
  block_pos := launch3.block_pos
  stage_whole := launch3.stage_whole
  K := PEmpty
  osem k := k.elim
  ho := Pipeline.OwnSemFacts.none _
  hbody c := hbody3 c
  hwaits := Pipeline.RDat.hwaits_of_owed_zero _ _ _ _ L0 lv0 3 fun _ _ => rfl
  pre c := iprop(StableHlo.held (c : Thread nD τ) (Pipeline.ucRefs τ sig) (V8 m (outs7 m) c) ∗ Rr c)
  post c := iprop(∃ o, ⌜Logits m rel c o⌝ ∗ StableHlo.held (c : Thread nD τ) (Pipeline.ucRefs τ sig) (V9o m c o) ∗ Rr c)
  X c := iprop(∃ r, prngReg c r)
  Y c := iprop(∃ r, prngReg c r)
  Z c := Pipeline.unscopedRest (Ix := Unit) (Name := ℕ) (U := UR sig nD τ) (Lvl := ℕ) spec3 c (atTc (V8 m (outs7 m)) c)
  hentry c := by
    rw [Pipeline.ownSems0_none]
    have hsplit := Pipeline.RDat.arrays_of_unscopedBufs (p := 3) (pcfgs (F := F)) adm (rdats m rel) launch3.win launch3.arr_whole c
      (fun w => by show (if _ then _ else _) = _; split <;> rfl) (atTc (V8 m (outs7 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m rel 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m rel 3 c).Φ (Fin.last _) = Pipeline.ΦA spec3 c from rfl]; unfold Pipeline.ΦA
    iintro ⟨Hr, Hp⟩
    isplitl [Hp]; · iexact Hp
    isplitr; · iempintro
    iexact Hr
  hexit c := by
    show iprop((rd3 m rel c).arraysAt cfg3.N ∗ _ ∗ _ ∗ _) ⊢ _
    unfold Pipeline.RDat.arraysAt
    rw [bigSep_W3]
    iintro ⟨⟨⟨%G0, %h0, H0⟩, ⟨%G1, %h1, H1⟩, ⟨%G2, %h2, H2⟩, ⟨%G3, %h3, H3⟩⟩, HO, HY, Hrest⟩
    rw [(rd3 m rel c).ArrAt_in 0 rfl] at h0
    rw [(rd3 m rel c).ArrAt_in 1 rfl] at h1
    rw [(rd3 m rel c).ArrAt_in 2 rfl] at h2
    subst h0; subst h1; subst h2
    have hjoin := bufs_of_arraysR m rel (p := 3) launch3.win launch3.arr_whole c
      (fun w => by show (if _ then _ else _) = _; split <;> rfl)
      (atTc (V8 m (outs7 m)) c) (fun b => V9o m c G3 b) (fun w => V9o m c G3 (Pipeline.arrRef spec3 w)) (fun _ => rfl) (hrest3 m c G3)
    rw [Pipeline.unscopedBufs_held] at hjoin
    have e0 : V9o m c G3 (Pipeline.arrRef spec3 0) = (rd3 m rel c).A 0 := V9o_of m c G3 _ (by decide)
    have e1 : V9o m c G3 (Pipeline.arrRef spec3 1) = (rd3 m rel c).A 1 := V9o_of m c G3 _ (by decide)
    have e2 : V9o m c G3 (Pipeline.arrRef spec3 2) = (rd3 m rel c).A 2 := V9o_of m c G3 _ (by decide)
    have e3 : V9o m c G3 (Pipeline.arrRef spec3 3) = G3 := V9o_self m c G3
    have harr : (iprop(((cfg3.win 0).arr.view.loc (c : Thread nD τ) ↦[(cfg3.win 0).arr.view.set]{(rd3 m rel c).share 0} (rd3 m rel c).A 0)
          ∗ ((cfg3.win 1).arr.view.loc (c : Thread nD τ) ↦[(cfg3.win 1).arr.view.set]{(rd3 m rel c).share 1} (rd3 m rel c).A 1)
          ∗ ((cfg3.win 2).arr.view.loc (c : Thread nD τ) ↦[(cfg3.win 2).arr.view.set]{(rd3 m rel c).share 2} (rd3 m rel c).A 2)
          ∗ ((cfg3.win 3).arr.view.loc (c : Thread nD τ) ↦[(cfg3.win 3).arr.view.set]{(rd3 m rel c).share 3} G3)) : sProp 𝕄)
        ⊢ (rd3 m rel c).arrays (fun w => V9o m c G3 (Pipeline.arrRef spec3 w)) := by
      unfold Pipeline.RDat.arrays
      rw [bigSep_W3]
      dsimp only
      rw [e0, e1, e2, e3]
    imodintro
    iexists G3
    isplitr; · ipureintro; exact h3
    isplitl [H0 H1 H2 H3 Hrest]
    · iapply hjoin
      isplitl [H0 H1 H2 H3]
      · iapply harr
        isplitl [H0]; · iexact H0
        isplitl [H1]; · iexact H1
        isplitl [H2]; · iexact H2
        iexact H3
      · iexact Hrest
    isplitl [HY]; · iexact HY
    unfold Pipeline.RDat.owesAt Pipeline.owesWithin
    icases HO with ⟨%W, -, HO⟩; iexists W; iexact HO

/-! ## The closing stretch, from the unknown logits -/

-- the StableHLO rule, stated for any thread, unifies at the TensorCore thread only when unification may unfold plain
-- definitions in a metavariable's type
set_option backward.isDefEq.respectTransparency.types false in
/-- The closing log-softmax stretch, entered with the logits array at some contents the last call's proof data allow
    and left with every unscoped buffer at the stretch's fold over those contents. -/
def seg9x : Pipeline.HostSeg (Ix := Unit) (Name := ℕ) (U := UR sig nD τ) (Lvl := ℕ) (pcfgs (F := F)) defs₀ Variants.none L0 lv0 where
  prog := StableHlo.seq hostOps4
  pre c := iprop(∃ o, ⌜Logits m rel c o⌝ ∗ StableHlo.held (c : Thread nD τ) (Pipeline.ucRefs τ sig) (V9o m c o) ∗ Rr c)
  post c := iprop(∃ o, ⌜Logits m rel c o⌝ ∗ StableHlo.held (c : Thread nD τ) (Pipeline.ucRefs τ sig) (StableHlo.after hostOps4 (V9o m c o)) ∗ Rr c)
  run c {β} k K := by
    iintro ⟨Hk, Hbd, ⟨%o, %ho, Hh, HR⟩, -⟩
    have hseq := StableHlo.wp_seq (defs := Pipeline.defs (pcfgs (F := F)) defs₀) (Variants.lift Variants.none) none Set.univ c (Pipeline.ucRefs τ sig) k (K := K) hostOps4
      (fun op h => Pipeline.sub_ucRefs op ((List.forall_iff_forall_mem.mp hostOps4_sub) op h))
      (fun op h => (List.forall_iff_forall_mem.mp hostOps4_fresh) op h) (V9o m c o)
    iapply hseq $$ [Hbd Hh]
    · isplitl [Hbd] <;> iassumption
    iintro ⟨Hbd, Hh⟩
    iapply Hk
    isplitl [Hbd]; · iexact Hbd
    iexists o
    isplitr; · ipureintro; exact ho
    isplitl [Hh] <;> iassumption

end Cert.KernelIdeal.Hand

end
-- ==== Proof.KI.RunR2.lean ====
import proofs.«421596_j30159260352787_3_alg».proof.Proof.KI.RunR1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (rel : (c : Dev nD) → (w : Fin cfg3.W) → Fin cfg3.N → ((cfg3.win w).block.Idx → Elt F (cfg3.win w).elt) → ((cfg3.win w).block.Idx → Elt F (cfg3.win w).elt) → Prop)

/-! # The run of the whole program -/

variable (hbody3 : ∀ c, (rd3 m rel c).BodyObligation (defs₀ (F := F)) Variants.none () Set.univ)

/-! ## The run -/

/-- What rides beside the buffers, at every boundary. -/
abbrev Er : Fin 5 → Dev nD → sProp 𝕄 := fun _ c => Rr c

/-- The program's ten items in order: the host stretches from their boundaries' contents, the four calls. -/
abbrev segsR : List (Pipeline.RDat.Seg (pcfgs (F := F)) adm (rdats m rel) () defs₀ Variants.none L0 lv0) :=
  [ .host (seg0 m Variants.none L0 lv0 Er), .host (seg1 m Variants.none L0 lv0 Er), .region (reg0 m rel),
    .host (seg3 m (outs3 m) Variants.none L0 lv0 Er), .region (reg1 m rel),
    .host (seg5 m (outs5 m) Variants.none L0 lv0 Er), .region (reg2 m rel),
    .host (seg7 m (outs7 m) Variants.none L0 lv0 Er), .region (reg3 m rel hbody3),
    .host (seg9x m rel) ]

set_option maxHeartbeats 4000000 in
-- the launch theorem's implicit arguments are found by unifying its conclusion with this one, which takes unfolding
-- plain definitions in a metavariable's type
set_option backward.isDefEq.respectTransparency.types false in
/-- THE RUN. From any memory with zero counters every weakly fair execution of the program terminates, and in every
    final state, on every core, the logits array held some contents `o` the last call's proof data allow and every
    unscoped buffer holds the closing stretch's fold over the buffers after that call. -/
theorem run_all (hbody3 : ∀ c, (rd3 m rel c).BodyObligation (defs₀ (F := F)) Variants.none () Set.univ) (ρ : Dev nD → PrngReg) :
    θ_run defs (onTc (τ := τ) (main (F := F))) ⟨m, fun _ => 0, ρ⟩ (fun r => ∀ c : Dev nD, ∃ o, Logits m rel c o ∧
      ∀ b ∈ Pipeline.ucRefs τ sig, r.2.mem ((c : Thread nD τ).1, b) = StableHlo.after hostOps4 (V9o m c o) b) := by
  refine Pipeline.RDat.θ_run_regions_kit (pcfgs (F := F)) adm (rdats m rel) () cellOf_inj emb₁ defs₀ Variants.none L0 lv0 m ρ main
    (segsR m rel hbody3)
    (fun c Q => by
      rewrite [main_chain c, Pipeline.RDat.Seg.run_eq_chain,
        show (segsR m rel hbody3).map Pipeline.RDat.Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(∃ o, ⌜Logits m rel c o⌝ ∗ StableHlo.held (c : Thread nD τ) (Pipeline.ucRefs τ sig) (StableHlo.after hostOps4 (V9o m c o)) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun c => by
        show iprop(∃ o, ⌜Logits m rel c o⌝ ∗ StableHlo.held (c : Thread nD τ) (Pipeline.ucRefs τ sig) (StableHlo.after hostOps4 (V9o m c o)) ∗ Rr c) ⊢ _
        iintro ⟨%o, %ho, Hh, Hp, HO⟩
        isplitr [HO]
        · iexists o
          isplitr; · ipureintro; exact ho
          isplitl [Hh]; · iexact Hh
          iexact Hp
        iexact HO⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ o, Logits m rel c o ∧ ∀ b ∈ Pipeline.ucRefs τ sig, s.mem ((c : Thread nD τ).1, b) = StableHlo.after hostOps4 (V9o m c o) b)
    (hfin := fun c s' => by
      iintro ⟨⟨%o, %ho, Hh, -⟩, HSI⟩
      unfold StableHlo.held
      ihave Hr := (pointsTo_read_all (Pipeline.ucRefs τ sig) (fun b => ((c : Thread nD τ).1, b)) (StableHlo.after hostOps4 (V9o m c o)) s') $$ [Hh HSI]
      · isplitl [Hh] <;> iassumption
      icases Hr with ⟨%h, HSI⟩
      imodintro
      isplitr
      · ipureintro; exact ⟨o, ho, h⟩
      · iexact HSI)
    (hQ := fun s h => h)

end Cert.KernelIdeal.Hand

end
-- ==== Proof.KI.Kept.lean ====
import proofs.«421596_j30159260352787_3_alg».proof.Proof.KI.RunR0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! # What the program's end finds where

The unknowns the regions' frames are written over are staged: the first call's results named, then the second's, then
the third's. A valuation reads an unknown only at its own stage, so the stage-wise names agree. Past the last call — its
logits array at contents `o` nothing is said of — the closing host stretch writes neither an argument nor the attention
weights: every argument holds what it was launched with, the attention weights what the first call's write-back left. -/

/-! ## The staged unknowns agree where they are read -/

theorem V3_outs5 (c : Dev nD) : V3 m (outs5 m) c = V3 m (outs3 m) c := rfl
theorem V3_outs7 (c : Dev nD) : V3 m (outs7 m) c = V3 m (outs3 m) c := rfl
theorem V4_outs5 (c : Dev nD) : V4 m (outs5 m) c = V4 m (outs3 m) c := congrArg (StableHlo.after hostOps1) (V3_outs5 m c)
theorem V4_outs7 (c : Dev nD) : V4 m (outs7 m) c = V4 m (outs3 m) c := congrArg (StableHlo.after hostOps1) (V3_outs7 m c)
theorem V5_outs7 (c : Dev nD) : V5 m (outs7 m) c = V5 m (outs5 m) c :=
  congrArg (fun W : Valuation τ sig (Elt F) => Function.update W (Proc.devRef .tc main_v9) (W5 m c main_v9))
    ((V4_outs7 m c).trans (V4_outs5 m c).symm)
theorem V6_outs7 (c : Dev nD) : V6 m (outs7 m) c = V6 m (outs5 m) c := congrArg (StableHlo.after hostOps2) (V5_outs7 m c)

/-- The valuations before the last call's entry, under the last stage's unknowns, are the stage-wise ones. -/
theorem v8_eq (c : Dev nD) :
    V3 m (outs7 m) c = V3 m (outs3 m) c ∧ V4 m (outs7 m) c = V4 m (outs3 m) c
      ∧ V5 m (outs7 m) c = V5 m (outs5 m) c ∧ V6 m (outs7 m) c = V6 m (outs5 m) c :=
  ⟨V3_outs7 m c, V4_outs7 m c, V5_outs7 m c, V6_outs7 m c⟩

/-! ## No item writes an argument -/

/-- A reference no host stretch writes and no call may change holds at the end what it was launched with. -/
theorem kept_of (c : Dev nD) (o : Buf (Elt F) ((cfg3.win 3).arr.view.loc (c : Thread nD τ))) (r : Ref sig .tc)
    (h10 : r ∉ hostOps4_W) (h9 : r ≠ main_v42) (h8 : r ∉ hostOps3_W) (h7 : r ∉ ([main_v12_0, main_v12_1] : List (Ref sig .tc)))
    (h6 : r ∉ hostOps2_W) (h5 : r ∉ ([main_v9] : List (Ref sig .tc))) (h4 : r ∉ hostOps1_W)
    (h3 : r ∉ ([main_v5_0, main_v5_1] : List (Ref sig .tc))) (h2 : r ∉ hostOps0_1_W) (h1 : r ∉ hostOps0_W) :
    StableHlo.after hostOps4 (V9o m c o) r = m ((c : Thread nD τ).loc r) :=
  (StableHlo.after_of_writes_sub hostOps4 _ hostOps4_writes h10).trans <| (V9o_of m c o r h9).trans <|
    (V8_of m (outs7 m) c r h8).trans <| (V7_of m (outs7 m) c r h7).trans <| (V6_of m (outs7 m) c r h6).trans <|
    (V5_of m (outs7 m) c r h5).trans <| (V4_of m (outs7 m) c r h4).trans <| (V3_of m (outs7 m) c r h3).trans <|
    (V2_of m c r h2).trans <| (V1_of m c r h1).trans rfl

theorem kept_arg0 (c : Dev nD) (o : Buf (Elt F) ((cfg3.win 3).arr.view.loc (c : Thread nD τ))) :
    StableHlo.after hostOps4 (V9o m c o) main_arg0 = m ((c : Thread nD τ).loc main_arg0) :=
  kept_of m c o main_arg0 (by decide) (by decide) (by decide) (by decide) (by decide) (by decide) (by decide) (by decide) (by decide) (by decide)
theorem kept_arg1 (c : Dev nD) (o : Buf (Elt F) ((cfg3.win 3).arr.view.loc (c : Thread nD τ))) :
    StableHlo.after hostOps4 (V9o m c o) main_arg1 = m ((c : Thread nD τ).loc main_arg1) :=
  kept_of m c o main_arg1 (by decide) (by decide) (by decide) (by decide) (by decide) (by decide) (by decide) (by decide) (by decide) (by decide)
theorem kept_arg2 (c : Dev nD) (o : Buf (Elt F) ((cfg3.win 3).arr.view.loc (c : Thread nD τ))) :
    StableHlo.after hostOps4 (V9o m c o) main_arg2 = m ((c : Thread nD τ).loc main_arg2) :=
  kept_of m c o main_arg2 (by decide) (by decide) (by decide) (by decide) (by decide) (by decide) (by decide) (by decide) (by decide) (by decide)
theorem kept_arg3 (c : Dev nD) (o : Buf (Elt F) ((cfg3.win 3).arr.view.loc (c : Thread nD τ))) :
    StableHlo.after hostOps4 (V9o m c o) main_arg3 = m ((c : Thread nD τ).loc main_arg3) :=
  kept_of m c o main_arg3 (by decide) (by decide) (by decide) (by decide) (by decide) (by decide) (by decide) (by decide) (by decide) (by decide)
theorem kept_arg4 (c : Dev nD) (o : Buf (Elt F) ((cfg3.win 3).arr.view.loc (c : Thread nD τ))) :
    StableHlo.after hostOps4 (V9o m c o) main_arg4 = m ((c : Thread nD τ).loc main_arg4) :=
  kept_of m c o main_arg4 (by decide) (by decide) (by decide) (by decide) (by decide) (by decide) (by decide) (by decide) (by decide) (by decide)
theorem kept_arg5 (c : Dev nD) (o : Buf (Elt F) ((cfg3.win 3).arr.view.loc (c : Thread nD τ))) :
    StableHlo.after hostOps4 (V9o m c o) main_arg5 = m ((c : Thread nD τ).loc main_arg5) :=
  kept_of m c o main_arg5 (by decide) (by decide) (by decide) (by decide) (by decide) (by decide) (by decide) (by decide) (by decide) (by decide)
theorem kept_arg6 (c : Dev nD) (o : Buf (Elt F) ((cfg3.win 3).arr.view.loc (c : Thread nD τ))) :
    StableHlo.after hostOps4 (V9o m c o) main_arg6 = m ((c : Thread nD τ).loc main_arg6) :=
  kept_of m c o main_arg6 (by decide) (by decide) (by decide) (by decide) (by decide) (by decide) (by decide) (by decide) (by decide) (by decide)
theorem kept_arg7 (c : Dev nD) (o : Buf (Elt F) ((cfg3.win 3).arr.view.loc (c : Thread nD τ))) :
    StableHlo.after hostOps4 (V9o m c o) main_arg7 = m ((c : Thread nD τ).loc main_arg7) :=
  kept_of m c o main_arg7 (by decide) (by decide) (by decide) (by decide) (by decide) (by decide) (by decide) (by decide) (by decide) (by decide)
theorem kept_arg8 (c : Dev nD) (o : Buf (Elt F) ((cfg3.win 3).arr.view.loc (c : Thread nD τ))) :
    StableHlo.after hostOps4 (V9o m c o) main_arg8 = m ((c : Thread nD τ).loc main_arg8) :=
  kept_of m c o main_arg8 (by decide) (by decide) (by decide) (by decide) (by decide) (by decide) (by decide) (by decide) (by decide) (by decide)
theorem kept_arg9 (c : Dev nD) (o : Buf (Elt F) ((cfg3.win 3).arr.view.loc (c : Thread nD τ))) :
    StableHlo.after hostOps4 (V9o m c o) main_arg9 = m ((c : Thread nD τ).loc main_arg9) :=
  kept_of m c o main_arg9 (by decide) (by decide) (by decide) (by decide) (by decide) (by decide) (by decide) (by decide) (by decide) (by decide)
theorem kept_arg10 (c : Dev nD) (o : Buf (Elt F) ((cfg3.win 3).arr.view.loc (c : Thread nD τ))) :
    StableHlo.after hostOps4 (V9o m c o) main_arg10 = m ((c : Thread nD τ).loc main_arg10) :=
  kept_of m c o main_arg10 (by decide) (by decide) (by decide) (by decide) (by decide) (by decide) (by decide) (by decide) (by decide) (by decide)
theorem kept_arg11 (c : Dev nD) (o : Buf (Elt F) ((cfg3.win 3).arr.view.loc (c : Thread nD τ))) :
    StableHlo.after hostOps4 (V9o m c o) main_arg11 = m ((c : Thread nD τ).loc main_arg11) :=
  kept_of m c o main_arg11 (by decide) (by decide) (by decide) (by decide) (by decide) (by decide) (by decide) (by decide) (by decide) (by decide)
theorem kept_arg12 (c : Dev nD) (o : Buf (Elt F) ((cfg3.win 3).arr.view.loc (c : Thread nD τ))) :
    StableHlo.after hostOps4 (V9o m c o) main_arg12 = m ((c : Thread nD τ).loc main_arg12) :=
  kept_of m c o main_arg12 (by decide) (by decide) (by decide) (by decide) (by decide) (by decide) (by decide) (by decide) (by decide) (by decide)
theorem kept_arg13 (c : Dev nD) (o : Buf (Elt F) ((cfg3.win 3).arr.view.loc (c : Thread nD τ))) :
    StableHlo.after hostOps4 (V9o m c o) main_arg13 = m ((c : Thread nD τ).loc main_arg13) :=
  kept_of m c o main_arg13 (by decide) (by decide) (by decide) (by decide) (by decide) (by decide) (by decide) (by decide) (by decide) (by decide)

/-! ## The attention weights stay where the first call left them -/

/-- Under the last stage's unknowns the first call's first result is what that call leaves there. -/
theorem V3_outs7_v5_0 (c : Dev nD) : V3 m (outs7 m) c main_v5_0 = W3 m c main_v5_0 := by
  simp only [V3, outs7, Function.update_of_ne (StableHlo.devRef_ne_of_ne (by decide) : (Proc.devRef .tc main_v5_0 : DevRef τ sig) ≠ Proc.devRef .tc main_v5_1), Function.update_self]

/-- No later item writes the attention weights: at the end they are what the first call leaves. -/
theorem kept_v5_0_W3 (c : Dev nD) (o : Buf (Elt F) ((cfg3.win 3).arr.view.loc (c : Thread nD τ))) :
    StableHlo.after hostOps4 (V9o m c o) main_v5_0 = W3 m c main_v5_0 :=
  (StableHlo.after_of_writes_sub hostOps4 _ hostOps4_writes (by decide)).trans <| (V9o_of m c o main_v5_0 (by decide)).trans <|
    (V8_of m (outs7 m) c main_v5_0 (by decide)).trans <| (V7_of m (outs7 m) c main_v5_0 (by decide)).trans <|
    (V6_of m (outs7 m) c main_v5_0 (by decide)).trans <| (V5_of m (outs7 m) c main_v5_0 (by decide)).trans <|
    (V4_of m (outs7 m) c main_v5_0 (by decide)).trans <| V3_outs7_v5_0 m c

/-- … which is the first call's attention-weights array after its last write-back. -/
theorem kept_v5_0 (c : Dev nD) (o : Buf (Elt F) ((cfg3.win 3).arr.view.loc (c : Thread nD τ))) :
    StableHlo.after hostOps4 (V9o m c o) main_v5_0 = (dat0 (atTc (V2 m)) c).arrAt 6 cfg0.N :=
  (kept_v5_0_W3 m c o).trans (W3_arr m c 6)

end Cert.KernelIdeal.Hand

end
-- ==== Proof.KI.Frame.lean ====
import proofs.«421596_j30159260352787_3_alg».proof.Proof.KI.RunR2
import proofs.«421596_j30159260352787_3_alg».proof.Proof.KI.Kept

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-! # The frame: every argument array ends as launched

Whatever the last call leaves in the logits array, no item of the program writes an argument, so each argument's buffer is
read off the final valuation back to the launch memory. -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame_of_run
    (rel : (c : Dev nD) → (w : Fin cfg3.W) → Fin cfg3.N → ((cfg3.win w).block.Idx → Elt F (cfg3.win w).elt) → ((cfg3.win w).block.Idx → Elt F (cfg3.win w).elt) → Prop)
    (hbody3 : ∀ c, (rd3 m rel c).BodyObligation (defs₀ (F := F)) Variants.none () Set.univ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    obtain ⟨o, -, hb⟩ := h c
    exact ⟨(hb _ (mem_uc main_arg0 (by decide))).trans (kept_arg0 m c o),
      (hb _ (mem_uc main_arg1 (by decide))).trans (kept_arg1 m c o),
      (hb _ (mem_uc main_arg2 (by decide))).trans (kept_arg2 m c o),
      (hb _ (mem_uc main_arg3 (by decide))).trans (kept_arg3 m c o),
      (hb _ (mem_uc main_arg4 (by decide))).trans (kept_arg4 m c o),
      (hb _ (mem_uc main_arg5 (by decide))).trans (kept_arg5 m c o),
      (hb _ (mem_uc main_arg6 (by decide))).trans (kept_arg6 m c o),
      (hb _ (mem_uc main_arg7 (by decide))).trans (kept_arg7 m c o),
      (hb _ (mem_uc main_arg8 (by decide))).trans (kept_arg8 m c o),
      (hb _ (mem_uc main_arg9 (by decide))).trans (kept_arg9 m c o),
      (hb _ (mem_uc main_arg10 (by decide))).trans (kept_arg10 m c o),
      (hb _ (mem_uc main_arg11 (by decide))).trans (kept_arg11 m c o),
      (hb _ (mem_uc main_arg12 (by decide))).trans (kept_arg12 m c o),
      (hb _ (mem_uc main_arg13 (by decide))).trans (kept_arg13 m c o)⟩)
    (run_all m rel hbody3 ρ)

end Cert.KernelIdeal.Hand

end
-- ==== Proof.KI.Reg3a.lean ====
import proofs.«421596_j30159260352787_3_alg».proof.Proof.Gen.KernelIdeal.Launch
import proofs.«421596_j30159260352787_3_alg».proof.Proof.Gen.KernelIdeal.Skeleton
import proofs.«421596_j30159260352787_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The output projection (last pallas_call): seventeen grid points; three input windows (the hidden row, a block of
3072 rows of the projection matrix, the matching block of 3072 bias entries) and one output window (the matching block of
3072 logits). This part: what the body does to whole staging buffers, for any float values. -/

abbrev rH3 : Rect S1x1024 := Rect.unit (s := S1x1024) ![0, 0] S1x1024.size inb_S1x1024_S1x1024_0_0
abbrev rW3 : Rect S3072x1024 := Rect.unit (s := S3072x1024) ![0, 0] S3072x1024.size inb_S3072x1024_S3072x1024_0_0
abbrev rL3 : Rect S1x3072 := Rect.unit (s := S1x3072) ![0, 0] S1x3072.size inb_S1x3072_S1x3072_0_0

/-- The logits' staging buffer after the body: one whole store of the hidden row times the transposed matrix block,
    plus the bias block. -/
def out3_3 (x0 : Vec F S1x1024 .f32) (x1 : Vec F S3072x1024 .f32) (x2 : Vec F S1x3072 .f32) : Vec F S1x3072 .f32 :=
  View.canon [⟨rL3, k3_pay1 (View.ld x0 rH3) (View.ld x1 rW3) (View.ld x2 rL3)⟩]

theorem cover3_3 (p0 : Vec F S1x3072 .f32) (y : S1x3072.Idx) :
    ∃ pc ∈ ([⟨rL3, p0⟩] : List (View.Piece (Elt F) S1x3072 .f32)), y ∈ pc.1.set :=
  View.cover_of_tiled [⟨rL3, p0⟩] S1x3072.size (by rfl) y

set_option maxHeartbeats 1000000 in
/-- The body on whole staging memrefs: the three inputs keep their contents, the output ends at its single store,
    whatever it held. -/
theorem sound_kernel3 (c : Dev nD) (E : Set ℕ) (i : grid3.Coords)
    (arg1 : Memref sig .tc .vmem S1x1024 .f32) (harg1 : arg1.IsWhole) (arg2 : Memref sig .tc .vmem S3072x1024 .f32) (harg2 : arg2.IsWhole)
    (arg3 : Memref sig .tc .vmem S1x3072 .f32) (harg3 : arg3.IsWhole) (arg4 : Memref sig .tc .vmem S1x3072 .f32) (harg4 : arg4.IsWhole)
    (x0 : Vec F S1x1024 .f32) (x1 : Vec F S3072x1024 .f32) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__outproj_kernel i arg1 harg1 arg2 harg2 arg3 harg3 arg4 harg4) K := by
  simp only [cc3__outproj_kernel_eq_skeleton]; unfold cc3__outproj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

end Cert.KernelIdeal.Hand

end
-- ==== Proof.KI.Reg3F.lean ====
import proofs.«421596_j30159260352787_3_alg».proof.Proof.KI.Segs
import proofs.«421596_j30159260352787_3_alg».proof.Proof.KI.Reg3a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The output projection's body, for proof data that say nothing of what it leaves

The body reads its three input buffers and overwrites its output buffer with one store; every buffer it is handed it
hands back whole. With the relation between what a buffer held and what it holds afterwards the one that always
holds, that is the whole obligation: whatever the four buffers hold when the body starts, it runs, the invariant and
the debts (none, and the same at every point) are untouched, and each buffer comes back at some contents. -/

set_option maxHeartbeats 1000000 in
/-- The body at point `t` from the four current buffers at arbitrary contents `Y`: it runs, and gives each buffer back
    at some contents, of which nothing is said. -/
theorem sound_body3_any (c : Dev nD) (t : Fin cfg3.N)
    (Y : (w : Fin cfg3.W) → (cfg3.win w).block.Idx → Elt F (cfg3.win w).elt) :
    iprop((rd3 m (fun _ _ _ _ _ => True) c).Φ t.castSucc ∗ (rd3 m (fun _ _ _ _ _ => True) c).owesAt () t.castSucc
        ∗ owns (c : Thread nD τ) (st3_0 t) fullShare (Y 0)
        ∗ owns (c : Thread nD τ) (st3_1 t) fullShare (Y 1)
        ∗ owns (c : Thread nD τ) (st3_2 t) fullShare (Y 2)
        ∗ owns (c : Thread nD τ) (st3_3 t) fullShare (Y 3))
      ⊢ wp frame (wpE (defs₀ (F := F)) Variants.none c none) Set.univ (bodyAt3 t) (fun _ =>
          iprop((rd3 m (fun _ _ _ _ _ => True) c).Φ t.succ ∗ (rd3 m (fun _ _ _ _ _ => True) c).owesAt () t.succ
            ∗ (∃ X, ⌜(rd3 m (fun _ _ _ _ _ => True) c).after 0 t (Y 0) X⌝ ∗ owns (c : Thread nD τ) (st3_0 t) fullShare X)
            ∗ (∃ X, ⌜(rd3 m (fun _ _ _ _ _ => True) c).after 1 t (Y 1) X⌝ ∗ owns (c : Thread nD τ) (st3_1 t) fullShare X)
            ∗ (∃ X, ⌜(rd3 m (fun _ _ _ _ _ => True) c).after 2 t (Y 2) X⌝ ∗ owns (c : Thread nD τ) (st3_2 t) fullShare X)
            ∗ (∃ X, ⌜(rd3 m (fun _ _ _ _ _ => True) c).after 3 t (Y 3) X⌝ ∗ owns (c : Thread nD τ) (st3_3 t) fullShare X))) := by
  unfold bodyAt3
  rw [show (rd3 m (fun _ _ _ _ _ => True) c).Φ t.succ = (rd3 m (fun _ _ _ _ _ => True) c).Φ t.castSucc from rfl,
    show (rd3 m (fun _ _ _ _ _ => True) c).owesAt () t.succ = (rd3 m (fun _ _ _ _ _ => True) c).owesAt () t.castSucc from rfl]
  iintro ⟨HΦ, Ho, H0, H1, H2, H3⟩
  iapply (sound_kernel3 c Set.univ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  iexists (out3_3 (Y 0) (Y 1) (Y 2)); isplitr; · ipureintro; trivial
  iexact H3

/-- The body obligation of the output projection for the relation that always holds. -/
theorem body_obligation3_any (c : Dev nD) :
    (rd3 m (fun _ _ _ _ _ => True) c).BodyObligation (defs₀ (F := F)) Variants.none () Set.univ := fun t Y _ => by
  rw [bigSep_W3, bigSep_W3]
  exact sound_body3_any m c t Y

end Cert.KernelIdeal.Hand

end
-- ==== Proof.KI.Reg3b.lean ====
import proofs.«421596_j30159260352787_3_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! # The output projection's arithmetic, over the extended reals: the stored row at column `p` is the dot product of
the hidden row with row `p` of the matrix block, plus entry `p` of the bias block. A column of the result reads one
row of the matrix block and one entry of the bias block, and nothing else of either. -/

/-- The product's left operand at output (r, p) and contraction index q is read at row r … -/
theorem lhs3_0 (i : S1x3072.Idx) (q : dot_S1x1024_S1024x3072_S1x3072_1_0_0_1_n_n.contr.Idx) :
    (dot_S1x1024_S1024x3072_S1x3072_1_0_0_1_n_n.lhsIdx i q 0).val = (i 0).val := by
  unfold DotDims.lhsIdx
  rw [dif_neg (show ¬(0 : Fin S1x1024.rank) ∈ dot_S1x1024_S1024x3072_S1x3072_1_0_0_1_n_n.lhsBatch by decide), dif_pos (show (0 : Fin S1x1024.rank) ∈ dot_S1x1024_S1024x3072_S1x3072_1_0_0_1_n_n.lhsNonContracting by decide)]
  rfl
/-- … and column q; -/
theorem lhs3_1 (i : S1x3072.Idx) (q : dot_S1x1024_S1024x3072_S1x3072_1_0_0_1_n_n.contr.Idx) :
    (dot_S1x1024_S1024x3072_S1x3072_1_0_0_1_n_n.lhsIdx i q 1).val = (q ⟨0, by decide⟩).val :=
  dot_S1x1024_S1024x3072_S1x3072_1_0_0_1_n_n.lhsIdx_val_of_single rfl i q
/-- the right operand at row q … -/
theorem rhs3_0 (i : S1x3072.Idx) (q : dot_S1x1024_S1024x3072_S1x3072_1_0_0_1_n_n.contr.Idx) :
    (dot_S1x1024_S1024x3072_S1x3072_1_0_0_1_n_n.rhsIdx i q 0).val = (q ⟨0, by decide⟩).val :=
  dot_S1x1024_S1024x3072_S1x3072_1_0_0_1_n_n.rhsIdx_val_of_single rfl i q
/-- … and column p. -/
theorem rhs3_1 (i : S1x3072.Idx) (q : dot_S1x1024_S1024x3072_S1x3072_1_0_0_1_n_n.contr.Idx) :
    (dot_S1x1024_S1024x3072_S1x3072_1_0_0_1_n_n.rhsIdx i q 1).val = (i 1).val := by
  unfold DotDims.rhsIdx
  rw [dif_neg (show ¬(1 : Fin S1024x3072.rank) ∈ dot_S1x1024_S1024x3072_S1x3072_1_0_0_1_n_n.rhsBatch by decide), dif_pos (show (1 : Fin S1024x3072.rank) ∈ dot_S1x1024_S1024x3072_S1x3072_1_0_0_1_n_n.rhsNonContracting by decide)]
  rfl

/-- A [1,1024] × [1024,3072] product into the zero accumulator, at column `p`: the sum over the 1024 contraction
    coordinates of the products. -/
theorem matmul3_apply (a : FVec Ideal S1x1024 .bf16) (b : FVec Ideal S1024x3072 .bf16) (r : Fin 1) (p : Fin 3072) :
    matmul dot_S1x1024_S1024x3072_S1x3072_1_0_0_1_n_n none a b (constant S1x3072 .f32 0x00000000#32) (ix2 r p)
      = ∑ k : Fin 1024, a (ix2 r k) * b (ix2 k p) := by
  simp only [matmul]
  rw [Ideal.matmul_constant_zero_apply, ← Equiv.sum_comp (ValueIdx.contrEquiv1 dot_S1x1024_S1024x3072_S1x3072_1_0_0_1_n_n 1024 rfl rfl).symm]
  refine Finset.sum_congr rfl fun k _ => ?_
  have hk := ValueIdx.contrEquiv1_symm_val dot_S1x1024_S1024x3072_S1x3072_1_0_0_1_n_n 1024 rfl rfl k
  have el : dot_S1x1024_S1024x3072_S1x3072_1_0_0_1_n_n.lhsIdx (ix2 r p) ((ValueIdx.contrEquiv1 dot_S1x1024_S1024x3072_S1x3072_1_0_0_1_n_n 1024 rfl rfl).symm k) = ix2 r k := funext fun a => Fin.ext (by
    match a with
    | ⟨0, _⟩ => exact lhs3_0 _ _
    | ⟨1, _⟩ => exact (lhs3_1 _ _).trans hk)
  have er : dot_S1x1024_S1024x3072_S1x3072_1_0_0_1_n_n.rhsIdx (ix2 r p) ((ValueIdx.contrEquiv1 dot_S1x1024_S1024x3072_S1x3072_1_0_0_1_n_n 1024 rfl rfl).symm k) = ix2 k p := funext fun a => Fin.ext (by
    match a with
    | ⟨0, _⟩ => exact (rhs3_0 _ _).trans hk
    | ⟨1, _⟩ => exact rhs3_1 _ _)
  rw [el, er]

/-- The transposed matrix block at (k, p) is the block at (p, k). -/
theorem transpose3_apply (x : FVec Ideal S3072x1024 .bf16) (k : Fin 1024) (p : Fin 3072) :
    transpose S1024x3072 [1, 0] x transposes_S3072x1024_p1_0_S1024x3072 (ix2 k p) = x (ix2 p k) :=
  transpose_apply [1, 0] x transposes_S3072x1024_p1_0_S1024x3072 (ix2 k p) (ix2 p k) (fun b => match b with
    | ⟨0, _⟩ => rfl
    | ⟨1, _⟩ => rfl)

/-- The body's stored row at column `p`: the dot product of the hidden row with row `p` of the matrix block, plus
    entry `p` of the bias block (a change of float format is the identity on extended reals, a shape cast to the same
    shape the identity). -/
theorem pay3_apply (x0 : Vec Ideal S1x1024 .f32) (x1 : Vec Ideal S3072x1024 .f32) (x2 : Vec Ideal S1x3072 .f32) (r : Fin 1) (p : Fin 3072) :
    k3_pay1 (F := Ideal) x0 x1 x2 (ix2 r p) = (∑ k : Fin 1024, x0 (ix2 r k) * x1 (ix2 p k)) + x2 (ix2 r p) := by
  unfold k3_pay1
  dsimp only
  refine (addf_apply _ _ (ix2 r p)).trans ?_
  refine congrArg₂ (· + ·) ?_ ?_
  · refine (matmul3_apply _ _ r p).trans ?_
    refine Finset.sum_congr rfl fun k _ => ?_
    refine congrArg₂ (· * ·) ?_ ?_
    · exact congrFun (shapeCast_self x0 shapeCasts_S1x1024_S1x1024) (ix2 r k)
    · exact transpose3_apply (truncf .bf16 x1 bitsLt_bf16_f32) k p
  · exact congrFun (shapeCast_self x2 shapeCasts_S1x3072_S1x3072) (ix2 r p)

end Cert.KernelIdeal.Hand

end
-- ==== Proof.KI.Reg3c.lean ====
import proofs.«421596_j30159260352787_3_alg».proof.Proof.Gen.KernelIdeal.Launch
import proofs.«421596_j30159260352787_3_alg».proof.Proof.Gen.KernelIdeal.Skeleton
import proofs.«421596_j30159260352787_3_alg».proof.Proof.Gen.KernelIdeal.Points
import proofs.«421596_j30159260352787_3_alg».proof.Proof.KI.Reg3a
import proofs.«421596_j30159260352787_3_alg».proof.Proof.KI.Reg3b
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

/-! # The output projection over the extended reals: the proof data and the body obligation.

The vocabulary of 50257 entries is streamed in seventeen blocks of 3072; the last block holds 1105 entries and overhangs
the matrix, the bias row and the logits row by 1967. There the transfers move only the part inside the arrays, and the
matrix and bias staging buffers hold, past it, words nothing names. Over the extended reals column `p` of the stored row
is the dot product of the hidden row with row `p` of the matrix buffer plus entry `p` of the bias buffer, so the columns
that are written back read only rows and entries that were fetched. -/

/-! ## The block indices and the cuts, decided over the grid -/

/-- The hidden row's block index is (0, 0) at every point; at point `t` the matrix block is block `t` of the rows, the
    bias and logits blocks block `t` of the columns. -/
theorem idx_facts3 : ∀ t : Fin cfg3.N,
    win3_0.index t (0 : Fin 2) = 0 ∧ win3_0.index t (1 : Fin 2) = 0
    ∧ win3_1.index t (0 : Fin 2) = t.val ∧ win3_1.index t (1 : Fin 2) = 0
    ∧ win3_2.index t (0 : Fin 2) = 0 ∧ win3_2.index t (1 : Fin 2) = t.val
    ∧ win3_3.index t (0 : Fin 2) = 0 ∧ win3_3.index t (1 : Fin 2) = t.val :=
  (by decide +kernel : ∀ t : Fin grid3.N, _)

/-- The parts the transfers move: at every point the matrix block's moved rows are as many as the logits block's moved
    columns, and so are the bias block's moved columns; the other axes are whole; the logits block's moved columns are all
    3072 or end at the array's end. -/
theorem xsize_facts3 : ∀ t : Fin cfg3.N,
    win3_1.xsize (grid3.coords t) (0 : Fin 2) = win3_3.xsize (grid3.coords t) (1 : Fin 2)
    ∧ win3_1.xsize (grid3.coords t) (1 : Fin 2) = 1024
    ∧ win3_2.xsize (grid3.coords t) (0 : Fin 2) = 1
    ∧ win3_2.xsize (grid3.coords t) (1 : Fin 2) = win3_3.xsize (grid3.coords t) (1 : Fin 2)
    ∧ win3_3.xsize (grid3.coords t) (0 : Fin 2) = 1
    ∧ (win3_3.xsize (grid3.coords t) (1 : Fin 2) = 3072 ∨ t.val * 3072 + win3_3.xsize (grid3.coords t) (1 : Fin 2) = 50257) :=
  (by decide +kernel : ∀ t : Fin grid3.N, _)

/-- Row `j 1` of the matrix block's moved part, at column `k`. -/
def row3 (t : Fin cfg3.N) (j : (win3_3.xblock (grid3.coords t)).Idx) (k : Fin 1024) : (win3_1.xblock (grid3.coords t)).Idx :=
  fun (a : Fin 2) => match a with
    | ⟨0, _⟩ => ⟨(j 1).val, lt_of_lt_of_eq (j 1).isLt (xsize_facts3 t).1.symm⟩
    | ⟨1, _⟩ => ⟨k.val, lt_of_lt_of_eq k.isLt (xsize_facts3 t).2.1.symm⟩

/-- Entry `j 1` of the bias block's moved part. -/
def col3 (t : Fin cfg3.N) (j : (win3_3.xblock (grid3.coords t)).Idx) : (win3_2.xblock (grid3.coords t)).Idx :=
  fun (a : Fin 2) => match a with
    | ⟨0, _⟩ => ⟨0, lt_of_lt_of_eq Nat.one_pos (xsize_facts3 t).2.2.1.symm⟩
    | ⟨1, _⟩ => ⟨(j 1).val, lt_of_lt_of_eq (j 1).isLt (xsize_facts3 t).2.2.2.1.symm⟩

/-- Column `j 1` as a coordinate of the whole 3072-wide block. -/
def pcol3 (t : Fin cfg3.N) (j : (win3_3.xblock (grid3.coords t)).Idx) : Fin 3072 :=
  ⟨(j 1).val, lt_of_lt_of_le (j 1).isLt (win3_3.xsize_le (grid3.coords t) 1)⟩

/-- A moved index of the logits block is (0, its column); -/
theorem xinj3_3 (t : Fin cfg3.N) (j : (win3_3.xblock (grid3.coords t)).Idx) :
    (win3_3.xinj (grid3.coords t) j : S1x3072.Idx) = ix2 (0 : Fin 1) (pcol3 t j) := by
  funext a
  match a with
  | ⟨0, _⟩ =>
    apply Fin.ext
    have h : (j 0).val < win3_3.xsize (grid3.coords t) (0 : Fin 2) := (j 0).isLt
    have e := (xsize_facts3 t).2.2.2.2.1
    show (j 0).val = 0
    omega
  | ⟨1, _⟩ => rfl

/-- row `j 1` of the matrix block's moved part sits at row `j 1` of the block; -/
theorem xinj3_1 (t : Fin cfg3.N) (j : (win3_3.xblock (grid3.coords t)).Idx) (k : Fin 1024) :
    (win3_1.xinj (grid3.coords t) (row3 t j k) : S3072x1024.Idx) = ix2 (pcol3 t j) k := by
  funext a
  match a with
  | ⟨0, _⟩ => rfl
  | ⟨1, _⟩ => rfl

/-- entry `j 1` of the bias block's moved part at (0, `j 1`). -/
theorem xinj3_2 (t : Fin cfg3.N) (j : (win3_3.xblock (grid3.coords t)).Idx) :
    (win3_2.xinj (grid3.coords t) (col3 t j) : S1x3072.Idx) = ix2 (0 : Fin 1) (pcol3 t j) := by
  funext a
  match a with
  | ⟨0, _⟩ => rfl
  | ⟨1, _⟩ => rfl

/-! ## The stored row on the part the write-back moves -/

theorem hz3 : (![0, 0] : Fin 2 → Nat) = fun _ => 0 := funext fun a => by fin_cases a <;> rfl

/-- One whole store over whole loads: the staging buffer holds the stored row itself. -/
theorem out3_3_eq (x0 : Vec Ideal S1x1024 .f32) (x1 : Vec Ideal S3072x1024 .f32) (x2 : Vec Ideal S1x3072 .f32) :
    out3_3 (F := Ideal) x0 x1 x2 = k3_pay1 (F := Ideal) x0 x1 x2 := by
  unfold out3_3
  rw [View.canon_unit_zero hz3]
  simp only [View.ld_unit_zero (S := S1x1024) hz3, View.ld_unit_zero (S := S3072x1024) hz3, View.ld_unit_zero (S := S1x3072) hz3]

/-- On the moved part of the output block, the stored row over input buffers that hold their blocks' moved parts
    `g1`, `g2` and anything `d1`, `d2` elsewhere reads only the moved parts. -/
theorem cut_out3_apply (t : Fin cfg3.N) (x0 : Vec Ideal S1x1024 .f32)
    (d1 : Vec Ideal S3072x1024 .f32) (g1 : (win3_1.xblock (grid3.coords t)).Idx → Ideal .f32)
    (d2 : Vec Ideal S1x3072 .f32) (g2 : (win3_2.xblock (grid3.coords t)).Idx → Ideal .f32)
    (j : (win3_3.xblock (grid3.coords t)).Idx) :
    win3_3.cut (grid3.coords t) (out3_3 (F := Ideal) x0 (win3_1.fill (grid3.coords t) d1 g1) (win3_2.fill (grid3.coords t) d2 g2)) j
      = (∑ k : Fin 1024, x0 (ix2 0 k) * g1 (row3 t j k)) + g2 (col3 t j) := by
  show out3_3 (F := Ideal) x0 _ _ (win3_3.xinj (grid3.coords t) j) = _
  rw [out3_3_eq, xinj3_3, pay3_apply]
  refine congrArg₂ (· + ·) (Finset.sum_congr rfl fun k _ => congrArg (x0 (ix2 0 k) * ·) ?_) ?_
  · exact (congrArg _ (xinj3_1 t j k).symm).trans (win3_1.fill_xinj _ _ _ _)
  · exact (congrArg _ (xinj3_2 t j).symm).trans (win3_2.fill_xinj _ _ _ _)

/-! ## The proof data -/

variable (V : (c : Dev nD) → (b : Ref sig .tc) → Buf (Elt Ideal) ((c : Thread nD τ).loc b))

local notation "𝕄" => MT nD τ sig Unit (Elt Ideal) ℕ (UR sig nD τ) ℕ

/-- Window `w`'s block at point `t`, its part inside the array, read off the array as the call finds it. -/
def iblk3 (c : Dev nD) (w : Fin cfg3.W) (t : Fin cfg3.N) : ((cfg3.win w).xblock (cfg3.grid.coords t)).Idx → Elt Ideal (cfg3.win w).elt :=
  ((cfg3.win w).blk t).view.read (Elt Ideal) (V c (Pipeline.arrRef spec3 w))

/-- The matrix block at point `t` filled out, past the array's end, with the zero word. -/
def wfil3 (c : Dev nD) (t : Fin cfg3.N) : Vec Ideal S3072x1024 .f32 :=
  (cfg3.win 1).fill (cfg3.grid.coords t) (fun _ => Scalar.ofBits (F := Ideal) .f32 0#32) (iblk3 V c 1 t)
/-- The bias block likewise. -/
def bfil3 (c : Dev nD) (t : Fin cfg3.N) : Vec Ideal S1x3072 .f32 :=
  (cfg3.win 2).fill (cfg3.grid.coords t) (fun _ => Scalar.ofBits (F := Ideal) .f32 0#32) (iblk3 V c 2 t)

/-- The proof data of the output projection on core `c`: the arrays as the call finds them; after the body the hidden
    row's buffer at the row, the matrix and bias buffers at their blocks (zero past the arrays' ends), the logits'
    buffer at the stored row over those. -/
def dat3 (c : Dev nD) : Dat τ (Elt Ideal) Unit ℕ (UR sig nD τ) ℕ cfg3 c where
  A w := V c (Pipeline.arrRef spec3 w)
  after w t := match w with
    | ⟨0, _⟩ => iblk3 V c 0 t
    | ⟨1, _⟩ => wfil3 V c t
    | ⟨2, _⟩ => bfil3 V c t
    | ⟨3, _⟩ => out3_3 (F := Ideal) (iblk3 V c 0 t) (wfil3 V c t) (bfil3 V c t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = wfil3 V c t := by dsimp only [dat3]
theorem after3_2 (c : Dev nD) (t : Fin cfg3.N) : (dat3 V c).after 2 t = bfil3 V c t := by dsimp only [dat3]
theorem after3_3 (c : Dev nD) (t : Fin cfg3.N) : (dat3 V c).after 3 t
    = out3_3 (F := Ideal) (iblk3 V c 0 t) (wfil3 V c t) (bfil3 V c t) := by dsimp only [dat3]

/-- The hidden row's buffer holds the row at every point, fetched there (the first point) or not. -/
theorem before3_0_of {c : Dev nD} (dat : Dat τ (Elt Ideal) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_0 (c : Dev nD) (t : Fin cfg3.N) (d) : (dat3 V c).before 0 t d = iblk3 V c 0 t :=
  before3_0_of V (dat3 V c) (A_eq3 V c 0) (after3_0 V c) t d

/-- The matrix and bias buffers, fetched at every point, hold their block's part inside the array and, past the
    array's end, whatever `d` the fetch left. -/
theorem before3_1 (c : Dev nD) (t : Fin cfg3.N) (d) :
    (dat3 V c).before 1 t d = (cfg3.win 1).fill (cfg3.grid.coords t) d (iblk3 V c 1 t) := by
  rw [(dat3 V c).before_fetched 1 t (fetch3_1 t) d]
  unfold Dat.fetched Dat.blockOf iblk3
  rw [A_eq3]
theorem before3_2 (c : Dev nD) (t : Fin cfg3.N) (d) :
    (dat3 V c).before 2 t d = (cfg3.win 2).fill (cfg3.grid.coords t) d (iblk3 V c 2 t) := by
  rw [(dat3 V c).before_fetched 2 t (fetch3_2 t) d]
  unfold Dat.fetched Dat.blockOf iblk3
  rw [A_eq3]
/-- The logits' buffer, written back at every point, is found holding anything. -/
theorem before3_3 (c : Dev nD) (t : Fin cfg3.N) (d) : (dat3 V c).before 3 t d = d :=
  (dat3 V c).before_out_reset 3 rfl t
    (by by_cases h : t.val = 0
        · exact .inl h
        · exact .inr ⟨h, flush3_3 _⟩) d

/-- The filled blocks, cut back to the moved part, are the blocks. -/
theorem cut_wfil3 (c : Dev nD) (t : Fin cfg3.N) : (cfg3.win 1).cut (cfg3.grid.coords t) (wfil3 V c t) = iblk3 V c 1 t :=
  (cfg3.win 1).cut_fill _ _ _
theorem cut_bfil3 (c : Dev nD) (t : Fin cfg3.N) : (cfg3.win 2).cut (cfg3.grid.coords t) (bfil3 V c t) = iblk3 V c 2 t :=
  (cfg3.win 2).cut_fill _ _ _

/-- THE CLIPPED POINT: on the part of the logits' block that is written back, the stored row over the matrix and bias
    buffers as the fetch left them (`d1`, `d2` past the arrays' ends) is the stored row over the zero-filled blocks:
    a moved column reads a moved matrix row and a moved bias entry. -/
theorem cut_out3 (c : Dev nD) (t : Fin cfg3.N) (d1 : Vec Ideal S3072x1024 .f32) (d2 : Vec Ideal S1x3072 .f32) :
    (cfg3.win 3).cut (cfg3.grid.coords t)
        (out3_3 (F := Ideal) (iblk3 V c 0 t) ((cfg3.win 1).fill (cfg3.grid.coords t) d1 (iblk3 V c 1 t)) ((cfg3.win 2).fill (cfg3.grid.coords t) d2 (iblk3 V c 2 t)))
      = (cfg3.win 3).cut (cfg3.grid.coords t) (out3_3 (F := Ideal) (iblk3 V c 0 t) (wfil3 V c t) (bfil3 V c t)) :=
  funext fun j => (cut_out3_apply t (iblk3 V c 0 t) d1 (iblk3 V c 1 t) d2 (iblk3 V c 2 t) j).trans
    (cut_out3_apply t (iblk3 V c 0 t) (fun _ => Scalar.ofBits (F := Ideal) .f32 0#32) (iblk3 V c 1 t) (fun _ => Scalar.ofBits (F := Ideal) .f32 0#32) (iblk3 V c 2 t) j).symm

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What the body leaves: the hidden row's buffer at the row; the three clipped windows' buffers stated on the part
    their transfers move. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ (∃ d, owns (c : Thread nD τ) (st3_1 t) fullShare ((cfg3.win 1).fill (cfg3.grid.coords t) d ((cfg3.win 1).cut (cfg3.grid.coords t) ((dat3 V c).after 1 t))))
    ∗ (∃ d, owns (c : Thread nD τ) (st3_2 t) fullShare ((cfg3.win 2).fill (cfg3.grid.coords t) d ((cfg3.win 2).cut (cfg3.grid.coords t) ((dat3 V c).after 2 t))))
    ∗ (∃ d, owns (c : Thread nD τ) (st3_3 t) fullShare ((cfg3.win 3).fill (cfg3.grid.coords t) d ((cfg3.win 3).cut (cfg3.grid.coords t) ((dat3 V c).after 3 t)))))

theorem sound_body3 (c : Dev nD) (t : Fin cfg3.N) :
    bodyPre3 V c t ⊢ wp frame (wpE (defs₀ (F := Ideal)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, cut_wfil3, cut_bfil3]
  iintro ⟨HΦ, Ho, ⟨%d0, H0⟩, ⟨%d1, H1⟩, ⟨%d2, H2⟩, ⟨%d3, H3⟩⟩
  iapply (sound_kernel3 (F := Ideal) c Set.univ _ _ _ _ _ _ _ _ _ (iblk3 V c 0 t)
    ((cfg3.win 1).fill (cfg3.grid.coords t) d1 (iblk3 V c 1 t)) ((cfg3.win 2).fill (cfg3.grid.coords t) d2 (iblk3 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists (out3_3 (F := Ideal) (iblk3 V c 0 t) ((cfg3.win 1).fill (cfg3.grid.coords t) d1 (iblk3 V c 1 t)) ((cfg3.win 2).fill (cfg3.grid.coords t) d2 (iblk3 V c 2 t)))
  rw [(cfg3.win 3).fill_congr_cut (cfg3.grid.coords t) (cut_out3 V c t d1 d2)]
  iexact H3

theorem body_obligation3 (c : Dev nD) : BodyObligationLoose (dat3 V c) (defs₀ (F := Ideal)) Variants.none () Set.univ := fun t => by
  rw [bigSep_W3, bigSep_W3]
  exact sound_body3 V c t

end Cert.KernelIdeal.Hand

end
-- ==== Proof.KI.Run3I.lean ====
import proofs.«421596_j30159260352787_3_alg».proof.Proof.KI.RunR0
import proofs.«421596_j30159260352787_3_alg».proof.Proof.KI.Reg3c

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-! # The output projection's relational data, at the exact data

Over the extended reals what the body leaves in each staging buffer is named: the exact proof data of the last call,
at the contents the call finds, read as a relation. With that relation the relational data ARE the exact data read
relationally, so the exact body obligation serves, and the logits array can end at one contents only: what the
exact data's write-backs leave. -/

/-- What the body may leave, given what it was handed: what the exact data name. -/
def relI : (c : Dev nD) → (w : Fin cfg3.W) → Fin cfg3.N → ((cfg3.win w).block.Idx → Elt Ideal (cfg3.win w).elt)
    → ((cfg3.win w).block.Idx → Elt Ideal (cfg3.win w).elt) → Prop :=
  fun c w t Y X => (dat3 (atTc (V8 m (outs7 m))) c).toR.after w t Y X

/-- With that relation the last call's relational data are its exact data read relationally. -/
theorem rd3_eq (c : Dev nD) : rd3 m (relI m) c = (dat3 (atTc (V8 m (outs7 m))) c).toR := rfl

/-- The body obligation of the relational data, from the exact one. -/
theorem hbody3I (c : Dev nD) : (rd3 m (relI m) c).BodyObligation (defs₀ (F := Ideal)) Variants.none () Set.univ := by
  rw [rd3_eq]
  exact (body_obligation3 (atTc (V8 m (outs7 m))) c).toR

/-- The logits array after the last call holds what the exact data's write-backs leave, and nothing else. -/
theorem logits_iff (c : Dev nD) (o : Buf (Elt Ideal) ((cfg3.win 3).arr.view.loc (c : Thread nD τ))) :
    Logits m (relI m) c o ↔ o = (dat3 (atTc (V8 m (outs7 m))) c).arrAt 3 cfg3.N := by
  unfold Logits
  rw [rd3_eq]
  exact (dat3 (atTc (V8 m (outs7 m))) c).toR_arrAt_iff 3 cfg3.N o

end Cert.KernelIdeal.Hand

end
-- ==== Proof.KI.Val0.lean ====
/- The value of the attention call (the first pallas_call; one grid point, every block its whole array), at the ideal
   values. On arrays holding the reference's embedded row e, hidden row h, encoder outputs E, the two column halves W₁, W₂
   of the attention weights and the bias b as a row, the call leaves in its two result arrays the reference's attention
   weights and attended row.
   The kernel's scores are (e·W₁ᵀ + h·W₂ᵀ) + b; the reference's are concat(e, h)·Wᵀ + b, one sum over 2048 entries that
   splits into its first and last 1024. Both softmaxes subtract the fold of max from −∞ over the 512 scores, exponentiate,
   and divide by the sum of the exponentials (the reference's second maximum with −∞ and its initial 0 change nothing).
   The attended row is, on both sides, the sum over the 512 encoder rows of weight times entry. -/
import proofs.«421596_j30159260352787_3_alg».proof.Proof.KI.Reg0
import proofs.«421596_j30159260352787_3_alg».proof.Proof.ReadP
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open Cert.ReferenceIdeal.ReadP

namespace Attn

/-! ## One half of the scores: a row times the transpose of a weight block -/

theorem lhsScore_0 (i : S1x512.Idx) (q : dot_S1x1024_S1024x512_S1x512_1_0_0_1_n_n.contr.Idx) :
    (dot_S1x1024_S1024x512_S1x512_1_0_0_1_n_n.lhsIdx i q 0).val = (i 0).val := by
  unfold DotDims.lhsIdx
  rw [dif_neg (show ¬(0 : Fin S1x1024.rank) ∈ dot_S1x1024_S1024x512_S1x512_1_0_0_1_n_n.lhsBatch by decide), dif_pos (show (0 : Fin S1x1024.rank) ∈ dot_S1x1024_S1024x512_S1x512_1_0_0_1_n_n.lhsNonContracting by decide)]
  rfl
theorem lhsScore_1 (i : S1x512.Idx) (q : dot_S1x1024_S1024x512_S1x512_1_0_0_1_n_n.contr.Idx) :
    (dot_S1x1024_S1024x512_S1x512_1_0_0_1_n_n.lhsIdx i q 1).val = (q ⟨0, by decide⟩).val :=
  dot_S1x1024_S1024x512_S1x512_1_0_0_1_n_n.lhsIdx_val_of_single rfl i q
theorem rhsScore_0 (i : S1x512.Idx) (q : dot_S1x1024_S1024x512_S1x512_1_0_0_1_n_n.contr.Idx) :
    (dot_S1x1024_S1024x512_S1x512_1_0_0_1_n_n.rhsIdx i q 0).val = (q ⟨0, by decide⟩).val :=
  dot_S1x1024_S1024x512_S1x512_1_0_0_1_n_n.rhsIdx_val_of_single rfl i q
theorem rhsScore_1 (i : S1x512.Idx) (q : dot_S1x1024_S1024x512_S1x512_1_0_0_1_n_n.contr.Idx) :
    (dot_S1x1024_S1024x512_S1x512_1_0_0_1_n_n.rhsIdx i q 1).val = (i 1).val := by
  unfold DotDims.rhsIdx
  rw [dif_neg (show ¬(1 : Fin S1024x512.rank) ∈ dot_S1x1024_S1024x512_S1x512_1_0_0_1_n_n.rhsBatch by decide), dif_pos (show (1 : Fin S1024x512.rank) ∈ dot_S1x1024_S1024x512_S1x512_1_0_0_1_n_n.rhsNonContracting by decide)]
  rfl

/-- Entry `k` of the row the score at `j` multiplies. -/
abbrev rowIdx (j : S1x512.Idx) (k : Fin 1024) : S1x1024.Idx := fun a => match a with
  | ⟨0, _⟩ => ⟨(j 0).val, (j 0).isLt⟩
  | ⟨1, _⟩ => ⟨k.val, k.isLt⟩
/-- Entry `k` of the weight row the score at `j` multiplies. -/
abbrev wgtIdx (j : S1x512.Idx) (k : Fin 1024) : S512x1024.Idx := fun a => match a with
  | ⟨0, _⟩ => ⟨(j 1).val, (j 1).isLt⟩
  | ⟨1, _⟩ => ⟨k.val, k.isLt⟩

/-- A row times the transpose of a [512, 1024] block, read at `j`: the sum over the 1024 shared entries. -/
theorem scoreHalf_apply (a : FVec Ideal S1x1024 .f32) (w : FVec Ideal S512x1024 .f32) (j : S1x512.Idx) :
    matmul dot_S1x1024_S1024x512_S1x512_1_0_0_1_n_n none
        (truncf .bf16 (shapeCast S1x1024 a shapeCasts_S1x1024_S1x1024) bitsLt_bf16_f32)
        (transpose S1024x512 [1, 0] (truncf .bf16 (shapeCast S512x1024 w shapeCasts_S512x1024_S512x1024) bitsLt_bf16_f32)
          transposes_S512x1024_p1_0_S1024x512)
        (constant S1x512 .f32 0x00000000#32) j
      = ∑ k : Fin 1024, a (rowIdx j k) * w (wgtIdx j k) := by
  rw [shapeCast_self, shapeCast_self]
  simp only [matmul]
  rw [Ideal.matmul_constant_zero_apply, ← Equiv.sum_comp (contrEquiv1 dot_S1x1024_S1024x512_S1x512_1_0_0_1_n_n 1024 rfl rfl).symm]
  refine Finset.sum_congr rfl fun k _ => ?_
  have hk := contrEquiv1_symm_val dot_S1x1024_S1024x512_S1x512_1_0_0_1_n_n 1024 rfl rfl k
  have el : dot_S1x1024_S1024x512_S1x512_1_0_0_1_n_n.lhsIdx j ((contrEquiv1 dot_S1x1024_S1024x512_S1x512_1_0_0_1_n_n 1024 rfl rfl).symm k) = rowIdx j k := funext fun a => Fin.ext (by
    match a with
    | ⟨0, _⟩ => exact lhsScore_0 _ _
    | ⟨1, _⟩ => exact (lhsScore_1 _ _).trans hk)
  rw [el]
  refine congrArg (a (rowIdx j k) * ·) ?_
  refine transpose_apply [1, 0] _ transposes_S512x1024_p1_0_S1024x512 _ (wgtIdx j k) fun b => ?_
  match b with
  | ⟨0, _⟩ => exact ((rhsScore_0 _ _).trans hk).symm
  | ⟨1, _⟩ => exact (rhsScore_1 _ _).symm

/-! ## The softmax of a row of 512 scores -/

/-- The largest of the row's scores, from −∞ (as the word the reductions start from reads). -/
def rowMax (s : S1x512.Idx → EReal) : EReal :=
  (Finset.univ : Finset (Fin 512)).fold max (Ideal.ofBits .f32 0xFF800000#32) (fun k => s (ix2 (0 : Fin 1) k))

/-- The row's softmax: each score less the largest, exponentiated, over the sum of those exponentials. -/
def softRow (s : S1x512.Idx → EReal) : S1x512.Idx → EReal := fun j =>
  Ideal.div (Ideal.exp (s j - rowMax s)) (∑ k : Fin 512, Ideal.exp (s (ix2 (0 : Fin 1) k) - rowMax s))

/-- The row index with the coordinate on the reduced axis put back is (0, k). -/
theorem rowLift (j : S1.Idx) (k : Fin 512) : reduces_S1x512_S1.lift j k = ix2 (0 : Fin 1) k := by
  funext a; apply Fin.ext
  match a with
  | ⟨0, _⟩ => show (j 0).val = 0; have h : (j 0).val < 1 := (j 0).isLt; omega
  | ⟨1, _⟩ => rfl

/-- A one-element vector cast to [1, 1] and broadcast along the row reads its one element everywhere. -/
theorem bcastRow_apply (r : FVec Ideal S1 .f32) (j : S1x512.Idx) :
    broadcastTo S1x512 (shapeCast S1x1 r shapeCasts_S1_S1x1) broadcasts_S1x1_S1x512 j = r (ix1 (0 : Fin 1)) := by
  refine (broadcastTo_apply _ broadcasts_S1x1_S1x512 j (ix2 (0 : Fin 1) (0 : Fin 1)) (fun a => ?_)).trans ?_
  · match a with
    | ⟨0, _⟩ => show 0 = if (1 : Nat) = 1 then 0 else _; rw [if_pos rfl]
    | ⟨1, _⟩ => show 0 = if (1 : Nat) = 1 then 0 else _; rw [if_pos rfl]
  · exact shapeCast_apply r shapeCasts_S1_S1x1 _ (ix1 (0 : Fin 1)) (by rw [Shape.rowMajor_val_one, Shape.rowMajor_val_two]; rfl)

/-- The kernel's row maximum, broadcast back along the row. -/
theorem kmax_apply (s : FVec Ideal S1x512 .f32) (j : S1x512.Idx) :
    broadcastTo S1x512 (shapeCast S1x1 (multiReduction .maximumf [1] S1 s 0xFF800000#32 reduces_S1x512_S1 (.inl rfl) rfl) shapeCasts_S1_S1x1)
      broadcasts_S1x1_S1x512 j = rowMax s := by
  refine (bcastRow_apply _ j).trans ?_
  refine (Ideal.multiReduction_maximumf_single s 0xFF800000#32 reduces_S1x512_S1 (.inl rfl) rfl (ix1 (0 : Fin 1))).trans ?_
  unfold rowMax
  refine congrArg (fun f => Finset.fold max (Ideal.ofBits .f32 0xFF800000#32) f (Finset.univ : Finset (Fin 512))) ?_
  funext k
  exact congrArg s (rowLift _ k)

/-- The kernel's row sum, broadcast back along the row. -/
theorem ksum_apply (s : FVec Ideal S1x512 .f32) (j : S1x512.Idx) :
    broadcastTo S1x512 (shapeCast S1x1 (multiReduction .add [1] S1 s 0x00000000#32 reduces_S1x512_S1 (.inl rfl) rfl) shapeCasts_S1_S1x1)
      broadcasts_S1x1_S1x512 j = ∑ k : Fin 512, s (ix2 (0 : Fin 1) k) := by
  refine (bcastRow_apply _ j).trans ?_
  refine (Ideal.multiReduction_add_single s 0x00000000#32 reduces_S1x512_S1 (.inl rfl) rfl (ix1 (0 : Fin 1))).trans ?_
  refine Finset.sum_congr rfl fun k _ => ?_
  exact congrArg s (rowLift _ k)

/-- The kernel's softmax of a row of scores, as its operations spell it. -/
def ksoft (s : FVec Ideal S1x512 .f32) : FVec Ideal S1x512 .f32 :=
  divf
    (exp (subf s (broadcastTo S1x512 (shapeCast S1x1 (multiReduction .maximumf [1] S1 s 0xFF800000#32 reduces_S1x512_S1 (.inl rfl) rfl) shapeCasts_S1_S1x1) broadcasts_S1x1_S1x512)))
    (broadcastTo S1x512 (shapeCast S1x1 (multiReduction .add [1] S1
      (exp (subf s (broadcastTo S1x512 (shapeCast S1x1 (multiReduction .maximumf [1] S1 s 0xFF800000#32 reduces_S1x512_S1 (.inl rfl) rfl) shapeCasts_S1_S1x1) broadcasts_S1x1_S1x512)))
      0x00000000#32 reduces_S1x512_S1 (.inl rfl) rfl) shapeCasts_S1_S1x1) broadcasts_S1x1_S1x512)

theorem ksoft_eq (s : FVec Ideal S1x512 .f32) : ksoft s = softRow s := by
  funext j
  unfold ksoft softRow
  have hB := kmax_apply s
  generalize broadcastTo S1x512 (shapeCast S1x1 (multiReduction .maximumf [1] S1 s 0xFF800000#32 reduces_S1x512_S1 (.inl rfl) rfl) shapeCasts_S1_S1x1) broadcasts_S1x1_S1x512 = B at hB ⊢
  refine congrArg₂ Ideal.div ?_ ?_
  · show Ideal.exp (s j - B j) = _
    rw [hB]
  · refine (ksum_apply _ j).trans (Finset.sum_congr rfl fun k _ => ?_)
    show Ideal.exp (s _ - B _) = _
    rw [hB]

/-! ## The kernel's weights payload: the softmax of its scores -/

/-- The kernel's scores, as its operations spell them: the embedded row times the transpose of the first weight block,
    plus the hidden row times the transpose of the second, plus the bias row. -/
def kscores (v0 v3 : Vec Ideal S1x1024 .f32) (v6 v9 : Vec Ideal S512x1024 .f32) (v17 : Vec Ideal S1x512 .f32) : FVec Ideal S1x512 .f32 :=
  addf
    (addf
      (matmul dot_S1x1024_S1024x512_S1x512_1_0_0_1_n_n none
        (truncf .bf16 (shapeCast S1x1024 v0 shapeCasts_S1x1024_S1x1024) bitsLt_bf16_f32)
        (transpose S1024x512 [1, 0] (truncf .bf16 (shapeCast S512x1024 v6 shapeCasts_S512x1024_S512x1024) bitsLt_bf16_f32)
          transposes_S512x1024_p1_0_S1024x512)
        (constant S1x512 .f32 0x00000000#32))
      (matmul dot_S1x1024_S1024x512_S1x512_1_0_0_1_n_n none
        (truncf .bf16 (shapeCast S1x1024 v3 shapeCasts_S1x1024_S1x1024) bitsLt_bf16_f32)
        (transpose S1024x512 [1, 0] (truncf .bf16 (shapeCast S512x1024 v9 shapeCasts_S512x1024_S512x1024) bitsLt_bf16_f32)
          transposes_S512x1024_p1_0_S1024x512)
        (constant S1x512 .f32 0x00000000#32)))
    (shapeCast S1x512 v17 shapeCasts_S1x512_S1x512)

theorem pay1_eq (v0 v3 : Vec Ideal S1x1024 .f32) (v6 v9 : Vec Ideal S512x1024 .f32) (v17 : Vec Ideal S1x512 .f32) :
    k0_pay1 v0 v3 v6 v9 v17 = ksoft (kscores v0 v3 v6 v9 v17) := rfl

theorem kscores_apply (v0 v3 : Vec Ideal S1x1024 .f32) (v6 v9 : Vec Ideal S512x1024 .f32) (v17 : Vec Ideal S1x512 .f32) (j : S1x512.Idx) :
    kscores v0 v3 v6 v9 v17 j
      = ((∑ k : Fin 1024, v0 (rowIdx j k) * v6 (wgtIdx j k)) + ∑ k : Fin 1024, v3 (rowIdx j k) * v9 (wgtIdx j k)) + v17 j := by
  unfold kscores
  refine congrArg₂ (· + ·) (congrArg₂ (· + ·) (scoreHalf_apply v0 v6 j) (scoreHalf_apply v3 v9 j)) ?_
  exact congrFun (shapeCast_self v17 shapeCasts_S1x512_S1x512) j

/-! ## The reference's weights: the same softmax of its scores -/

theorem refRowMax (x0 : (⟨Cert.ReferenceIdeal.S1, .i32⟩ : BufTy).Contents (Elt Ideal))
    (x2 : (⟨Cert.ReferenceIdeal.S1x1x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal)) (i : S1.Idx) :
    val_main_v15 x0 x2 x3 x4 x5 i = rowMax (val_main_v12 x0 x2 x3 x4 x5) := by
  rw [val_main_v15_apply, val_main_v14_apply, val_main_cst_1_apply]
  unfold val_main_v13
  generalize val_main_v12 x0 x2 x3 x4 x5 = s
  refine (congrArg (FloatOps.maximumf (FloatOps.ofBits .f32 0xFF800000#32))
    (Host.reduce_eq_fold_single (FloatOps.maximumf (F := Ideal) (φ := .f32)) (s : S1x512.Idx → Ideal .f32) _ _ reduces_S1x512_S1 _ i)).trans ?_
  have e : (s ∘ reduces_S1x512_S1.lift i) = fun k : Fin 512 => s (ix2 (0 : Fin 1) k) := funext fun k => congrArg s (rowLift i k)
  rw [e]
  exact max_eq_right ((Finset.le_fold_max _).mpr (Or.inl le_rfl))

theorem refSoft_eq (x0 : (⟨Cert.ReferenceIdeal.S1, .i32⟩ : BufTy).Contents (Elt Ideal))
    (x2 : (⟨Cert.ReferenceIdeal.S1x1x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal)) :
    val_main_v23 x0 x2 x3 x4 x5 = softRow (val_main_v12 x0 x2 x3 x4 x5) := by
  funext j
  have hE : ∀ i : S1x512.Idx, val_main_v19 x0 x2 x3 x4 x5 i
      = Ideal.exp (val_main_v12 x0 x2 x3 x4 x5 i - rowMax (val_main_v12 x0 x2 x3 x4 x5)) := fun i => by
    rw [val_main_v19_apply, val_main_v18_apply, val_main_v17_apply, val_main_v16_apply, refRowMax]
    rfl
  rw [val_main_v23_apply, val_main_v22_apply, val_main_v21_apply, val_main_v20_apply, val_main_cst_2_apply]
  unfold softRow
  refine congrArg₂ Ideal.div (hE j) ?_
  show Ideal.ofBits .f32 0x00000000#32 + _ = _
  rw [Ideal.ofBits_zero_f32, zero_add]
  refine Finset.sum_congr rfl fun k _ => ?_
  have ei : idx_main_v20 (idx_main_v21 (idx_main_v22 j)) k = ix2 (0 : Fin 1) k :=
    funext fun a => Fin.ext (by match a with | ⟨0, _⟩ => rfl | ⟨1, _⟩ => rfl)
  rw [hE, ei]

/-! ## The scores: the reference's one product over 2048 entries is the kernel's two over 1024 -/

theorem refScores_apply (x0 : (⟨Cert.ReferenceIdeal.S1, .i32⟩ : BufTy).Contents (Elt Ideal))
    (x2 : (⟨Cert.ReferenceIdeal.S1x1x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal)) (j : S1x512.Idx) :
    val_main_v12 x0 x2 x3 x4 x5 j
      = ((∑ k : Fin 1024, val_main_v6 x0 x3 (rowIdx j k)
            * (extractStridedSlice S512x1024 ![0, 0] x4 slices_S512x2048_S512x1024_0_0 : S512x1024.Idx → EReal) (wgtIdx j k))
          + ∑ k : Fin 1024, val_main_v7 x2 (rowIdx j k)
            * (extractStridedSlice S512x1024 ![0, 1024] x4 slices_S512x2048_S512x1024_0_1024 : S512x1024.Idx → EReal) (wgtIdx j k))
        + (shapeCast S1x512 x5 shapeCasts_S512_S1x512 : S1x512.Idx → EReal) j := by
  rw [val_main_v12_apply, val_main_v10_apply, val_main_v11_apply]
  unfold val_main_v8
  generalize val_main_v6 x0 x3 = e
  generalize val_main_v7 x2 = h
  show (∑ k : Fin 2048, _) + _ = _
  refine congrArg₂ (· + ·) ?_ ?_
  · refine (Fin.sum_univ_add (a := 1024) (b := 1024) _).trans ?_
    refine congrArg₂ (· + ·) (Finset.sum_congr rfl fun k _ => ?_) (Finset.sum_congr rfl fun k _ => ?_)
    · refine congrArg₂ (· * ·) ?_ ?_
      · exact concatenate_pair_apply_left (t := Cert.ReferenceIdeal.S1x2048) 1 e h
          Cert.ReferenceIdeal.Gen.concatenates_S1x1024_S1x1024_S1x2048_d1 (lidx_main_v10 j (Fin.castAdd 1024 k)) rfl (rowIdx j k)
          (fun b => by match b with | ⟨0, _⟩ => rfl | ⟨1, _⟩ => rfl)
      · rw [val_main_v9_apply]
        refine (extractStridedSlice_apply ![0, 0] x4 slices_S512x2048_S512x1024_0_0 (wgtIdx j k) _ (fun a => ?_)).symm
        match a with
        | ⟨0, _⟩ => show (j 1).val = 0 + (j 1).val; omega
        | ⟨1, _⟩ => show k.val = 0 + k.val; omega
    · refine congrArg₂ (· * ·) ?_ ?_
      · exact concatenate_pair_apply_right (t := Cert.ReferenceIdeal.S1x2048) 1 e h
          Cert.ReferenceIdeal.Gen.concatenates_S1x1024_S1x1024_S1x2048_d1 (lidx_main_v10 j (Fin.natAdd 1024 k)) rfl rfl (rowIdx j k)
          (fun b hb => by match b with | ⟨0, _⟩ => rfl | ⟨1, _⟩ => exact absurd rfl hb)
          (by show k.val + 1024 = 1024 + k.val; omega)
      · rw [val_main_v9_apply]
        refine (extractStridedSlice_apply ![0, 1024] x4 slices_S512x2048_S512x1024_0_1024 (wgtIdx j k) _ (fun a => ?_)).symm
        match a with
        | ⟨0, _⟩ => show (j 1).val = 0 + (j 1).val; omega
        | ⟨1, _⟩ => show 1024 + k.val = 1024 + k.val; rfl
  · refine (shapeCast_apply x5 shapeCasts_S512_S1x512 j (idx_main_v11 j) ?_).symm
    rw [Shape.rowMajor_val_one, Shape.rowMajor_val_two]
    show (j 1).val = (j 0).val * 512 + (j 1).val
    have h0 : (j 0).val < 1 := (j 0).isLt
    omega

/-! ## The attended row: the weights times the encoder outputs -/

theorem lhsAttd_0 (i : S1x1024.Idx) (q : dot_S1x512_S512x1024_S1x1024_1_0_0_1_n_n.contr.Idx) :
    (dot_S1x512_S512x1024_S1x1024_1_0_0_1_n_n.lhsIdx i q 0).val = (i 0).val := by
  unfold DotDims.lhsIdx
  rw [dif_neg (show ¬(0 : Fin S1x512.rank) ∈ dot_S1x512_S512x1024_S1x1024_1_0_0_1_n_n.lhsBatch by decide), dif_pos (show (0 : Fin S1x512.rank) ∈ dot_S1x512_S512x1024_S1x1024_1_0_0_1_n_n.lhsNonContracting by decide)]
  rfl
theorem lhsAttd_1 (i : S1x1024.Idx) (q : dot_S1x512_S512x1024_S1x1024_1_0_0_1_n_n.contr.Idx) :
    (dot_S1x512_S512x1024_S1x1024_1_0_0_1_n_n.lhsIdx i q 1).val = (q ⟨0, by decide⟩).val :=
  dot_S1x512_S512x1024_S1x1024_1_0_0_1_n_n.lhsIdx_val_of_single rfl i q
theorem rhsAttd_0 (i : S1x1024.Idx) (q : dot_S1x512_S512x1024_S1x1024_1_0_0_1_n_n.contr.Idx) :
    (dot_S1x512_S512x1024_S1x1024_1_0_0_1_n_n.rhsIdx i q 0).val = (q ⟨0, by decide⟩).val :=
  dot_S1x512_S512x1024_S1x1024_1_0_0_1_n_n.rhsIdx_val_of_single rfl i q
theorem rhsAttd_1 (i : S1x1024.Idx) (q : dot_S1x512_S512x1024_S1x1024_1_0_0_1_n_n.contr.Idx) :
    (dot_S1x512_S512x1024_S1x1024_1_0_0_1_n_n.rhsIdx i q 1).val = (i 1).val := by
  unfold DotDims.rhsIdx
  rw [dif_neg (show ¬(1 : Fin S512x1024.rank) ∈ dot_S1x512_S512x1024_S1x1024_1_0_0_1_n_n.rhsBatch by decide), dif_pos (show (1 : Fin S512x1024.rank) ∈ dot_S1x512_S512x1024_S1x1024_1_0_0_1_n_n.rhsNonContracting by decide)]
  rfl

/-- The weights row times the encoder block, read at `j`: the sum over the 512 encoder rows. -/
theorem attended_apply (p : FVec Ideal S1x512 .f32) (E : FVec Ideal S512x1024 .f32) (j : S1x1024.Idx) :
    matmul dot_S1x512_S512x1024_S1x1024_1_0_0_1_n_n none (truncf .bf16 p bitsLt_bf16_f32) (truncf .bf16 E bitsLt_bf16_f32)
        (constant S1x1024 .f32 0x00000000#32) j
      = ∑ k : Fin 512, p (lidx_main_v24 j k) * E (ridx_main_v24 j k) := by
  simp only [matmul]
  rw [Ideal.matmul_constant_zero_apply, ← Equiv.sum_comp (contrEquiv1 dot_S1x512_S512x1024_S1x1024_1_0_0_1_n_n 512 rfl rfl).symm]
  refine Finset.sum_congr rfl fun k _ => ?_
  have hk := contrEquiv1_symm_val dot_S1x512_S512x1024_S1x1024_1_0_0_1_n_n 512 rfl rfl k
  have el : dot_S1x512_S512x1024_S1x1024_1_0_0_1_n_n.lhsIdx j ((contrEquiv1 dot_S1x512_S512x1024_S1x1024_1_0_0_1_n_n 512 rfl rfl).symm k) = lidx_main_v24 j k := funext fun a => Fin.ext (by
    match a with
    | ⟨0, _⟩ => exact lhsAttd_0 _ _
    | ⟨1, _⟩ => exact (lhsAttd_1 _ _).trans hk)
  have er : dot_S1x512_S512x1024_S1x1024_1_0_0_1_n_n.rhsIdx j ((contrEquiv1 dot_S1x512_S512x1024_S1x1024_1_0_0_1_n_n 512 rfl rfl).symm k) = ridx_main_v24 j k := funext fun a => Fin.ext (by
    match a with
    | ⟨0, _⟩ => exact (rhsAttd_0 _ _).trans hk
    | ⟨1, _⟩ => exact rhsAttd_1 _ _)
  rw [el, er]
  rfl

theorem pay2_eq (v0 v3 : Vec Ideal S1x1024 .f32) (v6 v9 : Vec Ideal S512x1024 .f32) (v17 : Vec Ideal S1x512 .f32) (v30 : Vec Ideal S512x1024 .f32) :
    k0_pay2 v0 v3 v6 v9 v17 v30
      = matmul dot_S1x512_S512x1024_S1x1024_1_0_0_1_n_n none (truncf .bf16 (k0_pay1 v0 v3 v6 v9 v17) bitsLt_bf16_f32)
          (truncf .bf16 v30 bitsLt_bf16_f32) (constant S1x1024 .f32 0x00000000#32) := rfl

/-! ## From the one grid point's blocks to the arrays -/

theorem offZero : (![0, 0] : Fin 2 → Nat) = fun _ => 0 := funext fun a => by fin_cases a <;> rfl

/-- One grid point: every window's block index is zero on both axes. -/
theorem blkIdx_zero : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

variable (V : (c : Dev nD) → (b : Ref sig .tc) → Buf (Elt Ideal) ((c : Thread nD τ).loc b))

/-! Each input window's one block is its whole array. -/

theorem iblk0_0_eq (c : Dev nD) (t : Fin cfg0.N) : iblk0 V c 0 t = (V c main_v0 : S1x1024.Idx → EReal) := by
  obtain ⟨⟨e0, e1⟩, -⟩ := blkIdx_zero t
  funext y
  show V c main_v0 (((cfg0.win 0).blk t).view.emb y) = V c main_v0 y
  refine congrArg _ (funext fun a => Fin.ext ?_)
  match a with
  | ⟨0, _⟩ => show win0_0.index t (0 : Fin 2) * 1 + 1 * (y 0).val = (y 0).val; omega
  | ⟨1, _⟩ => show win0_0.index t (1 : Fin 2) * 1024 + 1 * (y 1).val = (y 1).val; omega
theorem iblk0_1_eq (c : Dev nD) (t : Fin cfg0.N) : iblk0 V c 1 t = (V c main_v1 : S1x1024.Idx → EReal) := by
  obtain ⟨-, ⟨e0, e1⟩, -⟩ := blkIdx_zero t
  funext y
  show V c main_v1 (((cfg0.win 1).blk t).view.emb y) = V c main_v1 y
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 1024 + 1 * (y 1).val = (y 1).val; omega
theorem iblk0_2_eq (c : Dev nD) (t : Fin cfg0.N) : iblk0 V c 2 t = (V c main_arg1 : S512x1024.Idx → EReal) := by
  obtain ⟨-, -, ⟨e0, e1⟩, -⟩ := blkIdx_zero t
  funext y
  show V c main_arg1 (((cfg0.win 2).blk t).view.emb y) = V c main_arg1 y
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 1024 + 1 * (y 1).val = (y 1).val; omega
theorem iblk0_3_eq (c : Dev nD) (t : Fin cfg0.N) : iblk0 V c 3 t = (V c main_v2 : S512x1024.Idx → EReal) := by
  obtain ⟨-, -, -, ⟨e0, e1⟩, -⟩ := blkIdx_zero t
  funext y
  show V c main_v2 (((cfg0.win 3).blk t).view.emb y) = V c main_v2 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 1024 + 1 * (y 1).val = (y 1).val; omega
theorem iblk0_4_eq (c : Dev nD) (t : Fin cfg0.N) : iblk0 V c 4 t = (V c main_v3 : S512x1024.Idx → EReal) := by
  obtain ⟨-, -, -, -, ⟨e0, e1⟩, -⟩ := blkIdx_zero t
  funext y
  show V c main_v3 (((cfg0.win 4).blk t).view.emb y) = V c main_v3 y
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 1024 + 1 * (y 1).val = (y 1).val; omega
theorem iblk0_5_eq (c : Dev nD) (t : Fin cfg0.N) : iblk0 V c 5 t = (V c main_v4 : S1x512.Idx → EReal) := by
  obtain ⟨-, -, -, -, -, ⟨e0, e1⟩, -⟩ := blkIdx_zero t
  funext y
  show V c main_v4 (((cfg0.win 5).blk t).view.emb y) = V c main_v4 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 512 + 1 * (y 1).val = (y 1).val; omega

/-- The one block of the weights' window sits at the array's own indices. -/
theorem emb6 (t : Fin cfg0.N) (y : S1x512.Idx) : ((cfg0.win 6).blk t).view.emb y = y := by
  obtain ⟨-, -, -, -, -, -, ⟨e0, e1⟩, -⟩ := blkIdx_zero t
  refine funext fun a => Fin.ext ?_
  match a with
  | ⟨0, _⟩ => show win0_6.index t (0 : Fin 2) * 1 + 1 * (y 0).val = (y 0).val; omega
  | ⟨1, _⟩ => show win0_6.index t (1 : Fin 2) * 512 + 1 * (y 1).val = (y 1).val; omega

/-- The one block of the attended row's window sits at the array's own indices. -/
theorem emb7 (t : Fin cfg0.N) (y : S1x1024.Idx) : ((cfg0.win 7).blk t).view.emb y = y := by
  obtain ⟨-, -, -, -, -, -, -, e0, e1⟩ := blkIdx_zero t
  refine funext fun a => Fin.ext ?_
  match a with
  | ⟨0, _⟩ => show win0_7.index t (0 : Fin 2) * 1 + 1 * (y 0).val = (y 0).val; omega
  | ⟨1, _⟩ => show win0_7.index t (1 : Fin 2) * 1024 + 1 * (y 1).val = (y 1).val; omega

/-- What the point writes back to the weights' array: the weights payload of the arrays the call finds. -/
theorem flushed6_eq (c : Dev nD) (t : Fin cfg0.N) :
    (dat0 V c).flushed 6 t = ((cfg0.win 6).blk t).view.read (Elt Ideal)
      (k0_pay1 (V c main_v0) (V c main_v1) (V c main_v2) (V c main_v3) (V c main_v4) : S1x512.Idx → EReal) := by
  show (cfg0.win 6).cut (grid0.coords t) ((dat0 V c).after 6 t) = _
  rw [after0_6]
  unfold out0_6
  rw [View.canon_unit_zero offZero]
  simp only [View.ld_unit_zero (S := S1x1024) offZero, View.ld_unit_zero (S := S512x1024) offZero, View.ld_unit_zero (S := S1x512) offZero]
  rw [iblk0_0_eq, iblk0_1_eq, iblk0_3_eq, iblk0_4_eq, iblk0_5_eq]
  funext y
  show k0_pay1 (V c main_v0) (V c main_v1) (V c main_v2) (V c main_v3) (V c main_v4) y
    = k0_pay1 (V c main_v0) (V c main_v1) (V c main_v2) (V c main_v3) (V c main_v4) (((cfg0.win 6).blk t).view.emb y)
  rw [emb6]

/-- An index of the weights' array is in the point's block iff each coordinate is in the block's range on its axis. -/
theorem mem_blk6 (t : Fin cfg0.N) (i : S1x512.Idx) :
    i ∈ ((cfg0.win 6).blk t).view.set ↔ ∀ a : Fin 2, win0_6.index t a * S1x512.size a ≤ (i a).val ∧ (i a).val < win0_6.index t a * S1x512.size a + S1x512.size a := by
  show i ∈ ((View.whole main_v5_0).slice (win0_6.rect t)).set ↔ _
  rw [View.set_slice_whole, Rect.mem_set_unit]
  exact Iff.rfl

/-- The weights' array after the call: the weights payload of the arrays the call finds. -/
theorem arr6_eq (c : Dev nD) :
    (dat0 V c).arrAt 6 cfg0.N = (k0_pay1 (V c main_v0) (V c main_v1) (V c main_v2) (V c main_v3) (V c main_v4) : S1x512.Idx → EReal) :=
  (dat0 V c).arrAt_eq_of_cover 6 _ (fun t _ => flushed6_eq V c t) fun i => ⟨t0_0, flush0_6 t0_0, by
    rw [mem_blk6]
    obtain ⟨-, -, -, -, -, -, ⟨e0, e1⟩, -⟩ := blkIdx_zero t0_0
    intro a
    match a with
    | ⟨0, _⟩ =>
      show win0_6.index t0_0 (0 : Fin 2) * 1 ≤ (i 0).val ∧ (i 0).val < win0_6.index t0_0 (0 : Fin 2) * 1 + 1
      have h0 : (i 0).val < 1 := (i 0).isLt
      omega
    | ⟨1, _⟩ =>
      show win0_6.index t0_0 (1 : Fin 2) * 512 ≤ (i 1).val ∧ (i 1).val < win0_6.index t0_0 (1 : Fin 2) * 512 + 512
      have h1 : (i 1).val < 512 := (i 1).isLt
      omega⟩

/-- What the point writes back to the attended row's array: the attended-row payload of the arrays the call finds. -/
theorem flushed7_eq (c : Dev nD) (t : Fin cfg0.N) :
    (dat0 V c).flushed 7 t = ((cfg0.win 7).blk t).view.read (Elt Ideal)
      (k0_pay2 (V c main_v0) (V c main_v1) (V c main_v2) (V c main_v3) (V c main_v4) (V c main_arg1) : S1x1024.Idx → EReal) := by
  show (cfg0.win 7).cut (grid0.coords t) ((dat0 V c).after 7 t) = _
  rw [after0_7]
  unfold out0_7
  rw [View.canon_unit_zero offZero]
  simp only [View.ld_unit_zero (S := S1x1024) offZero, View.ld_unit_zero (S := S512x1024) offZero, View.ld_unit_zero (S := S1x512) offZero]
  rw [iblk0_0_eq, iblk0_1_eq, iblk0_2_eq, iblk0_3_eq, iblk0_4_eq, iblk0_5_eq]
  funext y
  show k0_pay2 (V c main_v0) (V c main_v1) (V c main_v2) (V c main_v3) (V c main_v4) (V c main_arg1) y
    = k0_pay2 (V c main_v0) (V c main_v1) (V c main_v2) (V c main_v3) (V c main_v4) (V c main_arg1) (((cfg0.win 7).blk t).view.emb y)
  rw [emb7]

/-- An index of the attended row's array is in the point's block iff each coordinate is in the block's range on its axis. -/
theorem mem_blk7 (t : Fin cfg0.N) (i : S1x1024.Idx) :
    i ∈ ((cfg0.win 7).blk t).view.set ↔ ∀ a : Fin 2, win0_7.index t a * S1x1024.size a ≤ (i a).val ∧ (i a).val < win0_7.index t a * S1x1024.size a + S1x1024.size a := by
  show i ∈ ((View.whole main_v5_1).slice (win0_7.rect t)).set ↔ _
  rw [View.set_slice_whole, Rect.mem_set_unit]
  exact Iff.rfl

/-- The attended row's array after the call: the attended-row payload of the arrays the call finds. -/
theorem arr7_eq (c : Dev nD) :
    (dat0 V c).arrAt 7 cfg0.N
      = (k0_pay2 (V c main_v0) (V c main_v1) (V c main_v2) (V c main_v3) (V c main_v4) (V c main_arg1) : S1x1024.Idx → EReal) :=
  (dat0 V c).arrAt_eq_of_cover 7 _ (fun t _ => flushed7_eq V c t) fun i => ⟨t0_0, flush0_7 t0_0, by
    rw [mem_blk7]
    obtain ⟨-, -, -, -, -, -, -, e0, e1⟩ := blkIdx_zero t0_0
    intro a
    match a with
    | ⟨0, _⟩ =>
      show win0_7.index t0_0 (0 : Fin 2) * 1 ≤ (i 0).val ∧ (i 0).val < win0_7.index t0_0 (0 : Fin 2) * 1 + 1
      have h0 : (i 0).val < 1 := (i 0).isLt
      omega
    | ⟨1, _⟩ =>
      show win0_7.index t0_0 (1 : Fin 2) * 1024 ≤ (i 1).val ∧ (i 1).val < win0_7.index t0_0 (1 : Fin 2) * 1024 + 1024
      have h1 : (i 1).val < 1024 := (i 1).isLt
      omega⟩

/-! ## The two results -/

/-- On the reference's embedded and hidden rows, the two column halves of its attention weights and its bias as a row,
    the kernel's scores are the reference's. -/
theorem scores_eq (x0 : (⟨Cert.ReferenceIdeal.S1, .i32⟩ : BufTy).Contents (Elt Ideal))
    (x2 : (⟨Cert.ReferenceIdeal.S1x1x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal))
    (e h : Vec Ideal S1x1024 .f32) (W₁ W₂ : Vec Ideal S512x1024 .f32) (b : Vec Ideal S1x512 .f32)
    (h0 : e = val_main_v6 x0 x3) (h1 : h = val_main_v7 x2)
    (h2 : W₁ = extractStridedSlice S512x1024 ![0, 0] x4 slices_S512x2048_S512x1024_0_0)
    (h3 : W₂ = extractStridedSlice S512x1024 ![0, 1024] x4 slices_S512x2048_S512x1024_0_1024)
    (h4 : b = shapeCast _ x5 shapeCasts_S512_S1x512) :
    kscores e h W₁ W₂ b = val_main_v12 x0 x2 x3 x4 x5 := by
  subst h0 h1 h2 h3 h4
  funext j
  rw [kscores_apply, refScores_apply]

/-- So the kernel's weights payload is the reference's attention weights. -/
theorem weights_eq (x0 : (⟨Cert.ReferenceIdeal.S1, .i32⟩ : BufTy).Contents (Elt Ideal))
    (x2 : (⟨Cert.ReferenceIdeal.S1x1x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal))
    (e h : Vec Ideal S1x1024 .f32) (W₁ W₂ : Vec Ideal S512x1024 .f32) (b : Vec Ideal S1x512 .f32)
    (h0 : e = val_main_v6 x0 x3) (h1 : h = val_main_v7 x2)
    (h2 : W₁ = extractStridedSlice S512x1024 ![0, 0] x4 slices_S512x2048_S512x1024_0_0)
    (h3 : W₂ = extractStridedSlice S512x1024 ![0, 1024] x4 slices_S512x2048_S512x1024_0_1024)
    (h4 : b = shapeCast _ x5 shapeCasts_S512_S1x512) :
    k0_pay1 e h W₁ W₂ b = val_main_v23 x0 x2 x3 x4 x5 := by
  rw [pay1_eq, ksoft_eq, scores_eq x0 x2 x3 x4 x5 e h W₁ W₂ b h0 h1 h2 h3 h4, refSoft_eq]

/-- And its attended-row payload the reference's attended row. -/
theorem attended_eq (x0 : (⟨Cert.ReferenceIdeal.S1, .i32⟩ : BufTy).Contents (Elt Ideal))
    (x1 : (⟨Cert.ReferenceIdeal.S512x1024, .f32⟩ : BufTy).Contents (Elt Ideal))
    (x2 : (⟨Cert.ReferenceIdeal.S1x1x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal))
    (e h : Vec Ideal S1x1024 .f32) (W₁ W₂ : Vec Ideal S512x1024 .f32) (b : Vec Ideal S1x512 .f32) (E : Vec Ideal S512x1024 .f32)
    (h0 : e = val_main_v6 x0 x3) (h1 : h = val_main_v7 x2) (hE : E = x1)
    (h2 : W₁ = extractStridedSlice S512x1024 ![0, 0] x4 slices_S512x2048_S512x1024_0_0)
    (h3 : W₂ = extractStridedSlice S512x1024 ![0, 1024] x4 slices_S512x2048_S512x1024_0_1024)
    (h4 : b = shapeCast _ x5 shapeCasts_S512_S1x512) :
    k0_pay2 e h W₁ W₂ b E = val_main_v24 x0 x1 x2 x3 x4 x5 := by
  funext j
  rw [pay2_eq, attended_apply, weights_eq x0 x2 x3 x4 x5 e h W₁ W₂ b h0 h1 h2 h3 h4, val_main_v24_apply, hE]

end Attn

/-- THE ATTENTION CALL'S VALUE: on arrays holding the reference's embedded row, hidden row, encoder outputs, the two
    column halves of the attention weights and the bias as a row, the call leaves the reference's attention weights and
    attended row in its two result arrays. -/
theorem attn_eq (V : (c : Dev nD) → (b : Ref sig .tc) → Buf (Elt Ideal) ((c : Thread nD τ).loc b)) (c : Dev nD)
    (x0 : (⟨Cert.ReferenceIdeal.S1, .i32⟩ : BufTy).Contents (Elt Ideal))
    (x1 : (⟨Cert.ReferenceIdeal.S512x1024, .f32⟩ : BufTy).Contents (Elt Ideal))
    (x2 : (⟨Cert.ReferenceIdeal.S1x1x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal))
    (h0 : (V c main_v0 : S1x1024.Idx → EReal) = val_main_v6 x0 x3)
    (h1 : (V c main_v1 : S1x1024.Idx → EReal) = val_main_v7 x2)
    (hE : (V c main_arg1 : S512x1024.Idx → EReal) = x1)
    (h2 : (V c main_v2 : S512x1024.Idx → EReal) = extractStridedSlice S512x1024 ![0, 0] x4 slices_S512x2048_S512x1024_0_0)
    (h3 : (V c main_v3 : S512x1024.Idx → EReal) = extractStridedSlice S512x1024 ![0, 1024] x4 slices_S512x2048_S512x1024_0_1024)
    (h4 : (V c main_v4 : S1x512.Idx → EReal) = shapeCast _ x5 shapeCasts_S512_S1x512) :
    (dat0 V c).arrAt 6 cfg0.N = val_main_v23 x0 x2 x3 x4 x5
    ∧ (dat0 V c).arrAt 7 cfg0.N = val_main_v24 x0 x1 x2 x3 x4 x5 :=
  ⟨(Attn.arr6_eq V c).trans (Attn.weights_eq x0 x2 x3 x4 x5 _ _ _ _ _ h0 h1 h2 h3 h4),
    (Attn.arr7_eq V c).trans (Attn.attended_eq x0 x1 x2 x3 x4 x5 _ _ _ _ _ _ h0 h1 hE h2 h3 h4)⟩

end Cert.KernelIdeal.Hand

end
-- ==== Proof.KI.Val1.lean ====
import proofs.«421596_j30159260352787_3_alg».proof.Proof.KI.Reg1
import proofs.«421596_j30159260352787_3_alg».proof.Proof.ReadP
import Idealize.ShloMosaic.Lib.Pipeline.Value
import Idealize.ShloMosaic.Lib.ValueIdx
import Idealize.ShloMosaic.PureOps.Ideal.Laws

set_option maxRecDepth 16384

noncomputable section

/-! # The value of the combine call (second pallas_call)

Two grid points, each a tile of 512 of the 1024 output columns. Column `i` of the output row is
`max (∑ₖ e[k]·W[i,k] + ∑ₖ a[k]·W[i,1024+k] + b[i]) 0`, where `e` is the embedded row, `a` the attended row, `W` the
[1024,2048] combine weights and `b` the combine bias. The reference computes `max (∑ over 2048 of concat(e,a)[k]·Wᵀ[k,i] + b[i]) 0`;
the sum over 2048 coordinates splits into its two halves of 1024 with no finiteness (the extended reals are an additive
commutative monoid).

* `comb_pay_apply`: the body's result at one column of its tile, over variables;
* `iblk1_*_apply`: each input block at point `t` as entries of its array;
* `combRow`, `comb_flushed`, `comb_cover`, `comb_kernel`: the output array after the call is one function of the arrays;
* `comb_ref`: the reference's stage is the same function of its own stages;
* `comb_eq`: the two agree when the call's arrays hold the reference's stages. -/

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The tile's arithmetic at one column -/

/-- The row operand of the product [1,1024] × [1024,512] at an output index keeps the output's row. -/
theorem lhs_comb_0 (i : S1x512.Idx) (q : dot_S1x1024_S1024x512_S1x512_1_0_0_1_n_n.contr.Idx) :
    (dot_S1x1024_S1024x512_S1x512_1_0_0_1_n_n.lhsIdx i q 0).val = (i 0).val := by
  unfold DotDims.lhsIdx
  rw [dif_neg (show ¬(0 : Fin S1x1024.rank) ∈ dot_S1x1024_S1024x512_S1x512_1_0_0_1_n_n.lhsBatch by decide), dif_pos (show (0 : Fin S1x1024.rank) ∈ dot_S1x1024_S1024x512_S1x512_1_0_0_1_n_n.lhsNonContracting by decide)]
  rfl
/-- Its column is the contraction coordinate. -/
theorem lhs_comb_1 (i : S1x512.Idx) (q : dot_S1x1024_S1024x512_S1x512_1_0_0_1_n_n.contr.Idx) :
    (dot_S1x1024_S1024x512_S1x512_1_0_0_1_n_n.lhsIdx i q 1).val = (q ⟨0, by decide⟩).val :=
  dot_S1x1024_S1024x512_S1x512_1_0_0_1_n_n.lhsIdx_val_of_single rfl i q
/-- The matrix operand's row is the contraction coordinate. -/
theorem rhs_comb_0 (i : S1x512.Idx) (q : dot_S1x1024_S1024x512_S1x512_1_0_0_1_n_n.contr.Idx) :
    (dot_S1x1024_S1024x512_S1x512_1_0_0_1_n_n.rhsIdx i q 0).val = (q ⟨0, by decide⟩).val :=
  dot_S1x1024_S1024x512_S1x512_1_0_0_1_n_n.rhsIdx_val_of_single rfl i q
/-- Its column is the output's column. -/
theorem rhs_comb_1 (i : S1x512.Idx) (q : dot_S1x1024_S1024x512_S1x512_1_0_0_1_n_n.contr.Idx) :
    (dot_S1x1024_S1024x512_S1x512_1_0_0_1_n_n.rhsIdx i q 1).val = (i 1).val := by
  unfold DotDims.rhsIdx
  rw [dif_neg (show ¬(1 : Fin S1024x512.rank) ∈ dot_S1x1024_S1024x512_S1x512_1_0_0_1_n_n.rhsBatch by decide), dif_pos (show (1 : Fin S1024x512.rank) ∈ dot_S1x1024_S1024x512_S1x512_1_0_0_1_n_n.rhsNonContracting by decide)]
  rfl

/-- The product of a row by a [1024,512] matrix into a zero accumulator, at column `q`: the sum over the 1024 shared coordinates. -/
theorem comb_matmul_row_apply (l : FVec Ideal S1x1024 .bf16) (r : FVec Ideal S1024x512 .bf16) (p : Fin 1) (q : Fin 512) :
    matmul dot_S1x1024_S1024x512_S1x512_1_0_0_1_n_n none l r (constant (F := Ideal) S1x512 .f32 0x00000000#32) (ix2 p q)
      = ∑ k : Fin 1024, l (ix2 p k) * r (ix2 k q) := by
  simp only [matmul]
  rw [Ideal.matmul_constant_zero_apply, ← Equiv.sum_comp (contrEquiv1 dot_S1x1024_S1024x512_S1x512_1_0_0_1_n_n 1024 rfl rfl).symm]
  refine Finset.sum_congr rfl fun k _ => ?_
  have hk := contrEquiv1_symm_val dot_S1x1024_S1024x512_S1x512_1_0_0_1_n_n 1024 rfl rfl k
  have el : dot_S1x1024_S1024x512_S1x512_1_0_0_1_n_n.lhsIdx (ix2 p q) ((contrEquiv1 dot_S1x1024_S1024x512_S1x512_1_0_0_1_n_n 1024 rfl rfl).symm k) = ix2 p k := funext fun a => Fin.ext (by
    match a with
    | ⟨0, _⟩ => exact lhs_comb_0 _ _
    | ⟨1, _⟩ => exact (lhs_comb_1 _ _).trans hk)
  have er : dot_S1x1024_S1024x512_S1x512_1_0_0_1_n_n.rhsIdx (ix2 p q) ((contrEquiv1 dot_S1x1024_S1024x512_S1x512_1_0_0_1_n_n 1024 rfl rfl).symm k) = ix2 k q := funext fun a => Fin.ext (by
    match a with
    | ⟨0, _⟩ => exact (rhs_comb_0 _ _).trans hk
    | ⟨1, _⟩ => exact rhs_comb_1 _ _)
  rw [el, er]

/-- The transposed weight tile at (k, q) is the tile at (q, k). -/
theorem comb_transpose_tile_apply (X : FVec Ideal S512x1024 .bf16) (k : Fin 1024) (q : Fin 512) :
    transpose S1024x512 [1, 0] X transposes_S512x1024_p1_0_S1024x512 (ix2 k q) = X (ix2 q k) :=
  transpose_apply [1, 0] X transposes_S512x1024_p1_0_S1024x512 (ix2 k q) (ix2 q k) (fun b => match b with
    | ⟨0, _⟩ => rfl
    | ⟨1, _⟩ => rfl)

/-- The body's result at column `q` of its tile: the two products' sums and the bias added, then the maximum with zero. -/
theorem comb_pay_apply (v0 v3 : Vec Ideal S1x1024 .f32) (v6 v9 : Vec Ideal S512x1024 .f32) (v17 : Vec Ideal S1x512 .f32) (p : Fin 1) (q : Fin 512) :
    k1_pay1 v0 v3 v6 v9 v17 (ix2 p q)
      = max ((∑ k : Fin 1024, v0 (ix2 p k) * v6 (ix2 q k)) + (∑ k : Fin 1024, v3 (ix2 p k) * v9 (ix2 q k)) + v17 (ix2 p q))
          (FloatOps.ofBits (F := Ideal) .f32 0x00000000#32) := by
  unfold k1_pay1
  rw [maximumf_apply, addf_apply, addf_apply, comb_matmul_row_apply, comb_matmul_row_apply, broadcast_apply]
  simp only [shapeCast_self]
  have s6 : (∑ k : Fin 1024, truncf (F := Ideal) .bf16 v0 bitsLt_bf16_f32 (ix2 p k)
        * transpose S1024x512 [1, 0] (truncf (F := Ideal) .bf16 v6 bitsLt_bf16_f32) transposes_S512x1024_p1_0_S1024x512 (ix2 k q))
      = ∑ k : Fin 1024, v0 (ix2 p k) * v6 (ix2 q k) :=
    Finset.sum_congr rfl fun k _ => by rw [comb_transpose_tile_apply]; rfl
  have s9 : (∑ k : Fin 1024, truncf (F := Ideal) .bf16 v3 bitsLt_bf16_f32 (ix2 p k)
        * transpose S1024x512 [1, 0] (truncf (F := Ideal) .bf16 v9 bitsLt_bf16_f32) transposes_S512x1024_p1_0_S1024x512 (ix2 k q))
      = ∑ k : Fin 1024, v3 (ix2 p k) * v9 (ix2 q k) :=
    Finset.sum_congr rfl fun k _ => by rw [comb_transpose_tile_apply]; rfl
  rw [s6, s9]

/-! ## The blocks the tile at point `t` reads, as entries of the arrays -/

variable (V : (c : Dev nD) → (b : Ref sig .tc) → Buf (Elt Ideal) ((c : Thread nD τ).loc b))

theorem comb_hz : (![0, 0] : Fin 2 → Nat) = fun _ => 0 := funext fun a => by fin_cases a <;> rfl

/-- The printed index maps at a point: the two row windows stay at block (0, 0), the weight windows move down by one block
    of rows a point, the bias and the output by one block of columns. -/
theorem comb_idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = t.val
    ∧ win1_5.index t (0 : Fin 2) = 0 ∧ win1_5.index t (1 : Fin 2) = t.val :=
  (by decide +kernel : ∀ t : Fin grid1.N, _)

/-- The embedded row's block is the whole row. -/
theorem iblk1_0_apply (c : Dev nD) (t : Fin cfg1.N) (p : Fin 1) (k : Fin 1024) :
    (iblk1 V c 0 t : Vec Ideal S1x1024 .f32) (ix2 p k) = (V c main_v0 : S1x1024.Idx → EReal) (ix2 p k) := by
  obtain ⟨e0, e1, -⟩ := comb_idx_facts t
  unfold iblk1
  rw [View.read_apply]
  show (V c main_v0 : S1x1024.Idx → EReal) _ = V c main_v0 _
  congr 1
  funext a; apply Fin.ext
  match a with
  | ⟨0, _⟩ => show win1_0.index t (0 : Fin 2) * 1 + 1 * p.val = p.val; rw [e0]; omega
  | ⟨1, _⟩ => show win1_0.index t (1 : Fin 2) * 1024 + 1 * k.val = k.val; rw [e1]; omega

/-- The attended row's block is the whole row. -/
theorem iblk1_1_apply (c : Dev nD) (t : Fin cfg1.N) (p : Fin 1) (k : Fin 1024) :
    (iblk1 V c 1 t : Vec Ideal S1x1024 .f32) (ix2 p k) = (V c main_v5_1 : S1x1024.Idx → EReal) (ix2 p k) := by
  obtain ⟨-, -, e0, e1, -⟩ := comb_idx_facts t
  unfold iblk1
  rw [View.read_apply]
  show (V c main_v5_1 : S1x1024.Idx → EReal) _ = V c main_v5_1 _
  congr 1
  funext a; apply Fin.ext
  match a with
  | ⟨0, _⟩ => show win1_1.index t (0 : Fin 2) * 1 + 1 * p.val = p.val; rw [e0]; omega
  | ⟨1, _⟩ => show win1_1.index t (1 : Fin 2) * 1024 + 1 * k.val = k.val; rw [e1]; omega

/-- The first weight half's block at point `t` is its rows `512·t … 512·t + 511`. -/
theorem iblk1_2_apply (c : Dev nD) (t : Fin cfg1.N) (q : Fin 512) (k : Fin 1024) (i : Fin 1024) (hi : i.val = 512 * t.val + q.val) :
    (iblk1 V c 2 t : Vec Ideal S512x1024 .f32) (ix2 q k) = (V c main_v6 : S1024x1024.Idx → EReal) (ix2 i k) := by
  obtain ⟨-, -, -, -, e0, e1, -⟩ := comb_idx_facts t
  unfold iblk1
  rw [View.read_apply]
  show (V c main_v6 : S1024x1024.Idx → EReal) _ = V c main_v6 _
  congr 1
  funext a; apply Fin.ext
  match a with
  | ⟨0, _⟩ => show win1_2.index t (0 : Fin 2) * 512 + 1 * q.val = i.val; rw [e0, hi]; omega
  | ⟨1, _⟩ => show win1_2.index t (1 : Fin 2) * 1024 + 1 * k.val = k.val; rw [e1]; omega

/-- The second weight half's block at point `t` is its rows `512·t … 512·t + 511`. -/
theorem iblk1_3_apply (c : Dev nD) (t : Fin cfg1.N) (q : Fin 512) (k : Fin 1024) (i : Fin 1024) (hi : i.val = 512 * t.val + q.val) :
    (iblk1 V c 3 t : Vec Ideal S512x1024 .f32) (ix2 q k) = (V c main_v7 : S1024x1024.Idx → EReal) (ix2 i k) := by
  obtain ⟨-, -, -, -, -, -, e0, e1, -⟩ := comb_idx_facts t
  unfold iblk1
  rw [View.read_apply]
  show (V c main_v7 : S1024x1024.Idx → EReal) _ = V c main_v7 _
  congr 1
  funext a; apply Fin.ext
  match a with
  | ⟨0, _⟩ => show win1_3.index t (0 : Fin 2) * 512 + 1 * q.val = i.val; rw [e0, hi]; omega
  | ⟨1, _⟩ => show win1_3.index t (1 : Fin 2) * 1024 + 1 * k.val = k.val; rw [e1]; omega

/-- The bias row's block at point `t` is its columns `512·t … 512·t + 511`. -/
theorem iblk1_4_apply (c : Dev nD) (t : Fin cfg1.N) (p : Fin 1) (q : Fin 512) (i : Fin 1024) (hi : i.val = 512 * t.val + q.val) :
    (iblk1 V c 4 t : Vec Ideal S1x512 .f32) (ix2 p q) = (V c main_v8 : S1x1024.Idx → EReal) (ix2 p i) := by
  obtain ⟨-, -, -, -, -, -, -, -, e0, e1, -⟩ := comb_idx_facts t
  unfold iblk1
  rw [View.read_apply]
  show (V c main_v8 : S1x1024.Idx → EReal) _ = V c main_v8 _
  congr 1
  funext a; apply Fin.ext
  match a with
  | ⟨0, _⟩ => show win1_4.index t (0 : Fin 2) * 1 + 1 * p.val = p.val; rw [e0]; omega
  | ⟨1, _⟩ => show win1_4.index t (1 : Fin 2) * 512 + 1 * q.val = i.val; rw [e1, hi]; omega

/-! ## The output row as one function of the arrays, and what each point writes back -/

/-- Column `i` of the combine layer's row: the embedded row against row `i` of the first weight half, the attended row against row `i` of
    the second, the bias, then the maximum with zero. -/
def combCol (e a : S1x1024.Idx → EReal) (w1 w2 : S1024x1024.Idx → EReal) (b : S1x1024.Idx → EReal) (p : Fin 1) (i : Fin 1024) : EReal :=
  max ((∑ k : Fin 1024, e (ix2 p k) * w1 (ix2 i k)) + (∑ k : Fin 1024, a (ix2 p k) * w2 (ix2 i k)) + b (ix2 p i))
    (FloatOps.ofBits (F := Ideal) .f32 0x00000000#32)

/-- The whole output row. -/
def combRow (e a : S1x1024.Idx → EReal) (w1 w2 : S1024x1024.Idx → EReal) (b : S1x1024.Idx → EReal) : S1x1024.Idx → EReal :=
  fun i => combCol e a w1 w2 b (i 0) (i 1)

/-- The body's result at column `q` of a tile whose loaded blocks are the arrays' entries under the tile is column `i` of the row. -/
theorem combCol_of_blocks (e a : S1x1024.Idx → EReal) (w1 w2 : S1024x1024.Idx → EReal) (b : S1x1024.Idx → EReal)
    (v0 v3 : Vec Ideal S1x1024 .f32) (v6 v9 : Vec Ideal S512x1024 .f32) (v17 : Vec Ideal S1x512 .f32) (p : Fin 1) (q : Fin 512) (i : Fin 1024)
    (h0 : ∀ k : Fin 1024, v0 (ix2 p k) = e (ix2 p k)) (h1 : ∀ k : Fin 1024, v3 (ix2 p k) = a (ix2 p k))
    (h2 : ∀ k : Fin 1024, v6 (ix2 q k) = w1 (ix2 i k)) (h3 : ∀ k : Fin 1024, v9 (ix2 q k) = w2 (ix2 i k))
    (h4 : v17 (ix2 p q) = b (ix2 p i)) :
    k1_pay1 v0 v3 v6 v9 v17 (ix2 p q) = combCol e a w1 w2 b p i := by
  rw [comb_pay_apply]
  unfold combCol
  have s1 : (∑ k : Fin 1024, v0 (ix2 p k) * v6 (ix2 q k)) = ∑ k : Fin 1024, e (ix2 p k) * w1 (ix2 i k) :=
    Finset.sum_congr rfl fun k _ => by rw [h0 k, h2 k]
  have s2 : (∑ k : Fin 1024, v3 (ix2 p k) * v9 (ix2 q k)) = ∑ k : Fin 1024, a (ix2 p k) * w2 (ix2 i k) :=
    Finset.sum_congr rfl fun k _ => by rw [h1 k, h3 k]
  rw [s1, s2, h4]

/-- What point `t` writes back is columns `512·t … 512·t + 511` of that row. -/
theorem comb_flushed (c : Dev nD) (t : Fin cfg1.N) :
    (dat1 V c).flushed 5 t
      = ((cfg1.win 5).blk t).view.read (Elt Ideal) (combRow (V c main_v0) (V c main_v5_1) (V c main_v6) (V c main_v7) (V c main_v8)) := by
  show (cfg1.win 5).cut (grid1.coords t) ((dat1 V c).after 5 t) = _
  rw [after1_5]
  unfold out1_5
  rw [View.canon_unit_zero comb_hz]
  simp only [View.ld_unit_zero (S := S1x1024) comb_hz, View.ld_unit_zero (S := S512x1024) comb_hz, View.ld_unit_zero (S := S1x512) comb_hz]
  funext j
  obtain ⟨p, q, rfl⟩ : ∃ (p : Fin 1) (q : Fin 512), j = ix2 p q := ⟨j 0, j 1, eq_ix2 j⟩
  obtain ⟨-, -, -, -, -, -, -, -, -, -, e0, e1⟩ := comb_idx_facts t
  have hN : cfg1.N = 2 := N_1
  have ht : t.val < cfg1.N := t.isLt
  have hq : q.val < 512 := q.isLt
  have hlt : 512 * t.val + q.val < 1024 := by omega
  rw [View.read_apply]
  have hemb : ((cfg1.win 5).blk t).view.emb (ix2 p q) = (ix2 p ⟨512 * t.val + q.val, hlt⟩ : S1x1024.Idx) := by
    funext a; apply Fin.ext
    match a with
    | ⟨0, _⟩ => show win1_5.index t (0 : Fin 2) * 1 + 1 * p.val = p.val; rw [e0]; omega
    | ⟨1, _⟩ => show win1_5.index t (1 : Fin 2) * 512 + 1 * q.val = 512 * t.val + q.val; rw [e1]; omega
  show k1_pay1 (iblk1 V c 0 t : Vec Ideal S1x1024 .f32) (iblk1 V c 1 t : Vec Ideal S1x1024 .f32) (iblk1 V c 2 t : Vec Ideal S512x1024 .f32)
      (iblk1 V c 3 t : Vec Ideal S512x1024 .f32) (iblk1 V c 4 t : Vec Ideal S1x512 .f32) (ix2 p q)
    = combRow (V c main_v0) (V c main_v5_1) (V c main_v6) (V c main_v7) (V c main_v8) (((cfg1.win 5).blk t).view.emb (ix2 p q))
  rw [hemb]
  exact combCol_of_blocks _ _ _ _ _ _ _ _ _ _ p q ⟨512 * t.val + q.val, hlt⟩
    (fun k => iblk1_0_apply V c t p k) (fun k => iblk1_1_apply V c t p k)
    (fun k => iblk1_2_apply V c t q k ⟨512 * t.val + q.val, hlt⟩ rfl) (fun k => iblk1_3_apply V c t q k ⟨512 * t.val + q.val, hlt⟩ rfl)
    (iblk1_4_apply V c t p q ⟨512 * t.val + q.val, hlt⟩ rfl)

/-- Column `i` lies in the block of the point `i / 512`. -/
theorem comb_cover (i : S1x1024.Idx) : ∃ t : Fin cfg1.N, (cfg1.win 5).flush t = true ∧ i ∈ ((cfg1.win 5).blk t).view.set := by
  have hN : cfg1.N = 2 := N_1
  have h0 : (i 0).val < 1 := (i 0).isLt
  have h1 : (i 1).val < 1024 := (i 1).isLt
  have hlt : (i 1).val / 512 < cfg1.N := by omega
  refine ⟨⟨(i 1).val / 512, hlt⟩, flush1_5 _, ?_⟩
  obtain ⟨-, -, -, -, -, -, -, -, -, -, e0, e1⟩ := comb_idx_facts ⟨(i 1).val / 512, hlt⟩
  show i ∈ ((View.whole main_v9).slice (win1_5.rect ⟨(i 1).val / 512, hlt⟩)).set
  rw [View.set_slice_whole, Rect.mem_set_unit]
  intro a
  match a with
  | ⟨0, _⟩ =>
    show win1_5.index ⟨(i 1).val / 512, hlt⟩ (0 : Fin 2) * 1 ≤ (i 0).val ∧ (i 0).val < win1_5.index ⟨(i 1).val / 512, hlt⟩ (0 : Fin 2) * 1 + 1
    rw [e0]; omega
  | ⟨1, _⟩ =>
    show win1_5.index ⟨(i 1).val / 512, hlt⟩ (1 : Fin 2) * 512 ≤ (i 1).val ∧ (i 1).val < win1_5.index ⟨(i 1).val / 512, hlt⟩ (1 : Fin 2) * 512 + 512
    rw [e1]; show (i 1).val / 512 * 512 ≤ (i 1).val ∧ (i 1).val < (i 1).val / 512 * 512 + 512; omega

/-- So the call leaves the whole row in the output array. -/
theorem comb_kernel (c : Dev nD) :
    (dat1 V c).arrAt 5 cfg1.N = combRow (V c main_v0) (V c main_v5_1) (V c main_v6) (V c main_v7) (V c main_v8) :=
  (dat1 V c).arrAt_eq_of_cover 5 (combRow (V c main_v0) (V c main_v5_1) (V c main_v6) (V c main_v7) (V c main_v8))
    (fun t _ => comb_flushed V c t) comb_cover

/-! ## The reference's combine stage is the same row -/

/-- A sum over 2048 coordinates is the sum over the first 1024 plus the sum over the last 1024. -/
theorem comb_sum_halves (f : Fin 2048 → EReal) :
    ∑ k : Fin 2048, f k = (∑ k : Fin 1024, f ⟨k.val, by omega⟩) + ∑ k : Fin 1024, f ⟨1024 + k.val, by omega⟩ :=
  Fin.sum_univ_add (a := 1024) (b := 1024) f

/-- The first weight half at (i, k) is the weights at (i, k). -/
theorem comb_slice_lo_apply (x6 : Cert.KernelIdeal.S1024x2048.Idx → EReal) (i k : Fin 1024) :
    extractStridedSlice S1024x1024 ![0, 0] x6 slices_S1024x2048_S1024x1024_0_0 (ix2 i k) = x6 (ix2 i ⟨k.val, by omega⟩) :=
  extractStridedSlice_apply ![0, 0] x6 slices_S1024x2048_S1024x1024_0_0 (ix2 i k) (ix2 i ⟨k.val, by omega⟩) (fun a => match a with
    | ⟨0, _⟩ => by show i.val = 0 + i.val; omega
    | ⟨1, _⟩ => by show k.val = 0 + k.val; omega)

/-- The second weight half at (i, k) is the weights at (i, 1024 + k). -/
theorem comb_slice_hi_apply (x6 : Cert.KernelIdeal.S1024x2048.Idx → EReal) (i k : Fin 1024) :
    extractStridedSlice S1024x1024 ![0, 1024] x6 slices_S1024x2048_S1024x1024_0_1024 (ix2 i k) = x6 (ix2 i ⟨1024 + k.val, by omega⟩) :=
  extractStridedSlice_apply ![0, 1024] x6 slices_S1024x2048_S1024x1024_0_1024 (ix2 i k) (ix2 i ⟨1024 + k.val, by omega⟩) (fun a => match a with
    | ⟨0, _⟩ => by show i.val = 0 + i.val; omega
    | ⟨1, _⟩ => by show 1024 + k.val = 1024 + k.val; rfl)

/-- The bias recast as a row, at column `i`, is the bias at `i`. -/
theorem comb_bias_row_apply (x7 : Cert.KernelIdeal.S1024.Idx → EReal) (p : Fin 1) (i : Fin 1024) :
    shapeCast S1x1024 x7 shapeCasts_S1024_S1x1024 (ix2 p i) = x7 (ix1 i) :=
  shapeCast_apply x7 shapeCasts_S1024_S1x1024 (ix2 p i) (ix1 i)
    (by rewrite [Shape.rowMajor_val_one, Shape.rowMajor_val_two]; have hp : p.val < 1 := p.isLt; show i.val = p.val * 1024 + i.val; omega)

open Cert.ReferenceIdeal.ReadP in
/-- Column `i` of the reference's stage: the concatenated row against column `i` of the transposed weights splits into the two halves' sums. -/
theorem comb_ref_col (E A : Cert.ReferenceIdeal.S1x1024.Idx → EReal) (x6 : Cert.ReferenceIdeal.S1024x2048.Idx → EReal)
    (x7 : Cert.ReferenceIdeal.S1024.Idx → EReal) (p : Fin 1) (i : Fin 1024) :
    max ((∑ k : Fin 2048,
          concatenate Cert.ReferenceIdeal.S1x2048 1 [⟨Cert.ReferenceIdeal.S1x1024, E⟩, ⟨Cert.ReferenceIdeal.S1x1024, A⟩]
              Cert.ReferenceIdeal.Gen.concatenates_S1x1024_S1x1024_S1x2048_d1 (lidx_main_v27 (ix2 p i) k)
            * val_main_v26 (F := Ideal) x6 (ridx_main_v27 (ix2 p i) k))
        + val_main_v28 (F := Ideal) x7 (ix2 p i)) (FloatOps.ofBits (F := Ideal) .f32 0x00000000#32)
      = combCol E A (extractStridedSlice S1024x1024 ![0, 0] x6 slices_S1024x2048_S1024x1024_0_0)
          (extractStridedSlice S1024x1024 ![0, 1024] x6 slices_S1024x2048_S1024x1024_0_1024)
          (shapeCast S1x1024 x7 shapeCasts_S1024_S1x1024) p i := by
  unfold combCol
  rw [comb_sum_halves]
  have s1 : (∑ k : Fin 1024,
        concatenate Cert.ReferenceIdeal.S1x2048 1 [⟨Cert.ReferenceIdeal.S1x1024, E⟩, ⟨Cert.ReferenceIdeal.S1x1024, A⟩]
            Cert.ReferenceIdeal.Gen.concatenates_S1x1024_S1x1024_S1x2048_d1 (lidx_main_v27 (ix2 p i) ⟨k.val, by omega⟩)
          * val_main_v26 (F := Ideal) x6 (ridx_main_v27 (ix2 p i) ⟨k.val, by omega⟩))
      = ∑ k : Fin 1024, E (ix2 p k) * extractStridedSlice S1024x1024 ![0, 0] x6 slices_S1024x2048_S1024x1024_0_0 (ix2 i k) :=
    Finset.sum_congr rfl fun k _ => by
      rw [concatenate_pair_apply_left 1 E A Cert.ReferenceIdeal.Gen.concatenates_S1x1024_S1x1024_S1x2048_d1 _ rfl (ix2 p k)
          (fun b => match b with | ⟨0, _⟩ => rfl | ⟨1, _⟩ => rfl),
        val_main_v26_apply, comb_slice_lo_apply]
      refine congrArg (E (ix2 p k) * x6 ·) (funext fun a => Fin.ext ?_)
      match a with
      | ⟨0, _⟩ => rfl
      | ⟨1, _⟩ => rfl
  have s2 : (∑ k : Fin 1024,
        concatenate Cert.ReferenceIdeal.S1x2048 1 [⟨Cert.ReferenceIdeal.S1x1024, E⟩, ⟨Cert.ReferenceIdeal.S1x1024, A⟩]
            Cert.ReferenceIdeal.Gen.concatenates_S1x1024_S1x1024_S1x2048_d1 (lidx_main_v27 (ix2 p i) ⟨1024 + k.val, by omega⟩)
          * val_main_v26 (F := Ideal) x6 (ridx_main_v27 (ix2 p i) ⟨1024 + k.val, by omega⟩))
      = ∑ k : Fin 1024, A (ix2 p k) * extractStridedSlice S1024x1024 ![0, 1024] x6 slices_S1024x2048_S1024x1024_0_1024 (ix2 i k) :=
    Finset.sum_congr rfl fun k _ => by
      rw [concatenate_pair_apply_right 1 E A Cert.ReferenceIdeal.Gen.concatenates_S1x1024_S1x1024_S1x2048_d1 _ rfl rfl (ix2 p k)
          (fun b hb => match b, hb with | ⟨0, _⟩, _ => rfl | ⟨1, _⟩, hb => absurd (Fin.ext rfl) hb)
          (by show k.val + 1024 = 1024 + k.val; omega),
        val_main_v26_apply, comb_slice_hi_apply]
      refine congrArg (A (ix2 p k) * x6 ·) (funext fun a => Fin.ext ?_)
      match a with
      | ⟨0, _⟩ => rfl
      | ⟨1, _⟩ => rfl
  rw [s1, s2, val_main_v28_apply, comb_bias_row_apply]
  refine congrArg (fun z => max (_ + x7 z) _) (funext fun a => Fin.ext ?_)
  match a with
  | ⟨0, _⟩ => rfl

open Cert.ReferenceIdeal.ReadP in
/-- The reference's rectified combine stage is the row of its embedded row, its attended row, the two halves of the combine weights and the bias. -/
theorem comb_ref (x0 : (⟨Cert.ReferenceIdeal.S1, .i32⟩ : BufTy).Contents (Elt Ideal)) (x1 : (⟨Cert.ReferenceIdeal.S512x1024, .f32⟩ : BufTy).Contents (Elt Ideal))
    (x2 : (⟨Cert.ReferenceIdeal.S1x1x1024, .f32⟩ : BufTy).Contents (Elt Ideal)) (x3 : (⟨Cert.ReferenceIdeal.S50257x1024, .f32⟩ : BufTy).Contents (Elt Ideal))
    (x4 : (⟨Cert.ReferenceIdeal.S512x2048, .f32⟩ : BufTy).Contents (Elt Ideal)) (x5 : (⟨Cert.ReferenceIdeal.S512, .f32⟩ : BufTy).Contents (Elt Ideal))
    (x6 : (⟨Cert.ReferenceIdeal.S1024x2048, .f32⟩ : BufTy).Contents (Elt Ideal)) (x7 : (⟨Cert.ReferenceIdeal.S1024, .f32⟩ : BufTy).Contents (Elt Ideal)) :
    val_main_v30 (F := Ideal) x0 x1 x2 x3 x4 x5 x6 x7
      = combRow (val_main_v6 (F := Ideal) x0 x3) (val_main_v24 (F := Ideal) x0 x1 x2 x3 x4 x5)
          (extractStridedSlice S1024x1024 ![0, 0] x6 slices_S1024x2048_S1024x1024_0_0)
          (extractStridedSlice S1024x1024 ![0, 1024] x6 slices_S1024x2048_S1024x1024_0_1024)
          (shapeCast S1x1024 x7 shapeCasts_S1024_S1x1024) := by
  funext i
  obtain ⟨p, q, rfl⟩ : ∃ (p : Fin 1) (q : Fin 1024), i = ix2 p q := ⟨i 0, i 1, eq_ix2 i⟩
  rw [val_main_v30_apply, val_main_v29_apply, val_main_v27_apply, val_main_call0_v0_apply, val_main_call0_cst_apply]
  unfold val_main_v25
  exact comb_ref_col _ _ x6 x7 p q

/-! ## The combine call against the reference -/

/-- When the call finds the embedded row, the attended row, the two halves of the combine weights and the bias row in its
    arrays, it leaves the reference's rectified combine stage in its output array. -/
theorem comb_eq (c : Dev nD)
    (x0 : (⟨Cert.ReferenceIdeal.S1, .i32⟩ : BufTy).Contents (Elt Ideal)) (x1 : (⟨Cert.ReferenceIdeal.S512x1024, .f32⟩ : BufTy).Contents (Elt Ideal))
    (x2 : (⟨Cert.ReferenceIdeal.S1x1x1024, .f32⟩ : BufTy).Contents (Elt Ideal)) (x3 : (⟨Cert.ReferenceIdeal.S50257x1024, .f32⟩ : BufTy).Contents (Elt Ideal))
    (x4 : (⟨Cert.ReferenceIdeal.S512x2048, .f32⟩ : BufTy).Contents (Elt Ideal)) (x5 : (⟨Cert.ReferenceIdeal.S512, .f32⟩ : BufTy).Contents (Elt Ideal))
    (x6 : (⟨Cert.ReferenceIdeal.S1024x2048, .f32⟩ : BufTy).Contents (Elt Ideal)) (x7 : (⟨Cert.ReferenceIdeal.S1024, .f32⟩ : BufTy).Contents (Elt Ideal))
    (h0 : V c main_v0 = Cert.ReferenceIdeal.ReadP.val_main_v6 (F := Ideal) x0 x3)
    (h1 : V c main_v5_1 = Cert.ReferenceIdeal.ReadP.val_main_v24 (F := Ideal) x0 x1 x2 x3 x4 x5)
    (h6 : V c main_v6 = extractStridedSlice S1024x1024 ![0, 0] x6 slices_S1024x2048_S1024x1024_0_0)
    (h7 : V c main_v7 = extractStridedSlice S1024x1024 ![0, 1024] x6 slices_S1024x2048_S1024x1024_0_1024)
    (h8 : V c main_v8 = shapeCast _ x7 shapeCasts_S1024_S1x1024) :
    (dat1 V c).arrAt 5 cfg1.N = Cert.ReferenceIdeal.ReadP.val_main_v30 (F := Ideal) x0 x1 x2 x3 x4 x5 x6 x7 := by
  rw [comb_kernel V c, h0, h1, h6, h7, h8]
  exact (comb_ref x0 x1 x2 x3 x4 x5 x6 x7).symm

end Cert.KernelIdeal.Hand

end
-- ==== Proof.KI.Val2.lean ====
import proofs.«421596_j30159260352787_3_alg».proof.Proof.KI.Reg2
import proofs.«421596_j30159260352787_3_alg».proof.Proof.ReadP
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! # The gate pre-activation call, read as values

The call computes, tile by tile of 512 columns, the two rows of gate pre-activations
`gx[i] = ∑ₖ out[k] · W_ih[i, k] + b_ih[i]` and `gh[i] = ∑ₖ h[k] · W_hh[i, k] + b_hh[i]` (`i < 3072`, `k < 1024`):
at point `t` it multiplies the row by the transpose of rows `512 t … 512 t + 511` of the weight matrix and adds
columns `512 t … 512 t + 511` of the bias row. The reference computes each row at once, as the row times the
transposed matrix plus the broadcast bias. Both are the one function `gateRow` of the row, the matrix and the bias:
a sum over the same index set of the same products, so no law of the extended reals beyond reading both sides at an
index is used. -/

variable (V : (c : Dev nD) → (b : Ref sig .tc) → Buf (Elt Ideal) ((c : Thread nD τ).loc b))

namespace GatesPre

/-! ## The tile product read at an index

The product of the `[1, 1024]` row with the `[1024, 512]` transposed tile contracts the row's axis 1 with the
tile's axis 0: at output column `i` and contraction index `k` it reads the row at `(i 0, k)` and the transposed tile
at `(k, i 1)`, that is the tile at `(i 1, k)`. -/

/-- The four operand coordinates of the tile product, axis by axis. -/
theorem lhs_tile_0 (i : S1x512.Idx) (q : dot_S1x1024_S1024x512_S1x512_1_0_0_1_n_n.contr.Idx) :
    (dot_S1x1024_S1024x512_S1x512_1_0_0_1_n_n.lhsIdx i q 0).val = (i 0).val := by
  unfold DotDims.lhsIdx
  rw [dif_neg (show ¬(0 : Fin S1x1024.rank) ∈ dot_S1x1024_S1024x512_S1x512_1_0_0_1_n_n.lhsBatch by decide), dif_pos (show (0 : Fin S1x1024.rank) ∈ dot_S1x1024_S1024x512_S1x512_1_0_0_1_n_n.lhsNonContracting by decide)]
  rfl
theorem lhs_tile_1 (i : S1x512.Idx) (q : dot_S1x1024_S1024x512_S1x512_1_0_0_1_n_n.contr.Idx) :
    (dot_S1x1024_S1024x512_S1x512_1_0_0_1_n_n.lhsIdx i q 1).val = (q ⟨0, by decide⟩).val :=
  dot_S1x1024_S1024x512_S1x512_1_0_0_1_n_n.lhsIdx_val_of_single rfl i q
theorem rhs_tile_0 (i : S1x512.Idx) (q : dot_S1x1024_S1024x512_S1x512_1_0_0_1_n_n.contr.Idx) :
    (dot_S1x1024_S1024x512_S1x512_1_0_0_1_n_n.rhsIdx i q 0).val = (q ⟨0, by decide⟩).val :=
  dot_S1x1024_S1024x512_S1x512_1_0_0_1_n_n.rhsIdx_val_of_single rfl i q
theorem rhs_tile_1 (i : S1x512.Idx) (q : dot_S1x1024_S1024x512_S1x512_1_0_0_1_n_n.contr.Idx) :
    (dot_S1x1024_S1024x512_S1x512_1_0_0_1_n_n.rhsIdx i q 1).val = (i 1).val := by
  unfold DotDims.rhsIdx
  rw [dif_neg (show ¬(1 : Fin S1024x512.rank) ∈ dot_S1x1024_S1024x512_S1x512_1_0_0_1_n_n.rhsBatch by decide), dif_pos (show (1 : Fin S1024x512.rank) ∈ dot_S1x1024_S1024x512_S1x512_1_0_0_1_n_n.rhsNonContracting by decide)]
  rfl

/-- The row operand's index in the tile product at output column `i`, contraction index `k`. -/
abbrev lidx_tile (i : S1x512.Idx) (k : Fin 1024) : S1x1024.Idx := fun a => match a with
  | ⟨0, _⟩ => ⟨(i 0).val, (i 0).isLt⟩
  | ⟨1, _⟩ => ⟨k.val, k.isLt⟩
/-- The transposed tile's index there. -/
abbrev ridx_tile (i : S1x512.Idx) (k : Fin 1024) : S1024x512.Idx := fun a => match a with
  | ⟨0, _⟩ => ⟨k.val, k.isLt⟩
  | ⟨1, _⟩ => ⟨(i 1).val, (i 1).isLt⟩
/-- The weight tile's index there: row `i 1` of the tile, column `k`. -/
abbrev widx_tile (i : S1x512.Idx) (k : Fin 1024) : S512x1024.Idx := fun a => match a with
  | ⟨0, _⟩ => ⟨(i 1).val, (i 1).isLt⟩
  | ⟨1, _⟩ => ⟨k.val, k.isLt⟩

/-- The tile product into a zero accumulator, at a column: the sum over the 1024 contraction indices. -/
theorem matmul_tile_apply (a : FVec Ideal S1x1024 .bf16) (wt : FVec Ideal S1024x512 .bf16) (i : S1x512.Idx) :
    matmul dot_S1x1024_S1024x512_S1x512_1_0_0_1_n_n none a wt (constant (F := Ideal) S1x512 .f32 0x00000000#32) i
      = ∑ k : Fin 1024, a (lidx_tile i k) * wt (ridx_tile i k) := by
  simp only [matmul]
  rw [Ideal.matmul_constant_zero_apply, ← Equiv.sum_comp (ValueIdx.contrEquiv1 dot_S1x1024_S1024x512_S1x512_1_0_0_1_n_n 1024 rfl rfl).symm]
  refine Finset.sum_congr rfl fun k _ => ?_
  have hk := ValueIdx.contrEquiv1_symm_val dot_S1x1024_S1024x512_S1x512_1_0_0_1_n_n 1024 rfl rfl k
  have el : dot_S1x1024_S1024x512_S1x512_1_0_0_1_n_n.lhsIdx i ((ValueIdx.contrEquiv1 dot_S1x1024_S1024x512_S1x512_1_0_0_1_n_n 1024 rfl rfl).symm k) = lidx_tile i k := funext fun a => Fin.ext (by
    match a with
    | ⟨0, _⟩ => exact lhs_tile_0 _ _
    | ⟨1, _⟩ => exact (lhs_tile_1 _ _).trans hk)
  have er : dot_S1x1024_S1024x512_S1x512_1_0_0_1_n_n.rhsIdx i ((ValueIdx.contrEquiv1 dot_S1x1024_S1024x512_S1x512_1_0_0_1_n_n 1024 rfl rfl).symm k) = ridx_tile i k := funext fun a => Fin.ext (by
    match a with
    | ⟨0, _⟩ => exact (rhs_tile_0 _ _).trans hk
    | ⟨1, _⟩ => exact rhs_tile_1 _ _)
  rw [el, er]

/-- The transposed tile at (k, q) is the tile at (q, k). -/
theorem transpose_tile_apply (w : FVec Ideal S512x1024 .bf16) (i : S1x512.Idx) (k : Fin 1024) :
    transpose S1024x512 [1, 0] w transposes_S512x1024_p1_0_S1024x512 (ridx_tile i k) = w (widx_tile i k) :=
  transpose_apply [1, 0] w transposes_S512x1024_p1_0_S1024x512 (ridx_tile i k) (widx_tile i k) (fun b => match b with
    | ⟨0, _⟩ => rfl
    | ⟨1, _⟩ => rfl)

/-- Either gate payload at a column of the tile: the row times the weight tile's row of that column, plus the bias. -/
theorem gate_pay_apply (a : Vec Ideal S1x1024 .f32) (w : Vec Ideal S512x1024 .f32) (b : Vec Ideal S1x512 .f32) (i : S1x512.Idx) :
    k2_pay1 (F := Ideal) a w b i = (∑ k : Fin 1024, a (lidx_tile i k) * w (widx_tile i k)) + b i := by
  unfold k2_pay1
  refine (addf_apply _ _ i).trans ?_
  refine congrArg₂ (· + ·) ?_ ?_
  · refine (matmul_tile_apply _ _ i).trans ?_
    refine Finset.sum_congr rfl fun k _ => ?_
    refine congrArg₂ (· * ·) ?_ ?_
    · exact congrFun (shapeCast_self a shapeCasts_S1x1024_S1x1024) (lidx_tile i k)
    · exact transpose_tile_apply w i k
  · exact congrFun (shapeCast_self b shapeCasts_S1x512_S1x512) i

/-- The hidden-side payload is the same term of its three operands as the input-side one. -/
theorem gate_pay2_eq (a : Vec Ideal S1x1024 .f32) (w : Vec Ideal S512x1024 .f32) (b : Vec Ideal S1x512 .f32) :
    k2_pay2 (F := Ideal) a w b = k2_pay1 (F := Ideal) a w b := rfl

/-! ## The blocks -/

/-- The zero offsets of a whole-buffer load or store. -/
theorem hz : (![0, 0] : Fin 2 → Nat) = fun _ => 0 := funext fun a => by fin_cases a <;> rfl

/-- The block indices over the six points: the two rows are whole at every point, the weight tiles move down the
    rows with the point, the bias tiles and the two results along the columns. -/
theorem tile_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = t.val
    ∧ win2_5.index t (0 : Fin 2) = 0 ∧ win2_5.index t (1 : Fin 2) = t.val
    ∧ win2_6.index t (0 : Fin 2) = 0 ∧ win2_6.index t (1 : Fin 2) = t.val
    ∧ win2_7.index t (0 : Fin 2) = 0 ∧ win2_7.index t (1 : Fin 2) = t.val :=
  (by decide +kernel : ∀ t : Fin grid2.N, _)

/-- The combined row's block is the whole row at every point. -/
theorem iblk2_0_apply (c : Dev nD) (t : Fin cfg2.N) (y : S1x1024.Idx) :
    (iblk2 V c 0 t : Vec Ideal S1x1024 .f32) y = (V c main_v9 : S1x1024.Idx → EReal) y := by
  obtain ⟨e0, e1, -⟩ := tile_facts t
  unfold iblk2
  rw [View.read_apply]
  show V c main_v9 _ = V c main_v9 _
  congr 1
  funext a
  apply Fin.ext
  match a with
  | ⟨0, _⟩ => show win2_0.index t 0 * 1 + 1 * (y 0).val = (y 0).val; rw [e0]; omega
  | ⟨1, _⟩ => show win2_0.index t 1 * 1024 + 1 * (y 1).val = (y 1).val; rw [e1]; omega

/-- The hidden row's block is the whole row at every point. -/
theorem iblk2_1_apply (c : Dev nD) (t : Fin cfg2.N) (y : S1x1024.Idx) :
    (iblk2 V c 1 t : Vec Ideal S1x1024 .f32) y = (V c main_v1 : S1x1024.Idx → EReal) y := by
  obtain ⟨-, -, e0, e1, -⟩ := tile_facts t
  unfold iblk2
  rw [View.read_apply]
  show V c main_v1 _ = V c main_v1 _
  congr 1
  funext a
  apply Fin.ext
  match a with
  | ⟨0, _⟩ => show win2_1.index t 0 * 1 + 1 * (y 0).val = (y 0).val; rw [e0]; omega
  | ⟨1, _⟩ => show win2_1.index t 1 * 1024 + 1 * (y 1).val = (y 1).val; rw [e1]; omega

/-- The input-side weight tile at point `t` is rows `512 t … 512 t + 511` of the matrix. -/
theorem iblk2_2_apply (c : Dev nD) (t : Fin cfg2.N) (y : S512x1024.Idx) (k : S3072x1024.Idx)
    (hk0 : (k 0).val = 512 * t.val + (y 0).val) (hk1 : (k 1).val = (y 1).val) :
    (iblk2 V c 2 t : Vec Ideal S512x1024 .f32) y = (V c main_arg8 : S3072x1024.Idx → EReal) k := by
  obtain ⟨-, -, -, -, e0, e1, -⟩ := tile_facts t
  unfold iblk2
  rw [View.read_apply]
  show V c main_arg8 _ = V c main_arg8 _
  congr 1
  funext a
  apply Fin.ext
  match a with
  | ⟨0, _⟩ => show win2_2.index t 0 * 512 + 1 * (y 0).val = (k 0).val; rw [e0, hk0]; omega
  | ⟨1, _⟩ => show win2_2.index t 1 * 1024 + 1 * (y 1).val = (k 1).val; rw [e1, hk1]; omega

/-- The hidden-side weight tile likewise. -/
theorem iblk2_3_apply (c : Dev nD) (t : Fin cfg2.N) (y : S512x1024.Idx) (k : S3072x1024.Idx)
    (hk0 : (k 0).val = 512 * t.val + (y 0).val) (hk1 : (k 1).val = (y 1).val) :
    (iblk2 V c 3 t : Vec Ideal S512x1024 .f32) y = (V c main_arg9 : S3072x1024.Idx → EReal) k := by
  obtain ⟨-, -, -, -, -, -, e0, e1, -⟩ := tile_facts t
  unfold iblk2
  rw [View.read_apply]
  show V c main_arg9 _ = V c main_arg9 _
  congr 1
  funext a
  apply Fin.ext
  match a with
  | ⟨0, _⟩ => show win2_3.index t 0 * 512 + 1 * (y 0).val = (k 0).val; rw [e0, hk0]; omega
  | ⟨1, _⟩ => show win2_3.index t 1 * 1024 + 1 * (y 1).val = (k 1).val; rw [e1, hk1]; omega

/-- The input-side bias tile at point `t` is columns `512 t … 512 t + 511` of the bias row. -/
theorem iblk2_4_apply (c : Dev nD) (t : Fin cfg2.N) (y : S1x512.Idx) (k : S1x3072.Idx)
    (hk0 : (k 0).val = (y 0).val) (hk1 : (k 1).val = 512 * t.val + (y 1).val) :
    (iblk2 V c 4 t : Vec Ideal S1x512 .f32) y = (V c main_v10 : S1x3072.Idx → EReal) k := by
  obtain ⟨-, -, -, -, -, -, -, -, e0, e1, -⟩ := tile_facts t
  unfold iblk2
  rw [View.read_apply]
  show V c main_v10 _ = V c main_v10 _
  congr 1
  funext a
  apply Fin.ext
  match a with
  | ⟨0, _⟩ => show win2_4.index t 0 * 1 + 1 * (y 0).val = (k 0).val; rw [e0, hk0]; omega
  | ⟨1, _⟩ => show win2_4.index t 1 * 512 + 1 * (y 1).val = (k 1).val; rw [e1, hk1]; omega

/-- The hidden-side bias tile likewise. -/
theorem iblk2_5_apply (c : Dev nD) (t : Fin cfg2.N) (y : S1x512.Idx) (k : S1x3072.Idx)
    (hk0 : (k 0).val = (y 0).val) (hk1 : (k 1).val = 512 * t.val + (y 1).val) :
    (iblk2 V c 5 t : Vec Ideal S1x512 .f32) y = (V c main_v11 : S1x3072.Idx → EReal) k := by
  obtain ⟨-, -, -, -, -, -, -, -, -, -, e0, e1, -⟩ := tile_facts t
  unfold iblk2
  rw [View.read_apply]
  show V c main_v11 _ = V c main_v11 _
  congr 1
  funext a
  apply Fin.ext
  match a with
  | ⟨0, _⟩ => show win2_5.index t 0 * 1 + 1 * (y 0).val = (k 0).val; rw [e0, hk0]; omega
  | ⟨1, _⟩ => show win2_5.index t 1 * 512 + 1 * (y 1).val = (k 1).val; rw [e1, hk1]; omega

/-! ## One gate row as a function of the whole arrays -/

/-- The row operand's index for column `i` of a gate row, contraction index `k`. -/
abbrev rowIdx (i : S1x3072.Idx) (k : Fin 1024) : S1x1024.Idx := fun a => match a with
  | ⟨0, _⟩ => ⟨(i 0).val, (i 0).isLt⟩
  | ⟨1, _⟩ => ⟨k.val, k.isLt⟩
/-- The weight matrix's index there: row `i 1`, column `k`. -/
abbrev matIdx (i : S1x3072.Idx) (k : Fin 1024) : S3072x1024.Idx := fun a => match a with
  | ⟨0, _⟩ => ⟨(i 1).val, (i 1).isLt⟩
  | ⟨1, _⟩ => ⟨k.val, k.isLt⟩

/-- A gate row: column `i` is the row times row `i` of the weight matrix, plus the bias at `i`. -/
def gateRow (a : S1x1024.Idx → EReal) (W : S3072x1024.Idx → EReal) (b : S1x3072.Idx → EReal) : S1x3072.Idx → EReal :=
  fun i => (∑ k : Fin 1024, a (rowIdx i k) * W (matIdx i k)) + b i

/-- A payload over a whole row, rows `512 t …` of the matrix and columns `512 t …` of the bias is, at column `j` of
    its tile, the gate row at column `512 t + j`. -/
theorem gate_point (A : S1x1024.Idx → EReal) (W : S3072x1024.Idx → EReal) (B : S1x3072.Idx → EReal)
    (a : Vec Ideal S1x1024 .f32) (w : Vec Ideal S512x1024 .f32) (b : Vec Ideal S1x512 .f32) (t : Nat)
    (ha : ∀ y : S1x1024.Idx, a y = A y)
    (hw : ∀ (y : S512x1024.Idx) (k : S3072x1024.Idx), (k 0).val = 512 * t + (y 0).val → (k 1).val = (y 1).val → w y = W k)
    (hb : ∀ (y : S1x512.Idx) (k : S1x3072.Idx), (k 0).val = (y 0).val → (k 1).val = 512 * t + (y 1).val → b y = B k)
    (j : S1x512.Idx) (i : S1x3072.Idx) (hi0 : (i 0).val = (j 0).val) (hi1 : (i 1).val = 512 * t + (j 1).val) :
    k2_pay1 (F := Ideal) a w b j = gateRow A W B i := by
  refine (gate_pay_apply a w b j).trans ?_
  unfold gateRow
  refine congrArg₂ (· + ·) (Finset.sum_congr rfl fun k _ => congrArg₂ (· * ·) ?_ ?_) (hb j i hi0 hi1)
  · refine (ha _).trans (congrArg A ?_)
    funext d; apply Fin.ext
    match d with
    | ⟨0, _⟩ => exact hi0.symm
    | ⟨1, _⟩ => rfl
  · exact hw _ _ hi1 rfl

/-- What point `t` writes back to the input-side result is block `t` of the gate row of the arrays the call finds. -/
theorem flushed6_eq (c : Dev nD) (t : Fin cfg2.N) :
    (dat2 V c).flushed 6 t = ((cfg2.win 6).blk t).view.read (Elt Ideal)
      (gateRow (V c main_v9) (V c main_arg8) (V c main_v10)) := by
  show (cfg2.win 6).cut (grid2.coords t) ((dat2 V c).after 6 t) = _
  rw [after2_6]
  unfold out2_6
  rw [View.canon_unit_zero hz]
  simp only [View.ld_unit_zero (S := S1x1024) hz, View.ld_unit_zero (S := S512x1024) hz, View.ld_unit_zero (S := S1x512) hz]
  obtain ⟨-, -, -, -, -, -, -, -, -, -, -, -, e0, e1, -⟩ := tile_facts t
  funext j
  show k2_pay1 (F := Ideal) (iblk2 V c 0 t) (iblk2 V c 2 t) (iblk2 V c 4 t) j
    = gateRow (V c main_v9) (V c main_arg8) (V c main_v10) (((cfg2.win 6).blk t).view.emb j)
  exact gate_point (V c main_v9) (V c main_arg8) (V c main_v10) (iblk2 V c 0 t) (iblk2 V c 2 t) (iblk2 V c 4 t) t.val
    (iblk2_0_apply V c t) (iblk2_2_apply V c t) (iblk2_4_apply V c t) j (((cfg2.win 6).blk t).view.emb j)
    (by show win2_6.index t 0 * 1 + 1 * (j 0).val = (j 0).val; rw [e0]; omega)
    (by show win2_6.index t 1 * 512 + 1 * (j 1).val = 512 * t.val + (j 1).val; rw [e1]; omega)

/-- What point `t` writes back to the hidden-side result is block `t` of the gate row of the hidden-side arrays. -/
theorem flushed7_eq (c : Dev nD) (t : Fin cfg2.N) :
    (dat2 V c).flushed 7 t = ((cfg2.win 7).blk t).view.read (Elt Ideal)
      (gateRow (V c main_v1) (V c main_arg9) (V c main_v11)) := by
  show (cfg2.win 7).cut (grid2.coords t) ((dat2 V c).after 7 t) = _
  rw [after2_7]
  unfold out2_7
  rw [View.canon_unit_zero hz]
  simp only [View.ld_unit_zero (S := S1x1024) hz, View.ld_unit_zero (S := S512x1024) hz, View.ld_unit_zero (S := S1x512) hz]
  obtain ⟨-, -, -, -, -, -, -, -, -, -, -, -, -, -, e0, e1⟩ := tile_facts t
  funext j
  show k2_pay1 (F := Ideal) (iblk2 V c 1 t) (iblk2 V c 3 t) (iblk2 V c 5 t) j
    = gateRow (V c main_v1) (V c main_arg9) (V c main_v11) (((cfg2.win 7).blk t).view.emb j)
  exact gate_point (V c main_v1) (V c main_arg9) (V c main_v11) (iblk2 V c 1 t) (iblk2 V c 3 t) (iblk2 V c 5 t) t.val
    (iblk2_1_apply V c t) (iblk2_3_apply V c t) (iblk2_5_apply V c t) j (((cfg2.win 7).blk t).view.emb j)
    (by show win2_7.index t 0 * 1 + 1 * (j 0).val = (j 0).val; rw [e0]; omega)
    (by show win2_7.index t 1 * 512 + 1 * (j 1).val = 512 * t.val + (j 1).val; rw [e1]; omega)

/-! ## From the six tiles to the rows -/

/-- A column of the input-side result is in point `t`'s tile iff it lies in the tile's range on each axis. -/
theorem mem_blk6 (t : Fin cfg2.N) (i : S1x3072.Idx) :
    i ∈ ((cfg2.win 6).blk t).view.set ↔ ∀ a : Fin 2, win2_6.index t a * S1x512.size a ≤ (i a).val ∧ (i a).val < win2_6.index t a * S1x512.size a + S1x512.size a := by
  show i ∈ ((View.whole main_v12_0).slice (win2_6.rect t)).set ↔ _
  rw [View.set_slice_whole, Rect.mem_set_unit]
  exact Iff.rfl

/-- The same for the hidden-side result. -/
theorem mem_blk7 (t : Fin cfg2.N) (i : S1x3072.Idx) :
    i ∈ ((cfg2.win 7).blk t).view.set ↔ ∀ a : Fin 2, win2_7.index t a * S1x512.size a ≤ (i a).val ∧ (i a).val < win2_7.index t a * S1x512.size a + S1x512.size a := by
  show i ∈ ((View.whole main_v12_1).slice (win2_7.rect t)).set ↔ _
  rw [View.set_slice_whole, Rect.mem_set_unit]
  exact Iff.rfl

/-- Column `i` is in the tile of point `i / 512`. -/
theorem cover6 (i : S1x3072.Idx) : ∃ t : Fin cfg2.N, (cfg2.win 6).flush t = true ∧ i ∈ ((cfg2.win 6).blk t).view.set := by
  have hi0 : (i 0).val < 1 := (i 0).isLt
  have hi1 : (i 1).val < 3072 := (i 1).isLt
  have hN : cfg2.N = 6 := N_2
  obtain ⟨t, ht⟩ : ∃ t : Fin cfg2.N, t.val = (i 1).val / 512 := ⟨⟨(i 1).val / 512, by rw [hN]; omega⟩, rfl⟩
  obtain ⟨-, -, -, -, -, -, -, -, -, -, -, -, e0, e1, -⟩ := tile_facts t
  refine ⟨t, flush2_6 t, ?_⟩
  rw [mem_blk6]
  intro a
  match a with
  | ⟨0, _⟩ => show win2_6.index t 0 * 1 ≤ (i 0).val ∧ (i 0).val < win2_6.index t 0 * 1 + 1; rw [e0]; omega
  | ⟨1, _⟩ => show win2_6.index t 1 * 512 ≤ (i 1).val ∧ (i 1).val < win2_6.index t 1 * 512 + 512; rw [e1, ht]; omega

/-- The same for the hidden-side result. -/
theorem cover7 (i : S1x3072.Idx) : ∃ t : Fin cfg2.N, (cfg2.win 7).flush t = true ∧ i ∈ ((cfg2.win 7).blk t).view.set := by
  have hi0 : (i 0).val < 1 := (i 0).isLt
  have hi1 : (i 1).val < 3072 := (i 1).isLt
  have hN : cfg2.N = 6 := N_2
  obtain ⟨t, ht⟩ : ∃ t : Fin cfg2.N, t.val = (i 1).val / 512 := ⟨⟨(i 1).val / 512, by rw [hN]; omega⟩, rfl⟩
  obtain ⟨-, -, -, -, -, -, -, -, -, -, -, -, -, -, e0, e1⟩ := tile_facts t
  refine ⟨t, flush2_7 t, ?_⟩
  rw [mem_blk7]
  intro a
  match a with
  | ⟨0, _⟩ => show win2_7.index t 0 * 1 ≤ (i 0).val ∧ (i 0).val < win2_7.index t 0 * 1 + 1; rw [e0]; omega
  | ⟨1, _⟩ => show win2_7.index t 1 * 512 ≤ (i 1).val ∧ (i 1).val < win2_7.index t 1 * 512 + 512; rw [e1, ht]; omega

/-- After the call the input-side result is the gate row of the combined row, the input weights and their bias. -/
theorem final6 (c : Dev nD) : (dat2 V c).arrAt 6 cfg2.N = gateRow (V c main_v9) (V c main_arg8) (V c main_v10) :=
  (dat2 V c).arrAt_eq_of_cover 6 (gateRow (V c main_v9) (V c main_arg8) (V c main_v10)) (fun t _ => flushed6_eq V c t) cover6

/-- After the call the hidden-side result is the gate row of the hidden row, the hidden weights and their bias. -/
theorem final7 (c : Dev nD) : (dat2 V c).arrAt 7 cfg2.N = gateRow (V c main_v1) (V c main_arg9) (V c main_v11) :=
  (dat2 V c).arrAt_eq_of_cover 7 (gateRow (V c main_v1) (V c main_arg9) (V c main_v11)) (fun t _ => flushed7_eq V c t) cover7

/-! ## The reference's two gate rows -/

section Reference
open Cert.ReferenceIdeal.ReadP

/-- A bias `[3072]` cast to the row `[1, 3072]` reads the bias at the column. -/
theorem bias_row_apply (b : S3072.Idx → EReal) (i : S1x3072.Idx) :
    shapeCast S1x3072 b shapeCasts_S3072_S1x3072 i = b (fun a => match a with | ⟨0, _⟩ => ⟨(i 1).val, (i 1).isLt⟩) := by
  obtain ⟨u, q, rfl⟩ : ∃ (u : Fin 1) (q : Fin 3072), i = ix2 u q := ⟨i 0, i 1, eq_ix2 i⟩
  refine (shapeCast_a_1a_apply b shapeCasts_S3072_S1x3072 u q).trans (congrArg b ?_)
  funext a
  match a with
  | ⟨0, _⟩ => rfl

/-- The reference's input-side gate row — the combined row times the transposed input weights, plus the broadcast
    bias — is the gate row of the same three arrays. -/
theorem ref_gx_eq (x0 : (⟨Cert.ReferenceIdeal.S1, .i32⟩ : BufTy).Contents (Elt Ideal)) (x1 : (⟨Cert.ReferenceIdeal.S512x1024, .f32⟩ : BufTy).Contents (Elt Ideal)) (x2 : (⟨Cert.ReferenceIdeal.S1x1x1024, .f32⟩ : BufTy).Contents (Elt Ideal)) (x3 : (⟨Cert.ReferenceIdeal.S50257x1024, .f32⟩ : BufTy).Contents (Elt Ideal)) (x4 : (⟨Cert.ReferenceIdeal.S512x2048, .f32⟩ : BufTy).Contents (Elt Ideal)) (x5 : (⟨Cert.ReferenceIdeal.S512, .f32⟩ : BufTy).Contents (Elt Ideal)) (x6 : (⟨Cert.ReferenceIdeal.S1024x2048, .f32⟩ : BufTy).Contents (Elt Ideal)) (x7 : (⟨Cert.ReferenceIdeal.S1024, .f32⟩ : BufTy).Contents (Elt Ideal)) (x8 : (⟨Cert.ReferenceIdeal.S3072x1024, .f32⟩ : BufTy).Contents (Elt Ideal)) (x10 : (⟨Cert.ReferenceIdeal.S3072, .f32⟩ : BufTy).Contents (Elt Ideal)) :
    val_main_v34 (F := Ideal) x0 x1 x2 x3 x4 x5 x6 x7 x8 x10
      = gateRow (val_main_v30 (F := Ideal) x0 x1 x2 x3 x4 x5 x6 x7) x8 (shapeCast S1x3072 x10 shapeCasts_S3072_S1x3072) := by
  funext i
  rw [val_main_v34_apply, val_main_v32_apply, val_main_v33_apply]
  generalize val_main_v30 (F := Ideal) x0 x1 x2 x3 x4 x5 x6 x7 = a
  unfold gateRow
  refine congrArg₂ (· + ·) (Finset.sum_congr rfl fun k _ => congrArg₂ (· * ·) rfl ?_) (bias_row_apply x10 i).symm
  rw [val_main_v31_apply]
  exact congrArg x8 (funext fun d => Fin.ext (by
    match d with
    | ⟨0, _⟩ => rfl
    | ⟨1, _⟩ => rfl))

/-- The reference's hidden-side gate row likewise, over the hidden row. -/
theorem ref_gh_eq (x2 : (⟨Cert.ReferenceIdeal.S1x1x1024, .f32⟩ : BufTy).Contents (Elt Ideal)) (x9 : (⟨Cert.ReferenceIdeal.S3072x1024, .f32⟩ : BufTy).Contents (Elt Ideal)) (x11 : (⟨Cert.ReferenceIdeal.S3072, .f32⟩ : BufTy).Contents (Elt Ideal)) :
    val_main_v38 (F := Ideal) x2 x9 x11
      = gateRow (val_main_v7 (F := Ideal) x2) x9 (shapeCast S1x3072 x11 shapeCasts_S3072_S1x3072) := by
  funext i
  rw [val_main_v38_apply, val_main_v36_apply, val_main_v37_apply]
  generalize val_main_v7 (F := Ideal) x2 = a
  unfold gateRow
  refine congrArg₂ (· + ·) (Finset.sum_congr rfl fun k _ => congrArg₂ (· * ·) rfl ?_) (bias_row_apply x11 i).symm
  rw [val_main_v35_apply]
  exact congrArg x9 (funext fun d => Fin.ext (by
    match d with
    | ⟨0, _⟩ => rfl
    | ⟨1, _⟩ => rfl))

end Reference

end GatesPre

open GatesPre

/-! ## The call's two results -/

/-- The gate pre-activation call leaves in its two result rows the reference's two gate rows, when it finds the
    reference's combined row, hidden row, weights and (row-cast) biases in its operands. -/
theorem gates_pre_eq (c : Dev nD) (x0 : (⟨Cert.ReferenceIdeal.S1, .i32⟩ : BufTy).Contents (Elt Ideal)) (x1 : (⟨Cert.ReferenceIdeal.S512x1024, .f32⟩ : BufTy).Contents (Elt Ideal)) (x2 : (⟨Cert.ReferenceIdeal.S1x1x1024, .f32⟩ : BufTy).Contents (Elt Ideal)) (x3 : (⟨Cert.ReferenceIdeal.S50257x1024, .f32⟩ : BufTy).Contents (Elt Ideal)) (x4 : (⟨Cert.ReferenceIdeal.S512x2048, .f32⟩ : BufTy).Contents (Elt Ideal)) (x5 : (⟨Cert.ReferenceIdeal.S512, .f32⟩ : BufTy).Contents (Elt Ideal)) (x6 : (⟨Cert.ReferenceIdeal.S1024x2048, .f32⟩ : BufTy).Contents (Elt Ideal)) (x7 : (⟨Cert.ReferenceIdeal.S1024, .f32⟩ : BufTy).Contents (Elt Ideal)) (x8 : (⟨Cert.ReferenceIdeal.S3072x1024, .f32⟩ : BufTy).Contents (Elt Ideal)) (x9 : (⟨Cert.ReferenceIdeal.S3072x1024, .f32⟩ : BufTy).Contents (Elt Ideal)) (x10 : (⟨Cert.ReferenceIdeal.S3072, .f32⟩ : BufTy).Contents (Elt Ideal)) (x11 : (⟨Cert.ReferenceIdeal.S3072, .f32⟩ : BufTy).Contents (Elt Ideal))
    (h9 : (V c main_v9 : S1x1024.Idx → EReal) = Cert.ReferenceIdeal.ReadP.val_main_v30 (F := Ideal) x0 x1 x2 x3 x4 x5 x6 x7)
    (h1 : (V c main_v1 : S1x1024.Idx → EReal) = Cert.ReferenceIdeal.ReadP.val_main_v7 (F := Ideal) x2)
    (h8 : (V c main_arg8 : S3072x1024.Idx → EReal) = x8) (h9' : (V c main_arg9 : S3072x1024.Idx → EReal) = x9)
    (h10 : (V c main_v10 : S1x3072.Idx → EReal) = shapeCast S1x3072 x10 shapeCasts_S3072_S1x3072)
    (h11 : (V c main_v11 : S1x3072.Idx → EReal) = shapeCast S1x3072 x11 shapeCasts_S3072_S1x3072) :
    ((dat2 V c).arrAt 6 cfg2.N : S1x3072.Idx → EReal) = Cert.ReferenceIdeal.ReadP.val_main_v34 (F := Ideal) x0 x1 x2 x3 x4 x5 x6 x7 x8 x10
    ∧ ((dat2 V c).arrAt 7 cfg2.N : S1x3072.Idx → EReal) = Cert.ReferenceIdeal.ReadP.val_main_v38 (F := Ideal) x2 x9 x11 := by
  refine ⟨?_, ?_⟩
  · rw [ref_gx_eq, ← h9, ← h8, ← h10]
    exact final6 V c
  · rw [ref_gh_eq, ← h1, ← h9', ← h11]
    exact final7 V c

end Cert.KernelIdeal.Hand
end
-- ==== Proof.KI.Reg3d.lean ====
import proofs.«421596_j30159260352787_3_alg».proof.Proof.Gen.KernelIdeal.Launch
import proofs.«421596_j30159260352787_3_alg».proof.Proof.Gen.KernelIdeal.Skeleton
import proofs.«421596_j30159260352787_3_alg».proof.Proof.Gen.KernelIdeal.Points
import proofs.«421596_j30159260352787_3_alg».proof.Proof.KI.Reg3c
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

/-! # The output projection over the extended reals: the logits array after the call. -/

variable (V : (c : Dev nD) → (b : Ref sig .tc) → Buf (Elt Ideal) ((c : Thread nD τ).loc b))

/-! ## From blocks to the array -/

/-- The hidden row, the projection matrix and the bias row as the call finds them, as functions on their literal index
    types into the extended reals. -/
abbrev hid3 (c : Dev nD) : S1x1024.Idx → EReal := V c main_v40
abbrev outW3 (c : Dev nD) : S50257x1024.Idx → EReal := V c main_arg12
abbrev outb3 (c : Dev nD) : S1x50257.Idx → EReal := V c main_v41

/-- The logits as one function of the three arrays: each is the dot product of the hidden row with its own row of the
    projection matrix, plus its bias entry. -/
def G3 (c : Dev nD) : S1x50257.Idx → EReal := fun i =>
  (∑ k : Fin 1024, hid3 V c (ix2 0 k) * outW3 V c (ix2 (i 1) k)) + outb3 V c (ix2 0 (i 1))

/-- What point `t` writes back is block `t` of that function. -/
theorem flushed3_eq (c : Dev nD) (t : Fin cfg3.N) :
    (dat3 V c).flushed 3 t = ((cfg3.win 3).blk t).view.read (Elt Ideal) (G3 V c) := by
  show (cfg3.win 3).cut (cfg3.grid.coords t) ((dat3 V c).after 3 t) = _
  rw [after3_3]
  obtain ⟨e00, e01, e10, e11, e20, e21, e30, e31⟩ := idx_facts3 t
  funext j
  refine (cut_out3_apply t (iblk3 V c 0 t) _ (iblk3 V c 1 t) _ (iblk3 V c 2 t) j).trans ?_
  show _ = G3 V c (((cfg3.win 3).blk t).view.emb j)
  unfold G3
  refine congrArg₂ (· + ·) (Finset.sum_congr rfl fun k _ => congrArg₂ (· * ·) ?_ ?_) ?_
  · show V c main_v40 (((cfg3.win 0).blk t).view.emb (ix2 0 k)) = V c main_v40 (ix2 0 k)
    refine congrArg _ (funext fun a => Fin.ext ?_)
    match a with
    | ⟨0, _⟩ => show win3_0.index t (0 : Fin 2) * 1 + 1 * 0 = 0; omega
    | ⟨1, _⟩ => show win3_0.index t (1 : Fin 2) * 1024 + 1 * k.val = k.val; omega
  · show V c main_arg12 (((cfg3.win 1).blk t).view.emb (row3 t j k)) = V c main_arg12 (ix2 ((((cfg3.win 3).blk t).view.emb j) 1) k)
    refine congrArg _ (funext fun a => Fin.ext ?_)
    match a with
    | ⟨0, _⟩ => show win3_1.index t (0 : Fin 2) * 3072 + 1 * (j 1).val = win3_3.index t (1 : Fin 2) * 3072 + 1 * (j 1).val; omega
    | ⟨1, _⟩ => show win3_1.index t (1 : Fin 2) * 1024 + 1 * k.val = k.val; omega
  · show V c main_v41 (((cfg3.win 2).blk t).view.emb (col3 t j)) = V c main_v41 (ix2 0 ((((cfg3.win 3).blk t).view.emb j) 1))
    refine congrArg _ (funext fun a => Fin.ext ?_)
    match a with
    | ⟨0, _⟩ => show win3_2.index t (0 : Fin 2) * 1 + 1 * 0 = 0; omega
    | ⟨1, _⟩ => show win3_2.index t (1 : Fin 2) * 3072 + 1 * (j 1).val = win3_3.index t (1 : Fin 2) * 3072 + 1 * (j 1).val; omega

/-- An index of the logits array is in point `t`'s block iff each coordinate is in the block's range, cut at the
    array's end, on its axis. -/
theorem mem_blk3 (t : Fin cfg3.N) (i : S1x50257.Idx) :
    i ∈ ((cfg3.win 3).blk t).view.set ↔ ∀ a : Fin 2, win3_3.index t a * S1x3072.size a ≤ (i a).val ∧ (i a).val < win3_3.index t a * S1x3072.size a + win3_3.xsize (grid3.coords t) a := by
  show i ∈ ((View.whole main_v42).slice (win3_3.rect t)).set ↔ _
  rw [View.set_slice_whole, Rect.mem_set_unit]
  exact Iff.rfl

/-- Every logit is in some point's block: column `v` in that of point `v / 3072`. -/
theorem cover3 (i : S1x50257.Idx) : ∃ t : Fin cfg3.N, (cfg3.win 3).flush t = true ∧ i ∈ ((cfg3.win 3).blk t).view.set := by
  have hi0 : (i 0).val < 1 := (i 0).isLt
  have hi1 : (i 1).val < 50257 := (i 1).isLt
  obtain ⟨t, ht⟩ : ∃ t : Fin cfg3.N, t.val = (i 1).val / 3072 := ⟨⟨(i 1).val / 3072, by rw [show cfg3.N = 17 from N_3]; omega⟩, rfl⟩
  obtain ⟨e00, e01, e10, e11, e20, e21, e30, e31⟩ := idx_facts3 t
  obtain ⟨x10, x11, x20, x21, x30, x31⟩ := xsize_facts3 t
  refine ⟨t, flush3_3 t, ?_⟩
  rw [mem_blk3]
  intro a
  match a with
  | ⟨0, _⟩ =>
    show win3_3.index t (0 : Fin 2) * 1 ≤ (i 0).val ∧ (i 0).val < win3_3.index t (0 : Fin 2) * 1 + win3_3.xsize (grid3.coords t) (0 : Fin 2)
    omega
  | ⟨1, _⟩ =>
    show win3_3.index t (1 : Fin 2) * 3072 ≤ (i 1).val ∧ (i 1).val < win3_3.index t (1 : Fin 2) * 3072 + win3_3.xsize (grid3.coords t) (1 : Fin 2)
    omega

/-- THE OUTPUT ARRAY after the call: every logit is the dot product of the hidden row with its own row of the
    projection matrix, plus its bias entry. -/
theorem logits_final (c : Dev nD) : (dat3 V c).arrAt 3 cfg3.N = fun (i : S1x50257.Idx) =>
    (∑ k : Fin 1024, hid3 V c (ix2 0 k) * outW3 V c (ix2 (i 1) k)) + outb3 V c (ix2 0 (i 1)) :=
  (dat3 V c).arrAt_eq_of_cover 3 (G3 V c) (fun t _ => flushed3_eq V c t) cover3

end Cert.KernelIdeal.Hand

end
-- ==== Proof.KI.Val3.lean ====
import proofs.«421596_j30159260352787_3_alg».proof.Proof.KI.Reg3d
import proofs.«421596_j30159260352787_3_alg».proof.Proof.ReadP
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # The kernel's logits are the reference's: both are, at vocabulary entry `v`, the dot product of the new hidden row
with row `v` of the projection matrix plus bias entry `v` — the reference as a product with the transposed matrix plus the
bias broadcast along the row, the kernel with the bias first reshaped to a row. -/

variable (V : (c : Dev nD) → (b : Ref sig .tc) → Buf (Elt Ideal) ((c : Thread nD τ).loc b))

/-- The reference product's left operand at logit `i` and contraction coordinate `k` is read at (0, k): the row has one
    row. -/
theorem lidx68_eq (i : S1x50257.Idx) (k : Fin 1024) :
    (Cert.ReferenceIdeal.ReadP.lidx_main_v68 i k : S1x1024.Idx) = ix2 (0 : Fin 1) k := by
  funext a
  match a with
  | ⟨0, _⟩ =>
    apply Fin.ext
    have h : (i 0).val < 1 := (i 0).isLt
    show (i 0).val = 0
    omega
  | ⟨1, _⟩ => rfl

/-- Its right operand, the transposed matrix at (k, v), is the matrix at (v, k). -/
theorem ridx68_eq (i : S1x50257.Idx) (k : Fin 1024) :
    (Cert.ReferenceIdeal.ReadP.idx_main_v67 (Cert.ReferenceIdeal.ReadP.ridx_main_v68 i k) : S50257x1024.Idx) = ix2 (i 1) k := by
  funext a
  match a with
  | ⟨0, _⟩ => rfl
  | ⟨1, _⟩ => rfl

/-- The bias reshaped to a row, at (0, v), is the bias at v. -/
theorem bias_row_apply (x13 : (⟨Cert.ReferenceIdeal.S50257, .f32⟩ : BufTy).Contents (Elt Ideal)) (i : S1x50257.Idx) :
    shapeCast S1x50257 x13 shapeCasts_S50257_S1x50257 (ix2 (0 : Fin 1) (i 1)) = x13 (Cert.ReferenceIdeal.ReadP.idx_main_v69 i) :=
  shapeCast_apply x13 shapeCasts_S50257_S1x50257 (ix2 (0 : Fin 1) (i 1)) (Cert.ReferenceIdeal.ReadP.idx_main_v69 i) (by
    rw [Shape.rowMajor_val_one, Shape.rowMajor_val_two]
    show (i 1).val = 0 * 50257 + (i 1).val
    omega)

/-- THE LOGITS AGREE: where the hidden row the call finds is the reference's new hidden row, the projection matrix its
    argument and the bias row its bias argument reshaped, the logits array after the call is the reference's sum of
    product and broadcast bias. -/
theorem logits_ref (c : Dev nD) (x0 : (⟨Cert.ReferenceIdeal.S1, .i32⟩ : BufTy).Contents (Elt Ideal)) (x1 : (⟨Cert.ReferenceIdeal.S512x1024, .f32⟩ : BufTy).Contents (Elt Ideal)) (x2 : (⟨Cert.ReferenceIdeal.S1x1x1024, .f32⟩ : BufTy).Contents (Elt Ideal)) (x3 : (⟨Cert.ReferenceIdeal.S50257x1024, .f32⟩ : BufTy).Contents (Elt Ideal)) (x4 : (⟨Cert.ReferenceIdeal.S512x2048, .f32⟩ : BufTy).Contents (Elt Ideal)) (x5 : (⟨Cert.ReferenceIdeal.S512, .f32⟩ : BufTy).Contents (Elt Ideal)) (x6 : (⟨Cert.ReferenceIdeal.S1024x2048, .f32⟩ : BufTy).Contents (Elt Ideal)) (x7 : (⟨Cert.ReferenceIdeal.S1024, .f32⟩ : BufTy).Contents (Elt Ideal)) (x8 x9 : (⟨Cert.ReferenceIdeal.S3072x1024, .f32⟩ : BufTy).Contents (Elt Ideal)) (x10 x11 : (⟨Cert.ReferenceIdeal.S3072, .f32⟩ : BufTy).Contents (Elt Ideal)) (x12 : (⟨Cert.ReferenceIdeal.S50257x1024, .f32⟩ : BufTy).Contents (Elt Ideal)) (x13 : (⟨Cert.ReferenceIdeal.S50257, .f32⟩ : BufTy).Contents (Elt Ideal))
    (h40 : hid3 V c = Cert.ReferenceIdeal.ReadP.val_main_v66 (F := Ideal) x0 x1 x2 x3 x4 x5 x6 x7 x8 x9 x10 x11) (h12 : outW3 V c = x12)
    (h41 : outb3 V c = shapeCast S1x50257 x13 shapeCasts_S50257_S1x50257) :
    ((dat3 V c).arrAt 3 cfg3.N : S1x50257.Idx → EReal) = Cert.ReferenceIdeal.ReadP.val_main_v70 (F := Ideal) x0 x1 x2 x3 x4 x5 x6 x7 x8 x9 x10 x11 x12 x13 := by
  funext i
  refine (congrFun (logits_final V c) i).trans ?_
  dsimp only
  rw [h40, h12, h41, Cert.ReferenceIdeal.ReadP.val_main_v70_apply, Cert.ReferenceIdeal.ReadP.val_main_v68_apply, Cert.ReferenceIdeal.ReadP.val_main_v69_apply]
  refine congrArg₂ (· + ·) (Finset.sum_congr rfl fun k _ => congrArg₂ (· * ·) ?_ ?_) ?_
  · exact congrArg _ (lidx68_eq i k).symm
  · exact (congrArg x12 (ridx68_eq i k).symm).trans (Cert.ReferenceIdeal.ReadP.val_main_v67_apply x12 _).symm
  · exact bias_row_apply x13 i

end Cert.KernelIdeal.Hand

end
-- ==== Proof.KI.PreX.lean ====
import proofs.«421596_j30159260352787_3_alg».proof.Defs
import proofs.«421596_j30159260352787_3_alg».proof.Proof.Gen.KernelIdeal.Regions
import Idealize.ShloMosaic.Lib.Affine
import Idealize.ShloMosaic.Lib.ReduceAll
import Idealize.ShloMosaic.Lib.ValueIdx
import Idealize.ShloMosaic.Lib.StableHlo.Run

/-!
  The added precondition conjunct on the token index, decoded, and its consequence for the embedding-row lookup.

  The precondition ends in `all (x ≥ 0 ∧ x < 50257)` over the one-element index vector `x`; read back, the one word
  of `x` is a signed value in [0, 50257). The lookup (a take in fill mode) first moves a negative index up by the
  table's height 50257, then tests the moved index against [0, 50256], gathers the table's row at it, and keeps the
  gathered row where the test holds and a NaN fill elsewhere. For an index already in [0, 50257) the move does nothing
  and the test holds, so the lookup is the gathered row.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.StableHlo Idealize.ShloMosaic.ValueIdx

namespace PreX

/-! ## Words -/

theorem toInt_zero : (0#32 : BitVec 32).toInt = 0 := by decide
theorem toInt_last : (50256#32 : BitVec 32).toInt = 50256 := by decide
theorem toInt_height : (50257#32 : BitVec 32).toInt = 50257 := by decide

/-- A nonnegative index is not moved: the test "below zero" fails, and the select keeps the index. -/
theorem norm_word (w : BitVec 32) (h0 : 0 ≤ w.toInt) :
    Scalar.select (IntOp.cmpi .slt w 0#32) (IntOp.addi w 50257#32) w = w := by
  have hc : IntOp.cmpi .slt w 0#32 = 0#1 :=
    eq_zero_of_ne_one fun h => by
      have := IntOp.cmpi_slt.1 h
      rw [toInt_zero] at this
      omega
  rw [hc, select_zero]

/-- An index in [0, 50257) passes the range test 0 ≤ w ≤ 50256. -/
theorem flag_word (w : BitVec 32) (h0 : 0 ≤ w.toInt) (h1 : w.toInt < 50257) :
    IntOp.andi (IntOp.cmpi .sge w 0#32) (IntOp.cmpi .sle w 50256#32) = 1#1 :=
  IntOp.andi_eq_one.2 ⟨IntOp.cmpi_sge.2 (by rw [toInt_zero]; exact h0), IntOp.cmpi_sle.2 (by rw [toInt_last]; omega)⟩

/-! ## A conjunction of ones -/

/-- A left fold by `and` that starts at 1 and meets only 1s is 1. -/
theorem foldl_andi_ones {ι : Type} (f : ι → BitVec 1) (hf : ∀ n, f n = 1#1) :
    ∀ (l : List ι) (init : BitVec 1), init = 1#1 → l.foldl (fun r n => IntOp.andi r (f n)) init = 1#1
  | [], _, h => h
  | a :: l, init, h => foldl_andi_ones f hf l _ (by show IntOp.andi init (f a) = 1#1; rw [h, hf a]; decide)

/-- A reduction by `and` from 1 of an array of 1s is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl]
  exact foldl_andi_ones x hx _ _ hinit

/-- A select on a condition that is 1 everywhere is its first branch. -/
theorem select_of_ones {s : Shape} {α : Type} (cnd : IVec s 1) (a b : s.Idx → α) (hc : ∀ j, cnd j = 1#1) :
    select cnd a b = a := by
  funext j
  rw [select_apply, hc j, select_one]

/-! ## The lookup's operations -/

/-- The index as the lookup normalises it: a negative one moved up by the table's height. -/
def normIdx (x : IVec S1 32) : IVec S1 32 :=
  select (cmpi .slt x (broadcastInDim S1 ![] bcast_S_S1 (constantI S_ 32 0#32)))
    (addi x (broadcastInDim S1 ![] bcast_S_S1 (constantI S_ 32 50257#32))) x

/-- The normalised index as the gather's [1 × 1] array of start indices. -/
def startIdx (x : IVec S1 32) : IVec S1x1 32 := broadcastInDim S1x1 ![0] bcast_S1_S1x1_0 (normIdx x)

/-- The lookup's range test on the start indices, reduced over the index vector's axis. -/
def inRange (x : IVec S1 32) : IVec S1 1 :=
  Host.reduce IntOp.andi
    (andi (cmpi .sge (startIdx x) (broadcastInDim S1x1 ![] bcast_S_S1x1 (constantI S_ 32 0#32)))
      (cmpi .sle (startIdx x) (broadcastInDim S1x1 ![1] bcast_S1_S1x1_1 (constantI S1 32 50256#32))))
    (constantI S_ 1 1#1) reducesTo_S1x1_S1_d1 h_S_

/-- The whole lookup: the gathered row where the test holds, the fill elsewhere. -/
def take {α : Type} (tbl : S50257x1024.Idx → α) (fill : S1x1024.Idx → α) (x : IVec S1 32) : S1x1024.Idx → α :=
  select (broadcastInDim S1x1024 ![0] bcast_S1_S1x1024_0 (inRange x))
    (Host.gather gather_S50257x1024_S1x1_S1x1024_1_0_n_n_0_1_11024 tbl (startIdx x)) fill

/-- An in-range index is its own normal form. -/
theorem normIdx_eq (x : IVec S1 32) (hx : ∀ i, 0 ≤ (x i).toInt) : normIdx x = x :=
  funext fun i => norm_word (x i) (hx i)

/-- For an index in [0, 50257) the lookup is the gathered row. -/
theorem take_in_range {α : Type} (tbl : S50257x1024.Idx → α) (fill : S1x1024.Idx → α) (x : IVec S1 32)
    (hx : ∀ i, 0 ≤ (x i).toInt ∧ (x i).toInt < 50257) :
    take tbl fill x = Host.gather gather_S50257x1024_S1x1_S1x1024_1_0_n_n_0_1_11024 tbl (startIdx x) := by
  have key : ∀ q : S1.Idx, IntOp.andi (IntOp.cmpi .sge (normIdx x q) 0#32) (IntOp.cmpi .sle (normIdx x q) 50256#32) = 1#1 :=
    fun q => by
      rw [show normIdx x q = x q from norm_word (x q) (hx q).1]
      exact flag_word _ (hx q).1 (hx q).2
  unfold take
  refine select_of_ones _ _ _ fun j => ?_
  show inRange x _ = 1#1
  unfold inRange
  refine reduce_andi_ones _ _ _ _ (fun p => ?_) rfl _
  show IntOp.andi (IntOp.cmpi .sge (startIdx x p) 0#32) (IntOp.cmpi .sle (startIdx x p) 50256#32) = 1#1
  exact key _

end PreX

open PreX

variable (m : (ℓ : Loc nD τ sig) → Buf (Elt Ideal) ℓ)

/-! ## The precondition, decoded -/

/-- THE INDEX CONJUNCT READ BACK: the one word of the token index is a signed value in [0, 50257). -/
theorem x_range [Cert.Pre_finite_inputs.Facts] (hpre : Cert.Pre_KernelIdeal m) (c : Dev nD) (i : S1.Idx) :
    0 ≤ ((m ((c.tc : Thread nD τ).loc main_arg0) : IVec S1 32) i).toInt
      ∧ ((m ((c.tc : Thread nD τ).loc main_arg0) : IVec S1 32) i).toInt < 50257 := by
  haveI : Subsingleton Cert.Pre_finite_inputs.S_.Idx := ⟨fun a b => funext fun d => d.elim0⟩
  have e := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4] at e
  -- the last conjunct is the index's; its `all` holds at the one element
  have e3 := IntOp.andi_eq_one.1 (Host.reduce_andi_all _ _ _ _ _ (IntOp.andi_eq_one.1 e).2 i)
  have h0 : IntOp.cmpi .sge ((m ((c.tc : Thread nD τ).loc main_arg0) : IVec S1 32) i) 0#32 = 1#1 := e3.1
  have h1 : IntOp.cmpi .slt ((m ((c.tc : Thread nD τ).loc main_arg0) : IVec S1 32) i) 50257#32 = 1#1 := e3.2
  have h0' := IntOp.cmpi_sge.1 h0
  have h1' := IntOp.cmpi_slt.1 h1
  rw [toInt_zero] at h0'
  rw [toInt_height] at h1'
  exact ⟨h0', h1'⟩

/-! ## The lookup under the precondition -/

/-- What the first host stretch leaves in the lookup's result buffer: the lookup of the launch's index in the launch's table,
    with the NaN fill. -/
theorem take_fold (c : Dev nD) :
    (V1 m c main_v0 : S1x1024.Idx → Elt Ideal .f32)
      = take (m ((c.tc : Thread nD τ).loc main_arg3))
          (broadcastInDim S1x1024 ![] bcast_S_S1x1024 (constant (F := Ideal) S_ .f32 0x7FC00000#32))
          (m ((c.tc : Thread nD τ).loc main_arg0)) := by
  show StableHlo.after hostOps0 (V0 m c) (Proc.devRef .tc main_v0) = _
  after_results_simp
  rfl

/-- UNDER THE PRECONDITION THE EMBEDDED ROW IS THE GATHERED ROW at the normalised index: the range test holds at every
    element, so the select takes the gathered row and never the fill. -/
theorem take_eq [Cert.Pre_finite_inputs.Facts] (hpre : Cert.Pre_KernelIdeal m) (c : Dev nD) :
    (V1 m c main_v0 : S1x1024.Idx → Elt Ideal .f32)
      = Host.gather gather_S50257x1024_S1x1_S1x1024_1_0_n_n_0_1_11024 (m ((c.tc : Thread nD τ).loc main_arg3))
          (broadcastInDim S1x1 ![0] bcast_S1_S1x1_0
            (select
              (cmpi .slt (m ((c.tc : Thread nD τ).loc main_arg0)) (broadcastInDim S1 ![] bcast_S_S1 (constantI S_ 32 0#32)))
              (addi (m ((c.tc : Thread nD τ).loc main_arg0)) (broadcastInDim S1 ![] bcast_S_S1 (constantI S_ 32 50257#32)))
              (m ((c.tc : Thread nD τ).loc main_arg0)))) := by
  rw [take_fold m c]
  exact take_in_range _ _ _ (x_range m hpre c)

/-- Under the precondition the normalised index is the index itself: the embedded row is the table's row at the token. -/
theorem take_eq_index [Cert.Pre_finite_inputs.Facts] (hpre : Cert.Pre_KernelIdeal m) (c : Dev nD) :
    (V1 m c main_v0 : S1x1024.Idx → Elt Ideal .f32)
      = Host.gather gather_S50257x1024_S1x1_S1x1024_1_0_n_n_0_1_11024 (m ((c.tc : Thread nD τ).loc main_arg3))
          (broadcastInDim S1x1 ![0] bcast_S1_S1x1_0 (m ((c.tc : Thread nD τ).loc main_arg0))) := by
  rw [take_eq m hpre c]
  have hn := normIdx_eq (m ((c.tc : Thread nD τ).loc main_arg0)) fun i => (x_range m hpre c i).1
  unfold normIdx at hn
  rw [hn]

end Cert.KernelIdeal.Hand

end
-- ==== Proof.KI.Trans.lean ====
import proofs.«421596_j30159260352787_3_alg».proof.Proof.KI.Kept
import proofs.«421596_j30159260352787_3_alg».proof.Proof.KI.PreX
import proofs.«421596_j30159260352787_3_alg».proof.Proof.ReadP

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.StableHlo
open Idealize.ShloMosaic.Pipeline (Dat Cfg Window)

/-!
  # What each call, and each later host stretch, finds in the buffers it reads

  Between two items of the program a buffer holds what the last item that wrote it left there. The host stretches
  before the calls only slice, reshape and gather the arguments, so each of their results is one operation applied to
  an argument's launch contents; the embedded row is the reference's own lookup of the token in the table, the
  precondition putting the token in the table's range; a call's result stays where its last write-back left it until
  something reads it.
-/

/-! ## The host stretches between the calls, from any contents -/

section Folds

variable {F : FTy → Type} [FloatOps F] (W : Valuation τ sig (Elt F))

theorem fold0_1_v1 : StableHlo.after hostOps0_1 W (Proc.devRef .tc main_v1)
    = shapeCast S1x1024 (W (Proc.devRef .tc main_arg2)) shapeCasts_S1x1x1024_S1x1024 := by
  after_results_simp <;> rfl
theorem fold0_1_v2 : StableHlo.after hostOps0_1 W (Proc.devRef .tc main_v2)
    = extractStridedSlice S512x1024 ![0, 0] (W (Proc.devRef .tc main_arg4)) slices_S512x2048_S512x1024_0_0 := by
  after_results_simp <;> rfl
theorem fold0_1_v3 : StableHlo.after hostOps0_1 W (Proc.devRef .tc main_v3)
    = extractStridedSlice S512x1024 ![0, 1024] (W (Proc.devRef .tc main_arg4)) slices_S512x2048_S512x1024_0_1024 := by
  after_results_simp <;> rfl
theorem fold0_1_v4 : StableHlo.after hostOps0_1 W (Proc.devRef .tc main_v4)
    = shapeCast S1x512 (W (Proc.devRef .tc main_arg5)) shapeCasts_S512_S1x512 := by
  after_results_simp <;> rfl

theorem fold1_v6 : StableHlo.after hostOps1 W (Proc.devRef .tc main_v6)
    = extractStridedSlice S1024x1024 ![0, 0] (W (Proc.devRef .tc main_arg6)) slices_S1024x2048_S1024x1024_0_0 := by
  after_results_simp <;> rfl
theorem fold1_v7 : StableHlo.after hostOps1 W (Proc.devRef .tc main_v7)
    = extractStridedSlice S1024x1024 ![0, 1024] (W (Proc.devRef .tc main_arg6)) slices_S1024x2048_S1024x1024_0_1024 := by
  after_results_simp <;> rfl
theorem fold1_v8 : StableHlo.after hostOps1 W (Proc.devRef .tc main_v8)
    = shapeCast S1x1024 (W (Proc.devRef .tc main_arg7)) shapeCasts_S1024_S1x1024 := by
  after_results_simp <;> rfl

theorem fold2_v10 : StableHlo.after hostOps2 W (Proc.devRef .tc main_v10)
    = shapeCast S1x3072 (W (Proc.devRef .tc main_arg10)) shapeCasts_S3072_S1x3072 := by
  after_results_simp <;> rfl
theorem fold2_v11 : StableHlo.after hostOps2 W (Proc.devRef .tc main_v11)
    = shapeCast S1x3072 (W (Proc.devRef .tc main_arg11)) shapeCasts_S3072_S1x3072 := by
  after_results_simp <;> rfl

end Folds

/-! ## A reference nothing has written yet holds its launch contents -/

section Launch

variable {F : FTy → Type} [FloatOps F] (m : (ℓ : Loc nD τ sig) → Buf (Elt F) ℓ) (outs : Outs (F := F)) (c : Dev nD) (r : Ref sig .tc)

theorem at1 (h1 : r ∉ hostOps0_W) : V1 m c r = m ((c : Thread nD τ).loc r) := (V1_of m c r h1).trans rfl
theorem at2 (h1 : r ∉ hostOps0_W) (h2 : r ∉ hostOps0_1_W) : V2 m c r = m ((c : Thread nD τ).loc r) :=
  (V2_of m c r h2).trans (at1 m c r h1)
theorem at3 (h1 : r ∉ hostOps0_W) (h2 : r ∉ hostOps0_1_W) (h3 : r ∉ ([main_v5_0, main_v5_1] : List (Ref sig .tc))) :
    V3 m outs c r = m ((c : Thread nD τ).loc r) := (V3_of m outs c r h3).trans (at2 m c r h1 h2)
theorem at4 (h1 : r ∉ hostOps0_W) (h2 : r ∉ hostOps0_1_W) (h3 : r ∉ ([main_v5_0, main_v5_1] : List (Ref sig .tc)))
    (h4 : r ∉ hostOps1_W) : V4 m outs c r = m ((c : Thread nD τ).loc r) := (V4_of m outs c r h4).trans (at3 m outs c r h1 h2 h3)
theorem at5 (h1 : r ∉ hostOps0_W) (h2 : r ∉ hostOps0_1_W) (h3 : r ∉ ([main_v5_0, main_v5_1] : List (Ref sig .tc)))
    (h4 : r ∉ hostOps1_W) (h5 : r ∉ ([main_v9] : List (Ref sig .tc))) : V5 m outs c r = m ((c : Thread nD τ).loc r) :=
  (V5_of m outs c r h5).trans (at4 m outs c r h1 h2 h3 h4)
theorem at6 (h1 : r ∉ hostOps0_W) (h2 : r ∉ hostOps0_1_W) (h3 : r ∉ ([main_v5_0, main_v5_1] : List (Ref sig .tc)))
    (h4 : r ∉ hostOps1_W) (h5 : r ∉ ([main_v9] : List (Ref sig .tc))) (h6 : r ∉ hostOps2_W) :
    V6 m outs c r = m ((c : Thread nD τ).loc r) := (V6_of m outs c r h6).trans (at5 m outs c r h1 h2 h3 h4 h5)
theorem at7 (h1 : r ∉ hostOps0_W) (h2 : r ∉ hostOps0_1_W) (h3 : r ∉ ([main_v5_0, main_v5_1] : List (Ref sig .tc)))
    (h4 : r ∉ hostOps1_W) (h5 : r ∉ ([main_v9] : List (Ref sig .tc))) (h6 : r ∉ hostOps2_W)
    (h7 : r ∉ ([main_v12_0, main_v12_1] : List (Ref sig .tc))) : V7 m outs c r = m ((c : Thread nD τ).loc r) :=
  (V7_of m outs c r h7).trans (at6 m outs c r h1 h2 h3 h4 h5 h6)
theorem at8 (h1 : r ∉ hostOps0_W) (h2 : r ∉ hostOps0_1_W) (h3 : r ∉ ([main_v5_0, main_v5_1] : List (Ref sig .tc)))
    (h4 : r ∉ hostOps1_W) (h5 : r ∉ ([main_v9] : List (Ref sig .tc))) (h6 : r ∉ hostOps2_W)
    (h7 : r ∉ ([main_v12_0, main_v12_1] : List (Ref sig .tc))) (h8 : r ∉ hostOps3_W) :
    V8 m outs c r = m ((c : Thread nD τ).loc r) := (V8_of m outs c r h8).trans (at7 m outs c r h1 h2 h3 h4 h5 h6 h7)

end Launch

variable (m : (ℓ : Loc nD τ sig) → Buf (Elt Ideal) ℓ) (c : Dev nD)

/-! ## Before the attention call -/

/-- The embedded row is the reference's lookup of the token in the embedding table. -/
theorem trans2_v0 [Cert.Pre_finite_inputs.Facts] (hpre : Cert.Pre_KernelIdeal m) :
    (V2 m c main_v0 : S1x1024.Idx → EReal)
      = Cert.ReferenceIdeal.ReadP.val_main_v6 (F := Ideal) (m ((c : Thread nD τ).loc main_arg0)) (m ((c : Thread nD τ).loc main_arg3)) :=
  (V2_of m c main_v0 (by decide)).trans ((take_eq m hpre c).trans rfl)

/-- The hidden row is the reference's reshape of the hidden state. -/
theorem trans2_v1 :
    (V2 m c main_v1 : S1x1024.Idx → EReal) = Cert.ReferenceIdeal.ReadP.val_main_v7 (F := Ideal) (m ((c : Thread nD τ).loc main_arg2)) :=
  (fold0_1_v1 (V1 m c)).trans (by rw [at1 m c main_arg2 (by decide)]; rfl)

theorem trans2_arg1 : V2 m c main_arg1 = (m ((c : Thread nD τ).loc main_arg1)) := at2 m c main_arg1 (by decide) (by decide)

theorem trans2_v2 :
    (V2 m c main_v2 : S512x1024.Idx → EReal)
      = extractStridedSlice S512x1024 ![0, 0] (m ((c : Thread nD τ).loc main_arg4)) slices_S512x2048_S512x1024_0_0 :=
  (fold0_1_v2 (V1 m c)).trans (by rw [at1 m c main_arg4 (by decide)])

theorem trans2_v3 :
    (V2 m c main_v3 : S512x1024.Idx → EReal)
      = extractStridedSlice S512x1024 ![0, 1024] (m ((c : Thread nD τ).loc main_arg4)) slices_S512x2048_S512x1024_0_1024 :=
  (fold0_1_v3 (V1 m c)).trans (by rw [at1 m c main_arg4 (by decide)])

theorem trans2_v4 :
    (V2 m c main_v4 : S1x512.Idx → EReal) = shapeCast S1x512 (m ((c : Thread nD τ).loc main_arg5)) shapeCasts_S512_S1x512 :=
  (fold0_1_v4 (V1 m c)).trans (by rw [at1 m c main_arg5 (by decide)])

/-! ## Before the combine call -/

theorem trans4_v0 [Cert.Pre_finite_inputs.Facts] (hpre : Cert.Pre_KernelIdeal m) :
    (V4 m (outs3 m) c main_v0 : S1x1024.Idx → EReal)
      = Cert.ReferenceIdeal.ReadP.val_main_v6 (F := Ideal) (m ((c : Thread nD τ).loc main_arg0)) (m ((c : Thread nD τ).loc main_arg3)) :=
  (V4_of m (outs3 m) c main_v0 (by decide)).trans <| (V3_of m (outs3 m) c main_v0 (by decide)).trans (trans2_v0 m c hpre)

theorem trans4_v6 :
    (V4 m (outs3 m) c main_v6 : S1024x1024.Idx → EReal)
      = extractStridedSlice S1024x1024 ![0, 0] (m ((c : Thread nD τ).loc main_arg6)) slices_S1024x2048_S1024x1024_0_0 :=
  (fold1_v6 (V3 m (outs3 m) c)).trans (by rw [at3 m (outs3 m) c main_arg6 (by decide) (by decide) (by decide)])

theorem trans4_v7 :
    (V4 m (outs3 m) c main_v7 : S1024x1024.Idx → EReal)
      = extractStridedSlice S1024x1024 ![0, 1024] (m ((c : Thread nD τ).loc main_arg6)) slices_S1024x2048_S1024x1024_0_1024 :=
  (fold1_v7 (V3 m (outs3 m) c)).trans (by rw [at3 m (outs3 m) c main_arg6 (by decide) (by decide) (by decide)])

theorem trans4_v8 :
    (V4 m (outs3 m) c main_v8 : S1x1024.Idx → EReal) = shapeCast S1x1024 (m ((c : Thread nD τ).loc main_arg7)) shapeCasts_S1024_S1x1024 :=
  (fold1_v8 (V3 m (outs3 m) c)).trans (by rw [at3 m (outs3 m) c main_arg7 (by decide) (by decide) (by decide)])

/-- The attended encoder row is where the attention call's last write-back left it. -/
theorem trans4_v5_1 : V4 m (outs3 m) c main_v5_1 = (dat0 (atTc (V2 m)) c).arrAt 7 cfg0.N :=
  (V4_of m (outs3 m) c main_v5_1 (by decide)).trans <| (V3_eq_W3 m c main_v5_1).trans (W3_arr m c 7)

/-! ## Before the gate pre-activation call -/

/-- The combined row is where the combine call's last write-back left it. -/
theorem trans6_v9 : V6 m (outs5 m) c main_v9 = (dat1 (atTc (V4 m (outs3 m))) c).arrAt 5 cfg1.N :=
  (V6_of m (outs5 m) c main_v9 (by decide)).trans <| (V5_eq_W5 m c main_v9).trans (W5_arr m c 5)

theorem trans6_v1 :
    (V6 m (outs5 m) c main_v1 : S1x1024.Idx → EReal) = Cert.ReferenceIdeal.ReadP.val_main_v7 (F := Ideal) (m ((c : Thread nD τ).loc main_arg2)) :=
  (V6_of m (outs5 m) c main_v1 (by decide)).trans <| (V5_of m (outs5 m) c main_v1 (by decide)).trans <|
    (V4_of m (outs5 m) c main_v1 (by decide)).trans <| (V3_of m (outs5 m) c main_v1 (by decide)).trans (trans2_v1 m c)

theorem trans6_arg8 : V6 m (outs5 m) c main_arg8 = (m ((c : Thread nD τ).loc main_arg8)) :=
  at6 m (outs5 m) c main_arg8 (by decide) (by decide) (by decide) (by decide) (by decide) (by decide)
theorem trans6_arg9 : V6 m (outs5 m) c main_arg9 = (m ((c : Thread nD τ).loc main_arg9)) :=
  at6 m (outs5 m) c main_arg9 (by decide) (by decide) (by decide) (by decide) (by decide) (by decide)

theorem trans6_v10 :
    (V6 m (outs5 m) c main_v10 : S1x3072.Idx → EReal) = shapeCast S1x3072 (m ((c : Thread nD τ).loc main_arg10)) shapeCasts_S3072_S1x3072 :=
  (fold2_v10 (V5 m (outs5 m) c)).trans
    (by rw [at5 m (outs5 m) c main_arg10 (by decide) (by decide) (by decide) (by decide) (by decide)])

theorem trans6_v11 :
    (V6 m (outs5 m) c main_v11 : S1x3072.Idx → EReal) = shapeCast S1x3072 (m ((c : Thread nD τ).loc main_arg11)) shapeCasts_S3072_S1x3072 :=
  (fold2_v11 (V5 m (outs5 m) c)).trans
    (by rw [at5 m (outs5 m) c main_arg11 (by decide) (by decide) (by decide) (by decide) (by decide)])

/-! ## Before the gate arithmetic -/

/-- The two pre-activation rows are where the gate call's last write-backs left them. -/
theorem trans7_v12_0 : V7 m (outs7 m) c main_v12_0 = (dat2 (atTc (V6 m (outs5 m))) c).arrAt 6 cfg2.N :=
  (V7_eq_W7 m c main_v12_0).trans (W7_arr m c 6)
theorem trans7_v12_1 : V7 m (outs7 m) c main_v12_1 = (dat2 (atTc (V6 m (outs5 m))) c).arrAt 7 cfg2.N :=
  (V7_eq_W7 m c main_v12_1).trans (W7_arr m c 7)

theorem trans7_v1 :
    (V7 m (outs7 m) c main_v1 : S1x1024.Idx → EReal) = Cert.ReferenceIdeal.ReadP.val_main_v7 (F := Ideal) (m ((c : Thread nD τ).loc main_arg2)) :=
  (V7_of m (outs7 m) c main_v1 (by decide)).trans <| (V6_of m (outs7 m) c main_v1 (by decide)).trans <|
    (V5_of m (outs7 m) c main_v1 (by decide)).trans <| (V4_of m (outs7 m) c main_v1 (by decide)).trans <|
    (V3_of m (outs7 m) c main_v1 (by decide)).trans (trans2_v1 m c)

theorem trans7_arg13 : V7 m (outs7 m) c main_arg13 = (m ((c : Thread nD τ).loc main_arg13)) :=
  at7 m (outs7 m) c main_arg13 (by decide) (by decide) (by decide) (by decide) (by decide) (by decide) (by decide)

/-! ## Before the output projection -/

theorem trans8_arg12 : V8 m (outs7 m) c main_arg12 = (m ((c : Thread nD τ).loc main_arg12)) :=
  at8 m (outs7 m) c main_arg12 (by decide) (by decide) (by decide) (by decide) (by decide) (by decide) (by decide) (by decide)

end Cert.KernelIdeal.Hand

end
-- ==== Proof.KI.HostVal.lean ====
import proofs.«421596_j30159260352787_3_alg».proof.Proof.Gen.KernelIdeal.Launch
import proofs.«421596_j30159260352787_3_alg».proof.Proof.ReadP
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The first stretch between the gather and the attention call: the hidden state as a row, the two column halves
    of the attention weights, the attention bias as a row. -/
theorem host01_eq (W : Valuation τ sig (Elt F)) :
    (StableHlo.after hostOps0_1 W main_v1 : (⟨S1x1024, .f32⟩ : BufTy).Contents (Elt F))
        = shapeCast _ (W main_arg2 : (⟨S1x1x1024, .f32⟩ : BufTy).Contents (Elt F)) shapeCasts_S1x1x1024_S1x1024
    ∧ (StableHlo.after hostOps0_1 W main_v2 : (⟨S512x1024, .f32⟩ : BufTy).Contents (Elt F))
        = extractStridedSlice S512x1024 ![0, 0] (W main_arg4 : (⟨S512x2048, .f32⟩ : BufTy).Contents (Elt F)) slices_S512x2048_S512x1024_0_0
    ∧ (StableHlo.after hostOps0_1 W main_v3 : (⟨S512x1024, .f32⟩ : BufTy).Contents (Elt F))
        = extractStridedSlice S512x1024 ![0, 1024] (W main_arg4 : (⟨S512x2048, .f32⟩ : BufTy).Contents (Elt F)) slices_S512x2048_S512x1024_0_1024
    ∧ (StableHlo.after hostOps0_1 W main_v4 : (⟨S1x512, .f32⟩ : BufTy).Contents (Elt F))
        = shapeCast _ (W main_arg5 : (⟨S512, .f32⟩ : BufTy).Contents (Elt F)) shapeCasts_S512_S1x512 := by
  refine ⟨?_, ?_, ?_, ?_⟩ <;> after_results <;> rfl

/-- The stretch before the combine call: the two column halves of the combine weights, the combine bias as a row. -/
theorem host1_eq (W : Valuation τ sig (Elt F)) :
    (StableHlo.after hostOps1 W main_v6 : (⟨S1024x1024, .f32⟩ : BufTy).Contents (Elt F))
        = extractStridedSlice S1024x1024 ![0, 0] (W main_arg6 : (⟨S1024x2048, .f32⟩ : BufTy).Contents (Elt F)) slices_S1024x2048_S1024x1024_0_0
    ∧ (StableHlo.after hostOps1 W main_v7 : (⟨S1024x1024, .f32⟩ : BufTy).Contents (Elt F))
        = extractStridedSlice S1024x1024 ![0, 1024] (W main_arg6 : (⟨S1024x2048, .f32⟩ : BufTy).Contents (Elt F)) slices_S1024x2048_S1024x1024_0_1024
    ∧ (StableHlo.after hostOps1 W main_v8 : (⟨S1x1024, .f32⟩ : BufTy).Contents (Elt F))
        = shapeCast _ (W main_arg7 : (⟨S1024, .f32⟩ : BufTy).Contents (Elt F)) shapeCasts_S1024_S1x1024 := by
  refine ⟨?_, ?_, ?_⟩ <;> after_results <;> rfl

/-- The stretch before the gate pre-activation call: the two gate biases as rows. -/
theorem host2_eq (W : Valuation τ sig (Elt F)) :
    (StableHlo.after hostOps2 W main_v10 : (⟨S1x3072, .f32⟩ : BufTy).Contents (Elt F))
        = shapeCast _ (W main_arg10 : (⟨S3072, .f32⟩ : BufTy).Contents (Elt F)) shapeCasts_S3072_S1x3072
    ∧ (StableHlo.after hostOps2 W main_v11 : (⟨S1x3072, .f32⟩ : BufTy).Contents (Elt F))
        = shapeCast _ (W main_arg11 : (⟨S3072, .f32⟩ : BufTy).Contents (Elt F)) shapeCasts_S3072_S1x3072 := by
  refine ⟨?_, ?_⟩ <;> after_results <;> rfl

/-- The reference's hidden row is the hidden state reshaped. -/
theorem ref_v7 (x2 : (⟨Cert.ReferenceIdeal.S1x1x1024, .f32⟩ : BufTy).Contents (Elt F)) :
    Cert.ReferenceIdeal.ReadP.val_main_v7 x2 = shapeCast _ x2 Cert.ReferenceIdeal.Gen.shapeCasts_S1x1x1024_S1x1024 := rfl

/-! ## The gate arithmetic against the reference's stages

The kernel program and the reference apply the same operations in the same order to the gate pre-activations: once
the values entering the stretch are the reference's, so is what leaves it. -/

variable (x0 : (⟨Cert.ReferenceIdeal.S1, .i32⟩ : BufTy).Contents (Elt F))
  (x1 : (⟨Cert.ReferenceIdeal.S512x1024, .f32⟩ : BufTy).Contents (Elt F))
  (x2 : (⟨Cert.ReferenceIdeal.S1x1x1024, .f32⟩ : BufTy).Contents (Elt F))
  (x3 : (⟨Cert.ReferenceIdeal.S50257x1024, .f32⟩ : BufTy).Contents (Elt F))
  (x4 : (⟨Cert.ReferenceIdeal.S512x2048, .f32⟩ : BufTy).Contents (Elt F))
  (x5 : (⟨Cert.ReferenceIdeal.S512, .f32⟩ : BufTy).Contents (Elt F))
  (x6 : (⟨Cert.ReferenceIdeal.S1024x2048, .f32⟩ : BufTy).Contents (Elt F))
  (x7 : (⟨Cert.ReferenceIdeal.S1024, .f32⟩ : BufTy).Contents (Elt F))
  (x8 : (⟨Cert.ReferenceIdeal.S3072x1024, .f32⟩ : BufTy).Contents (Elt F))
  (x9 : (⟨Cert.ReferenceIdeal.S3072x1024, .f32⟩ : BufTy).Contents (Elt F))
  (x10 : (⟨Cert.ReferenceIdeal.S3072, .f32⟩ : BufTy).Contents (Elt F))
  (x11 : (⟨Cert.ReferenceIdeal.S3072, .f32⟩ : BufTy).Contents (Elt F))
  (x12 : (⟨Cert.ReferenceIdeal.S50257x1024, .f32⟩ : BufTy).Contents (Elt F))
  (x13 : (⟨Cert.ReferenceIdeal.S50257, .f32⟩ : BufTy).Contents (Elt F))

/-- The gate arithmetic: from the reference's two gate pre-activation rows and its hidden row to the reference's new
    hidden row, the same operations in the same order; and the output bias as a row. -/
theorem host3_eq (W : Valuation τ sig (Elt F))
    (hgx : (W main_v12_0 : (⟨S1x3072, .f32⟩ : BufTy).Contents (Elt F))
      = Cert.ReferenceIdeal.ReadP.val_main_v34 x0 x1 x2 x3 x4 x5 x6 x7 x8 x10)
    (hgh : (W main_v12_1 : (⟨S1x3072, .f32⟩ : BufTy).Contents (Elt F))
      = Cert.ReferenceIdeal.ReadP.val_main_v38 x2 x9 x11)
    (hh : (W main_v1 : (⟨S1x1024, .f32⟩ : BufTy).Contents (Elt F)) = Cert.ReferenceIdeal.ReadP.val_main_v7 x2) :
    (StableHlo.after hostOps3 W main_v40 : (⟨S1x1024, .f32⟩ : BufTy).Contents (Elt F))
        = Cert.ReferenceIdeal.ReadP.val_main_v66 x0 x1 x2 x3 x4 x5 x6 x7 x8 x9 x10 x11
    ∧ (StableHlo.after hostOps3 W main_v41 : (⟨S1x50257, .f32⟩ : BufTy).Contents (Elt F))
        = shapeCast _ (W main_arg13 : (⟨S50257, .f32⟩ : BufTy).Contents (Elt F)) shapeCasts_S50257_S1x50257 := by
  constructor
  · after_results_simp
    rw [hgx, hgh, hh]
    rfl
  · after_results_simp
    rfl

end Cert.KernelIdeal.Hand

end
-- ==== Proof.KI.HostVal4.lean ====
import proofs.«421596_j30159260352787_3_alg».proof.Proof.Gen.KernelIdeal.Launch
import proofs.«421596_j30159260352787_3_alg».proof.Proof.ReadP
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

/-! # The last stretch against the reference's stages

The kernel program and the reference apply the same operations in the same order to the logits: once the logits are
the reference's, so is the result. -/

/-! Contents carried to and from a buffer along its reference's type (the values of a called function): the identity. -/

/-- Carried to the buffer and back. -/
private theorem ofBuf_toBuf {T : BufTy} (x : StableHlo.TRef sig T) (v : T.Contents (Elt F)) : x.ofBuf (x.toBuf v) = v := by
  obtain ⟨r, rfl, _, _⟩ := x; rfl
/-- Read from the logits' buffer. -/
private theorem ofBuf_v42 (v : (⟨S1x50257, .f32⟩ : BufTy).Contents (Elt F)) :
    (StableHlo.TRef.of (sig := sig) (T := ⟨S1x50257, .f32⟩) main_v42).ofBuf v = v := rfl
/-- Written to the result's buffer. -/
private theorem toBuf_v43 (v : (⟨S1x50257, .f32⟩ : BufTy).Contents (Elt F)) :
    (StableHlo.TRef.of (sig := sig) (T := ⟨S1x50257, .f32⟩) main_v43).toBuf v = v := rfl

variable (x0 : (⟨Cert.ReferenceIdeal.S1, .i32⟩ : BufTy).Contents (Elt F))
  (x1 : (⟨Cert.ReferenceIdeal.S512x1024, .f32⟩ : BufTy).Contents (Elt F))
  (x2 : (⟨Cert.ReferenceIdeal.S1x1x1024, .f32⟩ : BufTy).Contents (Elt F))
  (x3 : (⟨Cert.ReferenceIdeal.S50257x1024, .f32⟩ : BufTy).Contents (Elt F))
  (x4 : (⟨Cert.ReferenceIdeal.S512x2048, .f32⟩ : BufTy).Contents (Elt F))
  (x5 : (⟨Cert.ReferenceIdeal.S512, .f32⟩ : BufTy).Contents (Elt F))
  (x6 : (⟨Cert.ReferenceIdeal.S1024x2048, .f32⟩ : BufTy).Contents (Elt F))
  (x7 : (⟨Cert.ReferenceIdeal.S1024, .f32⟩ : BufTy).Contents (Elt F))
  (x8 : (⟨Cert.ReferenceIdeal.S3072x1024, .f32⟩ : BufTy).Contents (Elt F))
  (x9 : (⟨Cert.ReferenceIdeal.S3072x1024, .f32⟩ : BufTy).Contents (Elt F))
  (x10 : (⟨Cert.ReferenceIdeal.S3072, .f32⟩ : BufTy).Contents (Elt F))
  (x11 : (⟨Cert.ReferenceIdeal.S3072, .f32⟩ : BufTy).Contents (Elt F))
  (x12 : (⟨Cert.ReferenceIdeal.S50257x1024, .f32⟩ : BufTy).Contents (Elt F))
  (x13 : (⟨Cert.ReferenceIdeal.S50257, .f32⟩ : BufTy).Contents (Elt F))

/-- The last stretch (the log-softmax of the logits): from the reference's logits to the reference's result, the same
    operations in the same order. -/
theorem host4_eq (W : Valuation τ sig (Elt F))
    (hl : (W main_v42 : (⟨S1x50257, .f32⟩ : BufTy).Contents (Elt F))
      = Cert.ReferenceIdeal.ReadP.val_main_v70 x0 x1 x2 x3 x4 x5 x6 x7 x8 x9 x10 x11 x12 x13) :
    (StableHlo.after hostOps4 W main_v43 : (⟨S1x50257, .f32⟩ : BufTy).Contents (Elt F))
      = Cert.ReferenceIdeal.ReadP.val_main_v71 x0 x1 x2 x3 x4 x5 x6 x7 x8 x9 x10 x11 x12 x13 := by
  after_results_simp
  rw [hl]
  simp only [ofBuf_toBuf, toBuf_v43, ofBuf_v42]
  rfl

end Cert.KernelIdeal.Hand

end
-- ==== Proof.KI.Final.lean ====
import proofs.«421596_j30159260352787_3_alg».proof.Proof.KI.Kept
import proofs.«421596_j30159260352787_3_alg».proof.Proof.KI.Run3I
import proofs.«421596_j30159260352787_3_alg».proof.Proof.KI.Val0
import proofs.«421596_j30159260352787_3_alg».proof.Proof.KI.Val1
import proofs.«421596_j30159260352787_3_alg».proof.Proof.KI.Val2
import proofs.«421596_j30159260352787_3_alg».proof.Proof.KI.Val3
import proofs.«421596_j30159260352787_3_alg».proof.Proof.KI.Trans
import proofs.«421596_j30159260352787_3_alg».proof.Proof.KI.HostVal
import proofs.«421596_j30159260352787_3_alg».proof.Proof.KI.HostVal4
import proofs.«421596_j30159260352787_3_alg».proof.Proof.ReadP
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # The two results of the program over the extended reals: the log-softmax of the logits and the attention weights,
each as the reference's function of the fourteen arguments the program was launched with. The four calls and the host
stretches between them are chained: the attention call's results feed the combine call, its result the gate
pre-activations, those the gate arithmetic that gives the new hidden row, that row the output projection, and the
logits the closing log-softmax. -/

variable (m : (ℓ : Loc nD τ sig) → Buf (Elt Ideal) ℓ)

/-- Reference `r` as core `c` was launched with it. -/
abbrev argAt (c : Dev nD) (r : Ref sig .tc) : Buf (Elt Ideal) ((c : Thread nD τ).loc r) := m ((c : Thread nD τ).loc r)

/-- The attention call's two results are the reference's attention weights and attended row. -/
theorem attn_vals [Cert.Pre_finite_inputs.Facts] (hpre : Cert.Pre_KernelIdeal m) (c : Dev nD) :
    (dat0 (atTc (V2 m)) c).arrAt 6 cfg0.N = Cert.ReferenceIdeal.ReadP.val_main_v23 (F := Ideal) (argAt m c main_arg0) (argAt m c main_arg2) (argAt m c main_arg3) (argAt m c main_arg4) (argAt m c main_arg5)
    ∧ (dat0 (atTc (V2 m)) c).arrAt 7 cfg0.N = Cert.ReferenceIdeal.ReadP.val_main_v24 (F := Ideal) (argAt m c main_arg0) (argAt m c main_arg1) (argAt m c main_arg2) (argAt m c main_arg3) (argAt m c main_arg4) (argAt m c main_arg5) :=
  attn_eq (atTc (V2 m)) c (argAt m c main_arg0) (argAt m c main_arg1) (argAt m c main_arg2) (argAt m c main_arg3) (argAt m c main_arg4) (argAt m c main_arg5)
    (trans2_v0 m c hpre) (trans2_v1 m c) (trans2_arg1 m c) (trans2_v2 m c) (trans2_v3 m c) (trans2_v4 m c)

/-- The combine call's result is the reference's combined row. -/
theorem comb_vals [Cert.Pre_finite_inputs.Facts] (hpre : Cert.Pre_KernelIdeal m) (c : Dev nD) :
    (dat1 (atTc (V4 m (outs3 m))) c).arrAt 5 cfg1.N = Cert.ReferenceIdeal.ReadP.val_main_v30 (F := Ideal) (argAt m c main_arg0) (argAt m c main_arg1) (argAt m c main_arg2) (argAt m c main_arg3) (argAt m c main_arg4) (argAt m c main_arg5) (argAt m c main_arg6) (argAt m c main_arg7) :=
  comb_eq (atTc (V4 m (outs3 m))) c (argAt m c main_arg0) (argAt m c main_arg1) (argAt m c main_arg2) (argAt m c main_arg3) (argAt m c main_arg4) (argAt m c main_arg5) (argAt m c main_arg6) (argAt m c main_arg7)
    (trans4_v0 m c hpre) ((trans4_v5_1 m c).trans (attn_vals m hpre c).2) (trans4_v6 m c) (trans4_v7 m c) (trans4_v8 m c)

/-- The third call's two results are the reference's two rows of gate pre-activations. -/
theorem gate_vals [Cert.Pre_finite_inputs.Facts] (hpre : Cert.Pre_KernelIdeal m) (c : Dev nD) :
    ((dat2 (atTc (V6 m (outs5 m))) c).arrAt 6 cfg2.N : S1x3072.Idx → EReal) = Cert.ReferenceIdeal.ReadP.val_main_v34 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg10)
    ∧ ((dat2 (atTc (V6 m (outs5 m))) c).arrAt 7 cfg2.N : S1x3072.Idx → EReal) = Cert.ReferenceIdeal.ReadP.val_main_v38 (F := Ideal) (argAt m c main_arg2) (argAt m c main_arg9) (argAt m c main_arg11) :=
  gates_pre_eq (atTc (V6 m (outs5 m))) c (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11)
    ((trans6_v9 m c).trans (comb_vals m hpre c)) (trans6_v1 m c) (trans6_arg8 m c) (trans6_arg9 m c) (trans6_v10 m c) (trans6_v11 m c)

/-- What the last call finds: the hidden row is the reference's new hidden row, the bias row the bias argument reshaped. -/
theorem hidden_vals [Cert.Pre_finite_inputs.Facts] (hpre : Cert.Pre_KernelIdeal m) (c : Dev nD) :
    V8 m (outs7 m) c main_v40 = Cert.ReferenceIdeal.ReadP.val_main_v66 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11)
    ∧ V8 m (outs7 m) c main_v41 = shapeCast S1x50257 (argAt m c main_arg13) shapeCasts_S50257_S1x50257 := by
  have h := host3_eq (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (V7 m (outs7 m) c)
    ((trans7_v12_0 m c).trans (gate_vals m hpre c).1) ((trans7_v12_1 m c).trans (gate_vals m hpre c).2) (trans7_v1 m c)
  rw [trans7_arg13 m c] at h
  exact h

/-- The logits array after the last call is the reference's logits. -/
theorem logit_vals [Cert.Pre_finite_inputs.Facts] (hpre : Cert.Pre_KernelIdeal m) (c : Dev nD) :
    ((dat3 (atTc (V8 m (outs7 m))) c).arrAt 3 cfg3.N : S1x50257.Idx → EReal) = Cert.ReferenceIdeal.ReadP.val_main_v70 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) :=
  logits_ref (atTc (V8 m (outs7 m))) c (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13)
    (hidden_vals m hpre c).1 (trans8_arg12 m c) (hidden_vals m hpre c).2

/-- THE TWO RESULTS: whatever contents `o` the last call's proof data allow its logits array, after the closing host
    stretch the program's first result is the reference's log-softmax row and its second the reference's attention
    weights. -/
theorem final_vals [Cert.Pre_finite_inputs.Facts] (hpre : Cert.Pre_KernelIdeal m) (c : Dev nD)
    (o : Buf (Elt Ideal) ((cfg3.win 3).arr.view.loc (c : Thread nD τ))) (ho : Logits m (relI m) c o) :
    (StableHlo.after hostOps4 (V9o m c o) main_v43 : S1x50257.Idx → EReal) = Cert.ReferenceIdeal.ReadP.val_main_v71 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13)
    ∧ (StableHlo.after hostOps4 (V9o m c o) main_v5_0 : S1x512.Idx → EReal) = Cert.ReferenceIdeal.ReadP.val_main_v23 (F := Ideal) (argAt m c main_arg0) (argAt m c main_arg2) (argAt m c main_arg3) (argAt m c main_arg4) (argAt m c main_arg5) :=
  ⟨host4_eq (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (V9o m c o)
      ((V9o_self m c o).trans (((logits_iff m c o).mp ho).trans (logit_vals m hpre c))),
    (kept_v5_0 m c o).trans (attn_vals m hpre c).1⟩

end Cert.KernelIdeal.Hand

end
-- ==== Proof.KI.Vals.lean ====
import proofs.«421596_j30159260352787_3_alg».proof.Proof.KI.Frame
import proofs.«421596_j30159260352787_3_alg».proof.Proof.KI.Run3I
import proofs.«421596_j30159260352787_3_alg».proof.Proof.KI.Final

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ)

/-! # The run, with its results named

Over the extended reals, and with the token inside the embedding table, the program's run ends on every core with the
log-probabilities and the attention weights at the reference's own functions of the launch arguments, and with every
argument as launched: the run leaves each unscoped buffer at the closing stretch's fold over the buffers after the last
call, the logits array there at the one contents the exact proof data allow; the two results read off that fold are the
reference's, and no item writes an argument. -/

theorem vals_of_run [Cert.Pre_finite_inputs.Facts] (hpre : Cert.Pre_KernelIdeal m) (ρ : Dev nD → PrngReg) :
    θ_run defs (onTc (τ := τ) (main (F := Ideal))) ⟨m, fun _ => 0, ρ⟩ (fun r => ∀ c : Dev nD,
      r.2.mem ((c.tc : Thread nD τ).loc main_v43) = Cert.ReferenceIdeal.ReadP.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v5_0) = Cert.ReferenceIdeal.ReadP.val_main_v23 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    obtain ⟨o, ho, hb⟩ := h c
    have hv := final_vals m hpre c o ho
    exact ⟨(hb _ (mem_uc main_v43 (by decide))).trans hv.1,
      (hb _ (mem_uc main_v5_0 (by decide))).trans hv.2,
      (hb _ (mem_uc main_arg0 (by decide))).trans (kept_arg0 m c o),
      (hb _ (mem_uc main_arg1 (by decide))).trans (kept_arg1 m c o),
      (hb _ (mem_uc main_arg2 (by decide))).trans (kept_arg2 m c o),
      (hb _ (mem_uc main_arg3 (by decide))).trans (kept_arg3 m c o),
      (hb _ (mem_uc main_arg4 (by decide))).trans (kept_arg4 m c o),
      (hb _ (mem_uc main_arg5 (by decide))).trans (kept_arg5 m c o),
      (hb _ (mem_uc main_arg6 (by decide))).trans (kept_arg6 m c o),
      (hb _ (mem_uc main_arg7 (by decide))).trans (kept_arg7 m c o),
      (hb _ (mem_uc main_arg8 (by decide))).trans (kept_arg8 m c o),
      (hb _ (mem_uc main_arg9 (by decide))).trans (kept_arg9 m c o),
      (hb _ (mem_uc main_arg10 (by decide))).trans (kept_arg10 m c o),
      (hb _ (mem_uc main_arg11 (by decide))).trans (kept_arg11 m c o),
      (hb _ (mem_uc main_arg12 (by decide))).trans (kept_arg12 m c o),
      (hb _ (mem_uc main_arg13 (by decide))).trans (kept_arg13 m c o)⟩)
    (run_all m (relI m) (hbody3I m) ρ)

end Cert.KernelIdeal.Hand

end
-- ==== Proof.RefStage.lean ====
/-
  The reference program's run, stretch by stretch.

  @main of the reference is a straight line of 98 host operations, each writing one buffer of its own from buffers
  written earlier or from the fourteen arguments; no operation writes an argument. The line is cut into twelve
  stretches (a cut before each concatenate). For each cut point `InvK x0 … x13 W` says of a valuation `W` of the
  device's buffers: every argument buffer holds its value `xJ`, and every buffer written so far that a later operation
  still reads (or that is a result) holds its stage value `val_<buffer>` of the arguments. `stepK` carries the
  invariant across stretch K: a buffer the stretch does not write keeps its contents (`keepK`); a buffer it writes
  holds its operation's function of the operands' contents, which are stage values by the entering invariant, and the
  stage value of the written buffer is by definition that function of them. Chained from the launch contents
  (`inv_final`) and read against the fold that the run ends at (`run_fold`), this gives `ref_run`: each result
  at its stage value of the arguments, the arguments unchanged.
-/
import proofs.«421596_j30159260352787_3_alg».proof.Proof.ReadP

noncomputable section

namespace Cert.ReferenceIdeal.Stage

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The buffers after two lines in a row: the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation whose one written buffer is among the listed references writes inside the list. -/
theorem single_sub {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map_of_mem h))

/-! Contents carried to and from a buffer along its reference's type (a called function's values): the identity. -/

/-- Carried to the buffer and back. -/
theorem ofBuf_toBuf {T : BufTy} (x : TRef sig T) (v : T.Contents (Elt F)) : x.ofBuf (x.toBuf v) = v := by
  obtain ⟨r, rfl, _, _⟩ := x; rfl
theorem toBuf_v30 (v : (⟨S1x1024, .f32⟩ : BufTy).Contents (Elt F)) : (TRef.of (T := ⟨S1x1024, .f32⟩) main_v30).toBuf v = v := rfl
theorem toBuf_call1_v5 (v : (⟨S1x50257, .f32⟩ : BufTy).Contents (Elt F)) : (TRef.of (T := ⟨S1x50257, .f32⟩) main_call1_v5).toBuf v = v := rfl
theorem toBuf_v71 (v : (⟨S1x50257, .f32⟩ : BufTy).Contents (Elt F)) : (TRef.of (T := ⟨S1x50257, .f32⟩) main_v71).toBuf v = v := rfl
theorem ofBuf_v29 (v : (⟨S1x1024, .f32⟩ : BufTy).Contents (Elt F)) : (TRef.of (T := ⟨S1x1024, .f32⟩) main_v29).ofBuf v = v := rfl
theorem ofBuf_v70 (v : (⟨S1x50257, .f32⟩ : BufTy).Contents (Elt F)) : (TRef.of (T := ⟨S1x50257, .f32⟩) main_v70).ofBuf v = v := rfl
theorem ofBuf_call1_v5 (v : (⟨S1x50257, .f32⟩ : BufTy).Contents (Elt F)) : (TRef.of (T := ⟨S1x50257, .f32⟩) main_call1_v5).ofBuf v = v := rfl

section Stages

variable (x0 : (⟨S1, .i32⟩ : BufTy).Contents (Elt F)) (x1 : (⟨S512x1024, .f32⟩ : BufTy).Contents (Elt F)) (x2 : (⟨S1x1x1024, .f32⟩ : BufTy).Contents (Elt F)) (x3 : (⟨S50257x1024, .f32⟩ : BufTy).Contents (Elt F)) (x4 : (⟨S512x2048, .f32⟩ : BufTy).Contents (Elt F)) (x5 : (⟨S512, .f32⟩ : BufTy).Contents (Elt F)) (x6 : (⟨S1024x2048, .f32⟩ : BufTy).Contents (Elt F)) (x7 : (⟨S1024, .f32⟩ : BufTy).Contents (Elt F)) (x8 : (⟨S3072x1024, .f32⟩ : BufTy).Contents (Elt F)) (x9 : (⟨S3072x1024, .f32⟩ : BufTy).Contents (Elt F)) (x10 : (⟨S3072, .f32⟩ : BufTy).Contents (Elt F)) (x11 : (⟨S3072, .f32⟩ : BufTy).Contents (Elt F)) (x12 : (⟨S50257x1024, .f32⟩ : BufTy).Contents (Elt F)) (x13 : (⟨S50257, .f32⟩ : BufTy).Contents (Elt F))

/-- At launch: every argument buffer at its value. -/
structure Inv0 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  arg12 : W (Proc.devRef .tc main_arg12) = x12
  arg13 : W (Proc.devRef .tc main_arg13) = x13

/-- Operations 0 to 9 of @main, in order. -/
abbrev ops1 : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg2 main_v7 rfl shapeCasts_S1x1x1024_S1x1024 ]

/-- The references operations 0 to 9 write. -/
abbrev wr1 : List (Ref sig .tc) := [main_c, main_v0, main_v1, main_c_0, main_v2, main_v3, main_v4, main_v5, main_v6, main_v7]

theorem ops1_writes : (ops1 (F := F)).Forall fun op => op.writes ⊆ ((wr1).map (Proc.devRef (τ := τ) .tc)).toFinset :=
  ⟨single_sub (by decide), single_sub (by decide), single_sub (by decide), single_sub (by decide), single_sub (by decide), single_sub (by decide), single_sub (by decide), single_sub (by decide), single_sub (by decide), single_sub (by decide)⟩

/-- A buffer operations 0 to 9 do not write keeps its contents across them. -/
theorem keep1 (W : Valuation τ sig (Elt F)) {r : Ref sig .tc} (hr : r ∉ wr1) :
    after (ops1 (F := F)) W (Proc.devRef .tc r) = W (Proc.devRef .tc r) :=
  after_of_writes_sub _ W ops1_writes hr

/-- After operation 9: the arguments unchanged, and every value still to be read at its stage value. -/
structure Inv1 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  arg12 : W (Proc.devRef .tc main_arg12) = x12
  arg13 : W (Proc.devRef .tc main_arg13) = x13
  v6 : W (Proc.devRef .tc main_v6) = val_main_v6 (F := F) x0 x3
  v7 : W (Proc.devRef .tc main_v7) = val_main_v7 (F := F) x2

theorem step1 {W : Valuation τ sig (Elt F)} (h : Inv0 x0 x1 x2 x3 x4 x5 x6 x7 x8 x9 x10 x11 x12 x13 W) : Inv1 x0 x1 x2 x3 x4 x5 x6 x7 x8 x9 x10 x11 x12 x13 (after (ops1 (F := F)) W) where
  arg0 := (keep1 W (by decide)).trans h.arg0
  arg1 := (keep1 W (by decide)).trans h.arg1
  arg2 := (keep1 W (by decide)).trans h.arg2
  arg3 := (keep1 W (by decide)).trans h.arg3
  arg4 := (keep1 W (by decide)).trans h.arg4
  arg5 := (keep1 W (by decide)).trans h.arg5
  arg6 := (keep1 W (by decide)).trans h.arg6
  arg7 := (keep1 W (by decide)).trans h.arg7
  arg8 := (keep1 W (by decide)).trans h.arg8
  arg9 := (keep1 W (by decide)).trans h.arg9
  arg10 := (keep1 W (by decide)).trans h.arg10
  arg11 := (keep1 W (by decide)).trans h.arg11
  arg12 := (keep1 W (by decide)).trans h.arg12
  arg13 := (keep1 W (by decide)).trans h.arg13
  v6 := by
    after_results_simp
    rw [h.arg3, h.arg0]
    rfl
  v7 := by
    after_results_simp
    rw [h.arg2]
    rfl

/-- Operations 10 to 14 of @main, in order. -/
abbrev ops2 : List (HloOp τ sig (Elt F)) :=
  [ binary main_v6 main_v7 main_v8 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v9 ((transpose S2048x512 [1, 0] · transposes_S512x2048_S2048x512_1_0) : (⟨S512x2048, .f32⟩ : BufTy).Contents (Elt F) → (⟨S2048x512, .f32⟩ : BufTy).Contents (Elt F)),
    binary main_v8 main_v9 main_v10 ((fun l r => Host.dotGeneral dot_S1x2048_S2048x512_S1x512_1_0_0_1_n_n none l r) : (⟨S1x2048, .f32⟩ : BufTy).Contents (Elt F) → (⟨S2048x512, .f32⟩ : BufTy).Contents (Elt F) → (⟨S1x512, .f32⟩ : BufTy).Contents (Elt F)),
    unary main_arg5 main_v11 (broadcastInDim S1x512 ![1] bcast_S512_S1x512_1 : (⟨S512, .f32⟩ : BufTy).Contents (Elt F) → (⟨S1x512, .f32⟩ : BufTy).Contents (Elt F)),
    binary main_v10 main_v11 main_v12 (addf : (⟨S1x512, .f32⟩ : BufTy).Contents (Elt F) → (⟨S1x512, .f32⟩ : BufTy).Contents (Elt F) → (⟨S1x512, .f32⟩ : BufTy).Contents (Elt F)) ]

/-- The references operations 10 to 14 write. -/
abbrev wr2 : List (Ref sig .tc) := [main_v8, main_v9, main_v10, main_v11, main_v12]

theorem ops2_writes : (ops2 (F := F)).Forall fun op => op.writes ⊆ ((wr2).map (Proc.devRef (τ := τ) .tc)).toFinset :=
  ⟨single_sub (by decide), single_sub (by decide), single_sub (by decide), single_sub (by decide), single_sub (by decide)⟩

/-- A buffer operations 10 to 14 do not write keeps its contents across them. -/
theorem keep2 (W : Valuation τ sig (Elt F)) {r : Ref sig .tc} (hr : r ∉ wr2) :
    after (ops2 (F := F)) W (Proc.devRef .tc r) = W (Proc.devRef .tc r) :=
  after_of_writes_sub _ W ops2_writes hr

/-- After operation 14: the arguments unchanged, and every value still to be read at its stage value. -/
structure Inv2 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  arg12 : W (Proc.devRef .tc main_arg12) = x12
  arg13 : W (Proc.devRef .tc main_arg13) = x13
  v6 : W (Proc.devRef .tc main_v6) = val_main_v6 (F := F) x0 x3
  v7 : W (Proc.devRef .tc main_v7) = val_main_v7 (F := F) x2
  v12 : W (Proc.devRef .tc main_v12) = val_main_v12 (F := F) x0 x2 x3 x4 x5

theorem step2 {W : Valuation τ sig (Elt F)} (h : Inv1 x0 x1 x2 x3 x4 x5 x6 x7 x8 x9 x10 x11 x12 x13 W) : Inv2 x0 x1 x2 x3 x4 x5 x6 x7 x8 x9 x10 x11 x12 x13 (after (ops2 (F := F)) W) where
  arg0 := (keep2 W (by decide)).trans h.arg0
  arg1 := (keep2 W (by decide)).trans h.arg1
  arg2 := (keep2 W (by decide)).trans h.arg2
  arg3 := (keep2 W (by decide)).trans h.arg3
  arg4 := (keep2 W (by decide)).trans h.arg4
  arg5 := (keep2 W (by decide)).trans h.arg5
  arg6 := (keep2 W (by decide)).trans h.arg6
  arg7 := (keep2 W (by decide)).trans h.arg7
  arg8 := (keep2 W (by decide)).trans h.arg8
  arg9 := (keep2 W (by decide)).trans h.arg9
  arg10 := (keep2 W (by decide)).trans h.arg10
  arg11 := (keep2 W (by decide)).trans h.arg11
  arg12 := (keep2 W (by decide)).trans h.arg12
  arg13 := (keep2 W (by decide)).trans h.arg13
  v6 := (keep2 W (by decide)).trans h.v6
  v7 := (keep2 W (by decide)).trans h.v7
  v12 := by
    after_results_simp
    rw [h.v6, h.v7, h.arg4, h.arg5]
    rfl

/-- Operations 15 to 23 of @main, in order. -/
abbrev ops3 : List (HloOp τ sig (Elt F)) :=
  [ nullary main_cst (constant S_ .f32 0xFF800000#32),
    binary main_v12 main_cst main_v13 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v14 (broadcastInDim S1 ![] bcast_S_S1 : (⟨S_, .f32⟩ : BufTy).Contents (Elt F) → (⟨S1, .f32⟩ : BufTy).Contents (Elt F)),
    binary main_v14 main_v13 main_v15 (maximumf : (⟨S1, .f32⟩ : BufTy).Contents (Elt F) → (⟨S1, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x512 ![0, 1] bcast_S1x1_S1x512_0_1 : (⟨S1x1, .f32⟩ : BufTy).Contents (Elt F) → (⟨S1x512, .f32⟩ : BufTy).Contents (Elt F)),
    binary main_v12 main_v17 main_v18 (subf : (⟨S1x512, .f32⟩ : BufTy).Contents (Elt F) → (⟨S1x512, .f32⟩ : BufTy).Contents (Elt F) → (⟨S1x512, .f32⟩ : BufTy).Contents (Elt F)),
    unary main_v18 main_v19 (Host.exp : (⟨S1x512, .f32⟩ : BufTy).Contents (Elt F) → (⟨S1x512, .f32⟩ : BufTy).Contents (Elt F)) ]

/-- The references operations 15 to 23 write. -/
abbrev wr3 : List (Ref sig .tc) := [main_cst, main_v13, main_cst_1, main_v14, main_v15, main_v16, main_v17, main_v18, main_v19]

theorem ops3_writes : (ops3 (F := F)).Forall fun op => op.writes ⊆ ((wr3).map (Proc.devRef (τ := τ) .tc)).toFinset :=
  ⟨single_sub (by decide), single_sub (by decide), single_sub (by decide), single_sub (by decide), single_sub (by decide), single_sub (by decide), single_sub (by decide), single_sub (by decide), single_sub (by decide)⟩

/-- A buffer operations 15 to 23 do not write keeps its contents across them. -/
theorem keep3 (W : Valuation τ sig (Elt F)) {r : Ref sig .tc} (hr : r ∉ wr3) :
    after (ops3 (F := F)) W (Proc.devRef .tc r) = W (Proc.devRef .tc r) :=
  after_of_writes_sub _ W ops3_writes hr

/-- After operation 23: the arguments unchanged, and every value still to be read at its stage value. -/
structure Inv3 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  arg12 : W (Proc.devRef .tc main_arg12) = x12
  arg13 : W (Proc.devRef .tc main_arg13) = x13
  v6 : W (Proc.devRef .tc main_v6) = val_main_v6 (F := F) x0 x3
  v7 : W (Proc.devRef .tc main_v7) = val_main_v7 (F := F) x2
  v19 : W (Proc.devRef .tc main_v19) = val_main_v19 (F := F) x0 x2 x3 x4 x5

theorem step3 {W : Valuation τ sig (Elt F)} (h : Inv2 x0 x1 x2 x3 x4 x5 x6 x7 x8 x9 x10 x11 x12 x13 W) : Inv3 x0 x1 x2 x3 x4 x5 x6 x7 x8 x9 x10 x11 x12 x13 (after (ops3 (F := F)) W) where
  arg0 := (keep3 W (by decide)).trans h.arg0
  arg1 := (keep3 W (by decide)).trans h.arg1
  arg2 := (keep3 W (by decide)).trans h.arg2
  arg3 := (keep3 W (by decide)).trans h.arg3
  arg4 := (keep3 W (by decide)).trans h.arg4
  arg5 := (keep3 W (by decide)).trans h.arg5
  arg6 := (keep3 W (by decide)).trans h.arg6
  arg7 := (keep3 W (by decide)).trans h.arg7
  arg8 := (keep3 W (by decide)).trans h.arg8
  arg9 := (keep3 W (by decide)).trans h.arg9
  arg10 := (keep3 W (by decide)).trans h.arg10
  arg11 := (keep3 W (by decide)).trans h.arg11
  arg12 := (keep3 W (by decide)).trans h.arg12
  arg13 := (keep3 W (by decide)).trans h.arg13
  v6 := (keep3 W (by decide)).trans h.v6
  v7 := (keep3 W (by decide)).trans h.v7
  v19 := by
    after_results_simp
    rw [h.v12]
    rfl

/-- Operations 24 to 29 of @main, in order. -/
abbrev ops4 : List (HloOp τ sig (Elt F)) :=
  [ nullary main_cst_2 (constant S_ .f32 0x00000000#32),
    binary main_v19 main_cst_2 main_v20 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    unary main_v20 main_v21 (broadcastInDim S1x1 ![0] bcast_S1_S1x1_0 : (⟨S1, .f32⟩ : BufTy).Contents (Elt F) → (⟨S1x1, .f32⟩ : BufTy).Contents (Elt F)),
    unary main_v21 main_v22 (broadcastInDim S1x512 ![0, 1] bcast_S1x1_S1x512_0_1 : (⟨S1x1, .f32⟩ : BufTy).Contents (Elt F) → (⟨S1x512, .f32⟩ : BufTy).Contents (Elt F)),
    binary main_v19 main_v22 main_v23 (Host.divf : (⟨S1x512, .f32⟩ : BufTy).Contents (Elt F) → (⟨S1x512, .f32⟩ : BufTy).Contents (Elt F) → (⟨S1x512, .f32⟩ : BufTy).Contents (Elt F)),
    binary main_v23 main_arg1 main_v24 ((fun l r => Host.dotGeneral dot_S1x512_S512x1024_S1x1024_1_0_0_1_n_n none l r) : (⟨S1x512, .f32⟩ : BufTy).Contents (Elt F) → (⟨S512x1024, .f32⟩ : BufTy).Contents (Elt F) → (⟨S1x1024, .f32⟩ : BufTy).Contents (Elt F)) ]

/-- The references operations 24 to 29 write. -/
abbrev wr4 : List (Ref sig .tc) := [main_cst_2, main_v20, main_v21, main_v22, main_v23, main_v24]

theorem ops4_writes : (ops4 (F := F)).Forall fun op => op.writes ⊆ ((wr4).map (Proc.devRef (τ := τ) .tc)).toFinset :=
  ⟨single_sub (by decide), single_sub (by decide), single_sub (by decide), single_sub (by decide), single_sub (by decide), single_sub (by decide)⟩

/-- A buffer operations 24 to 29 do not write keeps its contents across them. -/
theorem keep4 (W : Valuation τ sig (Elt F)) {r : Ref sig .tc} (hr : r ∉ wr4) :
    after (ops4 (F := F)) W (Proc.devRef .tc r) = W (Proc.devRef .tc r) :=
  after_of_writes_sub _ W ops4_writes hr

/-- After operation 29: the arguments unchanged, and every value still to be read at its stage value. -/
structure Inv4 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  arg12 : W (Proc.devRef .tc main_arg12) = x12
  arg13 : W (Proc.devRef .tc main_arg13) = x13
  v6 : W (Proc.devRef .tc main_v6) = val_main_v6 (F := F) x0 x3
  v7 : W (Proc.devRef .tc main_v7) = val_main_v7 (F := F) x2
  v23 : W (Proc.devRef .tc main_v23) = val_main_v23 (F := F) x0 x2 x3 x4 x5
  v24 : W (Proc.devRef .tc main_v24) = val_main_v24 (F := F) x0 x1 x2 x3 x4 x5

theorem step4 {W : Valuation τ sig (Elt F)} (h : Inv3 x0 x1 x2 x3 x4 x5 x6 x7 x8 x9 x10 x11 x12 x13 W) : Inv4 x0 x1 x2 x3 x4 x5 x6 x7 x8 x9 x10 x11 x12 x13 (after (ops4 (F := F)) W) where
  arg0 := (keep4 W (by decide)).trans h.arg0
  arg1 := (keep4 W (by decide)).trans h.arg1
  arg2 := (keep4 W (by decide)).trans h.arg2
  arg3 := (keep4 W (by decide)).trans h.arg3
  arg4 := (keep4 W (by decide)).trans h.arg4
  arg5 := (keep4 W (by decide)).trans h.arg5
  arg6 := (keep4 W (by decide)).trans h.arg6
  arg7 := (keep4 W (by decide)).trans h.arg7
  arg8 := (keep4 W (by decide)).trans h.arg8
  arg9 := (keep4 W (by decide)).trans h.arg9
  arg10 := (keep4 W (by decide)).trans h.arg10
  arg11 := (keep4 W (by decide)).trans h.arg11
  arg12 := (keep4 W (by decide)).trans h.arg12
  arg13 := (keep4 W (by decide)).trans h.arg13
  v6 := (keep4 W (by decide)).trans h.v6
  v7 := (keep4 W (by decide)).trans h.v7
  v23 := by
    after_results_simp
    rw [h.v19]
    rfl
  v24 := by
    after_results_simp
    rw [h.v19, h.arg1]
    rfl

/-- Operations 30 to 37 of @main, in order. -/
abbrev ops5 : List (HloOp τ sig (Elt F)) :=
  [ binary main_v6 main_v24 main_v25 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v26 ((transpose S2048x1024 [1, 0] · transposes_S1024x2048_S2048x1024_1_0) : (⟨S1024x2048, .f32⟩ : BufTy).Contents (Elt F) → (⟨S2048x1024, .f32⟩ : BufTy).Contents (Elt F)),
    binary main_v25 main_v26 main_v27 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v28 (broadcastInDim S1x1024 ![1] bcast_S1024_S1x1024_1 : (⟨S1024, .f32⟩ : BufTy).Contents (Elt F) → (⟨S1x1024, .f32⟩ : BufTy).Contents (Elt F)),
    binary main_v27 main_v28 main_v29 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v29) (TRef.of (T := ⟨S1x1024, .f32⟩) main_call0_v0) (TRef.of (T := ⟨S1x1024, .f32⟩) main_v30) maximumf ]

/-- The references operations 30 to 37 write. -/
abbrev wr5 : List (Ref sig .tc) := [main_v25, main_v26, main_v27, main_v28, main_v29, main_call0_cst, main_call0_v0, main_v30]

theorem ops5_writes : (ops5 (F := F)).Forall fun op => op.writes ⊆ ((wr5).map (Proc.devRef (τ := τ) .tc)).toFinset :=
  ⟨single_sub (by decide), single_sub (by decide), single_sub (by decide), single_sub (by decide), single_sub (by decide), single_sub (by decide), single_sub (by decide), single_sub (by decide)⟩

/-- A buffer operations 30 to 37 do not write keeps its contents across them. -/
theorem keep5 (W : Valuation τ sig (Elt F)) {r : Ref sig .tc} (hr : r ∉ wr5) :
    after (ops5 (F := F)) W (Proc.devRef .tc r) = W (Proc.devRef .tc r) :=
  after_of_writes_sub _ W ops5_writes hr

/-- After operation 37: the arguments unchanged, and every value still to be read at its stage value. -/
structure Inv5 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  arg12 : W (Proc.devRef .tc main_arg12) = x12
  arg13 : W (Proc.devRef .tc main_arg13) = x13
  v7 : W (Proc.devRef .tc main_v7) = val_main_v7 (F := F) x2
  v23 : W (Proc.devRef .tc main_v23) = val_main_v23 (F := F) x0 x2 x3 x4 x5
  v30 : W (Proc.devRef .tc main_v30) = val_main_v30 (F := F) x0 x1 x2 x3 x4 x5 x6 x7

theorem step5 {W : Valuation τ sig (Elt F)} (h : Inv4 x0 x1 x2 x3 x4 x5 x6 x7 x8 x9 x10 x11 x12 x13 W) : Inv5 x0 x1 x2 x3 x4 x5 x6 x7 x8 x9 x10 x11 x12 x13 (after (ops5 (F := F)) W) where
  arg0 := (keep5 W (by decide)).trans h.arg0
  arg1 := (keep5 W (by decide)).trans h.arg1
  arg2 := (keep5 W (by decide)).trans h.arg2
  arg3 := (keep5 W (by decide)).trans h.arg3
  arg4 := (keep5 W (by decide)).trans h.arg4
  arg5 := (keep5 W (by decide)).trans h.arg5
  arg6 := (keep5 W (by decide)).trans h.arg6
  arg7 := (keep5 W (by decide)).trans h.arg7
  arg8 := (keep5 W (by decide)).trans h.arg8
  arg9 := (keep5 W (by decide)).trans h.arg9
  arg10 := (keep5 W (by decide)).trans h.arg10
  arg11 := (keep5 W (by decide)).trans h.arg11
  arg12 := (keep5 W (by decide)).trans h.arg12
  arg13 := (keep5 W (by decide)).trans h.arg13
  v7 := (keep5 W (by decide)).trans h.v7
  v23 := (keep5 W (by decide)).trans h.v23
  v30 := by
    after_results_simp
    rw [h.v6, h.v24, h.arg6, h.arg7]
    simp only [ofBuf_toBuf, toBuf_v30, ofBuf_v29]
    rfl

/-- Operations 38 to 45 of @main, in order. -/
abbrev ops6 : List (HloOp τ sig (Elt F)) :=
  [ unary main_arg8 main_v31 ((transpose S1024x3072 [1, 0] · transposes_S3072x1024_S1024x3072_1_0) : (⟨S3072x1024, .f32⟩ : BufTy).Contents (Elt F) → (⟨S1024x3072, .f32⟩ : BufTy).Contents (Elt F)),
    binary main_v30 main_v31 main_v32 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v33 (broadcastInDim S1x3072 ![1] bcast_S3072_S1x3072_1 : (⟨S3072, .f32⟩ : BufTy).Contents (Elt F) → (⟨S1x3072, .f32⟩ : BufTy).Contents (Elt F)),
    binary main_v32 main_v33 main_v34 (addf : (⟨S1x3072, .f32⟩ : BufTy).Contents (Elt F) → (⟨S1x3072, .f32⟩ : BufTy).Contents (Elt F) → (⟨S1x3072, .f32⟩ : BufTy).Contents (Elt F)),
    unary main_arg9 main_v35 ((transpose S1024x3072 [1, 0] · transposes_S3072x1024_S1024x3072_1_0) : (⟨S3072x1024, .f32⟩ : BufTy).Contents (Elt F) → (⟨S1024x3072, .f32⟩ : BufTy).Contents (Elt F)),
    binary main_v7 main_v35 main_v36 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v37 (broadcastInDim S1x3072 ![1] bcast_S3072_S1x3072_1 : (⟨S3072, .f32⟩ : BufTy).Contents (Elt F) → (⟨S1x3072, .f32⟩ : BufTy).Contents (Elt F)),
    binary main_v36 main_v37 main_v38 (addf : (⟨S1x3072, .f32⟩ : BufTy).Contents (Elt F) → (⟨S1x3072, .f32⟩ : BufTy).Contents (Elt F) → (⟨S1x3072, .f32⟩ : BufTy).Contents (Elt F)) ]

/-- The references operations 38 to 45 write. -/
abbrev wr6 : List (Ref sig .tc) := [main_v31, main_v32, main_v33, main_v34, main_v35, main_v36, main_v37, main_v38]

theorem ops6_writes : (ops6 (F := F)).Forall fun op => op.writes ⊆ ((wr6).map (Proc.devRef (τ := τ) .tc)).toFinset :=
  ⟨single_sub (by decide), single_sub (by decide), single_sub (by decide), single_sub (by decide), single_sub (by decide), single_sub (by decide), single_sub (by decide), single_sub (by decide)⟩

/-- A buffer operations 38 to 45 do not write keeps its contents across them. -/
theorem keep6 (W : Valuation τ sig (Elt F)) {r : Ref sig .tc} (hr : r ∉ wr6) :
    after (ops6 (F := F)) W (Proc.devRef .tc r) = W (Proc.devRef .tc r) :=
  after_of_writes_sub _ W ops6_writes hr

/-- After operation 45: the arguments unchanged, and every value still to be read at its stage value. -/
structure Inv6 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  arg12 : W (Proc.devRef .tc main_arg12) = x12
  arg13 : W (Proc.devRef .tc main_arg13) = x13
  v7 : W (Proc.devRef .tc main_v7) = val_main_v7 (F := F) x2
  v23 : W (Proc.devRef .tc main_v23) = val_main_v23 (F := F) x0 x2 x3 x4 x5
  v34 : W (Proc.devRef .tc main_v34) = val_main_v34 (F := F) x0 x1 x2 x3 x4 x5 x6 x7 x8 x10
  v38 : W (Proc.devRef .tc main_v38) = val_main_v38 (F := F) x2 x9 x11

theorem step6 {W : Valuation τ sig (Elt F)} (h : Inv5 x0 x1 x2 x3 x4 x5 x6 x7 x8 x9 x10 x11 x12 x13 W) : Inv6 x0 x1 x2 x3 x4 x5 x6 x7 x8 x9 x10 x11 x12 x13 (after (ops6 (F := F)) W) where
  arg0 := (keep6 W (by decide)).trans h.arg0
  arg1 := (keep6 W (by decide)).trans h.arg1
  arg2 := (keep6 W (by decide)).trans h.arg2
  arg3 := (keep6 W (by decide)).trans h.arg3
  arg4 := (keep6 W (by decide)).trans h.arg4
  arg5 := (keep6 W (by decide)).trans h.arg5
  arg6 := (keep6 W (by decide)).trans h.arg6
  arg7 := (keep6 W (by decide)).trans h.arg7
  arg8 := (keep6 W (by decide)).trans h.arg8
  arg9 := (keep6 W (by decide)).trans h.arg9
  arg10 := (keep6 W (by decide)).trans h.arg10
  arg11 := (keep6 W (by decide)).trans h.arg11
  arg12 := (keep6 W (by decide)).trans h.arg12
  arg13 := (keep6 W (by decide)).trans h.arg13
  v7 := (keep6 W (by decide)).trans h.v7
  v23 := (keep6 W (by decide)).trans h.v23
  v34 := by
    after_results_simp
    rw [h.v30, h.arg8, h.arg10]
    rfl
  v38 := by
    after_results_simp
    rw [h.v7, h.arg9, h.arg11]
    rfl

/-- Operations 46 to 54 of @main, in order. -/
abbrev ops7 : List (HloOp τ sig (Elt F)) :=
  [ unary main_v34 main_v39 ((extractStridedSlice S1x1024 ![0, 0] · slices_S1x3072_S1x1024_0_0) : (⟨S1x3072, .f32⟩ : BufTy).Contents (Elt F) → (⟨S1x1024, .f32⟩ : BufTy).Contents (Elt F)),
    unary main_v34 main_v40 ((extractStridedSlice S1x1024 ![0, 1024] · slices_S1x3072_S1x1024_0_1024) : (⟨S1x3072, .f32⟩ : BufTy).Contents (Elt F) → (⟨S1x1024, .f32⟩ : BufTy).Contents (Elt F)),
    unary main_v34 main_v41 ((extractStridedSlice S1x1024 ![0, 2048] · slices_S1x3072_S1x1024_0_2048) : (⟨S1x3072, .f32⟩ : BufTy).Contents (Elt F) → (⟨S1x1024, .f32⟩ : BufTy).Contents (Elt F)),
    unary main_v38 main_v42 ((extractStridedSlice S1x1024 ![0, 0] · slices_S1x3072_S1x1024_0_0) : (⟨S1x3072, .f32⟩ : BufTy).Contents (Elt F) → (⟨S1x1024, .f32⟩ : BufTy).Contents (Elt F)),
    unary main_v38 main_v43 ((extractStridedSlice S1x1024 ![0, 1024] · slices_S1x3072_S1x1024_0_1024) : (⟨S1x3072, .f32⟩ : BufTy).Contents (Elt F) → (⟨S1x1024, .f32⟩ : BufTy).Contents (Elt F)),
    unary main_v38 main_v44 ((extractStridedSlice S1x1024 ![0, 2048] · slices_S1x3072_S1x1024_0_2048) : (⟨S1x3072, .f32⟩ : BufTy).Contents (Elt F) → (⟨S1x1024, .f32⟩ : BufTy).Contents (Elt F)),
    binary main_v39 main_v42 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)) ]

/-- The references operations 46 to 54 write. -/
abbrev wr7 : List (Ref sig .tc) := [main_v39, main_v40, main_v41, main_v42, main_v43, main_v44, main_v45, main_v46, main_v47]

theorem ops7_writes : (ops7 (F := F)).Forall fun op => op.writes ⊆ ((wr7).map (Proc.devRef (τ := τ) .tc)).toFinset :=
  ⟨single_sub (by decide), single_sub (by decide), single_sub (by decide), single_sub (by decide), single_sub (by decide), single_sub (by decide), single_sub (by decide), single_sub (by decide), single_sub (by decide)⟩

/-- A buffer operations 46 to 54 do not write keeps its contents across them. -/
theorem keep7 (W : Valuation τ sig (Elt F)) {r : Ref sig .tc} (hr : r ∉ wr7) :
    after (ops7 (F := F)) W (Proc.devRef .tc r) = W (Proc.devRef .tc r) :=
  after_of_writes_sub _ W ops7_writes hr

/-- After operation 54: the arguments unchanged, and every value still to be read at its stage value. -/
structure Inv7 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  arg12 : W (Proc.devRef .tc main_arg12) = x12
  arg13 : W (Proc.devRef .tc main_arg13) = x13
  v7 : W (Proc.devRef .tc main_v7) = val_main_v7 (F := F) x2
  v23 : W (Proc.devRef .tc main_v23) = val_main_v23 (F := F) x0 x2 x3 x4 x5
  v40 : W (Proc.devRef .tc main_v40) = val_main_v40 (F := F) x0 x1 x2 x3 x4 x5 x6 x7 x8 x10
  v41 : W (Proc.devRef .tc main_v41) = val_main_v41 (F := F) x0 x1 x2 x3 x4 x5 x6 x7 x8 x10
  v43 : W (Proc.devRef .tc main_v43) = val_main_v43 (F := F) x2 x9 x11
  v44 : W (Proc.devRef .tc main_v44) = val_main_v44 (F := F) x2 x9 x11
  v47 : W (Proc.devRef .tc main_v47) = val_main_v47 (F := F) x0 x1 x2 x3 x4 x5 x6 x7 x8 x9 x10 x11

theorem step7 {W : Valuation τ sig (Elt F)} (h : Inv6 x0 x1 x2 x3 x4 x5 x6 x7 x8 x9 x10 x11 x12 x13 W) : Inv7 x0 x1 x2 x3 x4 x5 x6 x7 x8 x9 x10 x11 x12 x13 (after (ops7 (F := F)) W) where
  arg0 := (keep7 W (by decide)).trans h.arg0
  arg1 := (keep7 W (by decide)).trans h.arg1
  arg2 := (keep7 W (by decide)).trans h.arg2
  arg3 := (keep7 W (by decide)).trans h.arg3
  arg4 := (keep7 W (by decide)).trans h.arg4
  arg5 := (keep7 W (by decide)).trans h.arg5
  arg6 := (keep7 W (by decide)).trans h.arg6
  arg7 := (keep7 W (by decide)).trans h.arg7
  arg8 := (keep7 W (by decide)).trans h.arg8
  arg9 := (keep7 W (by decide)).trans h.arg9
  arg10 := (keep7 W (by decide)).trans h.arg10
  arg11 := (keep7 W (by decide)).trans h.arg11
  arg12 := (keep7 W (by decide)).trans h.arg12
  arg13 := (keep7 W (by decide)).trans h.arg13
  v7 := (keep7 W (by decide)).trans h.v7
  v23 := (keep7 W (by decide)).trans h.v23
  v40 := by
    after_results_simp
    rw [h.v34]
    rfl
  v41 := by
    after_results_simp
    rw [h.v34]
    rfl
  v43 := by
    after_results_simp
    rw [h.v38]
    rfl
  v44 := by
    after_results_simp
    rw [h.v38]
    rfl
  v47 := by
    after_results_simp
    rw [h.v34, h.v38]
    rfl

/-- Operations 55 to 63 of @main, in order. -/
abbrev ops8 : List (HloOp τ sig (Elt F)) :=
  [ nullary main_cst_3 (constant S_ .f32 0x3F800000#32),
    unary main_cst_3 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    binary main_v40 main_v43 main_v52 (addf : (⟨S1x1024, .f32⟩ : BufTy).Contents (Elt F) → (⟨S1x1024, .f32⟩ : BufTy).Contents (Elt F) → (⟨S1x1024, .f32⟩ : BufTy).Contents (Elt F)),
    unary main_v52 main_v53 (Host.negf : (⟨S1x1024, .f32⟩ : BufTy).Contents (Elt F) → (⟨S1x1024, .f32⟩ : BufTy).Contents (Elt F)),
    unary main_v53 main_v54 (Host.exp : (⟨S1x1024, .f32⟩ : BufTy).Contents (Elt F) → (⟨S1x1024, .f32⟩ : BufTy).Contents (Elt F)) ]

/-- The references operations 55 to 63 write. -/
abbrev wr8 : List (Ref sig .tc) := [main_cst_3, main_v48, main_v49, main_cst_4, main_v50, main_v51, main_v52, main_v53, main_v54]

theorem ops8_writes : (ops8 (F := F)).Forall fun op => op.writes ⊆ ((wr8).map (Proc.devRef (τ := τ) .tc)).toFinset :=
  ⟨single_sub (by decide), single_sub (by decide), single_sub (by decide), single_sub (by decide), single_sub (by decide), single_sub (by decide), single_sub (by decide), single_sub (by decide), single_sub (by decide)⟩

/-- A buffer operations 55 to 63 do not write keeps its contents across them. -/
theorem keep8 (W : Valuation τ sig (Elt F)) {r : Ref sig .tc} (hr : r ∉ wr8) :
    after (ops8 (F := F)) W (Proc.devRef .tc r) = W (Proc.devRef .tc r) :=
  after_of_writes_sub _ W ops8_writes hr

/-- After operation 63: the arguments unchanged, and every value still to be read at its stage value. -/
structure Inv8 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  arg12 : W (Proc.devRef .tc main_arg12) = x12
  arg13 : W (Proc.devRef .tc main_arg13) = x13
  v7 : W (Proc.devRef .tc main_v7) = val_main_v7 (F := F) x2
  v23 : W (Proc.devRef .tc main_v23) = val_main_v23 (F := F) x0 x2 x3 x4 x5
  v41 : W (Proc.devRef .tc main_v41) = val_main_v41 (F := F) x0 x1 x2 x3 x4 x5 x6 x7 x8 x10
  v44 : W (Proc.devRef .tc main_v44) = val_main_v44 (F := F) x2 x9 x11
  v51 : W (Proc.devRef .tc main_v51) = val_main_v51 (F := F) x0 x1 x2 x3 x4 x5 x6 x7 x8 x9 x10 x11
  v54 : W (Proc.devRef .tc main_v54) = val_main_v54 (F := F) x0 x1 x2 x3 x4 x5 x6 x7 x8 x9 x10 x11

theorem step8 {W : Valuation τ sig (Elt F)} (h : Inv7 x0 x1 x2 x3 x4 x5 x6 x7 x8 x9 x10 x11 x12 x13 W) : Inv8 x0 x1 x2 x3 x4 x5 x6 x7 x8 x9 x10 x11 x12 x13 (after (ops8 (F := F)) W) where
  arg0 := (keep8 W (by decide)).trans h.arg0
  arg1 := (keep8 W (by decide)).trans h.arg1
  arg2 := (keep8 W (by decide)).trans h.arg2
  arg3 := (keep8 W (by decide)).trans h.arg3
  arg4 := (keep8 W (by decide)).trans h.arg4
  arg5 := (keep8 W (by decide)).trans h.arg5
  arg6 := (keep8 W (by decide)).trans h.arg6
  arg7 := (keep8 W (by decide)).trans h.arg7
  arg8 := (keep8 W (by decide)).trans h.arg8
  arg9 := (keep8 W (by decide)).trans h.arg9
  arg10 := (keep8 W (by decide)).trans h.arg10
  arg11 := (keep8 W (by decide)).trans h.arg11
  arg12 := (keep8 W (by decide)).trans h.arg12
  arg13 := (keep8 W (by decide)).trans h.arg13
  v7 := (keep8 W (by decide)).trans h.v7
  v23 := (keep8 W (by decide)).trans h.v23
  v41 := (keep8 W (by decide)).trans h.v41
  v44 := (keep8 W (by decide)).trans h.v44
  v51 := by
    after_results_simp
    rw [h.v47]
    rfl
  v54 := by
    after_results_simp
    rw [h.v40, h.v43]
    rfl

/-- Operations 64 to 72 of @main, in order. -/
abbrev ops9 : List (HloOp τ sig (Elt F)) :=
  [ nullary main_cst_5 (constant S_ .f32 0x3F800000#32),
    unary main_cst_5 main_v55 (broadcastInDim S1x1024 ![] bcast_S_S1x1024 : (⟨S_, .f32⟩ : BufTy).Contents (Elt F) → (⟨S1x1024, .f32⟩ : BufTy).Contents (Elt F)),
    binary main_v55 main_v54 main_v56 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v57 (broadcastInDim S1x1024 ![] bcast_S_S1x1024 : (⟨S_, .f32⟩ : BufTy).Contents (Elt F) → (⟨S1x1024, .f32⟩ : BufTy).Contents (Elt F)),
    binary main_v57 main_v56 main_v58 (Host.divf : (⟨S1x1024, .f32⟩ : BufTy).Contents (Elt F) → (⟨S1x1024, .f32⟩ : BufTy).Contents (Elt F) → (⟨S1x1024, .f32⟩ : BufTy).Contents (Elt F)),
    binary main_v51 main_v44 main_v59 (mulf : (⟨S1x1024, .f32⟩ : BufTy).Contents (Elt F) → (⟨S1x1024, .f32⟩ : BufTy).Contents (Elt F) → (⟨S1x1024, .f32⟩ : BufTy).Contents (Elt F)),
    binary main_v41 main_v59 main_v60 (addf : (⟨S1x1024, .f32⟩ : BufTy).Contents (Elt F) → (⟨S1x1024, .f32⟩ : BufTy).Contents (Elt F) → (⟨S1x1024, .f32⟩ : BufTy).Contents (Elt F)),
    unary main_v60 main_v61 (Host.tanh : (⟨S1x1024, .f32⟩ : BufTy).Contents (Elt F) → (⟨S1x1024, .f32⟩ : BufTy).Contents (Elt F)) ]

/-- The references operations 64 to 72 write. -/
abbrev wr9 : List (Ref sig .tc) := [main_cst_5, main_v55, main_v56, main_cst_6, main_v57, main_v58, main_v59, main_v60, main_v61]

theorem ops9_writes : (ops9 (F := F)).Forall fun op => op.writes ⊆ ((wr9).map (Proc.devRef (τ := τ) .tc)).toFinset :=
  ⟨single_sub (by decide), single_sub (by decide), single_sub (by decide), single_sub (by decide), single_sub (by decide), single_sub (by decide), single_sub (by decide), single_sub (by decide), single_sub (by decide)⟩

/-- A buffer operations 64 to 72 do not write keeps its contents across them. -/
theorem keep9 (W : Valuation τ sig (Elt F)) {r : Ref sig .tc} (hr : r ∉ wr9) :
    after (ops9 (F := F)) W (Proc.devRef .tc r) = W (Proc.devRef .tc r) :=
  after_of_writes_sub _ W ops9_writes hr

/-- After operation 72: the arguments unchanged, and every value still to be read at its stage value. -/
structure Inv9 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  arg12 : W (Proc.devRef .tc main_arg12) = x12
  arg13 : W (Proc.devRef .tc main_arg13) = x13
  v7 : W (Proc.devRef .tc main_v7) = val_main_v7 (F := F) x2
  v23 : W (Proc.devRef .tc main_v23) = val_main_v23 (F := F) x0 x2 x3 x4 x5
  v58 : W (Proc.devRef .tc main_v58) = val_main_v58 (F := F) x0 x1 x2 x3 x4 x5 x6 x7 x8 x9 x10 x11
  v61 : W (Proc.devRef .tc main_v61) = val_main_v61 (F := F) x0 x1 x2 x3 x4 x5 x6 x7 x8 x9 x10 x11

theorem step9 {W : Valuation τ sig (Elt F)} (h : Inv8 x0 x1 x2 x3 x4 x5 x6 x7 x8 x9 x10 x11 x12 x13 W) : Inv9 x0 x1 x2 x3 x4 x5 x6 x7 x8 x9 x10 x11 x12 x13 (after (ops9 (F := F)) W) where
  arg0 := (keep9 W (by decide)).trans h.arg0
  arg1 := (keep9 W (by decide)).trans h.arg1
  arg2 := (keep9 W (by decide)).trans h.arg2
  arg3 := (keep9 W (by decide)).trans h.arg3
  arg4 := (keep9 W (by decide)).trans h.arg4
  arg5 := (keep9 W (by decide)).trans h.arg5
  arg6 := (keep9 W (by decide)).trans h.arg6
  arg7 := (keep9 W (by decide)).trans h.arg7
  arg8 := (keep9 W (by decide)).trans h.arg8
  arg9 := (keep9 W (by decide)).trans h.arg9
  arg10 := (keep9 W (by decide)).trans h.arg10
  arg11 := (keep9 W (by decide)).trans h.arg11
  arg12 := (keep9 W (by decide)).trans h.arg12
  arg13 := (keep9 W (by decide)).trans h.arg13
  v7 := (keep9 W (by decide)).trans h.v7
  v23 := (keep9 W (by decide)).trans h.v23
  v58 := by
    after_results_simp
    rw [h.v54]
    rfl
  v61 := by
    after_results_simp
    rw [h.v41, h.v51, h.v44]
    rfl

/-- Operations 73 to 82 of @main, in order. -/
abbrev ops10 : List (HloOp τ sig (Elt F)) :=
  [ nullary main_cst_7 (constant S_ .f32 0x3F800000#32),
    unary main_cst_7 main_v62 (broadcastInDim S1x1024 ![] bcast_S_S1x1024 : (⟨S_, .f32⟩ : BufTy).Contents (Elt F) → (⟨S1x1024, .f32⟩ : BufTy).Contents (Elt F)),
    binary main_v62 main_v58 main_v63 (subf : (⟨S1x1024, .f32⟩ : BufTy).Contents (Elt F) → (⟨S1x1024, .f32⟩ : BufTy).Contents (Elt F) → (⟨S1x1024, .f32⟩ : BufTy).Contents (Elt F)),
    binary main_v63 main_v61 main_v64 (mulf : (⟨S1x1024, .f32⟩ : BufTy).Contents (Elt F) → (⟨S1x1024, .f32⟩ : BufTy).Contents (Elt F) → (⟨S1x1024, .f32⟩ : BufTy).Contents (Elt F)),
    binary main_v58 main_v7 main_v65 (mulf : (⟨S1x1024, .f32⟩ : BufTy).Contents (Elt F) → (⟨S1x1024, .f32⟩ : BufTy).Contents (Elt F) → (⟨S1x1024, .f32⟩ : BufTy).Contents (Elt F)),
    binary main_v64 main_v65 main_v66 (addf : (⟨S1x1024, .f32⟩ : BufTy).Contents (Elt F) → (⟨S1x1024, .f32⟩ : BufTy).Contents (Elt F) → (⟨S1x1024, .f32⟩ : BufTy).Contents (Elt F)),
    unary main_arg12 main_v67 ((transpose S1024x50257 [1, 0] · transposes_S50257x1024_S1024x50257_1_0) : (⟨S50257x1024, .f32⟩ : BufTy).Contents (Elt F) → (⟨S1024x50257, .f32⟩ : BufTy).Contents (Elt F)),
    binary main_v66 main_v67 main_v68 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v69 (broadcastInDim S1x50257 ![1] bcast_S50257_S1x50257_1 : (⟨S50257, .f32⟩ : BufTy).Contents (Elt F) → (⟨S1x50257, .f32⟩ : BufTy).Contents (Elt F)),
    binary main_v68 main_v69 main_v70 (addf : (⟨S1x50257, .f32⟩ : BufTy).Contents (Elt F) → (⟨S1x50257, .f32⟩ : BufTy).Contents (Elt F) → (⟨S1x50257, .f32⟩ : BufTy).Contents (Elt F)) ]

/-- The references operations 73 to 82 write. -/
abbrev wr10 : List (Ref sig .tc) := [main_cst_7, main_v62, main_v63, main_v64, main_v65, main_v66, main_v67, main_v68, main_v69, main_v70]

theorem ops10_writes : (ops10 (F := F)).Forall fun op => op.writes ⊆ ((wr10).map (Proc.devRef (τ := τ) .tc)).toFinset :=
  ⟨single_sub (by decide), single_sub (by decide), single_sub (by decide), single_sub (by decide), single_sub (by decide), single_sub (by decide), single_sub (by decide), single_sub (by decide), single_sub (by decide), single_sub (by decide)⟩

/-- A buffer operations 73 to 82 do not write keeps its contents across them. -/
theorem keep10 (W : Valuation τ sig (Elt F)) {r : Ref sig .tc} (hr : r ∉ wr10) :
    after (ops10 (F := F)) W (Proc.devRef .tc r) = W (Proc.devRef .tc r) :=
  after_of_writes_sub _ W ops10_writes hr

/-- After operation 82: the arguments unchanged, and every value still to be read at its stage value. -/
structure Inv10 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  arg12 : W (Proc.devRef .tc main_arg12) = x12
  arg13 : W (Proc.devRef .tc main_arg13) = x13
  v23 : W (Proc.devRef .tc main_v23) = val_main_v23 (F := F) x0 x2 x3 x4 x5
  v70 : W (Proc.devRef .tc main_v70) = val_main_v70 (F := F) x0 x1 x2 x3 x4 x5 x6 x7 x8 x9 x10 x11 x12 x13

theorem step10 {W : Valuation τ sig (Elt F)} (h : Inv9 x0 x1 x2 x3 x4 x5 x6 x7 x8 x9 x10 x11 x12 x13 W) : Inv10 x0 x1 x2 x3 x4 x5 x6 x7 x8 x9 x10 x11 x12 x13 (after (ops10 (F := F)) W) where
  arg0 := (keep10 W (by decide)).trans h.arg0
  arg1 := (keep10 W (by decide)).trans h.arg1
  arg2 := (keep10 W (by decide)).trans h.arg2
  arg3 := (keep10 W (by decide)).trans h.arg3
  arg4 := (keep10 W (by decide)).trans h.arg4
  arg5 := (keep10 W (by decide)).trans h.arg5
  arg6 := (keep10 W (by decide)).trans h.arg6
  arg7 := (keep10 W (by decide)).trans h.arg7
  arg8 := (keep10 W (by decide)).trans h.arg8
  arg9 := (keep10 W (by decide)).trans h.arg9
  arg10 := (keep10 W (by decide)).trans h.arg10
  arg11 := (keep10 W (by decide)).trans h.arg11
  arg12 := (keep10 W (by decide)).trans h.arg12
  arg13 := (keep10 W (by decide)).trans h.arg13
  v23 := (keep10 W (by decide)).trans h.v23
  v70 := by
    after_results_simp
    rw [h.v58, h.v61, h.v7, h.arg12, h.arg13]
    rfl

/-- Operations 83 to 90 of @main, in order. -/
abbrev ops11 : List (HloOp τ sig (Elt F)) :=
  [ TRef.nullary (TRef.of (T := ⟨S_, .f32⟩) main_call1_cst) (constant S_ .f32 0xFF800000#32),
    TRef.binary (TRef.of (T := ⟨S1x50257, .f32⟩) main_v70) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v70) (TRef.of (T := ⟨S1x50257, .f32⟩) main_call1_v4) (TRef.of (T := ⟨S1x50257, .f32⟩) main_call1_v5) subf ]

/-- The references operations 83 to 90 write. -/
abbrev wr11 : List (Ref sig .tc) := [main_call1_cst, main_call1_v0, main_call1_cst_0, main_call1_v1, main_call1_v2, main_call1_v3, main_call1_v4, main_call1_v5]

theorem ops11_writes : (ops11 (F := F)).Forall fun op => op.writes ⊆ ((wr11).map (Proc.devRef (τ := τ) .tc)).toFinset :=
  ⟨single_sub (by decide), single_sub (by decide), single_sub (by decide), single_sub (by decide), single_sub (by decide), single_sub (by decide), single_sub (by decide), single_sub (by decide)⟩

/-- A buffer operations 83 to 90 do not write keeps its contents across them. -/
theorem keep11 (W : Valuation τ sig (Elt F)) {r : Ref sig .tc} (hr : r ∉ wr11) :
    after (ops11 (F := F)) W (Proc.devRef .tc r) = W (Proc.devRef .tc r) :=
  after_of_writes_sub _ W ops11_writes hr

/-- After operation 90: the arguments unchanged, and every value still to be read at its stage value. -/
structure Inv11 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  arg12 : W (Proc.devRef .tc main_arg12) = x12
  arg13 : W (Proc.devRef .tc main_arg13) = x13
  v23 : W (Proc.devRef .tc main_v23) = val_main_v23 (F := F) x0 x2 x3 x4 x5
  call1_v5 : W (Proc.devRef .tc main_call1_v5) = val_main_call1_v5 (F := F) x0 x1 x2 x3 x4 x5 x6 x7 x8 x9 x10 x11 x12 x13

theorem step11 {W : Valuation τ sig (Elt F)} (h : Inv10 x0 x1 x2 x3 x4 x5 x6 x7 x8 x9 x10 x11 x12 x13 W) : Inv11 x0 x1 x2 x3 x4 x5 x6 x7 x8 x9 x10 x11 x12 x13 (after (ops11 (F := F)) W) where
  arg0 := (keep11 W (by decide)).trans h.arg0
  arg1 := (keep11 W (by decide)).trans h.arg1
  arg2 := (keep11 W (by decide)).trans h.arg2
  arg3 := (keep11 W (by decide)).trans h.arg3
  arg4 := (keep11 W (by decide)).trans h.arg4
  arg5 := (keep11 W (by decide)).trans h.arg5
  arg6 := (keep11 W (by decide)).trans h.arg6
  arg7 := (keep11 W (by decide)).trans h.arg7
  arg8 := (keep11 W (by decide)).trans h.arg8
  arg9 := (keep11 W (by decide)).trans h.arg9
  arg10 := (keep11 W (by decide)).trans h.arg10
  arg11 := (keep11 W (by decide)).trans h.arg11
  arg12 := (keep11 W (by decide)).trans h.arg12
  arg13 := (keep11 W (by decide)).trans h.arg13
  v23 := (keep11 W (by decide)).trans h.v23
  call1_v5 := by
    after_results_simp
    rw [h.v70]
    simp only [ofBuf_toBuf, toBuf_call1_v5, ofBuf_v70]
    rfl

/-- Operations 91 to 97 of @main, in order. -/
abbrev ops12 : List (HloOp τ sig (Elt F)) :=
  [ TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v71) subf ]

/-- The references operations 91 to 97 write. -/
abbrev wr12 : List (Ref sig .tc) := [main_call1_v6, main_call1_cst_1, main_call1_v7, main_call1_v8, main_call1_v9, main_call1_v10, main_v71]

theorem ops12_writes : (ops12 (F := F)).Forall fun op => op.writes ⊆ ((wr12).map (Proc.devRef (τ := τ) .tc)).toFinset :=
  ⟨single_sub (by decide), single_sub (by decide), single_sub (by decide), single_sub (by decide), single_sub (by decide), single_sub (by decide), single_sub (by decide)⟩

/-- A buffer operations 91 to 97 do not write keeps its contents across them. -/
theorem keep12 (W : Valuation τ sig (Elt F)) {r : Ref sig .tc} (hr : r ∉ wr12) :
    after (ops12 (F := F)) W (Proc.devRef .tc r) = W (Proc.devRef .tc r) :=
  after_of_writes_sub _ W ops12_writes hr

/-- After operation 97: the arguments unchanged, and every value still to be read at its stage value. -/
structure Inv12 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  arg12 : W (Proc.devRef .tc main_arg12) = x12
  arg13 : W (Proc.devRef .tc main_arg13) = x13
  v23 : W (Proc.devRef .tc main_v23) = val_main_v23 (F := F) x0 x2 x3 x4 x5
  v71 : W (Proc.devRef .tc main_v71) = val_main_v71 (F := F) x0 x1 x2 x3 x4 x5 x6 x7 x8 x9 x10 x11 x12 x13

theorem step12 {W : Valuation τ sig (Elt F)} (h : Inv11 x0 x1 x2 x3 x4 x5 x6 x7 x8 x9 x10 x11 x12 x13 W) : Inv12 x0 x1 x2 x3 x4 x5 x6 x7 x8 x9 x10 x11 x12 x13 (after (ops12 (F := F)) W) where
  arg0 := (keep12 W (by decide)).trans h.arg0
  arg1 := (keep12 W (by decide)).trans h.arg1
  arg2 := (keep12 W (by decide)).trans h.arg2
  arg3 := (keep12 W (by decide)).trans h.arg3
  arg4 := (keep12 W (by decide)).trans h.arg4
  arg5 := (keep12 W (by decide)).trans h.arg5
  arg6 := (keep12 W (by decide)).trans h.arg6
  arg7 := (keep12 W (by decide)).trans h.arg7
  arg8 := (keep12 W (by decide)).trans h.arg8
  arg9 := (keep12 W (by decide)).trans h.arg9
  arg10 := (keep12 W (by decide)).trans h.arg10
  arg11 := (keep12 W (by decide)).trans h.arg11
  arg12 := (keep12 W (by decide)).trans h.arg12
  arg13 := (keep12 W (by decide)).trans h.arg13
  v23 := (keep12 W (by decide)).trans h.v23
  v71 := by
    after_results_simp
    rw [h.call1_v5]
    simp only [ofBuf_toBuf, toBuf_v71, ofBuf_call1_v5]
    rfl

end Stages

set_option maxRecDepth 8192 in
/-- @main's operations are the stretches in a row. -/
theorem ops_eq : (ops (F := F)) = ops1 ++ (ops2 ++ (ops3 ++ (ops4 ++ (ops5 ++ (ops6 ++ (ops7 ++ (ops8 ++ (ops9 ++ (ops10 ++ (ops11 ++ (ops12))))))))))) := rfl

/-- The fold over @main's operations is the stretches' folds, one over the other. -/
theorem after_ops (V : Valuation τ sig (Elt F)) :
    after (ops (F := F)) V = after ops12 (after ops11 (after ops10 (after ops9 (after ops8 (after ops7 (after ops6 (after ops5 (after ops4 (after ops3 (after ops2 (after ops1 (V)))))))))))) := by
  rw [ops_eq]; simp only [after_app]

/-- From a device's launch contents, after all of @main's operations: the arguments unchanged, and the two results at
    their stage values of the arguments. -/
theorem inv_final (m : (ℓ : Loc nD τ sig) → Buf (Elt F) ℓ) (c : Dev nD) :
    Inv12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      (after (ops (F := F)) (launchContents m c)) := by
  rw [after_ops]
  exact step12 _ _ _ _ _ _ _ _ _ _ _ _ _ _ (step11 _ _ _ _ _ _ _ _ _ _ _ _ _ _ (step10 _ _ _ _ _ _ _ _ _ _ _ _ _ _ (step9 _ _ _ _ _ _ _ _ _ _ _ _ _ _ (step8 _ _ _ _ _ _ _ _ _ _ _ _ _ _ (step7 _ _ _ _ _ _ _ _ _ _ _ _ _ _ (step6 _ _ _ _ _ _ _ _ _ _ _ _ _ _ (step5 _ _ _ _ _ _ _ _ _ _ _ _ _ _ (step4 _ _ _ _ _ _ _ _ _ _ _ _ _ _ (step3 _ _ _ _ _ _ _ _ _ _ _ _ _ _ (step2 _ _ _ _ _ _ _ _ _ _ _ _ _ _ (step1 _ _ _ _ _ _ _ _ _ _ _ _ _ _ (⟨rfl, rfl, rfl, rfl, rfl, rfl, rfl, rfl, rfl, rfl, rfl, rfl, rfl, rfl⟩))))))))))))

/-- On every device, for any float values, from any memory with zero counters: every weakly fair execution of @main
    terminates with each result at its stage value of the arguments and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v23) = val_main_v23 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    have I := inv_final (F := F) m c
    ⟨(h c main_v71).trans I.v71, (h c main_v23).trans I.v23,
      (h c main_arg0).trans I.arg0, (h c main_arg1).trans I.arg1, (h c main_arg2).trans I.arg2, (h c main_arg3).trans I.arg3, (h c main_arg4).trans I.arg4, (h c main_arg5).trans I.arg5, (h c main_arg6).trans I.arg6, (h c main_arg7).trans I.arg7, (h c main_arg8).trans I.arg8, (h c main_arg9).trans I.arg9, (h c main_arg10).trans I.arg10, (h c main_arg11).trans I.arg11, (h c main_arg12).trans I.arg12, (h c main_arg13).trans I.arg13⟩)
    (run_fold m ρ)

end Cert.ReferenceIdeal.Stage

end
-- ==== Proof.lean ====
/-
  The proof of `Cert.Claim`: the kernel and its reference compute one step of an attention-weighted GRU decoder.

  BOTH PROGRAMS. From a token x, the encoder outputs E [512 × 1024], the hidden row h [1024] and the layer's weights:
  the embedding row e = emb[x]; the attention weights a = softmax([e, h] · attn_Wᵀ + attn_b) over the 512 encoder
  positions; the attended row a · E; the combined row relu([e, a · E] · comb_Wᵀ + comb_b); the GRU cell on it and h
  (gates r and z by the logistic function of the summed pre-activations, candidate n = tanh(gx_n + r · gh_n), new hidden
  row (1 − z) · n + z · h); the vocabulary logits h' · out_Wᵀ + out_b; and their log-softmax over the 50257 words. The
  results are the log-probabilities and the attention weights.

  WHAT JOINS THEM, over the extended reals. Each matrix product of the kernel is the reference's. Where the reference
  multiplies a concatenation [u, v] by a matrix, the kernel multiplies u by the matrix's left half and v by its right half
  and adds: a sum over a concatenated axis is the sum of the sums over its two parts. The output projection runs block by
  block over the vocabulary; a block that overhangs the table contributes only the columns inside it. The kernel's row
  lookup is a gather with a fill for an index outside the table, the reference's a plain gather: under the added
  precondition 0 ≤ x < 50257 the index is inside and the two agree. Every other operation is the same on both sides.

  THE FRAMES. No item of either program writes an argument array, so each ends as launched; for the word-level program
  and for the kernel's frame nothing is said of what the last call's body leaves in its staging buffers, which is all a
  frame needs.
-/
import proofs.«421596_j30159260352787_3_alg».proof.Defs
import proofs.«421596_j30159260352787_3_alg».proof.Proof.Gen.Kernel
import proofs.«421596_j30159260352787_3_alg».proof.Proof.Gen.KernelIdeal
import proofs.«421596_j30159260352787_3_alg».proof.Proof.Gen.ReferenceIdeal
import proofs.«421596_j30159260352787_3_alg».proof.Proof.Gen.Pre_finite_inputs
import proofs.«421596_j30159260352787_3_alg».proof.Proof.K.Frame
import proofs.«421596_j30159260352787_3_alg».proof.Proof.K.Reg3F
import proofs.«421596_j30159260352787_3_alg».proof.Proof.KI.Frame
import proofs.«421596_j30159260352787_3_alg».proof.Proof.KI.Reg3F
import proofs.«421596_j30159260352787_3_alg».proof.Proof.KI.Vals
import proofs.«421596_j30159260352787_3_alg».proof.Proof.RefStage
import Idealize.ShloMosaic.Adequacy
import Idealize.ShloMosaic.Init

set_option maxRecDepth 16384

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    -- the word-level program runs and leaves its arguments as launched
    fun m ρ _ => Cert.Kernel.Hand.frame_of_run m (fun _ _ _ _ _ => True) (Cert.Kernel.Hand.body_obligation3_any m) ρ,
    -- so does the kernel over the extended reals
    fun m ρ _ => Cert.KernelIdeal.Hand.frame_of_run m (fun _ _ _ _ _ => True) (Cert.KernelIdeal.Hand.body_obligation3_any m) ρ,
    -- and the reference: its run with the two results dropped
    fun m ρ _ => (θ_run Cert.ReferenceIdeal.defs _ _).mono (fun _ h c => (h c).2.2)
      (Cert.ReferenceIdeal.Stage.ref_run (F := Ideal) m ρ),
    -- the ideal pass rewrote nothing
    trivial,
    -- both runs end at the reference's functions of the (agreeing) arguments
    fun m ρ m' ρ' hpre hagree =>
      ⟨fun c => Cert.ReferenceIdeal.ReadP.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
        fun c => Cert.ReferenceIdeal.ReadP.val_main_v23 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
        Cert.KernelIdeal.Hand.vals_of_run m hpre ρ,
        (θ_run Cert.ReferenceIdeal.defs _ _).mono
          (fun _ h c =>
            ⟨by rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2],
              by rw [(h c).2.1, (hagree c).1, (hagree c).2.2.1, (hagree c).2.2.2.1, (hagree c).2.2.2.2.1, (hagree c).2.2.2.2.2.1],
              (h c).2.2⟩)
          (Cert.ReferenceIdeal.Stage.ref_run (F := Ideal) m' ρ')⟩⟩

end Cert.Proof

end
